-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S2x500000 : Shape := ⟨2, ![2, 500000]⟩
abbrev S11x128 : Shape := ⟨2, ![11, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S11x128 : S_.BroadcastsInDim S11x128 (![] : Fin 0 → Fin S11x128.rank)
  reducesTo_S11x128_S_d0_1 : S11x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S50000 : S_.BroadcastsInDim S50000 (![] : Fin 0 → Fin S50000.rank)
  reducesTo_S50000_S_d0 : S50000.ReducesTo [0] S_

variable [Facts]

def fn_part2 {F : FTy → Type} [FloatOps F] (main_arg0 : IVec S50000 32) (main_arg10 : FVec F S128x64 .f32) (main_arg11 : FVec F S64 .f32) (main_v33 : IVec S_ 1) : IVec S_ 1 :=
  let main_v34 : FVec F S128x64 .f32 := Host.absf main_arg10
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg11
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_c_16 : IVec S_ 32 := constantI S_ 32 0#32
  let main_v44 : IVec S50000 32 := broadcastInDim S50000 ![] bcast_S_S50000 main_c_16
  let main_v45 : IVec S50000 1 := cmpi .sge main_arg0 main_v44
  let main_c_17 : IVec S_ 32 := constantI S_ 32 11#32
  let main_v46 : IVec S50000 32 := broadcastInDim S50000 ![] bcast_S_S50000 main_c_17
  let main_v47 : IVec S50000 1 := cmpi .slt main_arg0 main_v46
  let main_v48 : IVec S50000 1 := andi main_v45 main_v47
  let main_c_18 : IVec S_ 1 := constantI S_ 1 1#1
  let main_v49 : IVec S_ 1 := (fun x v => Host.reduce IntOp.andi x v reducesTo_S50000_S_d0 h_S_) main_v48 main_c_18
  let main_v50 : IVec S_ 1 := andi main_v43 main_v49
  main_v50

def fn_part1 {F : FTy → Type} [FloatOps F] (main_arg0 : IVec S50000 32) (main_arg7 : FVec F S128 .f32) (main_arg8 : FVec F S128x128 .f32) (main_arg9 : FVec F S128 .f32) (main_arg10 : FVec F S128x64 .f32) (main_arg11 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg0 main_arg10 main_arg11 main_v33

def fn {F : FTy → Type} [FloatOps F] (main_arg0 : IVec S50000 32) (main_arg1 : IVec S2x500000 32) (main_arg2 : IVec S50000 32) (main_arg3 : FVec F S11x128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x64 .f32) (main_arg11 : FVec F S64 .f32) : IVec S_ 1 :=
  let main_v0 : FVec F S11x128 .f32 := Host.absf main_arg3
  let main_cst : FVec F S_ .f32 := constant S_ .f32 0x7F800000#32
  let main_v1 : FVec F S11x128 .f32 := broadcastInDim S11x128 ![] bcast_S_S11x128 main_cst
  let main_v2 : IVec S11x128 1 := cmpf .olt main_v0 main_v1
  let main_c : IVec S_ 1 := constantI S_ 1 1#1
  let main_v3 : IVec S_ 1 := (fun x v => Host.reduce IntOp.andi x v reducesTo_S11x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg0 main_arg7 main_arg8 main_arg9 main_arg10 main_arg11 main_v13 main_v16
-- ==== Kernel.lean ====
abbrev S50000 : Shape := ⟨1, ![50000]⟩
abbrev S2x500000 : Shape := ⟨2, ![2, 500000]⟩
abbrev S11x128 : Shape := ⟨2, ![11, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000x1 : Shape := ⟨2, ![50000, 1]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S1x128 : Shape := ⟨2, ![1, 128]⟩
abbrev S1x64 : Shape := ⟨2, ![1, 64]⟩
abbrev S50000x128 : Shape := ⟨2, ![50000, 128]⟩
abbrev S5000x1 : Shape := ⟨2, ![5000, 1]⟩
abbrev S5000x128 : Shape := ⟨2, ![5000, 128]⟩
abbrev S5000x11 : Shape := ⟨2, ![5000, 11]⟩
abbrev S500000x128 : Shape := ⟨2, ![500000, 128]⟩
abbrev S512x64 : Shape := ⟨2, ![512, 64]⟩
abbrev S512x128 : Shape := ⟨2, ![512, 128]⟩
abbrev S512x1 : Shape := ⟨2, ![512, 1]⟩
abbrev S5000x512 : Shape := ⟨2, ![5000, 512]⟩

abbrev nBuf : Space → Nat
  | .hbm => 108
  | .vmem => 52
  | .smem => 0
  | _ => 0

abbrev bufTy : (tb : Table) → Fin (tcTables nBuf tb) → BufTy
  | .hbm, ⟨0, _⟩ => ⟨S50000, .i32⟩
  | .hbm, ⟨1, _⟩ => ⟨S2x500000, .i32⟩
  | .hbm, ⟨2, _⟩ => ⟨S50000, .i32⟩
  | .hbm, ⟨3, _⟩ => ⟨S11x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S50000x1, .i32⟩
  | .hbm, ⟨13, _⟩ => ⟨S50000x1, .i32⟩
  | .hbm, ⟨14, _⟩ => ⟨S1x500000, .i32⟩
  | .hbm, ⟨15, _⟩ => ⟨S500000, .i32⟩
  | .hbm, ⟨16, _⟩ => ⟨S1x500000, .i32⟩
  | .hbm, ⟨17, _⟩ => ⟨S500000, .i32⟩
  | .hbm, ⟨18, _⟩ => ⟨S_, .f32⟩
  | .hbm, ⟨19, _⟩ => ⟨S500000, .f32⟩
  | .hbm, ⟨20, _⟩ => ⟨S_, .f32⟩
  | .hbm, ⟨21, _⟩ => ⟨S50000, .f32⟩
  | .hbm, ⟨22, _⟩ => ⟨S500000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S500000, .i32⟩
  | .hbm, ⟨30, _⟩ => ⟨S500000, .i1⟩
  | .hbm, ⟨31, _⟩ => ⟨S_, .i32⟩
  | .hbm, ⟨32, _⟩ => ⟨S500000, .i32⟩
  | .hbm, ⟨33, _⟩ => ⟨S500000, .i32⟩
  | .hbm, ⟨34, _⟩ => ⟨S500000, .i32⟩
  | .hbm, ⟨35, _⟩ => ⟨S500000x1, .i32⟩
  | .hbm, ⟨36, _⟩ => ⟨S500000, .f32⟩
  | .hbm, ⟨37, _⟩ => ⟨S_, .i32⟩
  | .hbm, ⟨38, _⟩ => ⟨S500000, .i32⟩
  | .hbm, ⟨39, _⟩ => ⟨S500000, .i1⟩
  | .hbm, ⟨40, _⟩ => ⟨S_, .i32⟩
  | .hbm, ⟨41, _⟩ => ⟨S500000, .i32⟩
  | .hbm, ⟨42, _⟩ => ⟨S500000, .i32⟩
  | .hbm, ⟨43, _⟩ => ⟨S500000, .i32⟩
  | .hbm, ⟨44, _⟩ => ⟨S500000x1, .i32⟩
  | .hbm, ⟨45, _⟩ => ⟨S500000, .f32⟩
  | .hbm, ⟨46, _⟩ => ⟨S500000, .f32⟩
  | .hbm, ⟨47, _⟩ => ⟨S50000, .f32⟩
  | .hbm, ⟨48, _⟩ => ⟨S50000x1, .f32⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S1x64, .f32⟩
  | .hbm, ⟨53, _⟩ => ⟨S50000x128, .f32⟩
  | .hbm, ⟨54, _⟩ => ⟨S_, .i32⟩
  | .hbm, ⟨55, _⟩ => ⟨S500000, .i32⟩
  | .hbm, ⟨56, _⟩ => ⟨S500000, .i1⟩
  | .hbm, ⟨57, _⟩ => ⟨S_, .i32⟩
  | .hbm, ⟨58, _⟩ => ⟨S500000, .i32⟩
  | .hbm, ⟨59, _⟩ => ⟨S500000, .i32⟩
  | .hbm, ⟨60, _⟩ => ⟨S500000, .i32⟩
  | .hbm, ⟨61, _⟩ => ⟨S500000x1, .i32⟩
  | .hbm, ⟨62, _⟩ => ⟨S500000x128, .f32⟩
  | .hbm, ⟨63, _⟩ => ⟨S500000x1, .f32⟩
  | .hbm, ⟨64, _⟩ => ⟨S500000x128, .f32⟩
  | .hbm, ⟨65, _⟩ => ⟨S500000x128, .f32⟩
  | .hbm, ⟨66, _⟩ => ⟨S_, .f32⟩
  | .hbm, ⟨67, _⟩ => ⟨S50000x128, .f32⟩
  | .hbm, ⟨68, _⟩ => ⟨S500000x1, .i32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S_, .i32⟩
  | .hbm, ⟨73, _⟩ => ⟨S500000, .i32⟩
  | .hbm, ⟨74, _⟩ => ⟨S500000, .i1⟩
  | .hbm, ⟨75, _⟩ => ⟨S_, .i32⟩
  | .hbm, ⟨76, _⟩ => ⟨S500000, .i32⟩
  | .hbm, ⟨77, _⟩ => ⟨S500000, .i32⟩
  | .hbm, ⟨78, _⟩ => ⟨S500000, .i32⟩
  | .hbm, ⟨79, _⟩ => ⟨S500000x1, .i32⟩
  | .hbm, ⟨80, _⟩ => ⟨S500000x128, .f32⟩
  | .hbm, ⟨81, _⟩ => ⟨S500000x1, .f32⟩
  | .hbm, ⟨82, _⟩ => ⟨S500000x128, .f32⟩
  | .hbm, ⟨83, _⟩ => ⟨S500000x128, .f32⟩
  | .hbm, ⟨84, _⟩ => ⟨S_, .f32⟩
  | .hbm, ⟨85, _⟩ => ⟨S50000x128, .f32⟩
  | .hbm, ⟨86, _⟩ => ⟨S500000x1, .i32⟩
  | .hbm, ⟨87, _⟩ => ⟨S50000x128, .f32⟩
  | .hbm, ⟨88, _⟩ => ⟨S50000x128, .f32⟩
  | .hbm, ⟨89, _⟩ => ⟨S50000x128, .f32⟩
  | .hbm, ⟨90, _⟩ => ⟨S_, .i32⟩
  | .hbm, ⟨91, _⟩ => ⟨S500000, .i32⟩
  | .hbm, ⟨92, _⟩ => ⟨S500000, .i1⟩
  | .hbm, ⟨93, _⟩ => ⟨S_, .i32⟩
  | .hbm, ⟨94, _⟩ => ⟨S500000, .i32⟩
  | .hbm, ⟨95, _⟩ => ⟨S500000, .i32⟩
  | .hbm, ⟨96, _⟩ => ⟨S500000, .i32⟩
  | .hbm, ⟨97, _⟩ => ⟨S500000x1, .i32⟩
  | .hbm, ⟨98, _⟩ => ⟨S500000x128, .f32⟩
  | .hbm, ⟨99, _⟩ => ⟨S500000x1, .f32⟩
  | .hbm, ⟨100, _⟩ => ⟨S500000x128, .f32⟩
  | .hbm, ⟨101, _⟩ => ⟨S500000x128, .f32⟩
  | .hbm, ⟨102, _⟩ => ⟨S_, .f32⟩
  | .hbm, ⟨103, _⟩ => ⟨S50000x128, .f32⟩
  | .hbm, ⟨104, _⟩ => ⟨S500000x1, .i32⟩
  | .hbm, ⟨105, _⟩ => ⟨S50000x128, .f32⟩
  | .hbm, ⟨106, _⟩ => ⟨S50000x128, .f32⟩
  | .hbm, ⟨107, _⟩ => ⟨S512x64, .f32⟩
  | .local _ .vmem, ⟨0, _⟩ => ⟨S5000x1, .i32⟩
  | .local _ .vmem, ⟨1, _⟩ => ⟨S5000x1, .i32⟩
  | .local _ .vmem, ⟨2, _⟩ => ⟨S11x128, .f32⟩
  | .local _ .vmem, ⟨3, _⟩ => ⟨S128x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x1, .f32⟩
  | .local _ .vmem, ⟨11, _⟩ => ⟨S5000x1, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x1, .f32⟩
  | .local _ .vmem, ⟨25, _⟩ => ⟨S5000x1, .f32⟩
  | .local _ .vmem, ⟨26, _⟩ => ⟨S1x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S128x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x1, .f32⟩
  | .local _ .vmem, ⟨39, _⟩ => ⟨S5000x1, .f32⟩
  | .local _ .vmem, ⟨40, _⟩ => ⟨S1x128, .f32⟩
  | .local _ .vmem, ⟨41, _⟩ => ⟨S5000x128, .f32⟩
  | .local _ .vmem, ⟨42, _⟩ => ⟨S5000x128, .f32⟩
  | .local _ .vmem, ⟨43, _⟩ => ⟨S5000x1, .i32⟩
  | .local _ .vmem, ⟨44, _⟩ => ⟨S5000x1, .i32⟩
  | .local _ .vmem, ⟨45, _⟩ => ⟨S5000x128, .f32⟩
  | .local _ .vmem, ⟨46, _⟩ => ⟨S5000x128, .f32⟩
  | .local _ .vmem, ⟨47, _⟩ => ⟨S128x64, .f32⟩
  | .local _ .vmem, ⟨48, _⟩ => ⟨S1x64, .f32⟩
  | .local _ .vmem, ⟨49, _⟩ => ⟨S512x64, .f32⟩
  | .local _ .vmem, ⟨50, _⟩ => ⟨S512x128, .f32⟩
  | .local _ .vmem, ⟨51, _⟩ => ⟨S512x1, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_3 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_5 : Ref sig .tc := ⟨.hbm, 54, rfl⟩
abbrev main_v35 : Ref sig .tc := ⟨.hbm, 55, rfl⟩
abbrev main_v36 : Ref sig .tc := ⟨.hbm, 56, rfl⟩
abbrev main_c_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_7 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_8 : Ref sig .tc := ⟨.hbm, 72, rfl⟩
abbrev main_v50 : Ref sig .tc := ⟨.hbm, 73, rfl⟩
abbrev main_v51 : Ref sig .tc := ⟨.hbm, 74, rfl⟩
abbrev main_c_9 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_10 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_11 : Ref sig .tc := ⟨.hbm, 90, rfl⟩
abbrev main_v65 : Ref sig .tc := ⟨.hbm, 91, rfl⟩
abbrev main_v66 : Ref sig .tc := ⟨.hbm, 92, rfl⟩
abbrev main_c_12 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_13 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg4_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg2_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg2_1 : Ref sig .tc := ⟨.vmem, 39, rfl⟩
abbrev cc5_stg3_0 : Ref sig .tc := ⟨.vmem, 40, rfl⟩
abbrev cc5_stg4_0 : Ref sig .tc := ⟨.vmem, 41, rfl⟩
abbrev cc5_stg4_1 : Ref sig .tc := ⟨.vmem, 42, rfl⟩
abbrev cc6_stg0_0 : Ref sig .tc := ⟨.vmem, 43, rfl⟩
abbrev cc6_stg0_1 : Ref sig .tc := ⟨.vmem, 44, rfl⟩
abbrev cc6_stg1_0 : Ref sig .tc := ⟨.vmem, 45, rfl⟩
abbrev cc6_stg1_1 : Ref sig .tc := ⟨.vmem, 46, rfl⟩
abbrev cc6_stg2_0 : Ref sig .tc := ⟨.vmem, 47, rfl⟩
abbrev cc6_stg3_0 : Ref sig .tc := ⟨.vmem, 48, rfl⟩
abbrev cc6_stg4_0 : Ref sig .tc := ⟨.vmem, 49, rfl⟩
abbrev cc6_scratch0 : Ref sig .tc := ⟨.vmem, 50, rfl⟩
abbrev cc6_scratch1 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem4_0 : DmaSem sig := 27
abbrev cc3_sem4_1 : DmaSem sig := 28
abbrev cc4_sem0_0 : DmaSem sig := 29
abbrev cc4_sem0_1 : DmaSem sig := 30
abbrev cc4_sem1_0 : DmaSem sig := 31
abbrev cc4_sem2_0 : DmaSem sig := 32
abbrev cc4_sem2_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem2_1 : DmaSem sig := 39
abbrev cc5_sem3_0 : DmaSem sig := 40
abbrev cc5_sem4_0 : DmaSem sig := 41
abbrev cc5_sem4_1 : DmaSem sig := 42
abbrev cc6_sem0_0 : DmaSem sig := 43
abbrev cc6_sem0_1 : DmaSem sig := 44
abbrev cc6_sem1_0 : DmaSem sig := 45
abbrev cc6_sem1_1 : DmaSem sig := 46
abbrev cc6_sem2_0 : DmaSem sig := 47
abbrev cc6_sem3_0 : DmaSem sig := 48
abbrev cc6_sem4_0 : DmaSem sig := 49

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S11x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![10], ![false]⟩

def k6_cond2 (i : grid6.Coords) : BitVec 1 :=
  let arg0 : BitVec 32 := BitVec.ofNat 32 (i 0).val
  let c9_i32 : BitVec 32 := 9#32
  let v27 : BitVec 1 := Scalar.cmpi .eq arg0 c9_i32
  let v28 : BitVec 32 := Scalar.extui v27
  let c0_i32_14 : BitVec 32 := 0#32
  let v29 : BitVec 1 := Scalar.cmpi .ne v28 c0_i32_14
  v29

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x1 .i32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S512x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

class Facts₀ : Prop where
  shapeCasts_S50000_S50000x1 : S50000.ShapeCasts S50000x1
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S_S50000 : S_.BroadcastsInDim S50000 (![] : Fin 0 → Fin S50000.rank)
  bcast_S500000_S500000x1_0 : S500000.BroadcastsInDim S500000x1 (![0] : Fin 1 → Fin S500000x1.rank)
  shapeCasts_S128_S1x128 : S128.ShapeCasts S1x128
  shapeCasts_S64_S1x64 : S64.ShapeCasts S1x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x11_d1_w32 : S5000x11.Iotas .tc 32 [1]
  broadcasts_S5000x1_S5000x11 : S5000x1.Broadcasts S5000x11
  natLt_1_32 : 1 < 32
  bitsLt_bf16_f32 : FTy.bits .bf16 < FTy.bits .f32
  inb_S11x128_S11x128_0_0 : ∀ a, (![0, 0] : Fin 2 → Nat) a + S11x128.size a ≤ S11x128.size a
  h_S11x128 : 0 < S11x128.numel
  inb_S128x128_S128x128_0_0 : ∀ a, (![0, 0] : Fin 2 → Nat) a + S128x128.size a ≤ S128x128.size a
  h_S128x128 : 0 < S128x128.numel
  inb_S5000x128_S5000x128_0_0 : ∀ a, (![0, 0] : Fin 2 → Nat) a + S5000x128.size a ≤ S5000x128.size a
  h_S5000x128 : 0 < S5000x128.numel
  bcast_S500000x1_S500000x128_0_1 : S500000x1.BroadcastsInDim S500000x128 (![0, 1] : Fin 2 → Fin S500000x128.rank)
  bcast_S_S50000x128 : S_.BroadcastsInDim S50000x128 (![] : Fin 0 → Fin S50000x128.rank)
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S5000x1_S5000x128 : S5000x1.Broadcasts S5000x128
  broadcasts_S1x128_S5000x128 : S1x128.Broadcasts S5000x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S5000x512_d1_w32 : S5000x512.Iotas .tc 32 [1]
  broadcasts_S5000x1_S5000x512 : S5000x1.Broadcasts S5000x512
  broadcasts_S512x1_S512x128 : S512x1.Broadcasts S512x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S512x64_S512x64_0_0 : ∀ a, (![0, 0] : Fin 2 → Nat) a + S512x64.size a ≤ S512x64.size a
  h_S512x64 : 0 < S512x64.numel
  scatter_S50000_S500000x1_S500000_n_0_0_1_wf : ScatterDims.WF S50000 S500000x1 S500000 [] [0] [0] 1
  gather_S50000_S500000x1_S500000_n_0_n_n_0_1_1_wf : GatherDims.WF S50000 S500000x1 S500000 [] [0] [] [0] [] 1 ![1]
  dot_S5000x11_S11x128_S5000x128_1_0_0_1_n_n_wf : DotDims.WF S5000x11 S11x128 S5000x128 [1] [0] [0] [1] [] []
  dot_S5000x128_S128x128_S5000x128_1_0_0_1_n_n_wf : DotDims.WF S5000x128 S128x128 S5000x128 [1] [0] [0] [1] [] []
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  dot_S5000x512_S5000x128_S512x128_0_0_1_1_n_n_wf : DotDims.WF S5000x512 S5000x128 S512x128 [0] [0] [1] [1] [] []
  dot_S5000x512_S5000x1_S512x1_0_0_1_1_n_n_wf : DotDims.WF S5000x512 S5000x1 S512x1 [0] [0] [1] [1] [] []
  dot_S512x128_S128x64_S512x64_1_0_0_1_n_n_wf : DotDims.WF S512x128 S128x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1.size a ≤ S50000x1.size a
  hwx0_0 : ∀ i : grid0.Coords, EltTy.bits .i32 = 32 ∨ (Rect.block (s := S50000x1) S5000x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S11x128.size a ≤ S11x128.size a
  hwx0_1 : ∀ i : grid0.Coords, EltTy.bits .f32 = 32 ∨ (Rect.block (s := S11x128) S11x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S50000x1.size a
  hwx5_2 : ∀ i : grid5.Coords, EltTy.bits .f32 = 32 ∨ (Rect.block (s := S50000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S50000x128.size a
  hwx5_4 : ∀ i : grid5.Coords, EltTy.bits .f32 = 32 ∨ (Rect.block (s := S50000x128) S5000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x1.size a ≤ S50000x1.size a
  hwx6_0 : ∀ i : grid6.Coords, EltTy.bits .i32 = 32 ∨ (Rect.block (s := S50000x1) S5000x1.size (cc6_transform_0 i) (hinb6_0 i)).WholeWords (EltTy.packing .i32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S50000x128.size a
  hwx6_1 : ∀ i : grid6.Coords, EltTy.bits .f32 = 32 ∨ (Rect.block (s := S50000x128) S5000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x64.size a ≤ S128x64.size a
  hwx6_2 : ∀ i : grid6.Coords, EltTy.bits .f32 = 32 ∨ (Rect.block (s := S128x64) S128x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S512x64.size a ≤ S512x64.size a
  hwx6_4 : ∀ i : grid6.Coords, EltTy.bits .f32 = 32 ∨ (Rect.block (s := S512x64) S512x64.size (cc6_transform_4 i) (hinb6_4 i)).WholeWords (EltTy.packing .f32)

variable [Facts₀]

def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S50000_S500000x1_S500000_n_0_n_n_0_1_1 : GatherDims S50000 S500000x1 S500000 where
  offsetDims := []
  collapsedSliceDims := [0]
  operandBatchingDims := []
  startIndicesBatchingDims := []
  startIndexMap := [0]
  indexVectorDim := 1
  sliceSizes := ![1]
  wf := gather_S50000_S500000x1_S500000_n_0_n_n_0_1_1_wf
def dot_S5000x11_S11x128_S5000x128_1_0_0_1_n_n : DotDims S5000x11 S11x128 S5000x128 where
  lhsContracting := [1]
  rhsContracting := [0]
  lhsNonContracting := [0]
  rhsNonContracting := [1]
  lhsBatch := []
  rhsBatch := []
  wf := dot_S5000x11_S11x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S5000x512_S5000x128_S512x128_0_0_1_1_n_n : DotDims S5000x512 S5000x128 S512x128 where
  lhsContracting := [0]
  rhsContracting := [0]
  lhsNonContracting := [1]
  rhsNonContracting := [1]
  lhsBatch := []
  rhsBatch := []
  wf := dot_S5000x512_S5000x128_S512x128_0_0_1_1_n_n_wf
def dot_S5000x512_S5000x1_S512x1_0_0_1_1_n_n : DotDims S5000x512 S5000x1 S512x1 where
  lhsContracting := [0]
  rhsContracting := [0]
  lhsNonContracting := [1]
  rhsNonContracting := [1]
  lhsBatch := []
  rhsBatch := []
  wf := dot_S5000x512_S5000x1_S512x1_0_0_1_1_n_n_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf

abbrev win0_0 : Pipeline.Window sig grid0 :=
  Pipeline.Window.ofSpec (Memref.whole main_v0) S5000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S11x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v48) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v62) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v29) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v31) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v63) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v63) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v77) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v64) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v29) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v32) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v78) S5000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v1) S5000x1.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v78) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg10) S128x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v33) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v79) S512x64.size cc6_transform_4 reads6_4 true true 1 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev idle6 : Fin 5 → grid6.Coords → Bool := fun | 0 => fun _ => false | 1 => fun _ => false | 2 => fun _ => false | 3 => fun _ => false | 4 => fun i => !(k6_cond2 i == 1#1) | ⟨_ + 5, h⟩ => absurd h (Nat.not_lt.2 (Nat.le_add_left _ _))

class Facts : Prop extends Facts₀ where

variable [Facts]
-- ==== ReferenceIdeal.lean ====
abbrev S50000 : Shape := ⟨1, ![50000]⟩
abbrev S2x500000 : Shape := ⟨2, ![2, 500000]⟩
abbrev S11x128 : Shape := ⟨2, ![11, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S50000x1 : Shape := ⟨2, ![50000, 1]⟩
abbrev S50000x128 : Shape := ⟨2, ![50000, 128]⟩
abbrev S500000x128 : Shape := ⟨2, ![500000, 128]⟩
abbrev S1x128 : Shape := ⟨2, ![1, 128]⟩
abbrev S512 : Shape := ⟨1, ![512]⟩
abbrev S512x128 : Shape := ⟨2, ![512, 128]⟩
abbrev S512x1 : Shape := ⟨2, ![512, 1]⟩
abbrev S512x64 : Shape := ⟨2, ![512, 64]⟩
abbrev S1x64 : Shape := ⟨2, ![1, 64]⟩

abbrev nBuf : Space → Nat
  | .hbm => 156
  | .vmem => 0
  | .smem => 0
  | _ => 0

abbrev hbmTy0_0 (i : Nat) : BufTy := match i % 128 with
  | 0 => ⟨S50000, .i32⟩
  | 1 => ⟨S2x500000, .i32⟩
  | 2 => ⟨S50000, .i32⟩
  | 3 => ⟨S11x128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x64, .f32⟩
  | 11 => ⟨S64, .f32⟩
  | 12 => ⟨S1x500000, .i32⟩
  | 13 => ⟨S500000, .i32⟩
  | 14 => ⟨S1x500000, .i32⟩
  | 15 => ⟨S500000, .i32⟩
  | 16 => ⟨S_, .f32⟩
  | 17 => ⟨S500000, .f32⟩
  | 18 => ⟨S_, .f32⟩
  | 19 => ⟨S50000, .f32⟩
  | 20 => ⟨S500000x1, .i32⟩
  | 21 => ⟨S50000, .f32⟩
  | 22 => ⟨S_, .f32⟩
  | 23 => ⟨S50000, .f32⟩
  | 24 => ⟨S50000, .f32⟩
  | 25 => ⟨S50000, .f32⟩
  | 26 => ⟨S_, .i32⟩
  | 27 => ⟨S500000, .i32⟩
  | 28 => ⟨S500000, .i1⟩
  | 29 => ⟨S_, .i32⟩
  | 30 => ⟨S500000, .i32⟩
  | 31 => ⟨S500000, .i32⟩
  | 32 => ⟨S500000, .i32⟩
  | 33 => ⟨S500000x1, .i32⟩
  | 34 => ⟨S500000, .f32⟩
  | 35 => ⟨S_, .i32⟩
  | 36 => ⟨S500000, .i32⟩
  | 37 => ⟨S500000, .i1⟩
  | 38 => ⟨S_, .i32⟩
  | 39 => ⟨S500000, .i32⟩
  | 40 => ⟨S500000, .i32⟩
  | 41 => ⟨S500000, .i32⟩
  | 42 => ⟨S500000x1, .i32⟩
  | 43 => ⟨S500000, .f32⟩
  | 44 => ⟨S500000, .f32⟩
  | 45 => ⟨S50000, .f32⟩
  | 46 => ⟨S_, .i32⟩
  | 47 => ⟨S50000, .i32⟩
  | 48 => ⟨S50000, .i1⟩
  | 49 => ⟨S_, .i32⟩
  | 50 => ⟨S50000, .i32⟩
  | 51 => ⟨S50000, .i32⟩
  | 52 => ⟨S50000, .i32⟩
  | 53 => ⟨S50000x1, .i32⟩
  | 54 => ⟨S50000x128, .f32⟩
  | 55 => ⟨S50000x128, .f32⟩
  | 56 => ⟨S_, .i32⟩
  | 57 => ⟨S500000, .i32⟩
  | 58 => ⟨S500000, .i1⟩
  | 59 => ⟨S_, .i32⟩
  | 60 => ⟨S500000, .i32⟩
  | 61 => ⟨S500000, .i32⟩
  | 62 => ⟨S500000, .i32⟩
  | 63 => ⟨S500000x1, .i32⟩
  | 64 => ⟨S500000x128, .f32⟩
  | 65 => ⟨S500000x1, .f32⟩
  | 66 => ⟨S500000x128, .f32⟩
  | 67 => ⟨S500000x128, .f32⟩
  | 68 => ⟨S_, .f32⟩
  | 69 => ⟨S50000x128, .f32⟩
  | 70 => ⟨S500000x1, .i32⟩
  | 71 => ⟨S50000x128, .f32⟩
  | 72 => ⟨S50000x1, .f32⟩
  | 73 => ⟨S50000x128, .f32⟩
  | 74 => ⟨S50000x128, .f32⟩
  | 75 => ⟨S50000x128, .f32⟩
  | 76 => ⟨S1x128, .f32⟩
  | 77 => ⟨S50000x128, .f32⟩
  | 78 => ⟨S50000x128, .f32⟩
  | 79 => ⟨S_, .f32⟩
  | 80 => ⟨S50000x128, .f32⟩
  | 81 => ⟨S50000x128, .f32⟩
  | 82 => ⟨S50000x128, .f32⟩
  | 83 => ⟨S_, .i32⟩
  | 84 => ⟨S500000, .i32⟩
  | 85 => ⟨S500000, .i1⟩
  | 86 => ⟨S_, .i32⟩
  | 87 => ⟨S500000, .i32⟩
  | 88 => ⟨S500000, .i32⟩
  | 89 => ⟨S500000, .i32⟩
  | 90 => ⟨S500000x1, .i32⟩
  | 91 => ⟨S500000x128, .f32⟩
  | 92 => ⟨S500000x1, .f32⟩
  | 93 => ⟨S500000x128, .f32⟩
  | 94 => ⟨S500000x128, .f32⟩
  | 95 => ⟨S_, .f32⟩
  | 96 => ⟨S50000x128, .f32⟩
  | 97 => ⟨S500000x1, .i32⟩
  | 98 => ⟨S50000x128, .f32⟩
  | 99 => ⟨S50000x1, .f32⟩
  | 100 => ⟨S50000x128, .f32⟩
  | 101 => ⟨S50000x128, .f32⟩
  | 102 => ⟨S50000x128, .f32⟩
  | 103 => ⟨S1x128, .f32⟩
  | 104 => ⟨S50000x128, .f32⟩
  | 105 => ⟨S50000x128, .f32⟩
  | 106 => ⟨S_, .f32⟩
  | 107 => ⟨S50000x128, .f32⟩
  | 108 => ⟨S50000x128, .f32⟩
  | 109 => ⟨S50000x128, .f32⟩
  | 110 => ⟨S_, .i32⟩
  | 111 => ⟨S500000, .i32⟩
  | 112 => ⟨S500000, .i1⟩
  | 113 => ⟨S_, .i32⟩
  | 114 => ⟨S500000, .i32⟩
  | 115 => ⟨S500000, .i32⟩
  | 116 => ⟨S500000, .i32⟩
  | 117 => ⟨S500000x1, .i32⟩
  | 118 => ⟨S500000x128, .f32⟩
  | 119 => ⟨S500000x1, .f32⟩
  | 120 => ⟨S500000x128, .f32⟩
  | 121 => ⟨S500000x128, .f32⟩
  | 122 => ⟨S_, .f32⟩
  | 123 => ⟨S50000x128, .f32⟩
  | 124 => ⟨S500000x1, .i32⟩
  | 125 => ⟨S50000x128, .f32⟩
  | 126 => ⟨S50000x1, .f32⟩
  | 127 => ⟨S50000x128, .f32⟩
  | _ => ⟨S50000, .i32⟩

abbrev hbmTy0_1 (i : Nat) : BufTy := match i % 128 with
  | 0 => ⟨S50000x128, .f32⟩
  | 1 => ⟨S50000x128, .f32⟩
  | 2 => ⟨S1x128, .f32⟩
  | 3 => ⟨S50000x128, .f32⟩
  | 4 => ⟨S50000x128, .f32⟩
  | 5 => ⟨S_, .f32⟩
  | 6 => ⟨S50000x128, .f32⟩
  | 7 => ⟨S50000x128, .f32⟩
  | 8 => ⟨S_, .f32⟩
  | 9 => ⟨S50000, .f32⟩
  | 10 => ⟨S_, .f32⟩
  | 11 => ⟨S512, .f32⟩
  | 12 => ⟨S50000x1, .i32⟩
  | 13 => ⟨S512, .f32⟩
  | 14 => ⟨S_, .f32⟩
  | 15 => ⟨S512x128, .f32⟩
  | 16 => ⟨S50000x1, .i32⟩
  | 17 => ⟨S512x128, .f32⟩
  | 18 => ⟨S_, .f32⟩
  | 19 => ⟨S512, .f32⟩
  | 20 => ⟨S512, .f32⟩
  | 21 => ⟨S512x1, .f32⟩
  | 22 => ⟨S512x128, .f32⟩
  | 23 => ⟨S512x128, .f32⟩
  | 24 => ⟨S512x64, .f32⟩
  | 25 => ⟨S1x64, .f32⟩
  | 26 => ⟨S512x64, .f32⟩
  | 27 => ⟨S512x64, .f32⟩
  | _ => ⟨S50000, .i32⟩

abbrev hbmTy (i : Nat) : BufTy := match i / 128 with
  | 0 => hbmTy0_0 i
  | 1 => hbmTy0_1 i
  | _ => ⟨S50000, .i32⟩

abbrev bufTy : (tb : Table) → Fin (tcTables nBuf tb) → BufTy
  | .hbm, ⟨i, _⟩ => hbmTy i
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_c_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_c_8 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_9 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_call0_cst : Ref sig .tc := ⟨.hbm, 79, rfl⟩
abbrev main_call0_v0 : Ref sig .tc := ⟨.hbm, 80, rfl⟩
abbrev main_v55 : Ref sig .tc := ⟨.hbm, 81, rfl⟩
abbrev main_v56 : Ref sig .tc := ⟨.hbm, 82, rfl⟩
abbrev main_c_10 : Ref sig .tc := ⟨.hbm, 83, rfl⟩
abbrev main_v57 : Ref sig .tc := ⟨.hbm, 84, rfl⟩
abbrev main_v58 : Ref sig .tc := ⟨.hbm, 85, rfl⟩
abbrev main_c_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_12 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_call1_cst : Ref sig .tc := ⟨.hbm, 106, rfl⟩
abbrev main_call1_v0 : Ref sig .tc := ⟨.hbm, 107, rfl⟩
abbrev main_v77 : Ref sig .tc := ⟨.hbm, 108, rfl⟩
abbrev main_v78 : Ref sig .tc := ⟨.hbm, 109, rfl⟩
abbrev main_c_13 : Ref sig .tc := ⟨.hbm, 110, rfl⟩
abbrev main_v79 : Ref sig .tc := ⟨.hbm, 111, rfl⟩
abbrev main_v80 : Ref sig .tc := ⟨.hbm, 112, rfl⟩
abbrev main_c_14 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_15 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_call2_cst : Ref sig .tc := ⟨.hbm, 133, rfl⟩
abbrev main_call2_v0 : Ref sig .tc := ⟨.hbm, 134, rfl⟩
abbrev main_v99 : Ref sig .tc := ⟨.hbm, 135, rfl⟩
abbrev main_cst_16 : Ref sig .tc := ⟨.hbm, 136, rfl⟩
abbrev main_v100 : Ref sig .tc := ⟨.hbm, 137, rfl⟩
abbrev main_cst_17 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_cst_18 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_cst_19 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S_S50000 : S_.BroadcastsInDim S50000 (![] : Fin 0 → Fin S50000.rank)
  bcast_S500000_S500000x1_0 : S500000.BroadcastsInDim S500000x1 (![0] : Fin 1 → Fin S500000x1.rank)
  bcast_S50000_S50000x1_0 : S50000.BroadcastsInDim S50000x1 (![0] : Fin 1 → Fin S50000x1.rank)
  bcast_S500000x1_S500000x128_0_1 : S500000x1.BroadcastsInDim S500000x128 (![0, 1] : Fin 2 → Fin S500000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S512 : S_.BroadcastsInDim S512 (![] : Fin 0 → Fin S512.rank)
  bcast_S_S512x128 : S_.BroadcastsInDim S512x128 (![] : Fin 0 → Fin S512x128.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S64_S1x64_1 : S64.BroadcastsInDim S1x64 (![1] : Fin 1 → Fin S1x64.rank)
  bcast_S1x64_S512x64_0_1 : S1x64.BroadcastsInDim S512x64 (![0, 1] : Fin 2 → Fin S512x64.rank)
  scatter_S50000_S500000x1_S500000_n_0_0_1_wf : ScatterDims.WF S50000 S500000x1 S500000 [] [0] [0] 1
  gather_S50000_S500000x1_S500000_n_0_n_n_0_1_1_wf : GatherDims.WF S50000 S500000x1 S500000 [] [0] [] [0] [] 1 ![1]
  gather_S11x128_S50000x1_S50000x128_1_0_n_n_0_1_1128_wf : GatherDims.WF S11x128 S50000x1 S50000x128 [1] [0] [] [0] [] 1 ![1, 128]
  dot_S50000x128_S128x128_S50000x128_1_0_0_1_n_n_wf : DotDims.WF S50000x128 S128x128 S50000x128 [1] [0] [0] [1] [] []
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  scatter_S512_S50000x1_S50000_n_0_0_1_wf : ScatterDims.WF S512 S50000x1 S50000 [] [0] [0] 1
  scatter_S512x128_S50000x1_S50000x128_1_0_0_1_wf : ScatterDims.WF S512x128 S50000x1 S50000x128 [1] [0] [0] 1
  dot_S512x128_S128x64_S512x64_1_0_0_1_n_n_wf : DotDims.WF S512x128 S128x64 S512x64 [1] [0] [0] [1] [] []

variable [Facts₀]

def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S50000_S500000x1_S500000_n_0_n_n_0_1_1 : GatherDims S50000 S500000x1 S500000 where
  offsetDims := []
  collapsedSliceDims := [0]
  operandBatchingDims := []
  startIndicesBatchingDims := []
  startIndexMap := [0]
  indexVectorDim := 1
  sliceSizes := ![1]
  wf := gather_S50000_S500000x1_S500000_n_0_n_n_0_1_1_wf
def gather_S11x128_S50000x1_S50000x128_1_0_n_n_0_1_1128 : GatherDims S11x128 S50000x1 S50000x128 where
  offsetDims := [1]
  collapsedSliceDims := [0]
  operandBatchingDims := []
  startIndicesBatchingDims := []
  startIndexMap := [0]
  indexVectorDim := 1
  sliceSizes := ![1, 128]
  wf := gather_S11x128_S50000x1_S50000x128_1_0_n_n_0_1_1128_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf

class Facts : Prop extends Facts₀ where

variable [Facts]
-- ==== Proof.K.R0.lean ====
/- Region 0 of @main: the pallas_call of `cc0__embed_matmul0_kernel` (pipeline 0, a grid of 10 points).
   At each point the body loads its three input staging buffers whole — a 5000x1 block of int32 labels, an
   11x128 f32 table, a 128x128 f32 weight matrix — and stores over its whole 5000x128 output staging buffer the
   value `k0_pay1` of the three: the labels compared with an iota along 11 columns (a 0/1 matrix), times the table,
   times the weights, each factor rounded to bf16 before its product and each product taken into f32.
   Everything here is stated at a PARAMETER `V`, the contents of the TensorCore's buffers when the region is
   entered, and at any float model `F`:
     * `iblk0`    — the block of a window at a grid point, read off `V`;
     * `out0_3`   — the output staging buffer after the body, as a function of the three input blocks;
     * `sound_kernel0` — the body's triple on whole staging memrefs;
     * `dat0`     — the pipeline's proof data; `A_eq0`, `after0_W` its projections;
     * `body_obligation0` — the body obligation the pipeline rule asks for, at every grid point. -/
import proofs.«428893_j18313740550827_1_alg».proof.Proof.Gen.Kernel.Launch
import proofs.«428893_j18313740550827_1_alg».proof.Proof.Gen.Kernel.Skeleton
import proofs.«428893_j18313740550827_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- a 5000-row rectangle: deciding that an index lies in it unfolds once per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- what every TensorCore buffer holds when region 0 starts
variable (V : (c : Dev nD) → (b : Ref sig .tc) → Buf (Elt F) ((c : Thread nD τ).loc b))

/-! ## The windows' blocks -/

/-- The block of window `w` that grid point `t` addresses, as a function on the block's indices: the window's
    view at `t`, read through the entry contents `V` of the window's array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- When the body is called at point `t`, the staging buffer of the label window holds that point's block.
    Stated for ANY proof data with the window's array at `V`'s contents (`hA`) and a body that hands the block
    back unchanged (`hafter`). Whether or not the pipeline fetches the window at `t`: where it does not, the block
    index is the previous point's, and so is the block. The window is an input, is never idle, and no block
    of it is cut. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the table window (fetched at the first point only: later its block index does not move). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same for the weights window (fetched at the first point only). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body touches: each of its four memrefs, whole -/

abbrev r0_0 : Rect S5000x1 := Rect.unit (s := S5000x1) ![0, 0] S5000x1.size inb_S5000x1_S5000x1_0_0
abbrev r0_1 : Rect S11x128 := Rect.unit (s := S11x128) ![0, 0] S11x128.size inb_S11x128_S11x128_0_0
abbrev r0_2 : Rect S128x128 := Rect.unit (s := S128x128) ![0, 0] S128x128.size inb_S128x128_S128x128_0_0
abbrev r0_3 : Rect S5000x128 := Rect.unit (s := S5000x128) ![0, 0] S5000x128.size inb_S5000x128_S5000x128_0_0

/-! ## What the body leaves in the output window's buffer -/

/-- The output staging buffer after the body, from the three input blocks `x0` (labels), `x1` (table), `x2`
    (weights). The body stores once, over the whole 5000x128 buffer, the value `k0_pay1` computes from its three
    whole-buffer loads. As a list of stored pieces, last first, there is this single piece. -/
def out0_3 (x0 : Vec F S5000x1 .i32) (x1 : Vec F S11x128 .f32) (x2 : Vec F S128x128 .f32) : Vec F S5000x128 .f32 :=
  View.canon [⟨r0_3, k0_pay1 (View.ld x0 r0_0) (View.ld x1 r0_1) (View.ld x2 r0_2)⟩]

/-- Every index of the output buffer lies in the one stored rectangle (it starts at the origin with the buffer's
    own extents). -/
theorem cover0_3 (p0 : Vec F S5000x128 .f32) (y : S5000x128.Idx) :
    ∃ pc ∈ ([⟨r0_3, p0⟩] : List (View.Piece (Elt F) S5000x128 .f32)), y ∈ pc.1.set :=
  View.cover_of_tiled [⟨r0_3, p0⟩] S5000x128.size (by rfl) y

/-! ## The body's triple -/

set_option maxHeartbeats 1000000 in
/-- The body's triple. Given the three input memrefs whole and reading `x0`, `x1`, `x2`, and the output memref
    whole with arbitrary contents `d`, the body runs to a continuation that gets the inputs back unchanged and
    the output reading `out0_3 x0 x1 x2`. The body's operations in order: three loads of the inputs, one load of
    the output buffer (it reads `d`; no later value depends on it), one store over the whole output buffer.
    The grid coordinate `i` is an argument the body never reads. -/
theorem sound_kernel0 (c : Dev nD) (E : Set ℕ) (i : grid0.Coords)
    (arg1 : Memref sig .tc .vmem S5000x1 .i32) (harg1 : arg1.IsWhole) (arg2 : Memref sig .tc .vmem S11x128 .f32) (harg2 : arg2.IsWhole)
    (arg3 : Memref sig .tc .vmem S128x128 .f32) (harg3 : arg3.IsWhole) (arg4 : Memref sig .tc .vmem S5000x128 .f32) (harg4 : arg4.IsWhole)
    (x0 : Vec F S5000x1 .i32) (x1 : Vec F S11x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__embed_matmul0_kernel i arg1 harg1 arg2 harg2 arg3 harg3 arg4 harg4) K := by
  simp only [cc0__embed_matmul0_kernel_eq_skeleton]; unfold cc0__embed_matmul0_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- Proof data for pipeline 0 on core `c`. The four arrays start at `V`'s contents. The body at point `t` leaves
    each input staging buffer at the block it was given and the output staging buffer at `out0_3` of the three
    input blocks at `t`. The loop invariant is the same at every point (whatever the region does not touch), the
    staging buffers are held at full share, and no core owes another anything. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- Projection: the arrays of `dat0` are `V`'s. -/
theorem A_eq0 (c : Dev nD) (w : Fin cfg0.W) : (dat0 V c).A w = V c (Pipeline.arrRef spec0 w) := by
  dsimp only [dat0]

/-- Projections: what `dat0` says the body leaves in each window's staging buffer. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- For `dat0` itself: at every point each input staging buffer holds that point's block, whatever it held
    before the pipeline's fetch (`d`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at an arbitrary grid point `t` -/

/-- The resources the pipeline hands the body at point `t`: the invariant, the inter-core debts, and the four
    current staging memrefs (the separating product over the windows, written out). -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- The resources the body must hand back: the same, with each staging memref at what `dat0` says it leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- At any point the body takes the first to the second. The three inputs read their blocks at `t` (`before0_W`),
    the output reads whatever it holds, so `sound_kernel0` applies with `xW := iblk0 V c W t`; the invariant and
    the debts do not change from `t` to `t + 1` and are framed around the call. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline rule: the separating products over the four windows unfold to
    `bodyPre0` and `bodyPost0`. -/
theorem body_obligation0 (c : Dev nD) : BodyObligation (dat0 (F := F) V c) (defs₀ (F := F)) Variants.none () Set.univ := fun t => by
  rw [bigSep_W0, bigSep_W0]
  exact sound_body0 V c t

end

end Cert.Kernel.Hand
-- ==== Proof.K.R1.lean ====
/- The region of @main that runs `cc1__postprocess_kernel` (configuration `cfg1`), at a PARAMETER `V` — the TensorCore's
   buffer contents when the region is entered —, generic in the float model `F`: each window's block at a grid point
   (`iblk1`), what the body leaves in the output window's staging buffer as a function of the four input blocks
   (`out1_4`: the one whole-buffer store of `max (agg + ht * self_norm + bias) 0`), the body's triple (`sound_kernel1`),
   the pipeline's proof data (`dat1`) and the body obligation at every grid point (`body_obligation1`). -/
import proofs.«428893_j18313740550827_1_alg».proof.Proof.Gen.Kernel.Launch
import proofs.«428893_j18313740550827_1_alg».proof.Proof.Gen.Kernel.Skeleton
import proofs.«428893_j18313740550827_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the elaborator's structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for ANY proof data
    whose array is `V`'s (`hA`) and whose body leaves the block in place (`hafter`): where the window is not fetched its
    block index has not moved, so the block the previous point left is this point's. No input window is cut or idle.
    Windows 0, 1, 2 move with the grid; window 3 is one whole array, fetched once. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole staging buffer of the `5000 × 128` windows (0, 1 and 4), of the `5000 × 1` window (2), of the `1 × 128` window (3). -/
abbrev r1_a : Rect S5000x128 := Rect.unit (s := S5000x128) ![0, 0] S5000x128.size inb_S5000x128_S5000x128_0_0
abbrev r1_b : Rect S5000x1 := Rect.unit (s := S5000x1) ![0, 0] S5000x1.size inb_S5000x1_S5000x1_0_0
abbrev r1_c : Rect S1x128 := Rect.unit (s := S1x128) ![0, 0] S1x128.size inb_S1x128_S1x128_0_0

/-! ## What the body leaves in the output window's buffer -/

/-- Window 4's staging buffer after the body, from the four input blocks: its one store, of the whole buffer, whose
    payload is `max (x0 + x1 * x2 + x3) 0` with `x2` broadcast along the columns and `x3` along the rows. -/
def out1_4 (x0 x1 : Vec F S5000x128 .f32) (x2 : Vec F S5000x1 .f32) (x3 : Vec F S1x128 .f32) : Vec F S5000x128 .f32 :=
  View.canon [⟨r1_a, k1_pay1 (View.ld x0 r1_a) (View.ld x1 r1_a) (View.ld x2 r1_b) (View.ld x3 r1_c)⟩]

/-- The one store is of the whole buffer, so it covers it. -/
theorem cover1_4 (p0 : Vec F S5000x128 .f32) (y : S5000x128.Idx) :
    ∃ pc ∈ ([⟨r1_a, p0⟩] : List (View.Piece (Elt F) S5000x128 .f32)), y ∈ pc.1.set :=
  View.cover_of_tiled [⟨r1_a, p0⟩] S5000x128.size (by rfl) y

/-! ## The body's triple -/

set_option maxHeartbeats 1000000 in
/-- The kernel body on whole staging memrefs, the four inputs' at read contents `x0 .. x3` and the output's at anything,
    runs to the continuation holding the inputs' as they were and the output's at `out1_4` of the inputs'. The body
    also loads the output buffer before storing it; nothing reads that value, so whatever the buffer held serves. -/
theorem sound_kernel1 (c : Dev nD) (E : Set ℕ) (i : grid1.Coords)
    (arg0 : Memref sig .tc .vmem S5000x128 .f32) (harg0 : arg0.IsWhole) (arg1 : Memref sig .tc .vmem S5000x128 .f32) (harg1 : arg1.IsWhole)
    (arg2 : Memref sig .tc .vmem S5000x1 .f32) (harg2 : arg2.IsWhole) (arg3 : Memref sig .tc .vmem S1x128 .f32) (harg3 : arg3.IsWhole)
    (arg4 : Memref sig .tc .vmem S5000x128 .f32) (harg4 : arg4.IsWhole)
    (x0 x1 : Vec F S5000x128 .f32) (x2 : Vec F S5000x1 .f32) (x3 : Vec F S1x128 .f32) (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ (∃ d, owns (c : Thread nD τ) arg4 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare (out1_4 x0 x1 x2 x3)) -∗ K ⟨⟩))
      ⊢ wp frame (wpE (defs₀ (F := F)) Variants.none c none) E
          (cc1__postprocess_kernel i arg0 harg0 arg1 harg1 arg2 harg2 arg3 harg3 arg4 harg4) K := by
  simp only [cc1__postprocess_kernel_eq_skeleton]; unfold cc1__postprocess_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The pipeline's proof data on core `c`: the arrays as the region finds them (`V`); after the body at point `t` each
    input's buffer at its block and the output's at `out1_4` of the four input blocks; the invariant: the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks (`before1_W`), so `sound_kernel1` applies; the invariant
    and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand
-- ==== Proof.K.R2.lean ====
/- Region 2 of @main (custom_call 2, the kernel `cc2__matmul_kernel`, pipeline 2), at a PARAMETER `V`: the
   TensorCore's buffer contents when the region is entered. Three windows over a grid of ten points: window 0 a
   5000x128 block of the left factor (a new block at every point), window 1 the whole 128x128 right factor (one
   block, brought in at the first point and left in place), window 2 the 5000x128 block of the product (written
   back at every point). The body reads the two factors whole, reads the product's buffer once (a value nothing
   uses) and stores the product of the two factors over the whole of it. Stated here: each window's block at a
   point, what the body leaves in the product's buffer, the body's triple, the pipeline's proof data and its body
   obligation. Everything is generic in the float carrier. -/
import proofs.«428893_j18313740550827_1_alg».proof.Proof.Gen.Kernel.Launch
import proofs.«428893_j18313740550827_1_alg».proof.Proof.Gen.Kernel.Skeleton
import proofs.«428893_j18313740550827_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows is decided by structural recursion, once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-! ## The windows' blocks -/

/-- Window `w`'s block at point `t`: the window's view at that point, read off the array's contents at entry. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## What the body finds in the factors' buffers -/

/-- The left factor's current buffer holds its block at every point, for ANY proof data over these arrays whose
    body leaves that block in place: the window is brought in afresh at every point, uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The right factor's buffer holds the whole factor at every point, brought in at the first point only: at a later
    point the block index has not moved and the body has left the buffer as it found it. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole 5000x128 buffer as one rectangle: the left factor's load and the product's store. -/
abbrev r2_0 : Rect S5000x128 := Rect.unit (s := S5000x128) ![0, 0] S5000x128.size inb_S5000x128_S5000x128_0_0
/-- The whole 128x128 buffer as one rectangle: the right factor's load. -/
abbrev r2_1 : Rect S128x128 := Rect.unit (s := S128x128) ![0, 0] S128x128.size inb_S128x128_S128x128_0_0

/-! ## What the body leaves in the product's buffer -/

/-- Window 2's buffer after the body, from the two factors' blocks: the one store, over the whole buffer, of the
    product of what the two loads read. -/
def out2_2 (x0 : Vec F S5000x128 .f32) (x1 : Vec F S128x128 .f32) : Vec F S5000x128 .f32 :=
  View.canon [⟨r2_0, k2_pay1 (View.ld x0 r2_0) (View.ld x1 r2_1)⟩]

/-- The one store is over the whole buffer, so it covers every index (one block of the buffer's own size). -/
theorem cover2_2 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

/-! ## The body's triple -/

set_option maxHeartbeats 1000000 in
/-- The kernel body on whole buffers, the two factors' at read contents `x0`, `x1` and the product's at anything,
    runs to the continuation holding the factors' as they were and the product's at `out2_2 x0 x1`: two whole loads,
    a load of the product's buffer whose value is dropped, and the whole store. -/
theorem sound_kernel2 (c : Dev nD) (E : Set ℕ) (i : grid2.Coords)
    (arg0 : Memref sig .tc .vmem S5000x128 .f32) (harg0 : arg0.IsWhole) (arg1 : Memref sig .tc .vmem S128x128 .f32) (harg1 : arg1.IsWhole)
    (arg2 : Memref sig .tc .vmem S5000x128 .f32) (harg2 : arg2.IsWhole)
    (x0 : Vec F S5000x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out2_2 x0 x1)) -∗ K ⟨⟩))
      ⊢ wp frame (wpE (defs₀ (F := F)) Variants.none c none) E (cc2__matmul_kernel i arg0 harg0 arg1 harg1 arg2 harg2) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them; after the body at point `t` each
    factor's buffer still at its block and the product's buffer at `out2_2` of the two blocks; the invariant that
    keeps the scoped rest and the generator register untouched; full shares; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the contents at entry. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by
  dsimp only [dat2]

/-- Each factor's current buffer holds its block at every point, whatever it held before. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`: the invariant, what the core owes, and the three current buffers, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the factors' buffers hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Hand
-- ==== Proof.K.R3.lean ====
/- The region of @main that runs `cc3__postprocess_kernel` (configuration `cfg3`), at a PARAMETER `V` — the TensorCore's
   buffer contents when the region is entered —, generic in the float model `F`: each window's block at a grid point
   (`iblk3`), what the body leaves in the output window's staging buffer as a function of the four input blocks
   (`out3_4`: the one whole-buffer store of `max (agg + ht * self_norm + bias) 0`), the body's triple (`sound_kernel3`),
   the pipeline's proof data (`dat3`) and the body obligation at every grid point (`body_obligation3`). -/
import proofs.«428893_j18313740550827_1_alg».proof.Proof.Gen.Kernel.Launch
import proofs.«428893_j18313740550827_1_alg».proof.Proof.Gen.Kernel.Skeleton
import proofs.«428893_j18313740550827_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the elaborator's structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not, for ANY proof data
    whose array is `V`'s (`hA`) and whose body leaves the block in place (`hafter`): where the window is not fetched its
    block index has not moved, so the block the previous point left is this point's. No input window is cut or idle.
    Windows 0, 1, 2 move with the grid; window 3 is one whole array, fetched once. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The whole staging buffer of the `5000 × 128` windows (0, 1 and 4), of the `5000 × 1` window (2), of the `1 × 128` window (3). -/
abbrev r3_a : Rect S5000x128 := Rect.unit (s := S5000x128) ![0, 0] S5000x128.size inb_S5000x128_S5000x128_0_0
abbrev r3_b : Rect S5000x1 := Rect.unit (s := S5000x1) ![0, 0] S5000x1.size inb_S5000x1_S5000x1_0_0
abbrev r3_c : Rect S1x128 := Rect.unit (s := S1x128) ![0, 0] S1x128.size inb_S1x128_S1x128_0_0

/-! ## What the body leaves in the output window's buffer -/

/-- Window 4's staging buffer after the body, from the four input blocks: its one store, of the whole buffer, whose
    payload is `max (x0 + x1 * x2 + x3) 0` with `x2` broadcast along the columns and `x3` along the rows. -/
def out3_4 (x0 x1 : Vec F S5000x128 .f32) (x2 : Vec F S5000x1 .f32) (x3 : Vec F S1x128 .f32) : Vec F S5000x128 .f32 :=
  View.canon [⟨r3_a, k3_pay1 (View.ld x0 r3_a) (View.ld x1 r3_a) (View.ld x2 r3_b) (View.ld x3 r3_c)⟩]

/-- The one store is of the whole buffer, so it covers it. -/
theorem cover3_4 (p0 : Vec F S5000x128 .f32) (y : S5000x128.Idx) :
    ∃ pc ∈ ([⟨r3_a, p0⟩] : List (View.Piece (Elt F) S5000x128 .f32)), y ∈ pc.1.set :=
  View.cover_of_tiled [⟨r3_a, p0⟩] S5000x128.size (by rfl) y

/-! ## The body's triple -/

set_option maxHeartbeats 1000000 in
/-- The kernel body on whole staging memrefs, the four inputs' at read contents `x0 .. x3` and the output's at anything,
    runs to the continuation holding the inputs' as they were and the output's at `out3_4` of the inputs'. The body
    also loads the output buffer before storing it; nothing reads that value, so whatever the buffer held serves. -/
theorem sound_kernel3 (c : Dev nD) (E : Set ℕ) (i : grid3.Coords)
    (arg0 : Memref sig .tc .vmem S5000x128 .f32) (harg0 : arg0.IsWhole) (arg1 : Memref sig .tc .vmem S5000x128 .f32) (harg1 : arg1.IsWhole)
    (arg2 : Memref sig .tc .vmem S5000x1 .f32) (harg2 : arg2.IsWhole) (arg3 : Memref sig .tc .vmem S1x128 .f32) (harg3 : arg3.IsWhole)
    (arg4 : Memref sig .tc .vmem S5000x128 .f32) (harg4 : arg4.IsWhole)
    (x0 x1 : Vec F S5000x128 .f32) (x2 : Vec F S5000x1 .f32) (x3 : Vec F S1x128 .f32) (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ (∃ d, owns (c : Thread nD τ) arg4 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare (out3_4 x0 x1 x2 x3)) -∗ K ⟨⟩))
      ⊢ wp frame (wpE (defs₀ (F := F)) Variants.none c none) E
          (cc3__postprocess_kernel i arg0 harg0 arg1 harg1 arg2 harg2 arg3 harg3 arg4 harg4) K := by
  simp only [cc3__postprocess_kernel_eq_skeleton]; unfold cc3__postprocess_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The pipeline's proof data -/

/-- The pipeline's proof data on core `c`: the arrays as the region finds them (`V`); after the body at point `t` each
    input's buffer at its block and the output's at `out3_4` of the four input blocks; the invariant: the scoped rest
    and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3_4 (iblk3 V c 0 t) (iblk3 V c 1 t) (iblk3 V c 2 t) (iblk3 V c 3 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks (`before3_W`), so `sound_kernel3` applies; the invariant
    and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region3

end Cert.Kernel.Hand
-- ==== Proof.K.R4.lean ====
/- Region 4 of @main (custom_call 4, the kernel `cc4__matmul_kernel`, pipeline 4), at a PARAMETER `V`: the
   TensorCore's buffer contents when the region is entered. Three windows over a grid of ten points: window 0 a
   5000x128 block of the left factor (a new block at every point), window 1 the whole 128x128 right factor (one
   block, brought in at the first point and left in place), window 2 the 5000x128 block of the product (written
   back at every point). The body reads the two factors whole, reads the product's buffer once (a value nothing
   uses) and stores the product of the two factors over the whole of it. Stated here: each window's block at a
   point, what the body leaves in the product's buffer, the body's triple, the pipeline's proof data and its body
   obligation. Everything is generic in the float carrier. -/
import proofs.«428893_j18313740550827_1_alg».proof.Proof.Gen.Kernel.Launch
import proofs.«428893_j18313740550827_1_alg».proof.Proof.Gen.Kernel.Skeleton
import proofs.«428893_j18313740550827_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows is decided by structural recursion, once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4
variable (V : (c : Dev nD) → (b : Ref sig .tc) → Buf (Elt F) ((c : Thread nD τ).loc b))

/-! ## The windows' blocks -/

/-- Window `w`'s block at point `t`: the window's view at that point, read off the array's contents at entry. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## What the body finds in the factors' buffers -/

/-- The left factor's current buffer holds its block at every point, for ANY proof data over these arrays whose
    body leaves that block in place: the window is brought in afresh at every point, uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The right factor's buffer holds the whole factor at every point, brought in at the first point only: at a later
    point the block index has not moved and the body has left the buffer as it found it. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

/-- The whole 5000x128 buffer as one rectangle: the left factor's load and the product's store. -/
abbrev r4_0 : Rect S5000x128 := Rect.unit (s := S5000x128) ![0, 0] S5000x128.size inb_S5000x128_S5000x128_0_0
/-- The whole 128x128 buffer as one rectangle: the right factor's load. -/
abbrev r4_1 : Rect S128x128 := Rect.unit (s := S128x128) ![0, 0] S128x128.size inb_S128x128_S128x128_0_0

/-! ## What the body leaves in the product's buffer -/

/-- Window 2's buffer after the body, from the two factors' blocks: the one store, over the whole buffer, of the
    product of what the two loads read. -/
def out4_2 (x0 : Vec F S5000x128 .f32) (x1 : Vec F S128x128 .f32) : Vec F S5000x128 .f32 :=
  View.canon [⟨r4_0, k4_pay1 (View.ld x0 r4_0) (View.ld x1 r4_1)⟩]

/-- The one store is over the whole buffer, so it covers every index (one block of the buffer's own size). -/
theorem cover4_2 (p0 : Vec F S5000x128 .f32) (y : S5000x128.Idx) :
    ∃ pc ∈ ([⟨r4_0, p0⟩] : List (View.Piece (Elt F) S5000x128 .f32)), y ∈ pc.1.set :=
  View.cover_of_tiled [⟨r4_0, p0⟩] S5000x128.size (by rfl) y

/-! ## The body's triple -/

set_option maxHeartbeats 1000000 in
/-- The kernel body on whole buffers, the two factors' at read contents `x0`, `x1` and the product's at anything,
    runs to the continuation holding the factors' as they were and the product's at `out4_2 x0 x1`: two whole loads,
    a load of the product's buffer whose value is dropped, and the whole store. -/
theorem sound_kernel4 (c : Dev nD) (E : Set ℕ) (i : grid4.Coords)
    (arg0 : Memref sig .tc .vmem S5000x128 .f32) (harg0 : arg0.IsWhole) (arg1 : Memref sig .tc .vmem S128x128 .f32) (harg1 : arg1.IsWhole)
    (arg2 : Memref sig .tc .vmem S5000x128 .f32) (harg2 : arg2.IsWhole)
    (x0 : Vec F S5000x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out4_2 x0 x1)) -∗ K ⟨⟩))
      ⊢ wp frame (wpE (defs₀ (F := F)) Variants.none c none) E (cc4__matmul_kernel i arg0 harg0 arg1 harg1 arg2 harg2) K := by
  simp only [cc4__matmul_kernel_eq_skeleton]; unfold cc4__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The pipeline's proof data -/

/-- The proof data of pipeline 4 on core `c`: the arrays as the region finds them; after the body at point `t` each
    factor's buffer still at its block and the product's buffer at `out4_2` of the two blocks; the invariant that
    keeps the scoped rest and the generator register untouched; full shares; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

/-- The proof data's arrays are the contents at entry. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by
  dsimp only [dat4]

/-- Each factor's current buffer holds its block at every point, whatever it held before. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`: the invariant, what the core owes, and the three current buffers, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the factors' buffers hold their blocks, so the body's triple applies; the invariant and
    what the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Region4

end Cert.Kernel.Hand
-- ==== Proof.K.R5.lean ====
/- The region of @main that runs `cc5__postprocess_kernel` (configuration `cfg5`), at a PARAMETER `V` — the TensorCore's
   buffer contents when the region is entered —, generic in the float model `F`: each window's block at a grid point
   (`iblk5`), what the body leaves in the output window's staging buffer as a function of the four input blocks
   (`out5_4`: the one whole-buffer store of `max (agg + ht * self_norm + bias) 0`), the body's triple (`sound_kernel5`),
   the pipeline's proof data (`dat5`) and the body obligation at every grid point (`body_obligation5`). -/
import proofs.«428893_j18313740550827_1_alg».proof.Proof.Gen.Kernel.Launch
import proofs.«428893_j18313740550827_1_alg».proof.Proof.Gen.Kernel.Skeleton
import proofs.«428893_j18313740550827_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the elaborator's structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region5
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, fetched there or not, for ANY proof data
    whose array is `V`'s (`hA`) and whose body leaves the block in place (`hafter`): where the window is not fetched its
    block index has not moved, so the block the previous point left is this point's. No input window is cut or idle.
    Windows 0, 1, 2 move with the grid; window 3 is one whole array, fetched once. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- The whole staging buffer of the `5000 × 128` windows (0, 1 and 4), of the `5000 × 1` window (2), of the `1 × 128` window (3). -/
abbrev r5_a : Rect S5000x128 := Rect.unit (s := S5000x128) ![0, 0] S5000x128.size inb_S5000x128_S5000x128_0_0
abbrev r5_b : Rect S5000x1 := Rect.unit (s := S5000x1) ![0, 0] S5000x1.size inb_S5000x1_S5000x1_0_0
abbrev r5_c : Rect S1x128 := Rect.unit (s := S1x128) ![0, 0] S1x128.size inb_S1x128_S1x128_0_0

/-! ## What the body leaves in the output window's buffer -/

/-- Window 4's staging buffer after the body, from the four input blocks: its one store, of the whole buffer, whose
    payload is `max (x0 + x1 * x2 + x3) 0` with `x2` broadcast along the columns and `x3` along the rows. -/
def out5_4 (x0 x1 : Vec F S5000x128 .f32) (x2 : Vec F S5000x1 .f32) (x3 : Vec F S1x128 .f32) : Vec F S5000x128 .f32 :=
  View.canon [⟨r5_a, k5_pay1 (View.ld x0 r5_a) (View.ld x1 r5_a) (View.ld x2 r5_b) (View.ld x3 r5_c)⟩]

/-- The one store is of the whole buffer, so it covers it. -/
theorem cover5_4 (p0 : Vec F S5000x128 .f32) (y : S5000x128.Idx) :
    ∃ pc ∈ ([⟨r5_a, p0⟩] : List (View.Piece (Elt F) S5000x128 .f32)), y ∈ pc.1.set :=
  View.cover_of_tiled [⟨r5_a, p0⟩] S5000x128.size (by rfl) y

/-! ## The body's triple -/

set_option maxHeartbeats 1000000 in
/-- The kernel body on whole staging memrefs, the four inputs' at read contents `x0 .. x3` and the output's at anything,
    runs to the continuation holding the inputs' as they were and the output's at `out5_4` of the inputs'. The body
    also loads the output buffer before storing it; nothing reads that value, so whatever the buffer held serves. -/
theorem sound_kernel5 (c : Dev nD) (E : Set ℕ) (i : grid5.Coords)
    (arg0 : Memref sig .tc .vmem S5000x128 .f32) (harg0 : arg0.IsWhole) (arg1 : Memref sig .tc .vmem S5000x128 .f32) (harg1 : arg1.IsWhole)
    (arg2 : Memref sig .tc .vmem S5000x1 .f32) (harg2 : arg2.IsWhole) (arg3 : Memref sig .tc .vmem S1x128 .f32) (harg3 : arg3.IsWhole)
    (arg4 : Memref sig .tc .vmem S5000x128 .f32) (harg4 : arg4.IsWhole)
    (x0 x1 : Vec F S5000x128 .f32) (x2 : Vec F S5000x1 .f32) (x3 : Vec F S1x128 .f32) (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ (∃ d, owns (c : Thread nD τ) arg4 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare (out5_4 x0 x1 x2 x3)) -∗ K ⟨⟩))
      ⊢ wp frame (wpE (defs₀ (F := F)) Variants.none c none) E
          (cc5__postprocess_kernel i arg0 harg0 arg1 harg1 arg2 harg2 arg3 harg3 arg4 harg4) K := by
  simp only [cc5__postprocess_kernel_eq_skeleton]; unfold cc5__postprocess_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_4 _)

/-! ## The pipeline's proof data -/

/-- The pipeline's proof data on core `c`: the arrays as the region finds them (`V`); after the body at point `t` each
    input's buffer at its block and the output's at `out5_4` of the four input blocks; the invariant: the scoped rest
    and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) :
    (dat5 V c).after 4 t = out5_4 (iblk5 V c 0 t) (iblk5 V c 1 t) (iblk5 V c 2 t) (iblk5 V c 3 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the inputs' memrefs hold their blocks (`before5_W`), so `sound_kernel5` applies; the invariant
    and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation5 (c : Dev nD) : BodyObligation (dat5 (F := F) V c) (defs₀ (F := F)) Variants.none () Set.univ := fun t => by
  rw [bigSep_W5, bigSep_W5]
  exact sound_body5 V c t

end Region5

end Cert.Kernel.Hand
-- ==== Proof.K.R6.lean ====
import proofs.«428893_j18313740550827_1_alg».proof.Proof.Gen.Kernel.Launch
import proofs.«428893_j18313740550827_1_alg».proof.Proof.Gen.Kernel.Skeleton
import proofs.«428893_j18313740550827_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The last region of @main: the finalize kernel (pipeline 6), at the entry contents `V`

The kernel sums, over the ten blocks of nodes, the rows of the node features into the 512 graph rows they belong
to (a one-hot matrix product) and counts the nodes of each graph; at the last block it divides the sums by the
counts (at least one) and applies the final linear layer. The two accumulators live in scratch buffers carried
from one grid point to the next: they are reset at the first point and read at the last. -/

/-! ## The body's branch conditions -/

/-- The condition of the body's first `scf.if` (the reset of the accumulators), from the grid coordinate. -/
abbrev cond6_0 (i : grid6.Coords) : Prop := (Scalar.cmpi .ne (Scalar.extui (Scalar.cmpi .eq (BitVec.ofNat 32 (i 0).val) 0#32)) 0#32) = 1#1
/-- It holds at the first point only — decided over the grid. -/
theorem hcond6_0 : ∀ t : Fin cfg6.N, cond6_0 (grid6.coords t) ↔ t.val = 0 :=
  (by decide +kernel : ∀ t : Fin grid6.N, cond6_0 (grid6.coords t) ↔ t.val = 0)

/-- The condition of the body's second `scf.if` (the output's store), from the grid coordinate. -/
abbrev cond6_1 (i : grid6.Coords) : Prop := k6_cond2 i = 1#1
/-- It holds at the last point only — decided over the grid. -/
theorem hcond6_1 : ∀ t : Fin cfg6.N, cond6_1 (grid6.coords t) ↔ t.val = 9 :=
  (by decide +kernel : ∀ t : Fin grid6.N, cond6_1 (grid6.coords t) ↔ t.val = 9)

/-! ## The body's triple, case by case

The body's two conditionals are decided by the grid coordinate, so over the ten points it runs in one of three ways:
at the first point the accumulators are reset to zeros and then added into; at the points strictly between the first
and the last they are added into; at the last point they are added into and the output is stored from them. Every
access is of a whole buffer. -/

/-- The zero offsets of a rank-2 access, as the constant function. -/
theorem hz2 : (![0, 0] : Fin 2 → Nat) = fun _ => 0 := funext fun a => by fin_cases a <;> rfl

/-- A store through the whole-shape rectangle at zero offsets, last in a list of writes, covers the shape. -/
theorem cover_unit_zero {S : Shape} {e : EltTy} {off : Fin S.rank → Nat} (h : off = fun _ => 0)
    (inb : ∀ a, off a + S.size a ≤ S.size a) (w : S.Idx → Elt F e) (L : List (View.Piece (Elt F) S e)) (y : S.Idx) :
    ∃ pc ∈ ((⟨Rect.unit off S.size inb, w⟩ : View.Piece (Elt F) S e) :: L), y ∈ pc.1.set := by
  subst h
  exact ⟨_, List.mem_cons_self, by show y ∈ (Rect.whole S).set; rw [Rect.set_whole]; exact Finset.mem_univ y⟩

set_option maxHeartbeats 2000000 in
/-- THE FIRST POINT. On whole memrefs — the four inputs' at read contents `x·`, the output's at `xi4`, the two
    accumulators' at anything — the body runs to the continuation holding the inputs' and the output's as they were
    and the accumulators at the first block's contribution added to zeros. -/
theorem sound_kernel6_A (c : Dev nD) (E : Set ℕ) (i : grid6.Coords) (arg1 : Memref sig .tc .vmem S5000x1 .i32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S512x64 .f32) (harg5 : arg5.IsWhole) (arg6 : Memref sig .tc .vmem S512x128 .f32) (harg6 : arg6.IsWhole) (arg7 : Memref sig .tc .vmem S512x1 .f32) (harg7 : arg7.IsWhole) (hc0 : cond6_0 i) (hc1 : ¬cond6_1 i)
    (x0 : Vec F S5000x1 .i32) (x1 : Vec F S5000x128 .f32) (x2 : Vec F S128x64 .f32) (x3 : Vec F S1x64 .f32) (xi4 : Vec F S512x64 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare (k6_pay4 x0 x1 k6_pay1) ∗ owns (c : Thread nD τ) arg7 fullShare (k6_pay5 x0 k6_pay2)) -∗ K ⟨⟩))
      ⊢ wp frame (wpE (defs₀ (F := F)) Variants.none c none) E (cc6__finalize_kernel i arg1 harg1 arg2 harg2 arg3 harg3 arg4 harg4 arg5 harg5 arg6 harg6 arg7 harg7) K := by
  simp only [cc6__finalize_kernel_eq_skeleton]; unfold cc6__finalize_kernel_skel
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
  subst hf0 hf1 hf2 hf3 hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [HS0]
  · iexists _; isplitr
    swap; · iexact HS0
    ipureintro
    sl_unfold_run_names
    rw [View.read_writes_eq_canon _ _ _ (cover_unit_zero hz2 _ _ _), View.canon_cons_unit_zero hz2, View.readCov_unit_zero (S := S512x128) _ hz2]
    simp only [View.readAt_eq_ld, View.ld_unit_zero (S := S5000x1) hz2, View.ld_unit_zero (S := S5000x128) hz2, View.ld_unit_zero (S := S512x128) hz2, View.ld_unit_zero (S := S512x1) hz2, View.ld_unit_zero (S := S128x64) hz2, View.ld_unit_zero (S := S1x64) hz2]
  iexists _; isplitr
  swap; · iexact HS1
  ipureintro
  sl_unfold_run_names
  rw [View.read_writes_eq_canon _ _ _ (cover_unit_zero hz2 _ _ _), View.canon_cons_unit_zero hz2, View.readCov_unit_zero (S := S512x1) _ hz2]
  simp only [View.readAt_eq_ld, View.ld_unit_zero (S := S5000x1) hz2, View.ld_unit_zero (S := S5000x128) hz2, View.ld_unit_zero (S := S512x128) hz2, View.ld_unit_zero (S := S512x1) hz2, View.ld_unit_zero (S := S128x64) hz2, View.ld_unit_zero (S := S1x64) hz2]

set_option maxHeartbeats 2000000 in
/-- A POINT STRICTLY BETWEEN the first and the last. The accumulators' memrefs at what the point before left
    (`xs·`): the body adds this block's contribution into them and touches nothing else. -/
theorem sound_kernel6_B (c : Dev nD) (E : Set ℕ) (i : grid6.Coords) (arg1 : Memref sig .tc .vmem S5000x1 .i32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S512x64 .f32) (harg5 : arg5.IsWhole) (arg6 : Memref sig .tc .vmem S512x128 .f32) (harg6 : arg6.IsWhole) (arg7 : Memref sig .tc .vmem S512x1 .f32) (harg7 : arg7.IsWhole) (hc0 : ¬cond6_0 i) (hc1 : ¬cond6_1 i)
    (x0 : Vec F S5000x1 .i32) (x1 : Vec F S5000x128 .f32) (x2 : Vec F S128x64 .f32) (x3 : Vec F S1x64 .f32) (xi4 : Vec F S512x64 .f32)
    (xs0 : Vec F S512x128 .f32) (xs1 : Vec F S512x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xs0 ∗ owns (c : Thread nD τ) arg7 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare (k6_pay4 x0 x1 xs0) ∗ owns (c : Thread nD τ) arg7 fullShare (k6_pay5 x0 xs1)) -∗ K ⟨⟩))
      ⊢ wp frame (wpE (defs₀ (F := F)) Variants.none c none) E (cc6__finalize_kernel i arg1 harg1 arg2 harg2 arg3 harg3 arg4 harg4 arg5 harg5 arg6 harg6 arg7 harg7) K := by
  simp only [cc6__finalize_kernel_eq_skeleton]; unfold cc6__finalize_kernel_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
  subst hf0 hf1 hf2 hf3 hf4 hfs0 hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [HS0]
  · iexists _; isplitr
    swap; · iexact HS0
    ipureintro
    sl_unfold_run_names
    rw [View.read_writes_eq_canon _ _ _ (cover_unit_zero hz2 _ _ _), View.canon_unit_zero hz2]
    simp only [View.readAt_eq_ld, View.ld_unit_zero (S := S5000x1) hz2, View.ld_unit_zero (S := S5000x128) hz2, View.ld_unit_zero (S := S512x128) hz2, View.ld_unit_zero (S := S512x1) hz2, View.ld_unit_zero (S := S128x64) hz2, View.ld_unit_zero (S := S1x64) hz2]
  iexists _; isplitr
  swap; · iexact HS1
  ipureintro
  sl_unfold_run_names
  rw [View.read_writes_eq_canon _ _ _ (cover_unit_zero hz2 _ _ _), View.canon_unit_zero hz2]
  simp only [View.readAt_eq_ld, View.ld_unit_zero (S := S5000x1) hz2, View.ld_unit_zero (S := S5000x128) hz2, View.ld_unit_zero (S := S512x128) hz2, View.ld_unit_zero (S := S512x1) hz2, View.ld_unit_zero (S := S128x64) hz2, View.ld_unit_zero (S := S1x64) hz2]

set_option maxHeartbeats 2000000 in
/-- THE LAST POINT. As between, and then the output's memref — at anything before — is stored whole with the final
    layer applied to the accumulators just updated. -/
theorem sound_kernel6_C (c : Dev nD) (E : Set ℕ) (i : grid6.Coords) (arg1 : Memref sig .tc .vmem S5000x1 .i32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S512x64 .f32) (harg5 : arg5.IsWhole) (arg6 : Memref sig .tc .vmem S512x128 .f32) (harg6 : arg6.IsWhole) (arg7 : Memref sig .tc .vmem S512x1 .f32) (harg7 : arg7.IsWhole) (hc0 : ¬cond6_0 i) (hc1 : cond6_1 i)
    (x0 : Vec F S5000x1 .i32) (x1 : Vec F S5000x128 .f32) (x2 : Vec F S128x64 .f32) (x3 : Vec F S1x64 .f32)
    (xs0 : Vec F S512x128 .f32) (xs1 : Vec F S512x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ owns (c : Thread nD τ) arg6 fullShare xs0 ∗ owns (c : Thread nD τ) arg7 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k6_pay6 (k6_pay4 x0 x1 xs0) (k6_pay5 x0 xs1) x2 x3) ∗ owns (c : Thread nD τ) arg6 fullShare (k6_pay4 x0 x1 xs0) ∗ owns (c : Thread nD τ) arg7 fullShare (k6_pay5 x0 xs1)) -∗ K ⟨⟩))
      ⊢ wp frame (wpE (defs₀ (F := F)) Variants.none c none) E (cc6__finalize_kernel i arg1 harg1 arg2 harg2 arg3 harg3 arg4 harg4 arg5 harg5 arg6 harg6 arg7 harg7) K := by
  simp only [cc6__finalize_kernel_eq_skeleton]; unfold cc6__finalize_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
  subst hf0 hf1 hf2 hf3 hfs0 hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [View.read_writes_eq_canon _ _ _ (cover_unit_zero hz2 _ _ _), View.canon_unit_zero hz2, View.readCov_unit_zero (S := S512x128) _ hz2, View.readCov_unit_zero (S := S512x1) _ hz2]
    simp only [View.readAt_eq_ld, View.ld_unit_zero (S := S5000x1) hz2, View.ld_unit_zero (S := S5000x128) hz2, View.ld_unit_zero (S := S512x128) hz2, View.ld_unit_zero (S := S512x1) hz2, View.ld_unit_zero (S := S128x64) hz2, View.ld_unit_zero (S := S1x64) hz2]
  isplitl [HS0]
  · iexists _; isplitr
    swap; · iexact HS0
    ipureintro
    sl_unfold_run_names
    rw [View.read_writes_eq_canon _ _ _ (cover_unit_zero hz2 _ _ _), View.canon_unit_zero hz2]
    simp only [View.readAt_eq_ld, View.ld_unit_zero (S := S5000x1) hz2, View.ld_unit_zero (S := S5000x128) hz2, View.ld_unit_zero (S := S512x128) hz2, View.ld_unit_zero (S := S512x1) hz2, View.ld_unit_zero (S := S128x64) hz2, View.ld_unit_zero (S := S1x64) hz2]
  iexists _; isplitr
  swap; · iexact HS1
  ipureintro
  sl_unfold_run_names
  rw [View.read_writes_eq_canon _ _ _ (cover_unit_zero hz2 _ _ _), View.canon_unit_zero hz2]
  simp only [View.readAt_eq_ld, View.ld_unit_zero (S := S5000x1) hz2, View.ld_unit_zero (S := S5000x128) hz2, View.ld_unit_zero (S := S512x128) hz2, View.ld_unit_zero (S := S512x1) hz2, View.ld_unit_zero (S := S128x64) hz2, View.ld_unit_zero (S := S1x64) hz2]

section Region6
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! ## The accumulators, point by point -/

/-- What the two scratch buffers hold after point `n`: the row sums and the row counts over the blocks
    `0 … n`, each block's contribution added to what the blocks before it left (zeros before the first). -/
def acc6 (c : Dev nD) : (n : ℕ) → n < cfg6.N → Vec F S512x128 .f32 × Vec F S512x1 .f32
  | 0, h => (k6_pay4 (iblk6 V c 0 ⟨0, h⟩) (iblk6 V c 1 ⟨0, h⟩) k6_pay1, k6_pay5 (iblk6 V c 0 ⟨0, h⟩) k6_pay2)
  | n + 1, h => (k6_pay4 (iblk6 V c 0 ⟨n + 1, h⟩) (iblk6 V c 1 ⟨n + 1, h⟩) (acc6 c n (Nat.lt_of_succ_lt h)).1,
      k6_pay5 (iblk6 V c 0 ⟨n + 1, h⟩) (acc6 c n (Nat.lt_of_succ_lt h)).2)

theorem acc6_zero (c : Dev nD) (h : 0 < cfg6.N) : acc6 V c 0 h = (k6_pay4 (iblk6 V c 0 ⟨0, h⟩) (iblk6 V c 1 ⟨0, h⟩) k6_pay1, k6_pay5 (iblk6 V c 0 ⟨0, h⟩) k6_pay2) := rfl

theorem acc6_succ (c : Dev nD) (n : ℕ) (h : n + 1 < cfg6.N) : acc6 V c (n + 1) h = (k6_pay4 (iblk6 V c 0 ⟨n + 1, h⟩) (iblk6 V c 1 ⟨n + 1, h⟩) (acc6 V c n (Nat.lt_of_succ_lt h)).1, k6_pay5 (iblk6 V c 0 ⟨n + 1, h⟩) (acc6 V c n (Nat.lt_of_succ_lt h)).2) := rfl

/-! ## The region invariant -/

/-- The two scratch operands, whole scoped buffers of the kernel's own. -/
abbrev scM6_0 : Memref sig .tc .vmem S512x128 .f32 := Memref.whole cc6_scratch0
abbrev scM6_1 : Memref sig .tc .vmem S512x1 .f32 := Memref.whole cc6_scratch1

/-- The invariant before position `n`: before the first point the class's (every scoped buffer at anything);
    afterwards the two accumulators at what the point before left in them, the other scoped buffers at anything,
    the generator register at some state. -/
def PhiS6 (c : Dev nD) : (n : ℕ) → n ≤ cfg6.N → sProp 𝕄
  | 0, _ => Pipeline.ΦA spec6 c
  | n + 1, hn => iprop(iprop(iprop(owns (c : Thread nD τ) scM6_0 fullShare (acc6 V c n hn).1 ∗ owns (c : Thread nD τ) scM6_1 fullShare (acc6 V c n hn).2)
      ∗ Pipeline.scopedRestBut (Ix := Unit) (Name := ℕ) (U := UR sig nD τ) (Lvl := ℕ) (Val := Elt F) spec6 c [cc6_scratch0, cc6_scratch1]) ∗ (∃ r, prngReg c r))

/-! ## The pipeline's proof data -/

/-- The proof data of the pipeline on core `c`: the arrays as the region finds them; after the body at point `t`
    each input's buffer at its block and the output's at the final layer applied to the accumulators of that point
    (consulted at the last point only: elsewhere the body leaves the output's buffer as it found it); the invariant
    `PhiS6`; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => k6_pay6 (acc6 V c t.val t.isLt).1 (acc6 V c t.val t.isLt).2 (iblk6 V c 2 t) (iblk6 V c 3 t)
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem after6_4_last (c : Dev nD) : (dat6 V c).after 4 ⟨9, by decide⟩ = k6_pay6 (acc6 V c 9 (by decide)).1 (acc6 V c 9 (by decide)).2 (iblk6 V c 2 ⟨9, by decide⟩) (iblk6 V c 3 ⟨9, by decide⟩) := by
  dsimp only [dat6]

/-! ## The accumulators at a point, by its position -/

/-- At the first point: the first block's contribution added to zeros. -/
theorem acc6_first (c : Dev nD) (t : Fin cfg6.N) (h0 : t.val = 0) :
    acc6 V c t.val t.isLt = (k6_pay4 (iblk6 V c 0 t) (iblk6 V c 1 t) k6_pay1, k6_pay5 (iblk6 V c 0 t) k6_pay2) := by
  obtain ⟨n, hn⟩ := t
  dsimp only at h0
  subst h0
  rfl

/-- At a later point: this block's contribution added to what the point before left. -/
theorem acc6_pos (c : Dev nD) (t : Fin cfg6.N) (h0 : t.val ≠ 0) :
    acc6 V c t.val t.isLt = (k6_pay4 (iblk6 V c 0 t) (iblk6 V c 1 t) (acc6 V c (t.val - 1) (Nat.lt_of_le_of_lt (Nat.sub_le _ _) t.isLt)).1,
      k6_pay5 (iblk6 V c 0 t) (acc6 V c (t.val - 1) (Nat.lt_of_le_of_lt (Nat.sub_le _ _) t.isLt)).2) := by
  obtain ⟨n, hn⟩ := t
  cases n with
  | zero => exact absurd rfl h0
  | succ n => rfl

/-! ## The invariant, position by position -/

theorem PhiS6_zero (c : Dev nD) (n : ℕ) (h : n ≤ cfg6.N) (hz : n = 0) : PhiS6 V c n h = Pipeline.ΦA spec6 c := by
  subst hz; rfl

/-- After point `n` (before point `n + 1`): the accumulators at that point's contents. -/
theorem PhiS6_succ (c : Dev nD) (n : ℕ) (hn : n < cfg6.N) :
    PhiS6 V c (n + 1) hn = iprop(iprop(iprop(owns (c : Thread nD τ) scM6_0 fullShare (acc6 V c n hn).1 ∗ owns (c : Thread nD τ) scM6_1 fullShare (acc6 V c n hn).2)
      ∗ Pipeline.scopedRestBut (Ix := Unit) (Name := ℕ) (U := UR sig nD τ) (Lvl := ℕ) (Val := Elt F) spec6 c [cc6_scratch0, cc6_scratch1]) ∗ (∃ r, prngReg c r)) := rfl

/-- Before a point that is not the first: the accumulators at what the point before left. -/
theorem PhiS6_pos (c : Dev nD) (n : ℕ) (h : n ≤ cfg6.N) (hz : n ≠ 0) :
    PhiS6 V c n h = iprop(iprop(iprop(owns (c : Thread nD τ) scM6_0 fullShare (acc6 V c (n - 1) (by omega)).1 ∗ owns (c : Thread nD τ) scM6_1 fullShare (acc6 V c (n - 1) (by omega)).2)
      ∗ Pipeline.scopedRestBut (Ix := Unit) (Name := ℕ) (U := UR sig nD τ) (Lvl := ℕ) (Val := Elt F) spec6 c [cc6_scratch0, cc6_scratch1]) ∗ (∃ r, prngReg c r)) := by
  cases n with
  | zero => exact absurd rfl hz
  | succ n => rfl

/-- The class's invariant with the two accumulators split off the scoped rest, each whole at some contents. -/
theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d))
          ∗ Pipeline.scopedRestBut (Ix := Unit) (Name := ℕ) (U := UR sig nD τ) (Lvl := ℕ) (Val := Elt F) spec6 c [cc6_scratch0, cc6_scratch1]) ∗ (∃ r, prngReg c r)) := by
  unfold Pipeline.ΦA; rw [scopedRest6_split]; simp only [scM6_0, scM6_1, owns_whole]; try rfl

/-- The invariant at a point's start (the proof data at `t.castSucc`), restated at `t.val`. -/
theorem PhiS6_castSucc (c : Dev nD) (t : Fin cfg6.N) :
    (dat6 V c).Φ t.castSucc = PhiS6 V c t.val (Nat.le_of_lt t.isLt) := by
  dsimp only [dat6]; simp only [Fin.coe_castSucc]

/-! ## The windows' buffers at a point -/

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = k6_pay6 (acc6 V c t.val t.isLt).1 (acc6 V c t.val t.isLt).2 (iblk6 V c 2 t) (iblk6 V c 3 t) := by dsimp only [dat6]

/-- Input window 0's current staging buffer holds its block at every point, fetched there or not: the body leaves
    it in place, and where the pipeline does not fetch, the block index has not moved. -/
theorem before6_0 (c : Dev nD) (t : Fin cfg6.N) (d) : (dat6 V c).before 0 t d = iblk6 V c 0 t :=
  ((dat6 V c).before_in_eq_fetched 0 rfl (fun _ => rfl) (fun _ _ _ => rfl) (fun t => by rw [after6_0]; unfold Dat.blockOf iblk6; rw [A_eq6]; try rfl) t d).trans
    (by unfold Dat.fetched Dat.blockOf iblk6; rw [A_eq6]; try rfl)

/-- Input window 1's current staging buffer holds its block at every point, fetched there or not: the body leaves
    it in place, and where the pipeline does not fetch, the block index has not moved. -/
theorem before6_1 (c : Dev nD) (t : Fin cfg6.N) (d) : (dat6 V c).before 1 t d = iblk6 V c 1 t :=
  ((dat6 V c).before_in_eq_fetched 1 rfl (fun _ => rfl) (fun _ _ _ => rfl) (fun t => by rw [after6_1]; unfold Dat.blockOf iblk6; rw [A_eq6]; try rfl) t d).trans
    (by unfold Dat.fetched Dat.blockOf iblk6; rw [A_eq6]; try rfl)

/-- Input window 2's current staging buffer holds its block at every point, fetched there or not: the body leaves
    it in place, and where the pipeline does not fetch, the block index has not moved. -/
theorem before6_2 (c : Dev nD) (t : Fin cfg6.N) (d) : (dat6 V c).before 2 t d = iblk6 V c 2 t :=
  ((dat6 V c).before_in_eq_fetched 2 rfl (fun _ => rfl) (fun _ _ _ => rfl) (fun t => by rw [after6_2]; unfold Dat.blockOf iblk6; rw [A_eq6]; try rfl) t d).trans
    (by unfold Dat.fetched Dat.blockOf iblk6; rw [A_eq6]; try rfl)

/-- Input window 3's current staging buffer holds its block at every point, fetched there or not: the body leaves
    it in place, and where the pipeline does not fetch, the block index has not moved. -/
theorem before6_3 (c : Dev nD) (t : Fin cfg6.N) (d) : (dat6 V c).before 3 t d = iblk6 V c 3 t :=
  ((dat6 V c).before_in_eq_fetched 3 rfl (fun _ => rfl) (fun _ _ _ => rfl) (fun t => by rw [after6_3]; unfold Dat.blockOf iblk6; rw [A_eq6]; try rfl) t d).trans
    (by unfold Dat.fetched Dat.blockOf iblk6; rw [A_eq6]; try rfl)

/-! ## Where the windows are idle -/

theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel
theorem liveAt6_3 : ∀ t : Fin cfg6.N, cfg6.idle 3 (grid6.coords t) = false := by decide +kernel
/-- Off the last point the output window is idle: the body stores nothing into it, -/
theorem idleAt6_4 : ∀ t : Fin cfg6.N, ¬cond6_1 (grid6.coords t) → cfg6.idle 4 (grid6.coords t) = true := by decide +kernel
/-- and the pipeline does not write its block back; -/
theorem noFlush6_4 : ∀ t : Fin cfg6.N, ¬cond6_1 (grid6.coords t) → (cfg6.win 4).flush t = false := by decide +kernel
/-- at the last point it is live. -/
theorem liveAt6_4 : ∀ t : Fin cfg6.N, cond6_1 (grid6.coords t) → cfg6.idle 4 (grid6.coords t) = false := by decide +kernel

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d)))

/-- and what it returns. -/
def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t)

set_option maxHeartbeats 4800000 in
/-- The body at any point: the inputs' memrefs hold their blocks; the position of the point says which of the three
    ways the body runs; the invariant hands it the accumulators at what the point before left (at anything at the
    first point) and takes them back at this point's contents; off the last point the output's buffer is handed back
    as found; the core owes nothing throughout. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).owesAt () t.succ = (dat6 V c).owesAt () t.castSucc from rfl]
  rw [show (dat6 V c).Φ t.succ = PhiS6 V c (t.val + 1) t.isLt from rfl, PhiS6_succ]
  rw [show (dat6 V c).leavesExact 0 t = owns (c : Thread nD τ) (st6_0 t) fullShare ((dat6 V c).after 0 t) from by
    unfold Dat.leavesExact; rw [liveAt6_0 t], after6_0]
  rw [show (dat6 V c).leavesExact 1 t = owns (c : Thread nD τ) (st6_1 t) fullShare ((dat6 V c).after 1 t) from by
    unfold Dat.leavesExact; rw [liveAt6_1 t], after6_1]
  rw [show (dat6 V c).leavesExact 2 t = owns (c : Thread nD τ) (st6_2 t) fullShare ((dat6 V c).after 2 t) from by
    unfold Dat.leavesExact; rw [liveAt6_2 t], after6_2]
  rw [show (dat6 V c).leavesExact 3 t = owns (c : Thread nD τ) (st6_3 t) fullShare ((dat6 V c).after 3 t) from by
    unfold Dat.leavesExact; rw [liveAt6_3 t], after6_3]
  have hN : t.val < 10 := lt_of_lt_of_eq t.isLt (show cfg6.N = 10 from N_6)
  by_cases h0 : t.val = 0
  · have h1 : ¬t.val = 9 := by omega
    rw [Dat.leavesExact_idle (dat6 V c) 4 t (idleAt6_4 t (fun h => h1 ((hcond6_1 t).mp h))) (noFlush6_4 t (fun h => h1 ((hcond6_1 t).mp h)))]
    rw [acc6_first V c t h0]
    rw [PhiS6_castSucc V c t, PhiS6_zero V c _ _ h0, PhiA6_eq]
    iintro ⟨⟨⟨⟨HS0, HS1⟩, Hr⟩, Hg⟩, Ho, ⟨%d0, H0⟩, ⟨%d1, H1⟩, ⟨%d2, H2⟩, ⟨%d3, H3⟩, ⟨%d4, H4⟩⟩
    iapply (sound_kernel6_A c Set.univ (grid6.coords t) _ _ _ _ _ _ _ _ _ _ _ _ _ _ ((hcond6_0 t).mpr h0) (fun h => h1 ((hcond6_1 t).mp h))
      (iblk6 V c 0 t) (iblk6 V c 1 t) (iblk6 V c 2 t) (iblk6 V c 3 t) _ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexact H1
    isplitl [H2]; · iexact H2
    isplitl [H3]; · iexact H3
    iexists _; iexact H4
  · by_cases h1 : t.val = 9
    · rw [show (dat6 V c).leavesExact 4 t = owns (c : Thread nD τ) (st6_4 t) fullShare ((dat6 V c).after 4 t) from by
        unfold Dat.leavesExact; rw [liveAt6_4 t ((hcond6_1 t).mpr h1)], after6_4]
      rw [acc6_pos V c t h0]
      rw [PhiS6_castSucc V c t, PhiS6_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩⟩
      iapply (sound_kernel6_C c Set.univ (grid6.coords t) _ _ _ _ _ _ _ _ _ _ _ _ _ _ (fun h => h0 ((hcond6_0 t).mp h)) ((hcond6_1 t).mpr h1)
        (iblk6 V c 0 t) (iblk6 V c 1 t) (iblk6 V c 2 t) (iblk6 V c 3 t) _ _ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      iexact H4
    · rw [Dat.leavesExact_idle (dat6 V c) 4 t (idleAt6_4 t (fun h => h1 ((hcond6_1 t).mp h))) (noFlush6_4 t (fun h => h1 ((hcond6_1 t).mp h)))]
      rw [acc6_pos V c t h0]
      rw [PhiS6_castSucc V c t, PhiS6_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩⟩
      iapply (sound_kernel6_B c Set.univ (grid6.coords t) _ _ _ _ _ _ _ _ _ _ _ _ _ _ (fun h => h0 ((hcond6_0 t).mp h)) (fun h => h1 ((hcond6_1 t).mp h))
        (iblk6 V c 0 t) (iblk6 V c 1 t) (iblk6 V c 2 t) (iblk6 V c 3 t) _ _ _ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation6 (c : Dev nD) : BodyObligation (dat6 (F := F) V c) (defs₀ (F := F)) Variants.none () Set.univ := fun t => by
  rw [bigSep_W6, bigSep_W6]
  exact sound_body6 V c t

/-- What the launch hands the region is the invariant before the first point. -/
theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

/-- After any point the invariant gives the class's back: the accumulators' named contents are forgotten. -/
theorem Phi_out6 (c : Dev nD) (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

/-- The same after the last point. -/
theorem hout6 (c : Dev nD) : (dat6 V c).Φ (Fin.last cfg6.N) ⊢ Pipeline.ΦA spec6 c :=
  Phi_out6 V c _ (by rw [Fin.val_last]; have : cfg6.N = 10 := N_6; omega)

end Region6

end Cert.Kernel.Hand

end
-- ==== Proof.K.Run.lean ====
/- The run of @main through its seven kernel regions, generic in the float model `F`: what each region leaves in its
   output array, named stage by stage from the launch memory (`outs`); the contents every region is entered from
   (`Ent0` … `Ent6`); the proof data of the seven pipelines at those contents (`pdats`); each region as a segment between
   two thread states "every unscoped buffer at the boundary's contents, the generator register at some state, nothing
   owed" (`reg0` … `reg6`); and the run itself: every argument ends as launched (`frame`), and every unscoped buffer
   ends at the last boundary's contents (`run_all`). -/
import proofs.«428893_j18313740550827_1_alg».proof.Proof.K.R0
import proofs.«428893_j18313740550827_1_alg».proof.Proof.K.R1
import proofs.«428893_j18313740550827_1_alg».proof.Proof.K.R2
import proofs.«428893_j18313740550827_1_alg».proof.Proof.K.R3
import proofs.«428893_j18313740550827_1_alg».proof.Proof.K.R4
import proofs.«428893_j18313740550827_1_alg».proof.Proof.K.R5
import proofs.«428893_j18313740550827_1_alg».proof.Proof.K.R6
import proofs.«428893_j18313740550827_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- decided memberships among the program's references, and rectangles of 5000 rows, recurse past the default depth
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions leave, stage by stage

Region K's output array ends at the fold of its write-backs over the contents the region was entered from
(`Dat.arrAt … N`). Those contents are themselves the launch memory taken through the host stretches and the earlier
regions' outputs, so the outputs are named in @main's order: `o2` from the launch memory, the contents `S2`, `S3`
after it, `o4` from `S3`, and so on. `outs` gathers them; each `SJ` is then the boundary valuation `VJ` at `outs`
by unfolding (`SJ_eq`). -/

/-- The contents region 0 is entered from: the launch memory after the first host stretch. -/
abbrev Ent0 : (c : Dev nD) → (b : Ref sig .tc) → Buf (Elt F) ((c : Thread nD τ).loc b) := fun c b => V1 m c b

/-- After region 0: its arrays at what its pipeline leaves, read at any reference `r`. -/
def o2 (r : Ref sig .tc) (c : Dev nD) : Buf (Elt F) ((c : Thread nD τ).loc r) :=
  Pipeline.withArrays spec0 c (V1 m c) (fun w => (dat0 (Ent0 m) c).arrAt w cfg0.N) (Proc.devRef .tc r)
/-- The unscoped buffers after region 0, -/
def S2 (c : Dev nD) : Valuation τ sig (Elt F) := Function.update (V1 m c) main_v34 (o2 m main_v34 c)
/-- and after the host stretch that follows it: what region 1 is entered from. -/
def S3 (c : Dev nD) : Valuation τ sig (Elt F) := StableHlo.after hostOps1 (S2 m c)

/-- After region 1: its arrays at what its pipeline leaves. -/
def o4 (r : Ref sig .tc) (c : Dev nD) : Buf (Elt F) ((c : Thread nD τ).loc r) :=
  Pipeline.withArrays spec1 c (S3 m c) (fun w => (dat1 (fun c b => S3 m c b) c).arrAt w cfg1.N) (Proc.devRef .tc r)
/-- The unscoped buffers after region 1: what region 2 is entered from. -/
def S4 (c : Dev nD) : Valuation τ sig (Elt F) := Function.update (S3 m c) main_v48 (o4 m main_v48 c)

/-- After region 2: its arrays at what its pipeline leaves. -/
def o5 (r : Ref sig .tc) (c : Dev nD) : Buf (Elt F) ((c : Thread nD τ).loc r) :=
  Pipeline.withArrays spec2 c (S4 m c) (fun w => (dat2 (fun c b => S4 m c b) c).arrAt w cfg2.N) (Proc.devRef .tc r)
/-- The unscoped buffers after region 2, -/
def S5 (c : Dev nD) : Valuation τ sig (Elt F) := Function.update (S4 m c) main_v49 (o5 m main_v49 c)
/-- and after the host stretch that follows it: what region 3 is entered from. -/
def S6 (c : Dev nD) : Valuation τ sig (Elt F) := StableHlo.after hostOps3 (S5 m c)

/-- After region 3: its arrays at what its pipeline leaves. -/
def o7 (r : Ref sig .tc) (c : Dev nD) : Buf (Elt F) ((c : Thread nD τ).loc r) :=
  Pipeline.withArrays spec3 c (S6 m c) (fun w => (dat3 (fun c b => S6 m c b) c).arrAt w cfg3.N) (Proc.devRef .tc r)
/-- The unscoped buffers after region 3: what region 4 is entered from. -/
def S7 (c : Dev nD) : Valuation τ sig (Elt F) := Function.update (S6 m c) main_v63 (o7 m main_v63 c)

/-- After region 4: its arrays at what its pipeline leaves. -/
def o8 (r : Ref sig .tc) (c : Dev nD) : Buf (Elt F) ((c : Thread nD τ).loc r) :=
  Pipeline.withArrays spec4 c (S7 m c) (fun w => (dat4 (fun c b => S7 m c b) c).arrAt w cfg4.N) (Proc.devRef .tc r)
/-- The unscoped buffers after region 4, -/
def S8 (c : Dev nD) : Valuation τ sig (Elt F) := Function.update (S7 m c) main_v64 (o8 m main_v64 c)
/-- and after the host stretch that follows it: what region 5 is entered from. -/
def S9 (c : Dev nD) : Valuation τ sig (Elt F) := StableHlo.after hostOps5 (S8 m c)

/-- After region 5: its arrays at what its pipeline leaves. -/
def o10 (r : Ref sig .tc) (c : Dev nD) : Buf (Elt F) ((c : Thread nD τ).loc r) :=
  Pipeline.withArrays spec5 c (S9 m c) (fun w => (dat5 (fun c b => S9 m c b) c).arrAt w cfg5.N) (Proc.devRef .tc r)
/-- The unscoped buffers after region 5: what region 6 is entered from. -/
def S10 (c : Dev nD) : Valuation τ sig (Elt F) := Function.update (S9 m c) main_v78 (o10 m main_v78 c)

/-- After region 6: its arrays at what its pipeline leaves. -/
def o11 (r : Ref sig .tc) (c : Dev nD) : Buf (Elt F) ((c : Thread nD τ).loc r) :=
  Pipeline.withArrays spec6 c (S10 m c) (fun w => (dat6 (fun c b => S10 m c b) c).arrAt w cfg6.N) (Proc.devRef .tc r)

/-- What the regions leave in the buffers they may change: after item 1 (region 0) `o2`, after item 3 (region 1) `o4`,
    after item 4 (region 2) `o5`, after item 6 (region 3) `o7`, after item 7 (region 4) `o8`, after item 9 (region 5)
    `o10`, after item 10 (region 6) `o11`; the boundary valuations read no other index. -/
def outs : Outs (F := F) := fun J => match J with
  | 2 => o2 m
  | 4 => o4 m
  | 5 => o5 m
  | 7 => o7 m
  | 8 => o8 m
  | 10 => o10 m
  | 11 => o11 m
  | _ => o2 m

/-- The staged contents are the boundary valuations at `outs`. -/
theorem S2_eq (c : Dev nD) : V2 m (outs m) c = S2 m c := rfl
theorem S3_eq (c : Dev nD) : V3 m (outs m) c = S3 m c := rfl
theorem S4_eq (c : Dev nD) : V4 m (outs m) c = S4 m c := rfl
theorem S5_eq (c : Dev nD) : V5 m (outs m) c = S5 m c := rfl
theorem S6_eq (c : Dev nD) : V6 m (outs m) c = S6 m c := rfl
theorem S7_eq (c : Dev nD) : V7 m (outs m) c = S7 m c := rfl
theorem S8_eq (c : Dev nD) : V8 m (outs m) c = S8 m c := rfl
theorem S9_eq (c : Dev nD) : V9 m (outs m) c = S9 m c := rfl
theorem S10_eq (c : Dev nD) : V10 m (outs m) c = S10 m c := rfl

/-- The contents regions 1 … 6 are entered from, read at the TensorCore's references. -/
abbrev Ent1 : (c : Dev nD) → (b : Ref sig .tc) → Buf (Elt F) ((c : Thread nD τ).loc b) := fun c b => V3 m (outs m) c b
abbrev Ent2 : (c : Dev nD) → (b : Ref sig .tc) → Buf (Elt F) ((c : Thread nD τ).loc b) := fun c b => V4 m (outs m) c b
abbrev Ent3 : (c : Dev nD) → (b : Ref sig .tc) → Buf (Elt F) ((c : Thread nD τ).loc b) := fun c b => V6 m (outs m) c b
abbrev Ent4 : (c : Dev nD) → (b : Ref sig .tc) → Buf (Elt F) ((c : Thread nD τ).loc b) := fun c b => V7 m (outs m) c b
abbrev Ent5 : (c : Dev nD) → (b : Ref sig .tc) → Buf (Elt F) ((c : Thread nD τ).loc b) := fun c b => V9 m (outs m) c b
abbrev Ent6 : (c : Dev nD) → (b : Ref sig .tc) → Buf (Elt F) ((c : Thread nD τ).loc b) := fun c b => V10 m (outs m) c b

theorem Ent1_eq : Ent1 m = fun (c : Dev nD) (b : Ref sig .tc) => S3 m c b := rfl
theorem Ent2_eq : Ent2 m = fun (c : Dev nD) (b : Ref sig .tc) => S4 m c b := rfl
theorem Ent3_eq : Ent3 m = fun (c : Dev nD) (b : Ref sig .tc) => S6 m c b := rfl
theorem Ent4_eq : Ent4 m = fun (c : Dev nD) (b : Ref sig .tc) => S7 m c b := rfl
theorem Ent5_eq : Ent5 m = fun (c : Dev nD) (b : Ref sig .tc) => S9 m c b := rfl
theorem Ent6_eq : Ent6 m = fun (c : Dev nD) (b : Ref sig .tc) => S10 m c b := rfl

/-! ## The regions' outputs by name -/

/-- Region K's output array, at the valuation after it, holds the fold of its pipeline's write-backs over the contents
    the region was entered from. -/
theorem out0_eq (c : Dev nD) : V2 m (outs m) c main_v34 = (dat0 (Ent0 m) c).arrAt 3 cfg0.N :=
  (Function.update_self (Proc.devRef (τ := τ) .tc main_v34) _ _).trans
    (show o2 m main_v34 c = _ from Pipeline.withArrays_arr spec0 launch0.win.arr_inj c _ _ 3)
theorem out1_eq (c : Dev nD) : V4 m (outs m) c main_v48 = (dat1 (Ent1 m) c).arrAt 4 cfg1.N :=
  (Function.update_self (Proc.devRef (τ := τ) .tc main_v48) _ _).trans
    (show o4 m main_v48 c = _ from Pipeline.withArrays_arr spec1 launch1.win.arr_inj c _ _ 4)
theorem out2_eq (c : Dev nD) : V5 m (outs m) c main_v49 = (dat2 (Ent2 m) c).arrAt 2 cfg2.N :=
  (Function.update_self (Proc.devRef (τ := τ) .tc main_v49) _ _).trans
    (show o5 m main_v49 c = _ from Pipeline.withArrays_arr spec2 launch2.win.arr_inj c _ _ 2)
theorem out3_eq (c : Dev nD) : V7 m (outs m) c main_v63 = (dat3 (Ent3 m) c).arrAt 4 cfg3.N :=
  (Function.update_self (Proc.devRef (τ := τ) .tc main_v63) _ _).trans
    (show o7 m main_v63 c = _ from Pipeline.withArrays_arr spec3 launch3.win.arr_inj c _ _ 4)
theorem out4_eq (c : Dev nD) : V8 m (outs m) c main_v64 = (dat4 (Ent4 m) c).arrAt 2 cfg4.N :=
  (Function.update_self (Proc.devRef (τ := τ) .tc main_v64) _ _).trans
    (show o8 m main_v64 c = _ from Pipeline.withArrays_arr spec4 launch4.win.arr_inj c _ _ 2)
theorem out5_eq (c : Dev nD) : V10 m (outs m) c main_v78 = (dat5 (Ent5 m) c).arrAt 4 cfg5.N :=
  (Function.update_self (Proc.devRef (τ := τ) .tc main_v78) _ _).trans
    (show o10 m main_v78 c = _ from Pipeline.withArrays_arr spec5 launch5.win.arr_inj c _ _ 4)
theorem out6_eq (c : Dev nD) : V11 m (outs m) c main_v79 = (dat6 (Ent6 m) c).arrAt 4 cfg6.N :=
  (Function.update_self (Proc.devRef (τ := τ) .tc main_v79) _ _).trans
    (show o11 m main_v79 c = _ from Pipeline.withArrays_arr spec6 launch6.win.arr_inj c _ _ 4)

/-! ## The proof data family and the thread state -/

/-- Every pipeline's proof data, each at the contents its region is entered from. -/
def pdats : (p : Fin 7) → (c : Dev nD) → Dat τ (Elt F) Unit ℕ (UR sig nD τ) ℕ (cfgs p) c
  | ⟨0, _⟩ => fun c => dat0 (Ent0 m) c
  | ⟨1, _⟩ => fun c => dat1 (Ent1 m) c
  | ⟨2, _⟩ => fun c => dat2 (Ent2 m) c
  | ⟨3, _⟩ => fun c => dat3 (Ent3 m) c
  | ⟨4, _⟩ => fun c => dat4 (Ent4 m) c
  | ⟨5, _⟩ => fun c => dat5 (Ent5 m) c
  | ⟨6, _⟩ => fun c => dat6 (Ent6 m) c
  | ⟨_ + 7, h⟩ => absurd h (Nat.not_lt.2 (Nat.le_add_left _ _))

/-- No core owes another anything: no pair is assigned a level. -/
abbrev noPairs : GSem nD τ sig → Finset Unit := fun _ => ∅
abbrev noLevel : GSem nD τ sig → Unit → ℕ := fun _ _ => 0
/-- What rides beside the buffers through every item of @main: the core's generator register at some state (a region's
    invariant takes it in and gives it back) and the core owing nothing. -/
abbrev Rest (c : Dev nD) : sProp 𝕄 :=
  iprop((∃ r, prngReg c r) ∗ ∃ W, owes (c : Thread nD τ) (0 : CellTallies nD τ sig Unit) W)

/-! ## The regions as segments -/

/-! ### Region 0 -/

/-- The contents region 0 is left at, read at the TensorCore's references. -/
abbrev Ex0 : (c : Dev nD) → (b : Ref sig .tc) → Buf (Elt F) ((c : Thread nD τ).loc b) := fun c b => V2 m (outs m) c b

/-- An input window's array is never written back, and the valuation after region 0 differs from the one before it at
    the output's buffer only: at the region's exit the array holds what the region found in it. -/
theorem hF0_w0 (c : Dev nD) : (dat0 (Ent0 m) c).arrAt 0 cfg0.N = Ex0 m c main_v0 := by
  have h1 := (dat0 (Ent0 m) c).arrAt_in 0 rfl cfg0.N
  have h2 := A_eq0 (Ent0 m) c 0
  have h3 := V2_of m (outs m) c main_v0 (by decide)
  exact h1.trans (h2.trans h3.symm)
theorem hF0_w1 (c : Dev nD) : (dat0 (Ent0 m) c).arrAt 1 cfg0.N = Ex0 m c main_arg3 := by
  have h1 := (dat0 (Ent0 m) c).arrAt_in 1 rfl cfg0.N
  have h2 := A_eq0 (Ent0 m) c 1
  have h3 := V2_of m (outs m) c main_arg3 (by decide)
  exact h1.trans (h2.trans h3.symm)
theorem hF0_w2 (c : Dev nD) : (dat0 (Ent0 m) c).arrAt 2 cfg0.N = Ex0 m c main_arg4 := by
  have h1 := (dat0 (Ent0 m) c).arrAt_in 2 rfl cfg0.N
  have h2 := A_eq0 (Ent0 m) c 2
  have h3 := V2_of m (outs m) c main_arg4 (by decide)
  exact h1.trans (h2.trans h3.symm)
/-- At region 0's exit each of its arrays holds what the pipeline leaves: an input by the lemmas above, the output by
    `out0_eq`. -/
theorem hF0 (c : Dev nD) (w : Fin cfg0.W) : (dat0 (Ent0 m) c).arrAt w cfg0.N = Ex0 m c (Pipeline.arrRef spec0 w) :=
  match w with
  | ⟨0, _⟩ => hF0_w0 m c
  | ⟨1, _⟩ => hF0_w1 m c
  | ⟨2, _⟩ => hF0_w2 m c
  | ⟨3, _⟩ => (out0_eq m c).symm
/-- Every buffer that is none of region 0's arrays holds at its exit what it held at its entry. -/
theorem hrest0 (c : Dev nD) : ∀ b, b ∉ Finset.univ.image (Pipeline.arrRef spec0) → Ex0 m c b = Ent0 m c b :=
  fun b hb => V2_of m (outs m) c b fun h => hb (by
    rw [List.mem_singleton.mp h]; exact Finset.mem_image.mpr ⟨3, Finset.mem_univ _, rfl⟩)

-- a library lemma stated over the pinned configuration unifies with the printed one only when unification may unfold
-- plain definitions in a metavariable's type
set_option backward.isDefEq.respectTransparency.types false in
/-- REGION 0 between the thread states before and after it: its arrays split out of the unscoped buffers and put back at
    the exit contents; the generator register into the region's invariant and out; nothing owed; no semaphore of the
    kernel's own. -/
def reg0 : Pipeline.RegionSeg (pcfgs (F := F)) adm (pdats m) () defs₀ Variants.none noPairs noLevel 0 where
  win := launch0.win.to₀
  block_pos := launch0.block_pos
  stage_whole := launch0.stage_whole
  K := PEmpty
  osem k := k.elim
  ho := Pipeline.OwnSemFacts.none _
  hbody c := (body_obligation0 (Ent0 m) c).loose
  hwaits := Pipeline.hwaits_of_owed_zero _ _ _ _ noPairs noLevel 0 fun _ _ => rfl
  pre c := iprop(StableHlo.held (c : Thread nD τ) (Pipeline.ucRefs τ sig) (V1 m c) ∗ Rest c)
  post c := iprop(StableHlo.held (c : Thread nD τ) (Pipeline.ucRefs τ sig) (V2 m (outs m) c) ∗ Rest c)
  X c := iprop(∃ r, prngReg c r)
  Y c := iprop(∃ r, prngReg c r)
  Z c := Pipeline.unscopedRest (Ix := Unit) (Name := ℕ) (U := UR sig nD τ) (Lvl := ℕ) spec0 c (Ent0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ent0 m c) fun w => A_eq0 (Ent0 m) c w
    rw [Pipeline.unscopedBufs_held c (V1 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ent0 m c) (Ex0 m c) ((pdats m 0 c).arrAt · cfg0.N) (hF0 m c) (hrest0 m c)
    rw [Pipeline.unscopedBufs_held c (V2 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 1 -/

/-- The contents region 1 is left at, read at the TensorCore's references. -/
abbrev Ex1 : (c : Dev nD) → (b : Ref sig .tc) → Buf (Elt F) ((c : Thread nD τ).loc b) := fun c b => V4 m (outs m) c b

/-- An input window's array is never written back, and the valuation after region 1 differs from the one before it at
    the output's buffer only: at the region's exit the array holds what the region found in it. -/
theorem hF1_w0 (c : Dev nD) : (dat1 (Ent1 m) c).arrAt 0 cfg1.N = Ex1 m c main_v47 := by
  have h1 := (dat1 (Ent1 m) c).arrAt_in 0 rfl cfg1.N
  have h2 := A_eq1 (Ent1 m) c 0
  have h3 := V4_of m (outs m) c main_v47 (by decide)
  exact h1.trans (h2.trans h3.symm)
theorem hF1_w1 (c : Dev nD) : (dat1 (Ent1 m) c).arrAt 1 cfg1.N = Ex1 m c main_v34 := by
  have h1 := (dat1 (Ent1 m) c).arrAt_in 1 rfl cfg1.N
  have h2 := A_eq1 (Ent1 m) c 1
  have h3 := V4_of m (outs m) c main_v34 (by decide)
  exact h1.trans (h2.trans h3.symm)
theorem hF1_w2 (c : Dev nD) : (dat1 (Ent1 m) c).arrAt 2 cfg1.N = Ex1 m c main_v29 := by
  have h1 := (dat1 (Ent1 m) c).arrAt_in 2 rfl cfg1.N
  have h2 := A_eq1 (Ent1 m) c 2
  have h3 := V4_of m (outs m) c main_v29 (by decide)
  exact h1.trans (h2.trans h3.symm)
theorem hF1_w3 (c : Dev nD) : (dat1 (Ent1 m) c).arrAt 3 cfg1.N = Ex1 m c main_v30 := by
  have h1 := (dat1 (Ent1 m) c).arrAt_in 3 rfl cfg1.N
  have h2 := A_eq1 (Ent1 m) c 3
  have h3 := V4_of m (outs m) c main_v30 (by decide)
  exact h1.trans (h2.trans h3.symm)
/-- At region 1's exit each of its arrays holds what the pipeline leaves: an input by the lemmas above, the output by
    `out1_eq`. -/
theorem hF1 (c : Dev nD) (w : Fin cfg1.W) : (dat1 (Ent1 m) c).arrAt w cfg1.N = Ex1 m c (Pipeline.arrRef spec1 w) :=
  match w with
  | ⟨0, _⟩ => hF1_w0 m c
  | ⟨1, _⟩ => hF1_w1 m c
  | ⟨2, _⟩ => hF1_w2 m c
  | ⟨3, _⟩ => hF1_w3 m c
  | ⟨4, _⟩ => (out1_eq m c).symm
/-- Every buffer that is none of region 1's arrays holds at its exit what it held at its entry. -/
theorem hrest1 (c : Dev nD) : ∀ b, b ∉ Finset.univ.image (Pipeline.arrRef spec1) → Ex1 m c b = Ent1 m c b :=
  fun b hb => V4_of m (outs m) c b fun h => hb (by
    rw [List.mem_singleton.mp h]; exact Finset.mem_image.mpr ⟨4, Finset.mem_univ _, rfl⟩)

-- a library lemma stated over the pinned configuration unifies with the printed one only when unification may unfold
-- plain definitions in a metavariable's type
set_option backward.isDefEq.respectTransparency.types false in
/-- REGION 1 between the thread states before and after it: its arrays split out of the unscoped buffers and put back at
    the exit contents; the generator register into the region's invariant and out; nothing owed; no semaphore of the
    kernel's own. -/
def reg1 : Pipeline.RegionSeg (pcfgs (F := F)) adm (pdats m) () defs₀ Variants.none noPairs noLevel 1 where
  win := launch1.win.to₀
  block_pos := launch1.block_pos
  stage_whole := launch1.stage_whole
  K := PEmpty
  osem k := k.elim
  ho := Pipeline.OwnSemFacts.none _
  hbody c := (body_obligation1 (Ent1 m) c).loose
  hwaits := Pipeline.hwaits_of_owed_zero _ _ _ _ noPairs noLevel 1 fun _ _ => rfl
  pre c := iprop(StableHlo.held (c : Thread nD τ) (Pipeline.ucRefs τ sig) (V3 m (outs m) c) ∗ Rest c)
  post c := iprop(StableHlo.held (c : Thread nD τ) (Pipeline.ucRefs τ sig) (V4 m (outs m) c) ∗ Rest c)
  X c := iprop(∃ r, prngReg c r)
  Y c := iprop(∃ r, prngReg c r)
  Z c := Pipeline.unscopedRest (Ix := Unit) (Name := ℕ) (U := UR sig nD τ) (Lvl := ℕ) spec1 c (Ent1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Ent1 m c) fun w => A_eq1 (Ent1 m) c w
    rw [Pipeline.unscopedBufs_held c (V3 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ent1 m c) (Ex1 m c) ((pdats m 1 c).arrAt · cfg1.N) (hF1 m c) (hrest1 m c)
    rw [Pipeline.unscopedBufs_held c (V4 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 2 -/

/-- The contents region 2 is left at, read at the TensorCore's references. -/
abbrev Ex2 : (c : Dev nD) → (b : Ref sig .tc) → Buf (Elt F) ((c : Thread nD τ).loc b) := fun c b => V5 m (outs m) c b

/-- An input window's array is never written back, and the valuation after region 2 differs from the one before it at
    the output's buffer only: at the region's exit the array holds what the region found in it. -/
theorem hF2_w0 (c : Dev nD) : (dat2 (Ent2 m) c).arrAt 0 cfg2.N = Ex2 m c main_v48 := by
  have h1 := (dat2 (Ent2 m) c).arrAt_in 0 rfl cfg2.N
  have h2 := A_eq2 (Ent2 m) c 0
  have h3 := V5_of m (outs m) c main_v48 (by decide)
  exact h1.trans (h2.trans h3.symm)
theorem hF2_w1 (c : Dev nD) : (dat2 (Ent2 m) c).arrAt 1 cfg2.N = Ex2 m c main_arg6 := by
  have h1 := (dat2 (Ent2 m) c).arrAt_in 1 rfl cfg2.N
  have h2 := A_eq2 (Ent2 m) c 1
  have h3 := V5_of m (outs m) c main_arg6 (by decide)
  exact h1.trans (h2.trans h3.symm)
/-- At region 2's exit each of its arrays holds what the pipeline leaves: an input by the lemmas above, the output by
    `out2_eq`. -/
theorem hF2 (c : Dev nD) (w : Fin cfg2.W) : (dat2 (Ent2 m) c).arrAt w cfg2.N = Ex2 m c (Pipeline.arrRef spec2 w) :=
  match w with
  | ⟨0, _⟩ => hF2_w0 m c
  | ⟨1, _⟩ => hF2_w1 m c
  | ⟨2, _⟩ => (out2_eq m c).symm
/-- Every buffer that is none of region 2's arrays holds at its exit what it held at its entry. -/
theorem hrest2 (c : Dev nD) : ∀ b, b ∉ Finset.univ.image (Pipeline.arrRef spec2) → Ex2 m c b = Ent2 m c b :=
  fun b hb => V5_of m (outs m) c b fun h => hb (by
    rw [List.mem_singleton.mp h]; exact Finset.mem_image.mpr ⟨2, Finset.mem_univ _, rfl⟩)

-- a library lemma stated over the pinned configuration unifies with the printed one only when unification may unfold
-- plain definitions in a metavariable's type
set_option backward.isDefEq.respectTransparency.types false in
/-- REGION 2 between the thread states before and after it: its arrays split out of the unscoped buffers and put back at
    the exit contents; the generator register into the region's invariant and out; nothing owed; no semaphore of the
    kernel's own. -/
def reg2 : Pipeline.RegionSeg (pcfgs (F := F)) adm (pdats m) () defs₀ Variants.none noPairs noLevel 2 where
  win := launch2.win.to₀
  block_pos := launch2.block_pos
  stage_whole := launch2.stage_whole
  K := PEmpty
  osem k := k.elim
  ho := Pipeline.OwnSemFacts.none _
  hbody c := (body_obligation2 (Ent2 m) c).loose
  hwaits := Pipeline.hwaits_of_owed_zero _ _ _ _ noPairs noLevel 2 fun _ _ => rfl
  pre c := iprop(StableHlo.held (c : Thread nD τ) (Pipeline.ucRefs τ sig) (V4 m (outs m) c) ∗ Rest c)
  post c := iprop(StableHlo.held (c : Thread nD τ) (Pipeline.ucRefs τ sig) (V5 m (outs m) c) ∗ Rest c)
  X c := iprop(∃ r, prngReg c r)
  Y c := iprop(∃ r, prngReg c r)
  Z c := Pipeline.unscopedRest (Ix := Unit) (Name := ℕ) (U := UR sig nD τ) (Lvl := ℕ) spec2 c (Ent2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Ent2 m c) fun w => A_eq2 (Ent2 m) c w
    rw [Pipeline.unscopedBufs_held c (V4 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Ent2 m c) (Ex2 m c) ((pdats m 2 c).arrAt · cfg2.N) (hF2 m c) (hrest2 m c)
    rw [Pipeline.unscopedBufs_held c (V5 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 3 -/

/-- The contents region 3 is left at, read at the TensorCore's references. -/
abbrev Ex3 : (c : Dev nD) → (b : Ref sig .tc) → Buf (Elt F) ((c : Thread nD τ).loc b) := fun c b => V7 m (outs m) c b

/-- An input window's array is never written back, and the valuation after region 3 differs from the one before it at
    the output's buffer only: at the region's exit the array holds what the region found in it. -/
theorem hF3_w0 (c : Dev nD) : (dat3 (Ent3 m) c).arrAt 0 cfg3.N = Ex3 m c main_v62 := by
  have h1 := (dat3 (Ent3 m) c).arrAt_in 0 rfl cfg3.N
  have h2 := A_eq3 (Ent3 m) c 0
  have h3 := V7_of m (outs m) c main_v62 (by decide)
  exact h1.trans (h2.trans h3.symm)
theorem hF3_w1 (c : Dev nD) : (dat3 (Ent3 m) c).arrAt 1 cfg3.N = Ex3 m c main_v49 := by
  have h1 := (dat3 (Ent3 m) c).arrAt_in 1 rfl cfg3.N
  have h2 := A_eq3 (Ent3 m) c 1
  have h3 := V7_of m (outs m) c main_v49 (by decide)
  exact h1.trans (h2.trans h3.symm)
theorem hF3_w2 (c : Dev nD) : (dat3 (Ent3 m) c).arrAt 2 cfg3.N = Ex3 m c main_v29 := by
  have h1 := (dat3 (Ent3 m) c).arrAt_in 2 rfl cfg3.N
  have h2 := A_eq3 (Ent3 m) c 2
  have h3 := V7_of m (outs m) c main_v29 (by decide)
  exact h1.trans (h2.trans h3.symm)
theorem hF3_w3 (c : Dev nD) : (dat3 (Ent3 m) c).arrAt 3 cfg3.N = Ex3 m c main_v31 := by
  have h1 := (dat3 (Ent3 m) c).arrAt_in 3 rfl cfg3.N
  have h2 := A_eq3 (Ent3 m) c 3
  have h3 := V7_of m (outs m) c main_v31 (by decide)
  exact h1.trans (h2.trans h3.symm)
/-- At region 3's exit each of its arrays holds what the pipeline leaves: an input by the lemmas above, the output by
    `out3_eq`. -/
theorem hF3 (c : Dev nD) (w : Fin cfg3.W) : (dat3 (Ent3 m) c).arrAt w cfg3.N = Ex3 m c (Pipeline.arrRef spec3 w) :=
  match w with
  | ⟨0, _⟩ => hF3_w0 m c
  | ⟨1, _⟩ => hF3_w1 m c
  | ⟨2, _⟩ => hF3_w2 m c
  | ⟨3, _⟩ => hF3_w3 m c
  | ⟨4, _⟩ => (out3_eq m c).symm
/-- Every buffer that is none of region 3's arrays holds at its exit what it held at its entry. -/
theorem hrest3 (c : Dev nD) : ∀ b, b ∉ Finset.univ.image (Pipeline.arrRef spec3) → Ex3 m c b = Ent3 m c b :=
  fun b hb => V7_of m (outs m) c b fun h => hb (by
    rw [List.mem_singleton.mp h]; exact Finset.mem_image.mpr ⟨4, Finset.mem_univ _, rfl⟩)

-- a library lemma stated over the pinned configuration unifies with the printed one only when unification may unfold
-- plain definitions in a metavariable's type
set_option backward.isDefEq.respectTransparency.types false in
/-- REGION 3 between the thread states before and after it: its arrays split out of the unscoped buffers and put back at
    the exit contents; the generator register into the region's invariant and out; nothing owed; no semaphore of the
    kernel's own. -/
def reg3 : Pipeline.RegionSeg (pcfgs (F := F)) adm (pdats m) () defs₀ Variants.none noPairs noLevel 3 where
  win := launch3.win.to₀
  block_pos := launch3.block_pos
  stage_whole := launch3.stage_whole
  K := PEmpty
  osem k := k.elim
  ho := Pipeline.OwnSemFacts.none _
  hbody c := (body_obligation3 (Ent3 m) c).loose
  hwaits := Pipeline.hwaits_of_owed_zero _ _ _ _ noPairs noLevel 3 fun _ _ => rfl
  pre c := iprop(StableHlo.held (c : Thread nD τ) (Pipeline.ucRefs τ sig) (V6 m (outs m) c) ∗ Rest c)
  post c := iprop(StableHlo.held (c : Thread nD τ) (Pipeline.ucRefs τ sig) (V7 m (outs m) c) ∗ Rest c)
  X c := iprop(∃ r, prngReg c r)
  Y c := iprop(∃ r, prngReg c r)
  Z c := Pipeline.unscopedRest (Ix := Unit) (Name := ℕ) (U := UR sig nD τ) (Lvl := ℕ) spec3 c (Ent3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (Ent3 m c) fun w => A_eq3 (Ent3 m) c w
    rw [Pipeline.unscopedBufs_held c (V6 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (Ent3 m c) (Ex3 m c) ((pdats m 3 c).arrAt · cfg3.N) (hF3 m c) (hrest3 m c)
    rw [Pipeline.unscopedBufs_held c (V7 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 4 -/

/-- The contents region 4 is left at, read at the TensorCore's references. -/
abbrev Ex4 : (c : Dev nD) → (b : Ref sig .tc) → Buf (Elt F) ((c : Thread nD τ).loc b) := fun c b => V8 m (outs m) c b

/-- An input window's array is never written back, and the valuation after region 4 differs from the one before it at
    the output's buffer only: at the region's exit the array holds what the region found in it. -/
theorem hF4_w0 (c : Dev nD) : (dat4 (Ent4 m) c).arrAt 0 cfg4.N = Ex4 m c main_v63 := by
  have h1 := (dat4 (Ent4 m) c).arrAt_in 0 rfl cfg4.N
  have h2 := A_eq4 (Ent4 m) c 0
  have h3 := V8_of m (outs m) c main_v63 (by decide)
  exact h1.trans (h2.trans h3.symm)
theorem hF4_w1 (c : Dev nD) : (dat4 (Ent4 m) c).arrAt 1 cfg4.N = Ex4 m c main_arg8 := by
  have h1 := (dat4 (Ent4 m) c).arrAt_in 1 rfl cfg4.N
  have h2 := A_eq4 (Ent4 m) c 1
  have h3 := V8_of m (outs m) c main_arg8 (by decide)
  exact h1.trans (h2.trans h3.symm)
/-- At region 4's exit each of its arrays holds what the pipeline leaves: an input by the lemmas above, the output by
    `out4_eq`. -/
theorem hF4 (c : Dev nD) (w : Fin cfg4.W) : (dat4 (Ent4 m) c).arrAt w cfg4.N = Ex4 m c (Pipeline.arrRef spec4 w) :=
  match w with
  | ⟨0, _⟩ => hF4_w0 m c
  | ⟨1, _⟩ => hF4_w1 m c
  | ⟨2, _⟩ => (out4_eq m c).symm
/-- Every buffer that is none of region 4's arrays holds at its exit what it held at its entry. -/
theorem hrest4 (c : Dev nD) : ∀ b, b ∉ Finset.univ.image (Pipeline.arrRef spec4) → Ex4 m c b = Ent4 m c b :=
  fun b hb => V8_of m (outs m) c b fun h => hb (by
    rw [List.mem_singleton.mp h]; exact Finset.mem_image.mpr ⟨2, Finset.mem_univ _, rfl⟩)

-- a library lemma stated over the pinned configuration unifies with the printed one only when unification may unfold
-- plain definitions in a metavariable's type
set_option backward.isDefEq.respectTransparency.types false in
/-- REGION 4 between the thread states before and after it: its arrays split out of the unscoped buffers and put back at
    the exit contents; the generator register into the region's invariant and out; nothing owed; no semaphore of the
    kernel's own. -/
def reg4 : Pipeline.RegionSeg (pcfgs (F := F)) adm (pdats m) () defs₀ Variants.none noPairs noLevel 4 where
  win := launch4.win.to₀
  block_pos := launch4.block_pos
  stage_whole := launch4.stage_whole
  K := PEmpty
  osem k := k.elim
  ho := Pipeline.OwnSemFacts.none _
  hbody c := (body_obligation4 (Ent4 m) c).loose
  hwaits := Pipeline.hwaits_of_owed_zero _ _ _ _ noPairs noLevel 4 fun _ _ => rfl
  pre c := iprop(StableHlo.held (c : Thread nD τ) (Pipeline.ucRefs τ sig) (V7 m (outs m) c) ∗ Rest c)
  post c := iprop(StableHlo.held (c : Thread nD τ) (Pipeline.ucRefs τ sig) (V8 m (outs m) c) ∗ Rest c)
  X c := iprop(∃ r, prngReg c r)
  Y c := iprop(∃ r, prngReg c r)
  Z c := Pipeline.unscopedRest (Ix := Unit) (Name := ℕ) (U := UR sig nD τ) (Lvl := ℕ) spec4 c (Ent4 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (Ent4 m c) fun w => A_eq4 (Ent4 m) c w
    rw [Pipeline.unscopedBufs_held c (V7 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (Ent4 m c) (Ex4 m c) ((pdats m 4 c).arrAt · cfg4.N) (hF4 m c) (hrest4 m c)
    rw [Pipeline.unscopedBufs_held c (V8 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 5 -/

/-- The contents region 5 is left at, read at the TensorCore's references. -/
abbrev Ex5 : (c : Dev nD) → (b : Ref sig .tc) → Buf (Elt F) ((c : Thread nD τ).loc b) := fun c b => V10 m (outs m) c b

/-- An input window's array is never written back, and the valuation after region 5 differs from the one before it at
    the output's buffer only: at the region's exit the array holds what the region found in it. -/
theorem hF5_w0 (c : Dev nD) : (dat5 (Ent5 m) c).arrAt 0 cfg5.N = Ex5 m c main_v77 := by
  have h1 := (dat5 (Ent5 m) c).arrAt_in 0 rfl cfg5.N
  have h2 := A_eq5 (Ent5 m) c 0
  have h3 := V10_of m (outs m) c main_v77 (by decide)
  exact h1.trans (h2.trans h3.symm)
theorem hF5_w1 (c : Dev nD) : (dat5 (Ent5 m) c).arrAt 1 cfg5.N = Ex5 m c main_v64 := by
  have h1 := (dat5 (Ent5 m) c).arrAt_in 1 rfl cfg5.N
  have h2 := A_eq5 (Ent5 m) c 1
  have h3 := V10_of m (outs m) c main_v64 (by decide)
  exact h1.trans (h2.trans h3.symm)
theorem hF5_w2 (c : Dev nD) : (dat5 (Ent5 m) c).arrAt 2 cfg5.N = Ex5 m c main_v29 := by
  have h1 := (dat5 (Ent5 m) c).arrAt_in 2 rfl cfg5.N
  have h2 := A_eq5 (Ent5 m) c 2
  have h3 := V10_of m (outs m) c main_v29 (by decide)
  exact h1.trans (h2.trans h3.symm)
theorem hF5_w3 (c : Dev nD) : (dat5 (Ent5 m) c).arrAt 3 cfg5.N = Ex5 m c main_v32 := by
  have h1 := (dat5 (Ent5 m) c).arrAt_in 3 rfl cfg5.N
  have h2 := A_eq5 (Ent5 m) c 3
  have h3 := V10_of m (outs m) c main_v32 (by decide)
  exact h1.trans (h2.trans h3.symm)
/-- At region 5's exit each of its arrays holds what the pipeline leaves: an input by the lemmas above, the output by
    `out5_eq`. -/
theorem hF5 (c : Dev nD) (w : Fin cfg5.W) : (dat5 (Ent5 m) c).arrAt w cfg5.N = Ex5 m c (Pipeline.arrRef spec5 w) :=
  match w with
  | ⟨0, _⟩ => hF5_w0 m c
  | ⟨1, _⟩ => hF5_w1 m c
  | ⟨2, _⟩ => hF5_w2 m c
  | ⟨3, _⟩ => hF5_w3 m c
  | ⟨4, _⟩ => (out5_eq m c).symm
/-- Every buffer that is none of region 5's arrays holds at its exit what it held at its entry. -/
theorem hrest5 (c : Dev nD) : ∀ b, b ∉ Finset.univ.image (Pipeline.arrRef spec5) → Ex5 m c b = Ent5 m c b :=
  fun b hb => V10_of m (outs m) c b fun h => hb (by
    rw [List.mem_singleton.mp h]; exact Finset.mem_image.mpr ⟨4, Finset.mem_univ _, rfl⟩)

-- a library lemma stated over the pinned configuration unifies with the printed one only when unification may unfold
-- plain definitions in a metavariable's type
set_option backward.isDefEq.respectTransparency.types false in
/-- REGION 5 between the thread states before and after it: its arrays split out of the unscoped buffers and put back at
    the exit contents; the generator register into the region's invariant and out; nothing owed; no semaphore of the
    kernel's own. -/
def reg5 : Pipeline.RegionSeg (pcfgs (F := F)) adm (pdats m) () defs₀ Variants.none noPairs noLevel 5 where
  win := launch5.win.to₀
  block_pos := launch5.block_pos
  stage_whole := launch5.stage_whole
  K := PEmpty
  osem k := k.elim
  ho := Pipeline.OwnSemFacts.none _
  hbody c := (body_obligation5 (Ent5 m) c).loose
  hwaits := Pipeline.hwaits_of_owed_zero _ _ _ _ noPairs noLevel 5 fun _ _ => rfl
  pre c := iprop(StableHlo.held (c : Thread nD τ) (Pipeline.ucRefs τ sig) (V9 m (outs m) c) ∗ Rest c)
  post c := iprop(StableHlo.held (c : Thread nD τ) (Pipeline.ucRefs τ sig) (V10 m (outs m) c) ∗ Rest c)
  X c := iprop(∃ r, prngReg c r)
  Y c := iprop(∃ r, prngReg c r)
  Z c := Pipeline.unscopedRest (Ix := Unit) (Name := ℕ) (U := UR sig nD τ) (Lvl := ℕ) spec5 c (Ent5 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (Ent5 m c) fun w => A_eq5 (Ent5 m) c w
    rw [Pipeline.unscopedBufs_held c (V9 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (Ent5 m c) (Ex5 m c) ((pdats m 5 c).arrAt · cfg5.N) (hF5 m c) (hrest5 m c)
    rw [Pipeline.unscopedBufs_held c (V10 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 6 -/

/-- The contents region 6 is left at, read at the TensorCore's references. -/
abbrev Ex6 : (c : Dev nD) → (b : Ref sig .tc) → Buf (Elt F) ((c : Thread nD τ).loc b) := fun c b => V11 m (outs m) c b

/-- An input window's array is never written back, and the valuation after region 6 differs from the one before it at
    the output's buffer only: at the region's exit the array holds what the region found in it. -/
theorem hF6_w0 (c : Dev nD) : (dat6 (Ent6 m) c).arrAt 0 cfg6.N = Ex6 m c main_v1 := by
  have h1 := (dat6 (Ent6 m) c).arrAt_in 0 rfl cfg6.N
  have h2 := A_eq6 (Ent6 m) c 0
  have h3 := V11_of m (outs m) c main_v1 (by decide)
  exact h1.trans (h2.trans h3.symm)
theorem hF6_w1 (c : Dev nD) : (dat6 (Ent6 m) c).arrAt 1 cfg6.N = Ex6 m c main_v78 := by
  have h1 := (dat6 (Ent6 m) c).arrAt_in 1 rfl cfg6.N
  have h2 := A_eq6 (Ent6 m) c 1
  have h3 := V11_of m (outs m) c main_v78 (by decide)
  exact h1.trans (h2.trans h3.symm)
theorem hF6_w2 (c : Dev nD) : (dat6 (Ent6 m) c).arrAt 2 cfg6.N = Ex6 m c main_arg10 := by
  have h1 := (dat6 (Ent6 m) c).arrAt_in 2 rfl cfg6.N
  have h2 := A_eq6 (Ent6 m) c 2
  have h3 := V11_of m (outs m) c main_arg10 (by decide)
  exact h1.trans (h2.trans h3.symm)
theorem hF6_w3 (c : Dev nD) : (dat6 (Ent6 m) c).arrAt 3 cfg6.N = Ex6 m c main_v33 := by
  have h1 := (dat6 (Ent6 m) c).arrAt_in 3 rfl cfg6.N
  have h2 := A_eq6 (Ent6 m) c 3
  have h3 := V11_of m (outs m) c main_v33 (by decide)
  exact h1.trans (h2.trans h3.symm)
/-- At region 6's exit each of its arrays holds what the pipeline leaves: an input by the lemmas above, the output by
    `out6_eq`. -/
theorem hF6 (c : Dev nD) (w : Fin cfg6.W) : (dat6 (Ent6 m) c).arrAt w cfg6.N = Ex6 m c (Pipeline.arrRef spec6 w) :=
  match w with
  | ⟨0, _⟩ => hF6_w0 m c
  | ⟨1, _⟩ => hF6_w1 m c
  | ⟨2, _⟩ => hF6_w2 m c
  | ⟨3, _⟩ => hF6_w3 m c
  | ⟨4, _⟩ => (out6_eq m c).symm
/-- Every buffer that is none of region 6's arrays holds at its exit what it held at its entry. -/
theorem hrest6 (c : Dev nD) : ∀ b, b ∉ Finset.univ.image (Pipeline.arrRef spec6) → Ex6 m c b = Ent6 m c b :=
  fun b hb => V11_of m (outs m) c b fun h => hb (by
    rw [List.mem_singleton.mp h]; exact Finset.mem_image.mpr ⟨4, Finset.mem_univ _, rfl⟩)

-- a library lemma stated over the pinned configuration unifies with the printed one only when unification may unfold
-- plain definitions in a metavariable's type
set_option backward.isDefEq.respectTransparency.types false in
/-- REGION 6 between the thread states before and after it: its arrays split out of the unscoped buffers and put back at
    the exit contents; the generator register into the region's invariant and out; nothing owed; no semaphore of the
    kernel's own. -/
def reg6 : Pipeline.RegionSeg (pcfgs (F := F)) adm (pdats m) () defs₀ Variants.none noPairs noLevel 6 where
  win := launch6.win.to₀
  block_pos := launch6.block_pos
  stage_whole := launch6.stage_whole
  K := PEmpty
  osem k := k.elim
  ho := Pipeline.OwnSemFacts.none _
  hbody c := (body_obligation6 (Ent6 m) c).loose
  hwaits := Pipeline.hwaits_of_owed_zero _ _ _ _ noPairs noLevel 6 fun _ _ => rfl
  pre c := iprop(StableHlo.held (c : Thread nD τ) (Pipeline.ucRefs τ sig) (V10 m (outs m) c) ∗ Rest c)
  post c := iprop(StableHlo.held (c : Thread nD τ) (Pipeline.ucRefs τ sig) (V11 m (outs m) c) ∗ Rest c)
  X c := iprop(∃ r, prngReg c r)
  Y c := iprop(∃ r, prngReg c r)
  Z c := Pipeline.unscopedRest (Ix := Unit) (Name := ℕ) (U := UR sig nD τ) (Lvl := ℕ) spec6 c (Ent6 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (Ent6 m c) fun w => A_eq6 (Ent6 m) c w
    rw [Pipeline.unscopedBufs_held c (V10 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin6 (Ent6 m) c)
    unfold Pipeline.ΦA
    iintro ⟨Hp, -, Hr⟩
    isplitl [Hr]; · iexact Hr
    iexact Hp
  hout c := by
    rw [Pipeline.ownSems0_none]
    refine BIBase.Entails.trans (hout6 (Ent6 m) c) ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (Ent6 m c) (Ex6 m c) ((pdats m 6 c).arrAt · cfg6.N) (hF6 m c) (hrest6 m c)
    rw [Pipeline.unscopedBufs_held c (V11 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

-- the launch theorem's implicit arguments are found by unifying its conclusion with this one, which takes unfolding plain
-- definitions in a metavariable's type
set_option backward.isDefEq.respectTransparency.types false in
/-- THE RUN WITH EVERY UNSCOPED BUFFER NAMED, given the regions' records: under the hypotheses of the conditional frame
    (any contents `o` the regions leave, any proof data, a segment record per region entered from the thread state before
    it and left at the one after it), every weakly fair execution of @main from memory `m` with zero counters terminates
    and every final memory holds each unscoped buffer of each core at the last valuation. The conditional frame's proof
    with the last thread state read whole (`pointsTo_read_all`) rather than at the arguments. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (o : Outs (F := F))
    (pd : (p : Fin 7) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 8 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE7 : ∀ c : Dev nD, E 7 c ⊢ (iprop(∃ W, owes (c : Thread nD τ) (0 : CellTallies nD τ sig Ix) W) : sProp (MT nD τ sig Ix (Elt F) ℕ U Lvl)))
    (R0 : RegionSeg (pcfgs (F := F)) adm pd ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m o c) ∗ E 1 c))
    (R1 : RegionSeg (pcfgs (F := F)) adm pd ι defs₀ 𝒱₀ L lv 1)
    (hpre1 : ∀ c : Dev nD, iprop(StableHlo.held (c : Thread nD τ) (Pipeline.ucRefs τ sig) (V3 m o c) ∗ E 1 c) ⊢ R1.pre c)
    (hpost1 : ∀ c : Dev nD, R1.post c ⊢ iprop(StableHlo.held (c : Thread nD τ) (Pipeline.ucRefs τ sig) (V4 m o c) ∗ E 2 c))
    (R2 : RegionSeg (pcfgs (F := F)) adm pd ι defs₀ 𝒱₀ L lv 2)
    (hpre2 : ∀ c : Dev nD, iprop(StableHlo.held (c : Thread nD τ) (Pipeline.ucRefs τ sig) (V4 m o c) ∗ E 2 c) ⊢ R2.pre c)
    (hpost2 : ∀ c : Dev nD, R2.post c ⊢ iprop(StableHlo.held (c : Thread nD τ) (Pipeline.ucRefs τ sig) (V5 m o c) ∗ E 3 c))
    (R3 : RegionSeg (pcfgs (F := F)) adm pd ι defs₀ 𝒱₀ L lv 3)
    (hpre3 : ∀ c : Dev nD, iprop(StableHlo.held (c : Thread nD τ) (Pipeline.ucRefs τ sig) (V6 m o c) ∗ E 3 c) ⊢ R3.pre c)
    (hpost3 : ∀ c : Dev nD, R3.post c ⊢ iprop(StableHlo.held (c : Thread nD τ) (Pipeline.ucRefs τ sig) (V7 m o c) ∗ E 4 c))
    (R4 : RegionSeg (pcfgs (F := F)) adm pd ι defs₀ 𝒱₀ L lv 4)
    (hpre4 : ∀ c : Dev nD, iprop(StableHlo.held (c : Thread nD τ) (Pipeline.ucRefs τ sig) (V7 m o c) ∗ E 4 c) ⊢ R4.pre c)
    (hpost4 : ∀ c : Dev nD, R4.post c ⊢ iprop(StableHlo.held (c : Thread nD τ) (Pipeline.ucRefs τ sig) (V8 m o c) ∗ E 5 c))
    (R5 : RegionSeg (pcfgs (F := F)) adm pd ι defs₀ 𝒱₀ L lv 5)
    (hpre5 : ∀ c : Dev nD, iprop(StableHlo.held (c : Thread nD τ) (Pipeline.ucRefs τ sig) (V9 m o c) ∗ E 5 c) ⊢ R5.pre c)
    (hpost5 : ∀ c : Dev nD, R5.post c ⊢ iprop(StableHlo.held (c : Thread nD τ) (Pipeline.ucRefs τ sig) (V10 m o c) ∗ E 6 c))
    (R6 : RegionSeg (pcfgs (F := F)) adm pd ι defs₀ 𝒱₀ L lv 6)
    (hpre6 : ∀ c : Dev nD, iprop(StableHlo.held (c : Thread nD τ) (Pipeline.ucRefs τ sig) (V10 m o c) ∗ E 6 c) ⊢ R6.pre c)
    (hpost6 : ∀ c : Dev nD, R6.post c ⊢ iprop(StableHlo.held (c : Thread nD τ) (Pipeline.ucRefs τ sig) (V11 m o c) ∗ E 7 c)) :
    θ_run defs (onTc (τ := τ) (main (F := F))) ⟨m, fun _ => 0, ρ⟩ (fun r => ∀ c : Dev nD,
      ∀ b ∈ Pipeline.ucRefs τ sig, r.2.mem ((c : Thread nD τ).1, b) = V11 m o c b) := by
  refine Pipeline.θ_run_regions_kit_dev (pcfgs (F := F)) adm pd ι cellOf_inj EP defs₀ 𝒱₀ L lv m ρ main
    (segs m o 𝒱₀ L lv E ι pd R0 R1 R2 R3 R4 R5 R6)
    (fun c Q => by
      rewrite [main_chain c, Seg.run_eq_chain,
        show (segs m o 𝒱₀ L lv E ι pd R0 R1 R2 R3 R4 R5 R6 c).map Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          Prog.lift (.customCall (Pipeline.entry 6) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V11 m o c))
    (hch := fun c => ⟨.rfl, hpre0 c, hpost0 c, hpre1 c, (hpost1 c).trans (hpre2 c), hpost2 c, hpre3 c, (hpost3 c).trans (hpre4 c), hpost4 c, hpre5 c, (hpost5 c).trans (hpre6 c), (hpost6 c).trans (sep_mono .rfl (hE7 c))⟩)
    (hinit := ?_)
    (QY := fun c s => ∀ b ∈ Pipeline.ucRefs τ sig, s.mem ((c : Thread nD τ).1, b) = V11 m o c b)
    (hfin := fun c s' => ?_) (hQ := fun _ h => h)
  · -- the launch: the unscoped buffers are held at the launch memory; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last thread state
    unfold StableHlo.held
    iintro ⟨Hh, HSI⟩
    imodintro
    iapply (pointsTo_read_all (Pipeline.ucRefs τ sig) (fun b => ((c : Thread nD τ).1, b)) (V11 m o c) s')
    isplitl [Hh] <;> iassumption

/-! ### The launch's resources -/

/-- The launch element is the pipeline library's, owned through the one-component embedding; no ghost resource besides. -/
theorem launch_own : (ownU (initOf (Pipeline.cells cfgs cellOf_inj) (Pipeline.launchToks cfgs cellOf_inj)) : sProp 𝕄)
    ⊢ |={Set.univ}=> iprop(BI.own ((emb₁ : Emb (UR sig nD τ) 𝕄) (initOf (Pipeline.cells cfgs cellOf_inj) (Pipeline.launchToks cfgs cellOf_inj)))
        ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own ((emb₁ : Emb (UR sig nD τ) 𝕄) (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals each core besides its buffers makes the rest state: the generator register at its launch
    state, the core owing nothing. -/
theorem launch_rest : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts noPairs noLevel)
      ⊢ (|={Set.univ}=> bigSep Finset.univ (fun c : Dev nD => Rest (F := F) c) : sProp 𝕄) := by
  refine Pipeline.initEach noPairs noLevel fun c => ?_
  iintro ⟨⟨-, HO, -, Hp, -⟩, -⟩
  imodintro
  isplitl [Hp]; · iexists _; iexact Hp
  iexists ∅; iexact HO

/-- The rest state ends owing nothing (the register dropped). -/
theorem rest_owes (c : Dev nD) : Rest (F := F) c ⊢ (iprop(∃ W, owes (c : Thread nD τ) (0 : CellTallies nD τ sig Unit) W) : sProp 𝕄) := by
  iintro ⟨-, HO⟩; iexact HO

/-! ### The two runs -/

/-- An unscoped TensorCore reference is among those the thread states hold. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- EVERY BUFFER AT THE END: from any memory `m` with zero counters every weakly fair execution of @main terminates, and
    every final memory holds each unscoped buffer of each core at the last valuation `V11` at `outs` — each region's
    output at the fold of its write-backs (`out0_eq` … `out6_eq`), the host stretches' results at `StableHlo.after`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = V11 m (outs m) c b) :=
  run_cond m ρ (emb₁ : Emb (UR sig nD τ) 𝕄) () Variants.none noPairs noLevel (fun _ _ => rfl) (outs m) (pdats m)
    (0 : Dev nD → CellTallies nD τ sig Unit) (fun _ => (BI.emp : sProp 𝕄))
    (initOf (Pipeline.cells cfgs cellOf_inj) (Pipeline.launchToks cfgs cellOf_inj)) launch_own
    (fun _ c => Rest c) (launch_rest ρ) rest_owes
    (reg0 m) (fun _ => .rfl) (fun _ => .rfl) (reg1 m) (fun _ => .rfl) (fun _ => .rfl)
    (reg2 m) (fun _ => .rfl) (fun _ => .rfl) (reg3 m) (fun _ => .rfl) (fun _ => .rfl)
    (reg4 m) (fun _ => .rfl) (fun _ => .rfl) (reg5 m) (fun _ => .rfl) (fun _ => .rfl)
    (reg6 m) (fun _ => .rfl) (fun _ => .rfl)

/-- THE FRAME at any `F`: from any memory `m` with zero counters every weakly fair execution of @main on the TensorCores
    terminates, nothing faulting, and every final memory has the argument arrays as launched — the conditional frame at
    the seven records above. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Gen.frame_cond m (emb₁ : Emb (UR sig nD τ) 𝕄) () Variants.none noPairs noLevel (fun _ _ => rfl) ρ (outs m) (pdats m)
    (0 : Dev nD → CellTallies nD τ sig Unit) (fun _ => (BI.emp : sProp 𝕄))
    (initOf (Pipeline.cells cfgs cellOf_inj) (Pipeline.launchToks cfgs cellOf_inj)) launch_own
    (fun _ c => Rest c) (launch_rest ρ) rest_owes
    (reg0 m) (fun _ => .rfl) (fun _ => .rfl) (reg1 m) (fun _ => .rfl) (fun _ => .rfl)
    (reg2 m) (fun _ => .rfl) (fun _ => .rfl) (reg3 m) (fun _ => .rfl) (fun _ => .rfl)
    (reg4 m) (fun _ => .rfl) (fun _ => .rfl) (reg5 m) (fun _ => .rfl) (fun _ => .rfl)
    (reg6 m) (fun _ => .rfl) (fun _ => .rfl)

end Cert.Kernel.Hand

end
-- ==== Proof.KI.R0.lean ====
/- Region 0 of @main: the pallas_call of `cc0__embed_matmul0_kernel` (pipeline 0, a grid of 10 points).
   At each point the body loads its three input staging buffers whole — a 5000x1 block of int32 labels, an
   11x128 f32 table, a 128x128 f32 weight matrix — and stores over its whole 5000x128 output staging buffer the
   value `k0_pay1` of the three: the labels compared with an iota along 11 columns (a 0/1 matrix), times the table,
   times the weights, each factor rounded to bf16 before its product and each product taken into f32.
   Everything here is stated at a PARAMETER `V`, the contents of the TensorCore's buffers when the region is
   entered, and at any float model `F`:
     * `iblk0`    — the block of a window at a grid point, read off `V`;
     * `out0_3`   — the output staging buffer after the body, as a function of the three input blocks;
     * `sound_kernel0` — the body's triple on whole staging memrefs;
     * `dat0`     — the pipeline's proof data; `A_eq0`, `after0_W` its projections;
     * `body_obligation0` — the body obligation the pipeline rule asks for, at every grid point. -/
import proofs.«428893_j18313740550827_1_alg».proof.Proof.Gen.KernelIdeal.Launch
import proofs.«428893_j18313740550827_1_alg».proof.Proof.Gen.KernelIdeal.Skeleton
import proofs.«428893_j18313740550827_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- a 5000-row rectangle: deciding that an index lies in it unfolds once per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- what every TensorCore buffer holds when region 0 starts
variable (V : (c : Dev nD) → (b : Ref sig .tc) → Buf (Elt F) ((c : Thread nD τ).loc b))

/-! ## The windows' blocks -/

/-- The block of window `w` that grid point `t` addresses, as a function on the block's indices: the window's
    view at `t`, read through the entry contents `V` of the window's array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- When the body is called at point `t`, the staging buffer of the label window holds that point's block.
    Stated for ANY proof data with the window's array at `V`'s contents (`hA`) and a body that hands the block
    back unchanged (`hafter`). Whether or not the pipeline fetches the window at `t`: where it does not, the block
    index is the previous point's, and so is the block. The window is an input, is never idle, and no block
    of it is cut. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the table window (fetched at the first point only: later its block index does not move). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same for the weights window (fetched at the first point only). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body touches: each of its four memrefs, whole -/

abbrev r0_0 : Rect S5000x1 := Rect.unit (s := S5000x1) ![0, 0] S5000x1.size inb_S5000x1_S5000x1_0_0
abbrev r0_1 : Rect S11x128 := Rect.unit (s := S11x128) ![0, 0] S11x128.size inb_S11x128_S11x128_0_0
abbrev r0_2 : Rect S128x128 := Rect.unit (s := S128x128) ![0, 0] S128x128.size inb_S128x128_S128x128_0_0
abbrev r0_3 : Rect S5000x128 := Rect.unit (s := S5000x128) ![0, 0] S5000x128.size inb_S5000x128_S5000x128_0_0

/-! ## What the body leaves in the output window's buffer -/

/-- The output staging buffer after the body, from the three input blocks `x0` (labels), `x1` (table), `x2`
    (weights). The body stores once, over the whole 5000x128 buffer, the value `k0_pay1` computes from its three
    whole-buffer loads. As a list of stored pieces, last first, there is this single piece. -/
def out0_3 (x0 : Vec F S5000x1 .i32) (x1 : Vec F S11x128 .f32) (x2 : Vec F S128x128 .f32) : Vec F S5000x128 .f32 :=
  View.canon [⟨r0_3, k0_pay1 (View.ld x0 r0_0) (View.ld x1 r0_1) (View.ld x2 r0_2)⟩]

/-- Every index of the output buffer lies in the one stored rectangle (it starts at the origin with the buffer's
    own extents). -/
theorem cover0_3 (p0 : Vec F S5000x128 .f32) (y : S5000x128.Idx) :
    ∃ pc ∈ ([⟨r0_3, p0⟩] : List (View.Piece (Elt F) S5000x128 .f32)), y ∈ pc.1.set :=
  View.cover_of_tiled [⟨r0_3, p0⟩] S5000x128.size (by rfl) y

/-! ## The body's triple -/

set_option maxHeartbeats 1000000 in
/-- The body's triple. Given the three input memrefs whole and reading `x0`, `x1`, `x2`, and the output memref
    whole with arbitrary contents `d`, the body runs to a continuation that gets the inputs back unchanged and
    the output reading `out0_3 x0 x1 x2`. The body's operations in order: three loads of the inputs, one load of
    the output buffer (it reads `d`; no later value depends on it), one store over the whole output buffer.
    The grid coordinate `i` is an argument the body never reads. -/
theorem sound_kernel0 (c : Dev nD) (E : Set ℕ) (i : grid0.Coords)
    (arg1 : Memref sig .tc .vmem S5000x1 .i32) (harg1 : arg1.IsWhole) (arg2 : Memref sig .tc .vmem S11x128 .f32) (harg2 : arg2.IsWhole)
    (arg3 : Memref sig .tc .vmem S128x128 .f32) (harg3 : arg3.IsWhole) (arg4 : Memref sig .tc .vmem S5000x128 .f32) (harg4 : arg4.IsWhole)
    (x0 : Vec F S5000x1 .i32) (x1 : Vec F S11x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__embed_matmul0_kernel i arg1 harg1 arg2 harg2 arg3 harg3 arg4 harg4) K := by
  simp only [cc0__embed_matmul0_kernel_eq_skeleton]; unfold cc0__embed_matmul0_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- Proof data for pipeline 0 on core `c`. The four arrays start at `V`'s contents. The body at point `t` leaves
    each input staging buffer at the block it was given and the output staging buffer at `out0_3` of the three
    input blocks at `t`. The loop invariant is the same at every point (whatever the region does not touch), the
    staging buffers are held at full share, and no core owes another anything. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- Projection: the arrays of `dat0` are `V`'s. -/
theorem A_eq0 (c : Dev nD) (w : Fin cfg0.W) : (dat0 V c).A w = V c (Pipeline.arrRef spec0 w) := by
  dsimp only [dat0]

/-- Projections: what `dat0` says the body leaves in each window's staging buffer. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- For `dat0` itself: at every point each input staging buffer holds that point's block, whatever it held
    before the pipeline's fetch (`d`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at an arbitrary grid point `t` -/

/-- The resources the pipeline hands the body at point `t`: the invariant, the inter-core debts, and the four
    current staging memrefs (the separating product over the windows, written out). -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- The resources the body must hand back: the same, with each staging memref at what `dat0` says it leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- At any point the body takes the first to the second. The three inputs read their blocks at `t` (`before0_W`),
    the output reads whatever it holds, so `sound_kernel0` applies with `xW := iblk0 V c W t`; the invariant and
    the debts do not change from `t` to `t + 1` and are framed around the call. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline rule: the separating products over the four windows unfold to
    `bodyPre0` and `bodyPost0`. -/
theorem body_obligation0 (c : Dev nD) : BodyObligation (dat0 (F := F) V c) (defs₀ (F := F)) Variants.none () Set.univ := fun t => by
  rw [bigSep_W0, bigSep_W0]
  exact sound_body0 V c t

end

end Cert.KernelIdeal.Hand
-- ==== Proof.KI.R1.lean ====
/- The region of @main that runs `cc1__postprocess_kernel` (configuration `cfg1`), at a PARAMETER `V` — the TensorCore's
   buffer contents when the region is entered —, generic in the float model `F`: each window's block at a grid point
   (`iblk1`), what the body leaves in the output window's staging buffer as a function of the four input blocks
   (`out1_4`: the one whole-buffer store of `max (agg + ht * self_norm + bias) 0`), the body's triple (`sound_kernel1`),
   the pipeline's proof data (`dat1`) and the body obligation at every grid point (`body_obligation1`). -/
import proofs.«428893_j18313740550827_1_alg».proof.Proof.Gen.KernelIdeal.Launch
import proofs.«428893_j18313740550827_1_alg».proof.Proof.Gen.KernelIdeal.Skeleton
import proofs.«428893_j18313740550827_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the elaborator's structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for ANY proof data
    whose array is `V`'s (`hA`) and whose body leaves the block in place (`hafter`): where the window is not fetched its
    block index has not moved, so the block the previous point left is this point's. No input window is cut or idle.
    Windows 0, 1, 2 move with the grid; window 3 is one whole array, fetched once. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole staging buffer of the `5000 × 128` windows (0, 1 and 4), of the `5000 × 1` window (2), of the `1 × 128` window (3). -/
abbrev r1_a : Rect S5000x128 := Rect.unit (s := S5000x128) ![0, 0] S5000x128.size inb_S5000x128_S5000x128_0_0
abbrev r1_b : Rect S5000x1 := Rect.unit (s := S5000x1) ![0, 0] S5000x1.size inb_S5000x1_S5000x1_0_0
abbrev r1_c : Rect S1x128 := Rect.unit (s := S1x128) ![0, 0] S1x128.size inb_S1x128_S1x128_0_0

/-! ## What the body leaves in the output window's buffer -/

/-- Window 4's staging buffer after the body, from the four input blocks: its one store, of the whole buffer, whose
    payload is `max (x0 + x1 * x2 + x3) 0` with `x2` broadcast along the columns and `x3` along the rows. -/
def out1_4 (x0 x1 : Vec F S5000x128 .f32) (x2 : Vec F S5000x1 .f32) (x3 : Vec F S1x128 .f32) : Vec F S5000x128 .f32 :=
  View.canon [⟨r1_a, k1_pay1 (View.ld x0 r1_a) (View.ld x1 r1_a) (View.ld x2 r1_b) (View.ld x3 r1_c)⟩]

/-- The one store is of the whole buffer, so it covers it. -/
theorem cover1_4 (p0 : Vec F S5000x128 .f32) (y : S5000x128.Idx) :
    ∃ pc ∈ ([⟨r1_a, p0⟩] : List (View.Piece (Elt F) S5000x128 .f32)), y ∈ pc.1.set :=
  View.cover_of_tiled [⟨r1_a, p0⟩] S5000x128.size (by rfl) y

/-! ## The body's triple -/

set_option maxHeartbeats 1000000 in
/-- The kernel body on whole staging memrefs, the four inputs' at read contents `x0 .. x3` and the output's at anything,
    runs to the continuation holding the inputs' as they were and the output's at `out1_4` of the inputs'. The body
    also loads the output buffer before storing it; nothing reads that value, so whatever the buffer held serves. -/
theorem sound_kernel1 (c : Dev nD) (E : Set ℕ) (i : grid1.Coords)
    (arg0 : Memref sig .tc .vmem S5000x128 .f32) (harg0 : arg0.IsWhole) (arg1 : Memref sig .tc .vmem S5000x128 .f32) (harg1 : arg1.IsWhole)
    (arg2 : Memref sig .tc .vmem S5000x1 .f32) (harg2 : arg2.IsWhole) (arg3 : Memref sig .tc .vmem S1x128 .f32) (harg3 : arg3.IsWhole)
    (arg4 : Memref sig .tc .vmem S5000x128 .f32) (harg4 : arg4.IsWhole)
    (x0 x1 : Vec F S5000x128 .f32) (x2 : Vec F S5000x1 .f32) (x3 : Vec F S1x128 .f32) (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ (∃ d, owns (c : Thread nD τ) arg4 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare (out1_4 x0 x1 x2 x3)) -∗ K ⟨⟩))
      ⊢ wp frame (wpE (defs₀ (F := F)) Variants.none c none) E
          (cc1__postprocess_kernel i arg0 harg0 arg1 harg1 arg2 harg2 arg3 harg3 arg4 harg4) K := by
  simp only [cc1__postprocess_kernel_eq_skeleton]; unfold cc1__postprocess_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The pipeline's proof data on core `c`: the arrays as the region finds them (`V`); after the body at point `t` each
    input's buffer at its block and the output's at `out1_4` of the four input blocks; the invariant: the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks (`before1_W`), so `sound_kernel1` applies; the invariant
    and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand
-- ==== Proof.KI.R2.lean ====
/- Region 2 of @main (custom_call 2, the kernel `cc2__matmul_kernel`, pipeline 2), at a PARAMETER `V`: the
   TensorCore's buffer contents when the region is entered. Three windows over a grid of ten points: window 0 a
   5000x128 block of the left factor (a new block at every point), window 1 the whole 128x128 right factor (one
   block, brought in at the first point and left in place), window 2 the 5000x128 block of the product (written
   back at every point). The body reads the two factors whole, reads the product's buffer once (a value nothing
   uses) and stores the product of the two factors over the whole of it. Stated here: each window's block at a
   point, what the body leaves in the product's buffer, the body's triple, the pipeline's proof data and its body
   obligation. Everything is generic in the float carrier. -/
import proofs.«428893_j18313740550827_1_alg».proof.Proof.Gen.KernelIdeal.Launch
import proofs.«428893_j18313740550827_1_alg».proof.Proof.Gen.KernelIdeal.Skeleton
import proofs.«428893_j18313740550827_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows is decided by structural recursion, once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-! ## The windows' blocks -/

/-- Window `w`'s block at point `t`: the window's view at that point, read off the array's contents at entry. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## What the body finds in the factors' buffers -/

/-- The left factor's current buffer holds its block at every point, for ANY proof data over these arrays whose
    body leaves that block in place: the window is brought in afresh at every point, uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The right factor's buffer holds the whole factor at every point, brought in at the first point only: at a later
    point the block index has not moved and the body has left the buffer as it found it. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole 5000x128 buffer as one rectangle: the left factor's load and the product's store. -/
abbrev r2_0 : Rect S5000x128 := Rect.unit (s := S5000x128) ![0, 0] S5000x128.size inb_S5000x128_S5000x128_0_0
/-- The whole 128x128 buffer as one rectangle: the right factor's load. -/
abbrev r2_1 : Rect S128x128 := Rect.unit (s := S128x128) ![0, 0] S128x128.size inb_S128x128_S128x128_0_0

/-! ## What the body leaves in the product's buffer -/

/-- Window 2's buffer after the body, from the two factors' blocks: the one store, over the whole buffer, of the
    product of what the two loads read. -/
def out2_2 (x0 : Vec F S5000x128 .f32) (x1 : Vec F S128x128 .f32) : Vec F S5000x128 .f32 :=
  View.canon [⟨r2_0, k2_pay1 (View.ld x0 r2_0) (View.ld x1 r2_1)⟩]

/-- The one store is over the whole buffer, so it covers every index (one block of the buffer's own size). -/
theorem cover2_2 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

/-! ## The body's triple -/

set_option maxHeartbeats 1000000 in
/-- The kernel body on whole buffers, the two factors' at read contents `x0`, `x1` and the product's at anything,
    runs to the continuation holding the factors' as they were and the product's at `out2_2 x0 x1`: two whole loads,
    a load of the product's buffer whose value is dropped, and the whole store. -/
theorem sound_kernel2 (c : Dev nD) (E : Set ℕ) (i : grid2.Coords)
    (arg0 : Memref sig .tc .vmem S5000x128 .f32) (harg0 : arg0.IsWhole) (arg1 : Memref sig .tc .vmem S128x128 .f32) (harg1 : arg1.IsWhole)
    (arg2 : Memref sig .tc .vmem S5000x128 .f32) (harg2 : arg2.IsWhole)
    (x0 : Vec F S5000x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out2_2 x0 x1)) -∗ K ⟨⟩))
      ⊢ wp frame (wpE (defs₀ (F := F)) Variants.none c none) E (cc2__matmul_kernel i arg0 harg0 arg1 harg1 arg2 harg2) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them; after the body at point `t` each
    factor's buffer still at its block and the product's buffer at `out2_2` of the two blocks; the invariant that
    keeps the scoped rest and the generator register untouched; full shares; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the contents at entry. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by
  dsimp only [dat2]

/-- Each factor's current buffer holds its block at every point, whatever it held before. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`: the invariant, what the core owes, and the three current buffers, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the factors' buffers hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Hand
-- ==== Proof.KI.R3.lean ====
/- The region of @main that runs `cc3__postprocess_kernel` (configuration `cfg3`), at a PARAMETER `V` — the TensorCore's
   buffer contents when the region is entered —, generic in the float model `F`: each window's block at a grid point
   (`iblk3`), what the body leaves in the output window's staging buffer as a function of the four input blocks
   (`out3_4`: the one whole-buffer store of `max (agg + ht * self_norm + bias) 0`), the body's triple (`sound_kernel3`),
   the pipeline's proof data (`dat3`) and the body obligation at every grid point (`body_obligation3`). -/
import proofs.«428893_j18313740550827_1_alg».proof.Proof.Gen.KernelIdeal.Launch
import proofs.«428893_j18313740550827_1_alg».proof.Proof.Gen.KernelIdeal.Skeleton
import proofs.«428893_j18313740550827_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the elaborator's structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not, for ANY proof data
    whose array is `V`'s (`hA`) and whose body leaves the block in place (`hafter`): where the window is not fetched its
    block index has not moved, so the block the previous point left is this point's. No input window is cut or idle.
    Windows 0, 1, 2 move with the grid; window 3 is one whole array, fetched once. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The whole staging buffer of the `5000 × 128` windows (0, 1 and 4), of the `5000 × 1` window (2), of the `1 × 128` window (3). -/
abbrev r3_a : Rect S5000x128 := Rect.unit (s := S5000x128) ![0, 0] S5000x128.size inb_S5000x128_S5000x128_0_0
abbrev r3_b : Rect S5000x1 := Rect.unit (s := S5000x1) ![0, 0] S5000x1.size inb_S5000x1_S5000x1_0_0
abbrev r3_c : Rect S1x128 := Rect.unit (s := S1x128) ![0, 0] S1x128.size inb_S1x128_S1x128_0_0

/-! ## What the body leaves in the output window's buffer -/

/-- Window 4's staging buffer after the body, from the four input blocks: its one store, of the whole buffer, whose
    payload is `max (x0 + x1 * x2 + x3) 0` with `x2` broadcast along the columns and `x3` along the rows. -/
def out3_4 (x0 x1 : Vec F S5000x128 .f32) (x2 : Vec F S5000x1 .f32) (x3 : Vec F S1x128 .f32) : Vec F S5000x128 .f32 :=
  View.canon [⟨r3_a, k3_pay1 (View.ld x0 r3_a) (View.ld x1 r3_a) (View.ld x2 r3_b) (View.ld x3 r3_c)⟩]

/-- The one store is of the whole buffer, so it covers it. -/
theorem cover3_4 (p0 : Vec F S5000x128 .f32) (y : S5000x128.Idx) :
    ∃ pc ∈ ([⟨r3_a, p0⟩] : List (View.Piece (Elt F) S5000x128 .f32)), y ∈ pc.1.set :=
  View.cover_of_tiled [⟨r3_a, p0⟩] S5000x128.size (by rfl) y

/-! ## The body's triple -/

set_option maxHeartbeats 1000000 in
/-- The kernel body on whole staging memrefs, the four inputs' at read contents `x0 .. x3` and the output's at anything,
    runs to the continuation holding the inputs' as they were and the output's at `out3_4` of the inputs'. The body
    also loads the output buffer before storing it; nothing reads that value, so whatever the buffer held serves. -/
theorem sound_kernel3 (c : Dev nD) (E : Set ℕ) (i : grid3.Coords)
    (arg0 : Memref sig .tc .vmem S5000x128 .f32) (harg0 : arg0.IsWhole) (arg1 : Memref sig .tc .vmem S5000x128 .f32) (harg1 : arg1.IsWhole)
    (arg2 : Memref sig .tc .vmem S5000x1 .f32) (harg2 : arg2.IsWhole) (arg3 : Memref sig .tc .vmem S1x128 .f32) (harg3 : arg3.IsWhole)
    (arg4 : Memref sig .tc .vmem S5000x128 .f32) (harg4 : arg4.IsWhole)
    (x0 x1 : Vec F S5000x128 .f32) (x2 : Vec F S5000x1 .f32) (x3 : Vec F S1x128 .f32) (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ (∃ d, owns (c : Thread nD τ) arg4 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare (out3_4 x0 x1 x2 x3)) -∗ K ⟨⟩))
      ⊢ wp frame (wpE (defs₀ (F := F)) Variants.none c none) E
          (cc3__postprocess_kernel i arg0 harg0 arg1 harg1 arg2 harg2 arg3 harg3 arg4 harg4) K := by
  simp only [cc3__postprocess_kernel_eq_skeleton]; unfold cc3__postprocess_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The pipeline's proof data -/

/-- The pipeline's proof data on core `c`: the arrays as the region finds them (`V`); after the body at point `t` each
    input's buffer at its block and the output's at `out3_4` of the four input blocks; the invariant: the scoped rest
    and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3_4 (iblk3 V c 0 t) (iblk3 V c 1 t) (iblk3 V c 2 t) (iblk3 V c 3 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks (`before3_W`), so `sound_kernel3` applies; the invariant
    and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region3

end Cert.KernelIdeal.Hand
-- ==== Proof.KI.R4.lean ====
/- Region 4 of @main (custom_call 4, the kernel `cc4__matmul_kernel`, pipeline 4), at a PARAMETER `V`: the
   TensorCore's buffer contents when the region is entered. Three windows over a grid of ten points: window 0 a
   5000x128 block of the left factor (a new block at every point), window 1 the whole 128x128 right factor (one
   block, brought in at the first point and left in place), window 2 the 5000x128 block of the product (written
   back at every point). The body reads the two factors whole, reads the product's buffer once (a value nothing
   uses) and stores the product of the two factors over the whole of it. Stated here: each window's block at a
   point, what the body leaves in the product's buffer, the body's triple, the pipeline's proof data and its body
   obligation. Everything is generic in the float carrier. -/
import proofs.«428893_j18313740550827_1_alg».proof.Proof.Gen.KernelIdeal.Launch
import proofs.«428893_j18313740550827_1_alg».proof.Proof.Gen.KernelIdeal.Skeleton
import proofs.«428893_j18313740550827_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows is decided by structural recursion, once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4
variable (V : (c : Dev nD) → (b : Ref sig .tc) → Buf (Elt F) ((c : Thread nD τ).loc b))

/-! ## The windows' blocks -/

/-- Window `w`'s block at point `t`: the window's view at that point, read off the array's contents at entry. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## What the body finds in the factors' buffers -/

/-- The left factor's current buffer holds its block at every point, for ANY proof data over these arrays whose
    body leaves that block in place: the window is brought in afresh at every point, uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The right factor's buffer holds the whole factor at every point, brought in at the first point only: at a later
    point the block index has not moved and the body has left the buffer as it found it. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

/-- The whole 5000x128 buffer as one rectangle: the left factor's load and the product's store. -/
abbrev r4_0 : Rect S5000x128 := Rect.unit (s := S5000x128) ![0, 0] S5000x128.size inb_S5000x128_S5000x128_0_0
/-- The whole 128x128 buffer as one rectangle: the right factor's load. -/
abbrev r4_1 : Rect S128x128 := Rect.unit (s := S128x128) ![0, 0] S128x128.size inb_S128x128_S128x128_0_0

/-! ## What the body leaves in the product's buffer -/

/-- Window 2's buffer after the body, from the two factors' blocks: the one store, over the whole buffer, of the
    product of what the two loads read. -/
def out4_2 (x0 : Vec F S5000x128 .f32) (x1 : Vec F S128x128 .f32) : Vec F S5000x128 .f32 :=
  View.canon [⟨r4_0, k4_pay1 (View.ld x0 r4_0) (View.ld x1 r4_1)⟩]

/-- The one store is over the whole buffer, so it covers every index (one block of the buffer's own size). -/
theorem cover4_2 (p0 : Vec F S5000x128 .f32) (y : S5000x128.Idx) :
    ∃ pc ∈ ([⟨r4_0, p0⟩] : List (View.Piece (Elt F) S5000x128 .f32)), y ∈ pc.1.set :=
  View.cover_of_tiled [⟨r4_0, p0⟩] S5000x128.size (by rfl) y

/-! ## The body's triple -/

set_option maxHeartbeats 1000000 in
/-- The kernel body on whole buffers, the two factors' at read contents `x0`, `x1` and the product's at anything,
    runs to the continuation holding the factors' as they were and the product's at `out4_2 x0 x1`: two whole loads,
    a load of the product's buffer whose value is dropped, and the whole store. -/
theorem sound_kernel4 (c : Dev nD) (E : Set ℕ) (i : grid4.Coords)
    (arg0 : Memref sig .tc .vmem S5000x128 .f32) (harg0 : arg0.IsWhole) (arg1 : Memref sig .tc .vmem S128x128 .f32) (harg1 : arg1.IsWhole)
    (arg2 : Memref sig .tc .vmem S5000x128 .f32) (harg2 : arg2.IsWhole)
    (x0 : Vec F S5000x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out4_2 x0 x1)) -∗ K ⟨⟩))
      ⊢ wp frame (wpE (defs₀ (F := F)) Variants.none c none) E (cc4__matmul_kernel i arg0 harg0 arg1 harg1 arg2 harg2) K := by
  simp only [cc4__matmul_kernel_eq_skeleton]; unfold cc4__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The pipeline's proof data -/

/-- The proof data of pipeline 4 on core `c`: the arrays as the region finds them; after the body at point `t` each
    factor's buffer still at its block and the product's buffer at `out4_2` of the two blocks; the invariant that
    keeps the scoped rest and the generator register untouched; full shares; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

/-- The proof data's arrays are the contents at entry. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by
  dsimp only [dat4]

/-- Each factor's current buffer holds its block at every point, whatever it held before. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`: the invariant, what the core owes, and the three current buffers, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the factors' buffers hold their blocks, so the body's triple applies; the invariant and
    what the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Region4

end Cert.KernelIdeal.Hand
-- ==== Proof.KI.R5.lean ====
/- The region of @main that runs `cc5__postprocess_kernel` (configuration `cfg5`), at a PARAMETER `V` — the TensorCore's
   buffer contents when the region is entered —, generic in the float model `F`: each window's block at a grid point
   (`iblk5`), what the body leaves in the output window's staging buffer as a function of the four input blocks
   (`out5_4`: the one whole-buffer store of `max (agg + ht * self_norm + bias) 0`), the body's triple (`sound_kernel5`),
   the pipeline's proof data (`dat5`) and the body obligation at every grid point (`body_obligation5`). -/
import proofs.«428893_j18313740550827_1_alg».proof.Proof.Gen.KernelIdeal.Launch
import proofs.«428893_j18313740550827_1_alg».proof.Proof.Gen.KernelIdeal.Skeleton
import proofs.«428893_j18313740550827_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the elaborator's structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region5
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, fetched there or not, for ANY proof data
    whose array is `V`'s (`hA`) and whose body leaves the block in place (`hafter`): where the window is not fetched its
    block index has not moved, so the block the previous point left is this point's. No input window is cut or idle.
    Windows 0, 1, 2 move with the grid; window 3 is one whole array, fetched once. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- The whole staging buffer of the `5000 × 128` windows (0, 1 and 4), of the `5000 × 1` window (2), of the `1 × 128` window (3). -/
abbrev r5_a : Rect S5000x128 := Rect.unit (s := S5000x128) ![0, 0] S5000x128.size inb_S5000x128_S5000x128_0_0
abbrev r5_b : Rect S5000x1 := Rect.unit (s := S5000x1) ![0, 0] S5000x1.size inb_S5000x1_S5000x1_0_0
abbrev r5_c : Rect S1x128 := Rect.unit (s := S1x128) ![0, 0] S1x128.size inb_S1x128_S1x128_0_0

/-! ## What the body leaves in the output window's buffer -/

/-- Window 4's staging buffer after the body, from the four input blocks: its one store, of the whole buffer, whose
    payload is `max (x0 + x1 * x2 + x3) 0` with `x2` broadcast along the columns and `x3` along the rows. -/
def out5_4 (x0 x1 : Vec F S5000x128 .f32) (x2 : Vec F S5000x1 .f32) (x3 : Vec F S1x128 .f32) : Vec F S5000x128 .f32 :=
  View.canon [⟨r5_a, k5_pay1 (View.ld x0 r5_a) (View.ld x1 r5_a) (View.ld x2 r5_b) (View.ld x3 r5_c)⟩]

/-- The one store is of the whole buffer, so it covers it. -/
theorem cover5_4 (p0 : Vec F S5000x128 .f32) (y : S5000x128.Idx) :
    ∃ pc ∈ ([⟨r5_a, p0⟩] : List (View.Piece (Elt F) S5000x128 .f32)), y ∈ pc.1.set :=
  View.cover_of_tiled [⟨r5_a, p0⟩] S5000x128.size (by rfl) y

/-! ## The body's triple -/

set_option maxHeartbeats 1000000 in
/-- The kernel body on whole staging memrefs, the four inputs' at read contents `x0 .. x3` and the output's at anything,
    runs to the continuation holding the inputs' as they were and the output's at `out5_4` of the inputs'. The body
    also loads the output buffer before storing it; nothing reads that value, so whatever the buffer held serves. -/
theorem sound_kernel5 (c : Dev nD) (E : Set ℕ) (i : grid5.Coords)
    (arg0 : Memref sig .tc .vmem S5000x128 .f32) (harg0 : arg0.IsWhole) (arg1 : Memref sig .tc .vmem S5000x128 .f32) (harg1 : arg1.IsWhole)
    (arg2 : Memref sig .tc .vmem S5000x1 .f32) (harg2 : arg2.IsWhole) (arg3 : Memref sig .tc .vmem S1x128 .f32) (harg3 : arg3.IsWhole)
    (arg4 : Memref sig .tc .vmem S5000x128 .f32) (harg4 : arg4.IsWhole)
    (x0 x1 : Vec F S5000x128 .f32) (x2 : Vec F S5000x1 .f32) (x3 : Vec F S1x128 .f32) (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ (∃ d, owns (c : Thread nD τ) arg4 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare (out5_4 x0 x1 x2 x3)) -∗ K ⟨⟩))
      ⊢ wp frame (wpE (defs₀ (F := F)) Variants.none c none) E
          (cc5__postprocess_kernel i arg0 harg0 arg1 harg1 arg2 harg2 arg3 harg3 arg4 harg4) K := by
  simp only [cc5__postprocess_kernel_eq_skeleton]; unfold cc5__postprocess_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_4 _)

/-! ## The pipeline's proof data -/

/-- The pipeline's proof data on core `c`: the arrays as the region finds them (`V`); after the body at point `t` each
    input's buffer at its block and the output's at `out5_4` of the four input blocks; the invariant: the scoped rest
    and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) :
    (dat5 V c).after 4 t = out5_4 (iblk5 V c 0 t) (iblk5 V c 1 t) (iblk5 V c 2 t) (iblk5 V c 3 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the inputs' memrefs hold their blocks (`before5_W`), so `sound_kernel5` applies; the invariant
    and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation5 (c : Dev nD) : BodyObligation (dat5 (F := F) V c) (defs₀ (F := F)) Variants.none () Set.univ := fun t => by
  rw [bigSep_W5, bigSep_W5]
  exact sound_body5 V c t

end Region5

end Cert.KernelIdeal.Hand
-- ==== Proof.KI.R6.lean ====
import proofs.«428893_j18313740550827_1_alg».proof.Proof.Gen.KernelIdeal.Launch
import proofs.«428893_j18313740550827_1_alg».proof.Proof.Gen.KernelIdeal.Skeleton
import proofs.«428893_j18313740550827_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The last region of @main: the finalize kernel (pipeline 6), at the entry contents `V`

The kernel sums, over the ten blocks of nodes, the rows of the node features into the 512 graph rows they belong
to (a one-hot matrix product) and counts the nodes of each graph; at the last block it divides the sums by the
counts (at least one) and applies the final linear layer. The two accumulators live in scratch buffers carried
from one grid point to the next: they are reset at the first point and read at the last. -/

/-! ## The body's branch conditions -/

/-- The condition of the body's first `scf.if` (the reset of the accumulators), from the grid coordinate. -/
abbrev cond6_0 (i : grid6.Coords) : Prop := (Scalar.cmpi .ne (Scalar.extui (Scalar.cmpi .eq (BitVec.ofNat 32 (i 0).val) 0#32)) 0#32) = 1#1
/-- It holds at the first point only — decided over the grid. -/
theorem hcond6_0 : ∀ t : Fin cfg6.N, cond6_0 (grid6.coords t) ↔ t.val = 0 :=
  (by decide +kernel : ∀ t : Fin grid6.N, cond6_0 (grid6.coords t) ↔ t.val = 0)

/-- The condition of the body's second `scf.if` (the output's store), from the grid coordinate. -/
abbrev cond6_1 (i : grid6.Coords) : Prop := k6_cond2 i = 1#1
/-- It holds at the last point only — decided over the grid. -/
theorem hcond6_1 : ∀ t : Fin cfg6.N, cond6_1 (grid6.coords t) ↔ t.val = 9 :=
  (by decide +kernel : ∀ t : Fin grid6.N, cond6_1 (grid6.coords t) ↔ t.val = 9)

/-! ## The body's triple, case by case

The body's two conditionals are decided by the grid coordinate, so over the ten points it runs in one of three ways:
at the first point the accumulators are reset to zeros and then added into; at the points strictly between the first
and the last they are added into; at the last point they are added into and the output is stored from them. Every
access is of a whole buffer. -/

/-- The zero offsets of a rank-2 access, as the constant function. -/
theorem hz2 : (![0, 0] : Fin 2 → Nat) = fun _ => 0 := funext fun a => by fin_cases a <;> rfl

/-- A store through the whole-shape rectangle at zero offsets, last in a list of writes, covers the shape. -/
theorem cover_unit_zero {S : Shape} {e : EltTy} {off : Fin S.rank → Nat} (h : off = fun _ => 0)
    (inb : ∀ a, off a + S.size a ≤ S.size a) (w : S.Idx → Elt F e) (L : List (View.Piece (Elt F) S e)) (y : S.Idx) :
    ∃ pc ∈ ((⟨Rect.unit off S.size inb, w⟩ : View.Piece (Elt F) S e) :: L), y ∈ pc.1.set := by
  subst h
  exact ⟨_, List.mem_cons_self, by show y ∈ (Rect.whole S).set; rw [Rect.set_whole]; exact Finset.mem_univ y⟩

set_option maxHeartbeats 2000000 in
/-- THE FIRST POINT. On whole memrefs — the four inputs' at read contents `x·`, the output's at `xi4`, the two
    accumulators' at anything — the body runs to the continuation holding the inputs' and the output's as they were
    and the accumulators at the first block's contribution added to zeros. -/
theorem sound_kernel6_A (c : Dev nD) (E : Set ℕ) (i : grid6.Coords) (arg1 : Memref sig .tc .vmem S5000x1 .i32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S512x64 .f32) (harg5 : arg5.IsWhole) (arg6 : Memref sig .tc .vmem S512x128 .f32) (harg6 : arg6.IsWhole) (arg7 : Memref sig .tc .vmem S512x1 .f32) (harg7 : arg7.IsWhole) (hc0 : cond6_0 i) (hc1 : ¬cond6_1 i)
    (x0 : Vec F S5000x1 .i32) (x1 : Vec F S5000x128 .f32) (x2 : Vec F S128x64 .f32) (x3 : Vec F S1x64 .f32) (xi4 : Vec F S512x64 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare (k6_pay4 x0 x1 k6_pay1) ∗ owns (c : Thread nD τ) arg7 fullShare (k6_pay5 x0 k6_pay2)) -∗ K ⟨⟩))
      ⊢ wp frame (wpE (defs₀ (F := F)) Variants.none c none) E (cc6__finalize_kernel i arg1 harg1 arg2 harg2 arg3 harg3 arg4 harg4 arg5 harg5 arg6 harg6 arg7 harg7) K := by
  simp only [cc6__finalize_kernel_eq_skeleton]; unfold cc6__finalize_kernel_skel
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
  subst hf0 hf1 hf2 hf3 hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [HS0]
  · iexists _; isplitr
    swap; · iexact HS0
    ipureintro
    sl_unfold_run_names
    rw [View.read_writes_eq_canon _ _ _ (cover_unit_zero hz2 _ _ _), View.canon_cons_unit_zero hz2, View.readCov_unit_zero (S := S512x128) _ hz2]
    simp only [View.readAt_eq_ld, View.ld_unit_zero (S := S5000x1) hz2, View.ld_unit_zero (S := S5000x128) hz2, View.ld_unit_zero (S := S512x128) hz2, View.ld_unit_zero (S := S512x1) hz2, View.ld_unit_zero (S := S128x64) hz2, View.ld_unit_zero (S := S1x64) hz2]
  iexists _; isplitr
  swap; · iexact HS1
  ipureintro
  sl_unfold_run_names
  rw [View.read_writes_eq_canon _ _ _ (cover_unit_zero hz2 _ _ _), View.canon_cons_unit_zero hz2, View.readCov_unit_zero (S := S512x1) _ hz2]
  simp only [View.readAt_eq_ld, View.ld_unit_zero (S := S5000x1) hz2, View.ld_unit_zero (S := S5000x128) hz2, View.ld_unit_zero (S := S512x128) hz2, View.ld_unit_zero (S := S512x1) hz2, View.ld_unit_zero (S := S128x64) hz2, View.ld_unit_zero (S := S1x64) hz2]

set_option maxHeartbeats 2000000 in
/-- A POINT STRICTLY BETWEEN the first and the last. The accumulators' memrefs at what the point before left
    (`xs·`): the body adds this block's contribution into them and touches nothing else. -/
theorem sound_kernel6_B (c : Dev nD) (E : Set ℕ) (i : grid6.Coords) (arg1 : Memref sig .tc .vmem S5000x1 .i32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S512x64 .f32) (harg5 : arg5.IsWhole) (arg6 : Memref sig .tc .vmem S512x128 .f32) (harg6 : arg6.IsWhole) (arg7 : Memref sig .tc .vmem S512x1 .f32) (harg7 : arg7.IsWhole) (hc0 : ¬cond6_0 i) (hc1 : ¬cond6_1 i)
    (x0 : Vec F S5000x1 .i32) (x1 : Vec F S5000x128 .f32) (x2 : Vec F S128x64 .f32) (x3 : Vec F S1x64 .f32) (xi4 : Vec F S512x64 .f32)
    (xs0 : Vec F S512x128 .f32) (xs1 : Vec F S512x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xs0 ∗ owns (c : Thread nD τ) arg7 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare (k6_pay4 x0 x1 xs0) ∗ owns (c : Thread nD τ) arg7 fullShare (k6_pay5 x0 xs1)) -∗ K ⟨⟩))
      ⊢ wp frame (wpE (defs₀ (F := F)) Variants.none c none) E (cc6__finalize_kernel i arg1 harg1 arg2 harg2 arg3 harg3 arg4 harg4 arg5 harg5 arg6 harg6 arg7 harg7) K := by
  simp only [cc6__finalize_kernel_eq_skeleton]; unfold cc6__finalize_kernel_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
  subst hf0 hf1 hf2 hf3 hf4 hfs0 hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [HS0]
  · iexists _; isplitr
    swap; · iexact HS0
    ipureintro
    sl_unfold_run_names
    rw [View.read_writes_eq_canon _ _ _ (cover_unit_zero hz2 _ _ _), View.canon_unit_zero hz2]
    simp only [View.readAt_eq_ld, View.ld_unit_zero (S := S5000x1) hz2, View.ld_unit_zero (S := S5000x128) hz2, View.ld_unit_zero (S := S512x128) hz2, View.ld_unit_zero (S := S512x1) hz2, View.ld_unit_zero (S := S128x64) hz2, View.ld_unit_zero (S := S1x64) hz2]
  iexists _; isplitr
  swap; · iexact HS1
  ipureintro
  sl_unfold_run_names
  rw [View.read_writes_eq_canon _ _ _ (cover_unit_zero hz2 _ _ _), View.canon_unit_zero hz2]
  simp only [View.readAt_eq_ld, View.ld_unit_zero (S := S5000x1) hz2, View.ld_unit_zero (S := S5000x128) hz2, View.ld_unit_zero (S := S512x128) hz2, View.ld_unit_zero (S := S512x1) hz2, View.ld_unit_zero (S := S128x64) hz2, View.ld_unit_zero (S := S1x64) hz2]

set_option maxHeartbeats 2000000 in
/-- THE LAST POINT. As between, and then the output's memref — at anything before — is stored whole with the final
    layer applied to the accumulators just updated. -/
theorem sound_kernel6_C (c : Dev nD) (E : Set ℕ) (i : grid6.Coords) (arg1 : Memref sig .tc .vmem S5000x1 .i32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S512x64 .f32) (harg5 : arg5.IsWhole) (arg6 : Memref sig .tc .vmem S512x128 .f32) (harg6 : arg6.IsWhole) (arg7 : Memref sig .tc .vmem S512x1 .f32) (harg7 : arg7.IsWhole) (hc0 : ¬cond6_0 i) (hc1 : cond6_1 i)
    (x0 : Vec F S5000x1 .i32) (x1 : Vec F S5000x128 .f32) (x2 : Vec F S128x64 .f32) (x3 : Vec F S1x64 .f32)
    (xs0 : Vec F S512x128 .f32) (xs1 : Vec F S512x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ owns (c : Thread nD τ) arg6 fullShare xs0 ∗ owns (c : Thread nD τ) arg7 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k6_pay6 (k6_pay4 x0 x1 xs0) (k6_pay5 x0 xs1) x2 x3) ∗ owns (c : Thread nD τ) arg6 fullShare (k6_pay4 x0 x1 xs0) ∗ owns (c : Thread nD τ) arg7 fullShare (k6_pay5 x0 xs1)) -∗ K ⟨⟩))
      ⊢ wp frame (wpE (defs₀ (F := F)) Variants.none c none) E (cc6__finalize_kernel i arg1 harg1 arg2 harg2 arg3 harg3 arg4 harg4 arg5 harg5 arg6 harg6 arg7 harg7) K := by
  simp only [cc6__finalize_kernel_eq_skeleton]; unfold cc6__finalize_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
  subst hf0 hf1 hf2 hf3 hfs0 hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [View.read_writes_eq_canon _ _ _ (cover_unit_zero hz2 _ _ _), View.canon_unit_zero hz2, View.readCov_unit_zero (S := S512x128) _ hz2, View.readCov_unit_zero (S := S512x1) _ hz2]
    simp only [View.readAt_eq_ld, View.ld_unit_zero (S := S5000x1) hz2, View.ld_unit_zero (S := S5000x128) hz2, View.ld_unit_zero (S := S512x128) hz2, View.ld_unit_zero (S := S512x1) hz2, View.ld_unit_zero (S := S128x64) hz2, View.ld_unit_zero (S := S1x64) hz2]
  isplitl [HS0]
  · iexists _; isplitr
    swap; · iexact HS0
    ipureintro
    sl_unfold_run_names
    rw [View.read_writes_eq_canon _ _ _ (cover_unit_zero hz2 _ _ _), View.canon_unit_zero hz2]
    simp only [View.readAt_eq_ld, View.ld_unit_zero (S := S5000x1) hz2, View.ld_unit_zero (S := S5000x128) hz2, View.ld_unit_zero (S := S512x128) hz2, View.ld_unit_zero (S := S512x1) hz2, View.ld_unit_zero (S := S128x64) hz2, View.ld_unit_zero (S := S1x64) hz2]
  iexists _; isplitr
  swap; · iexact HS1
  ipureintro
  sl_unfold_run_names
  rw [View.read_writes_eq_canon _ _ _ (cover_unit_zero hz2 _ _ _), View.canon_unit_zero hz2]
  simp only [View.readAt_eq_ld, View.ld_unit_zero (S := S5000x1) hz2, View.ld_unit_zero (S := S5000x128) hz2, View.ld_unit_zero (S := S512x128) hz2, View.ld_unit_zero (S := S512x1) hz2, View.ld_unit_zero (S := S128x64) hz2, View.ld_unit_zero (S := S1x64) hz2]

section Region6
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! ## The accumulators, point by point -/

/-- What the two scratch buffers hold after point `n`: the row sums and the row counts over the blocks
    `0 … n`, each block's contribution added to what the blocks before it left (zeros before the first). -/
def acc6 (c : Dev nD) : (n : ℕ) → n < cfg6.N → Vec F S512x128 .f32 × Vec F S512x1 .f32
  | 0, h => (k6_pay4 (iblk6 V c 0 ⟨0, h⟩) (iblk6 V c 1 ⟨0, h⟩) k6_pay1, k6_pay5 (iblk6 V c 0 ⟨0, h⟩) k6_pay2)
  | n + 1, h => (k6_pay4 (iblk6 V c 0 ⟨n + 1, h⟩) (iblk6 V c 1 ⟨n + 1, h⟩) (acc6 c n (Nat.lt_of_succ_lt h)).1,
      k6_pay5 (iblk6 V c 0 ⟨n + 1, h⟩) (acc6 c n (Nat.lt_of_succ_lt h)).2)

theorem acc6_zero (c : Dev nD) (h : 0 < cfg6.N) : acc6 V c 0 h = (k6_pay4 (iblk6 V c 0 ⟨0, h⟩) (iblk6 V c 1 ⟨0, h⟩) k6_pay1, k6_pay5 (iblk6 V c 0 ⟨0, h⟩) k6_pay2) := rfl

theorem acc6_succ (c : Dev nD) (n : ℕ) (h : n + 1 < cfg6.N) : acc6 V c (n + 1) h = (k6_pay4 (iblk6 V c 0 ⟨n + 1, h⟩) (iblk6 V c 1 ⟨n + 1, h⟩) (acc6 V c n (Nat.lt_of_succ_lt h)).1, k6_pay5 (iblk6 V c 0 ⟨n + 1, h⟩) (acc6 V c n (Nat.lt_of_succ_lt h)).2) := rfl

/-! ## The region invariant -/

/-- The two scratch operands, whole scoped buffers of the kernel's own. -/
abbrev scM6_0 : Memref sig .tc .vmem S512x128 .f32 := Memref.whole cc6_scratch0
abbrev scM6_1 : Memref sig .tc .vmem S512x1 .f32 := Memref.whole cc6_scratch1

/-- The invariant before position `n`: before the first point the class's (every scoped buffer at anything);
    afterwards the two accumulators at what the point before left in them, the other scoped buffers at anything,
    the generator register at some state. -/
def PhiS6 (c : Dev nD) : (n : ℕ) → n ≤ cfg6.N → sProp 𝕄
  | 0, _ => Pipeline.ΦA spec6 c
  | n + 1, hn => iprop(iprop(iprop(owns (c : Thread nD τ) scM6_0 fullShare (acc6 V c n hn).1 ∗ owns (c : Thread nD τ) scM6_1 fullShare (acc6 V c n hn).2)
      ∗ Pipeline.scopedRestBut (Ix := Unit) (Name := ℕ) (U := UR sig nD τ) (Lvl := ℕ) (Val := Elt F) spec6 c [cc6_scratch0, cc6_scratch1]) ∗ (∃ r, prngReg c r))

/-! ## The pipeline's proof data -/

/-- The proof data of the pipeline on core `c`: the arrays as the region finds them; after the body at point `t`
    each input's buffer at its block and the output's at the final layer applied to the accumulators of that point
    (consulted at the last point only: elsewhere the body leaves the output's buffer as it found it); the invariant
    `PhiS6`; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => k6_pay6 (acc6 V c t.val t.isLt).1 (acc6 V c t.val t.isLt).2 (iblk6 V c 2 t) (iblk6 V c 3 t)
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem after6_4_last (c : Dev nD) : (dat6 V c).after 4 ⟨9, by decide⟩ = k6_pay6 (acc6 V c 9 (by decide)).1 (acc6 V c 9 (by decide)).2 (iblk6 V c 2 ⟨9, by decide⟩) (iblk6 V c 3 ⟨9, by decide⟩) := by
  dsimp only [dat6]

/-! ## The accumulators at a point, by its position -/

/-- At the first point: the first block's contribution added to zeros. -/
theorem acc6_first (c : Dev nD) (t : Fin cfg6.N) (h0 : t.val = 0) :
    acc6 V c t.val t.isLt = (k6_pay4 (iblk6 V c 0 t) (iblk6 V c 1 t) k6_pay1, k6_pay5 (iblk6 V c 0 t) k6_pay2) := by
  obtain ⟨n, hn⟩ := t
  dsimp only at h0
  subst h0
  rfl

/-- At a later point: this block's contribution added to what the point before left. -/
theorem acc6_pos (c : Dev nD) (t : Fin cfg6.N) (h0 : t.val ≠ 0) :
    acc6 V c t.val t.isLt = (k6_pay4 (iblk6 V c 0 t) (iblk6 V c 1 t) (acc6 V c (t.val - 1) (Nat.lt_of_le_of_lt (Nat.sub_le _ _) t.isLt)).1,
      k6_pay5 (iblk6 V c 0 t) (acc6 V c (t.val - 1) (Nat.lt_of_le_of_lt (Nat.sub_le _ _) t.isLt)).2) := by
  obtain ⟨n, hn⟩ := t
  cases n with
  | zero => exact absurd rfl h0
  | succ n => rfl

/-! ## The invariant, position by position -/

theorem PhiS6_zero (c : Dev nD) (n : ℕ) (h : n ≤ cfg6.N) (hz : n = 0) : PhiS6 V c n h = Pipeline.ΦA spec6 c := by
  subst hz; rfl

/-- After point `n` (before point `n + 1`): the accumulators at that point's contents. -/
theorem PhiS6_succ (c : Dev nD) (n : ℕ) (hn : n < cfg6.N) :
    PhiS6 V c (n + 1) hn = iprop(iprop(iprop(owns (c : Thread nD τ) scM6_0 fullShare (acc6 V c n hn).1 ∗ owns (c : Thread nD τ) scM6_1 fullShare (acc6 V c n hn).2)
      ∗ Pipeline.scopedRestBut (Ix := Unit) (Name := ℕ) (U := UR sig nD τ) (Lvl := ℕ) (Val := Elt F) spec6 c [cc6_scratch0, cc6_scratch1]) ∗ (∃ r, prngReg c r)) := rfl

/-- Before a point that is not the first: the accumulators at what the point before left. -/
theorem PhiS6_pos (c : Dev nD) (n : ℕ) (h : n ≤ cfg6.N) (hz : n ≠ 0) :
    PhiS6 V c n h = iprop(iprop(iprop(owns (c : Thread nD τ) scM6_0 fullShare (acc6 V c (n - 1) (by omega)).1 ∗ owns (c : Thread nD τ) scM6_1 fullShare (acc6 V c (n - 1) (by omega)).2)
      ∗ Pipeline.scopedRestBut (Ix := Unit) (Name := ℕ) (U := UR sig nD τ) (Lvl := ℕ) (Val := Elt F) spec6 c [cc6_scratch0, cc6_scratch1]) ∗ (∃ r, prngReg c r)) := by
  cases n with
  | zero => exact absurd rfl hz
  | succ n => rfl

/-- The class's invariant with the two accumulators split off the scoped rest, each whole at some contents. -/
theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d))
          ∗ Pipeline.scopedRestBut (Ix := Unit) (Name := ℕ) (U := UR sig nD τ) (Lvl := ℕ) (Val := Elt F) spec6 c [cc6_scratch0, cc6_scratch1]) ∗ (∃ r, prngReg c r)) := by
  unfold Pipeline.ΦA; rw [scopedRest6_split]; simp only [scM6_0, scM6_1, owns_whole]; try rfl

/-- The invariant at a point's start (the proof data at `t.castSucc`), restated at `t.val`. -/
theorem PhiS6_castSucc (c : Dev nD) (t : Fin cfg6.N) :
    (dat6 V c).Φ t.castSucc = PhiS6 V c t.val (Nat.le_of_lt t.isLt) := by
  dsimp only [dat6]; simp only [Fin.coe_castSucc]

/-! ## The windows' buffers at a point -/

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = k6_pay6 (acc6 V c t.val t.isLt).1 (acc6 V c t.val t.isLt).2 (iblk6 V c 2 t) (iblk6 V c 3 t) := by dsimp only [dat6]

/-- Input window 0's current staging buffer holds its block at every point, fetched there or not: the body leaves
    it in place, and where the pipeline does not fetch, the block index has not moved. -/
theorem before6_0 (c : Dev nD) (t : Fin cfg6.N) (d) : (dat6 V c).before 0 t d = iblk6 V c 0 t :=
  ((dat6 V c).before_in_eq_fetched 0 rfl (fun _ => rfl) (fun _ _ _ => rfl) (fun t => by rw [after6_0]; unfold Dat.blockOf iblk6; rw [A_eq6]; try rfl) t d).trans
    (by unfold Dat.fetched Dat.blockOf iblk6; rw [A_eq6]; try rfl)

/-- Input window 1's current staging buffer holds its block at every point, fetched there or not: the body leaves
    it in place, and where the pipeline does not fetch, the block index has not moved. -/
theorem before6_1 (c : Dev nD) (t : Fin cfg6.N) (d) : (dat6 V c).before 1 t d = iblk6 V c 1 t :=
  ((dat6 V c).before_in_eq_fetched 1 rfl (fun _ => rfl) (fun _ _ _ => rfl) (fun t => by rw [after6_1]; unfold Dat.blockOf iblk6; rw [A_eq6]; try rfl) t d).trans
    (by unfold Dat.fetched Dat.blockOf iblk6; rw [A_eq6]; try rfl)

/-- Input window 2's current staging buffer holds its block at every point, fetched there or not: the body leaves
    it in place, and where the pipeline does not fetch, the block index has not moved. -/
theorem before6_2 (c : Dev nD) (t : Fin cfg6.N) (d) : (dat6 V c).before 2 t d = iblk6 V c 2 t :=
  ((dat6 V c).before_in_eq_fetched 2 rfl (fun _ => rfl) (fun _ _ _ => rfl) (fun t => by rw [after6_2]; unfold Dat.blockOf iblk6; rw [A_eq6]; try rfl) t d).trans
    (by unfold Dat.fetched Dat.blockOf iblk6; rw [A_eq6]; try rfl)

/-- Input window 3's current staging buffer holds its block at every point, fetched there or not: the body leaves
    it in place, and where the pipeline does not fetch, the block index has not moved. -/
theorem before6_3 (c : Dev nD) (t : Fin cfg6.N) (d) : (dat6 V c).before 3 t d = iblk6 V c 3 t :=
  ((dat6 V c).before_in_eq_fetched 3 rfl (fun _ => rfl) (fun _ _ _ => rfl) (fun t => by rw [after6_3]; unfold Dat.blockOf iblk6; rw [A_eq6]; try rfl) t d).trans
    (by unfold Dat.fetched Dat.blockOf iblk6; rw [A_eq6]; try rfl)

/-! ## Where the windows are idle -/

theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel
theorem liveAt6_3 : ∀ t : Fin cfg6.N, cfg6.idle 3 (grid6.coords t) = false := by decide +kernel
/-- Off the last point the output window is idle: the body stores nothing into it, -/
theorem idleAt6_4 : ∀ t : Fin cfg6.N, ¬cond6_1 (grid6.coords t) → cfg6.idle 4 (grid6.coords t) = true := by decide +kernel
/-- and the pipeline does not write its block back; -/
theorem noFlush6_4 : ∀ t : Fin cfg6.N, ¬cond6_1 (grid6.coords t) → (cfg6.win 4).flush t = false := by decide +kernel
/-- at the last point it is live. -/
theorem liveAt6_4 : ∀ t : Fin cfg6.N, cond6_1 (grid6.coords t) → cfg6.idle 4 (grid6.coords t) = false := by decide +kernel

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d)))

/-- and what it returns. -/
def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t)

set_option maxHeartbeats 4800000 in
/-- The body at any point: the inputs' memrefs hold their blocks; the position of the point says which of the three
    ways the body runs; the invariant hands it the accumulators at what the point before left (at anything at the
    first point) and takes them back at this point's contents; off the last point the output's buffer is handed back
    as found; the core owes nothing throughout. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).owesAt () t.succ = (dat6 V c).owesAt () t.castSucc from rfl]
  rw [show (dat6 V c).Φ t.succ = PhiS6 V c (t.val + 1) t.isLt from rfl, PhiS6_succ]
  rw [show (dat6 V c).leavesExact 0 t = owns (c : Thread nD τ) (st6_0 t) fullShare ((dat6 V c).after 0 t) from by
    unfold Dat.leavesExact; rw [liveAt6_0 t], after6_0]
  rw [show (dat6 V c).leavesExact 1 t = owns (c : Thread nD τ) (st6_1 t) fullShare ((dat6 V c).after 1 t) from by
    unfold Dat.leavesExact; rw [liveAt6_1 t], after6_1]
  rw [show (dat6 V c).leavesExact 2 t = owns (c : Thread nD τ) (st6_2 t) fullShare ((dat6 V c).after 2 t) from by
    unfold Dat.leavesExact; rw [liveAt6_2 t], after6_2]
  rw [show (dat6 V c).leavesExact 3 t = owns (c : Thread nD τ) (st6_3 t) fullShare ((dat6 V c).after 3 t) from by
    unfold Dat.leavesExact; rw [liveAt6_3 t], after6_3]
  have hN : t.val < 10 := lt_of_lt_of_eq t.isLt (show cfg6.N = 10 from N_6)
  by_cases h0 : t.val = 0
  · have h1 : ¬t.val = 9 := by omega
    rw [Dat.leavesExact_idle (dat6 V c) 4 t (idleAt6_4 t (fun h => h1 ((hcond6_1 t).mp h))) (noFlush6_4 t (fun h => h1 ((hcond6_1 t).mp h)))]
    rw [acc6_first V c t h0]
    rw [PhiS6_castSucc V c t, PhiS6_zero V c _ _ h0, PhiA6_eq]
    iintro ⟨⟨⟨⟨HS0, HS1⟩, Hr⟩, Hg⟩, Ho, ⟨%d0, H0⟩, ⟨%d1, H1⟩, ⟨%d2, H2⟩, ⟨%d3, H3⟩, ⟨%d4, H4⟩⟩
    iapply (sound_kernel6_A c Set.univ (grid6.coords t) _ _ _ _ _ _ _ _ _ _ _ _ _ _ ((hcond6_0 t).mpr h0) (fun h => h1 ((hcond6_1 t).mp h))
      (iblk6 V c 0 t) (iblk6 V c 1 t) (iblk6 V c 2 t) (iblk6 V c 3 t) _ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexact H1
    isplitl [H2]; · iexact H2
    isplitl [H3]; · iexact H3
    iexists _; iexact H4
  · by_cases h1 : t.val = 9
    · rw [show (dat6 V c).leavesExact 4 t = owns (c : Thread nD τ) (st6_4 t) fullShare ((dat6 V c).after 4 t) from by
        unfold Dat.leavesExact; rw [liveAt6_4 t ((hcond6_1 t).mpr h1)], after6_4]
      rw [acc6_pos V c t h0]
      rw [PhiS6_castSucc V c t, PhiS6_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩⟩
      iapply (sound_kernel6_C c Set.univ (grid6.coords t) _ _ _ _ _ _ _ _ _ _ _ _ _ _ (fun h => h0 ((hcond6_0 t).mp h)) ((hcond6_1 t).mpr h1)
        (iblk6 V c 0 t) (iblk6 V c 1 t) (iblk6 V c 2 t) (iblk6 V c 3 t) _ _ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      iexact H4
    · rw [Dat.leavesExact_idle (dat6 V c) 4 t (idleAt6_4 t (fun h => h1 ((hcond6_1 t).mp h))) (noFlush6_4 t (fun h => h1 ((hcond6_1 t).mp h)))]
      rw [acc6_pos V c t h0]
      rw [PhiS6_castSucc V c t, PhiS6_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩⟩
      iapply (sound_kernel6_B c Set.univ (grid6.coords t) _ _ _ _ _ _ _ _ _ _ _ _ _ _ (fun h => h0 ((hcond6_0 t).mp h)) (fun h => h1 ((hcond6_1 t).mp h))
        (iblk6 V c 0 t) (iblk6 V c 1 t) (iblk6 V c 2 t) (iblk6 V c 3 t) _ _ _ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation6 (c : Dev nD) : BodyObligation (dat6 (F := F) V c) (defs₀ (F := F)) Variants.none () Set.univ := fun t => by
  rw [bigSep_W6, bigSep_W6]
  exact sound_body6 V c t

/-- What the launch hands the region is the invariant before the first point. -/
theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

/-- After any point the invariant gives the class's back: the accumulators' named contents are forgotten. -/
theorem Phi_out6 (c : Dev nD) (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

/-- The same after the last point. -/
theorem hout6 (c : Dev nD) : (dat6 V c).Φ (Fin.last cfg6.N) ⊢ Pipeline.ΦA spec6 c :=
  Phi_out6 V c _ (by rw [Fin.val_last]; have : cfg6.N = 10 := N_6; omega)

end Region6

end Cert.KernelIdeal.Hand

end
-- ==== Proof.KI.Run.lean ====
/- The run of @main through its seven kernel regions, generic in the float model `F`: what each region leaves in its
   output array, named stage by stage from the launch memory (`outs`); the contents every region is entered from
   (`Ent0` … `Ent6`); the proof data of the seven pipelines at those contents (`pdats`); each region as a segment between
   two thread states "every unscoped buffer at the boundary's contents, the generator register at some state, nothing
   owed" (`reg0` … `reg6`); and the run itself: every argument ends as launched (`frame`), and every unscoped buffer
   ends at the last boundary's contents (`run_all`). -/
import proofs.«428893_j18313740550827_1_alg».proof.Proof.KI.R0
import proofs.«428893_j18313740550827_1_alg».proof.Proof.KI.R1
import proofs.«428893_j18313740550827_1_alg».proof.Proof.KI.R2
import proofs.«428893_j18313740550827_1_alg».proof.Proof.KI.R3
import proofs.«428893_j18313740550827_1_alg».proof.Proof.KI.R4
import proofs.«428893_j18313740550827_1_alg».proof.Proof.KI.R5
import proofs.«428893_j18313740550827_1_alg».proof.Proof.KI.R6
import proofs.«428893_j18313740550827_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- decided memberships among the program's references, and rectangles of 5000 rows, recurse past the default depth
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions leave, stage by stage

Region K's output array ends at the fold of its write-backs over the contents the region was entered from
(`Dat.arrAt … N`). Those contents are themselves the launch memory taken through the host stretches and the earlier
regions' outputs, so the outputs are named in @main's order: `o2` from the launch memory, the contents `S2`, `S3`
after it, `o4` from `S3`, and so on. `outs` gathers them; each `SJ` is then the boundary valuation `VJ` at `outs`
by unfolding (`SJ_eq`). -/

/-- The contents region 0 is entered from: the launch memory after the first host stretch. -/
abbrev Ent0 : (c : Dev nD) → (b : Ref sig .tc) → Buf (Elt F) ((c : Thread nD τ).loc b) := fun c b => V1 m c b

/-- After region 0: its arrays at what its pipeline leaves, read at any reference `r`. -/
def o2 (r : Ref sig .tc) (c : Dev nD) : Buf (Elt F) ((c : Thread nD τ).loc r) :=
  Pipeline.withArrays spec0 c (V1 m c) (fun w => (dat0 (Ent0 m) c).arrAt w cfg0.N) (Proc.devRef .tc r)
/-- The unscoped buffers after region 0, -/
def S2 (c : Dev nD) : Valuation τ sig (Elt F) := Function.update (V1 m c) main_v34 (o2 m main_v34 c)
/-- and after the host stretch that follows it: what region 1 is entered from. -/
def S3 (c : Dev nD) : Valuation τ sig (Elt F) := StableHlo.after hostOps1 (S2 m c)

/-- After region 1: its arrays at what its pipeline leaves. -/
def o4 (r : Ref sig .tc) (c : Dev nD) : Buf (Elt F) ((c : Thread nD τ).loc r) :=
  Pipeline.withArrays spec1 c (S3 m c) (fun w => (dat1 (fun c b => S3 m c b) c).arrAt w cfg1.N) (Proc.devRef .tc r)
/-- The unscoped buffers after region 1: what region 2 is entered from. -/
def S4 (c : Dev nD) : Valuation τ sig (Elt F) := Function.update (S3 m c) main_v48 (o4 m main_v48 c)

/-- After region 2: its arrays at what its pipeline leaves. -/
def o5 (r : Ref sig .tc) (c : Dev nD) : Buf (Elt F) ((c : Thread nD τ).loc r) :=
  Pipeline.withArrays spec2 c (S4 m c) (fun w => (dat2 (fun c b => S4 m c b) c).arrAt w cfg2.N) (Proc.devRef .tc r)
/-- The unscoped buffers after region 2, -/
def S5 (c : Dev nD) : Valuation τ sig (Elt F) := Function.update (S4 m c) main_v49 (o5 m main_v49 c)
/-- and after the host stretch that follows it: what region 3 is entered from. -/
def S6 (c : Dev nD) : Valuation τ sig (Elt F) := StableHlo.after hostOps3 (S5 m c)

/-- After region 3: its arrays at what its pipeline leaves. -/
def o7 (r : Ref sig .tc) (c : Dev nD) : Buf (Elt F) ((c : Thread nD τ).loc r) :=
  Pipeline.withArrays spec3 c (S6 m c) (fun w => (dat3 (fun c b => S6 m c b) c).arrAt w cfg3.N) (Proc.devRef .tc r)
/-- The unscoped buffers after region 3: what region 4 is entered from. -/
def S7 (c : Dev nD) : Valuation τ sig (Elt F) := Function.update (S6 m c) main_v63 (o7 m main_v63 c)

/-- After region 4: its arrays at what its pipeline leaves. -/
def o8 (r : Ref sig .tc) (c : Dev nD) : Buf (Elt F) ((c : Thread nD τ).loc r) :=
  Pipeline.withArrays spec4 c (S7 m c) (fun w => (dat4 (fun c b => S7 m c b) c).arrAt w cfg4.N) (Proc.devRef .tc r)
/-- The unscoped buffers after region 4, -/
def S8 (c : Dev nD) : Valuation τ sig (Elt F) := Function.update (S7 m c) main_v64 (o8 m main_v64 c)
/-- and after the host stretch that follows it: what region 5 is entered from. -/
def S9 (c : Dev nD) : Valuation τ sig (Elt F) := StableHlo.after hostOps5 (S8 m c)

/-- After region 5: its arrays at what its pipeline leaves. -/
def o10 (r : Ref sig .tc) (c : Dev nD) : Buf (Elt F) ((c : Thread nD τ).loc r) :=
  Pipeline.withArrays spec5 c (S9 m c) (fun w => (dat5 (fun c b => S9 m c b) c).arrAt w cfg5.N) (Proc.devRef .tc r)
/-- The unscoped buffers after region 5: what region 6 is entered from. -/
def S10 (c : Dev nD) : Valuation τ sig (Elt F) := Function.update (S9 m c) main_v78 (o10 m main_v78 c)

/-- After region 6: its arrays at what its pipeline leaves. -/
def o11 (r : Ref sig .tc) (c : Dev nD) : Buf (Elt F) ((c : Thread nD τ).loc r) :=
  Pipeline.withArrays spec6 c (S10 m c) (fun w => (dat6 (fun c b => S10 m c b) c).arrAt w cfg6.N) (Proc.devRef .tc r)

/-- What the regions leave in the buffers they may change: after item 1 (region 0) `o2`, after item 3 (region 1) `o4`,
    after item 4 (region 2) `o5`, after item 6 (region 3) `o7`, after item 7 (region 4) `o8`, after item 9 (region 5)
    `o10`, after item 10 (region 6) `o11`; the boundary valuations read no other index. -/
def outs : Outs (F := F) := fun J => match J with
  | 2 => o2 m
  | 4 => o4 m
  | 5 => o5 m
  | 7 => o7 m
  | 8 => o8 m
  | 10 => o10 m
  | 11 => o11 m
  | _ => o2 m

/-- The staged contents are the boundary valuations at `outs`. -/
theorem S2_eq (c : Dev nD) : V2 m (outs m) c = S2 m c := rfl
theorem S3_eq (c : Dev nD) : V3 m (outs m) c = S3 m c := rfl
theorem S4_eq (c : Dev nD) : V4 m (outs m) c = S4 m c := rfl
theorem S5_eq (c : Dev nD) : V5 m (outs m) c = S5 m c := rfl
theorem S6_eq (c : Dev nD) : V6 m (outs m) c = S6 m c := rfl
theorem S7_eq (c : Dev nD) : V7 m (outs m) c = S7 m c := rfl
theorem S8_eq (c : Dev nD) : V8 m (outs m) c = S8 m c := rfl
theorem S9_eq (c : Dev nD) : V9 m (outs m) c = S9 m c := rfl
theorem S10_eq (c : Dev nD) : V10 m (outs m) c = S10 m c := rfl

/-- The contents regions 1 … 6 are entered from, read at the TensorCore's references. -/
abbrev Ent1 : (c : Dev nD) → (b : Ref sig .tc) → Buf (Elt F) ((c : Thread nD τ).loc b) := fun c b => V3 m (outs m) c b
abbrev Ent2 : (c : Dev nD) → (b : Ref sig .tc) → Buf (Elt F) ((c : Thread nD τ).loc b) := fun c b => V4 m (outs m) c b
abbrev Ent3 : (c : Dev nD) → (b : Ref sig .tc) → Buf (Elt F) ((c : Thread nD τ).loc b) := fun c b => V6 m (outs m) c b
abbrev Ent4 : (c : Dev nD) → (b : Ref sig .tc) → Buf (Elt F) ((c : Thread nD τ).loc b) := fun c b => V7 m (outs m) c b
abbrev Ent5 : (c : Dev nD) → (b : Ref sig .tc) → Buf (Elt F) ((c : Thread nD τ).loc b) := fun c b => V9 m (outs m) c b
abbrev Ent6 : (c : Dev nD) → (b : Ref sig .tc) → Buf (Elt F) ((c : Thread nD τ).loc b) := fun c b => V10 m (outs m) c b

theorem Ent1_eq : Ent1 m = fun (c : Dev nD) (b : Ref sig .tc) => S3 m c b := rfl
theorem Ent2_eq : Ent2 m = fun (c : Dev nD) (b : Ref sig .tc) => S4 m c b := rfl
theorem Ent3_eq : Ent3 m = fun (c : Dev nD) (b : Ref sig .tc) => S6 m c b := rfl
theorem Ent4_eq : Ent4 m = fun (c : Dev nD) (b : Ref sig .tc) => S7 m c b := rfl
theorem Ent5_eq : Ent5 m = fun (c : Dev nD) (b : Ref sig .tc) => S9 m c b := rfl
theorem Ent6_eq : Ent6 m = fun (c : Dev nD) (b : Ref sig .tc) => S10 m c b := rfl

/-! ## The regions' outputs by name -/

/-- Region K's output array, at the valuation after it, holds the fold of its pipeline's write-backs over the contents
    the region was entered from. -/
theorem out0_eq (c : Dev nD) : V2 m (outs m) c main_v34 = (dat0 (Ent0 m) c).arrAt 3 cfg0.N :=
  (Function.update_self (Proc.devRef (τ := τ) .tc main_v34) _ _).trans
    (show o2 m main_v34 c = _ from Pipeline.withArrays_arr spec0 launch0.win.arr_inj c _ _ 3)
theorem out1_eq (c : Dev nD) : V4 m (outs m) c main_v48 = (dat1 (Ent1 m) c).arrAt 4 cfg1.N :=
  (Function.update_self (Proc.devRef (τ := τ) .tc main_v48) _ _).trans
    (show o4 m main_v48 c = _ from Pipeline.withArrays_arr spec1 launch1.win.arr_inj c _ _ 4)
theorem out2_eq (c : Dev nD) : V5 m (outs m) c main_v49 = (dat2 (Ent2 m) c).arrAt 2 cfg2.N :=
  (Function.update_self (Proc.devRef (τ := τ) .tc main_v49) _ _).trans
    (show o5 m main_v49 c = _ from Pipeline.withArrays_arr spec2 launch2.win.arr_inj c _ _ 2)
theorem out3_eq (c : Dev nD) : V7 m (outs m) c main_v63 = (dat3 (Ent3 m) c).arrAt 4 cfg3.N :=
  (Function.update_self (Proc.devRef (τ := τ) .tc main_v63) _ _).trans
    (show o7 m main_v63 c = _ from Pipeline.withArrays_arr spec3 launch3.win.arr_inj c _ _ 4)
theorem out4_eq (c : Dev nD) : V8 m (outs m) c main_v64 = (dat4 (Ent4 m) c).arrAt 2 cfg4.N :=
  (Function.update_self (Proc.devRef (τ := τ) .tc main_v64) _ _).trans
    (show o8 m main_v64 c = _ from Pipeline.withArrays_arr spec4 launch4.win.arr_inj c _ _ 2)
theorem out5_eq (c : Dev nD) : V10 m (outs m) c main_v78 = (dat5 (Ent5 m) c).arrAt 4 cfg5.N :=
  (Function.update_self (Proc.devRef (τ := τ) .tc main_v78) _ _).trans
    (show o10 m main_v78 c = _ from Pipeline.withArrays_arr spec5 launch5.win.arr_inj c _ _ 4)
theorem out6_eq (c : Dev nD) : V11 m (outs m) c main_v79 = (dat6 (Ent6 m) c).arrAt 4 cfg6.N :=
  (Function.update_self (Proc.devRef (τ := τ) .tc main_v79) _ _).trans
    (show o11 m main_v79 c = _ from Pipeline.withArrays_arr spec6 launch6.win.arr_inj c _ _ 4)

/-! ## The proof data family and the thread state -/

/-- Every pipeline's proof data, each at the contents its region is entered from. -/
def pdats : (p : Fin 7) → (c : Dev nD) → Dat τ (Elt F) Unit ℕ (UR sig nD τ) ℕ (cfgs p) c
  | ⟨0, _⟩ => fun c => dat0 (Ent0 m) c
  | ⟨1, _⟩ => fun c => dat1 (Ent1 m) c
  | ⟨2, _⟩ => fun c => dat2 (Ent2 m) c
  | ⟨3, _⟩ => fun c => dat3 (Ent3 m) c
  | ⟨4, _⟩ => fun c => dat4 (Ent4 m) c
  | ⟨5, _⟩ => fun c => dat5 (Ent5 m) c
  | ⟨6, _⟩ => fun c => dat6 (Ent6 m) c
  | ⟨_ + 7, h⟩ => absurd h (Nat.not_lt.2 (Nat.le_add_left _ _))

/-- No core owes another anything: no pair is assigned a level. -/
abbrev noPairs : GSem nD τ sig → Finset Unit := fun _ => ∅
abbrev noLevel : GSem nD τ sig → Unit → ℕ := fun _ _ => 0
/-- What rides beside the buffers through every item of @main: the core's generator register at some state (a region's
    invariant takes it in and gives it back) and the core owing nothing. -/
abbrev Rest (c : Dev nD) : sProp 𝕄 :=
  iprop((∃ r, prngReg c r) ∗ ∃ W, owes (c : Thread nD τ) (0 : CellTallies nD τ sig Unit) W)

/-! ## The regions as segments -/

/-! ### Region 0 -/

/-- The contents region 0 is left at, read at the TensorCore's references. -/
abbrev Ex0 : (c : Dev nD) → (b : Ref sig .tc) → Buf (Elt F) ((c : Thread nD τ).loc b) := fun c b => V2 m (outs m) c b

/-- An input window's array is never written back, and the valuation after region 0 differs from the one before it at
    the output's buffer only: at the region's exit the array holds what the region found in it. -/
theorem hF0_w0 (c : Dev nD) : (dat0 (Ent0 m) c).arrAt 0 cfg0.N = Ex0 m c main_v0 := by
  have h1 := (dat0 (Ent0 m) c).arrAt_in 0 rfl cfg0.N
  have h2 := A_eq0 (Ent0 m) c 0
  have h3 := V2_of m (outs m) c main_v0 (by decide)
  exact h1.trans (h2.trans h3.symm)
theorem hF0_w1 (c : Dev nD) : (dat0 (Ent0 m) c).arrAt 1 cfg0.N = Ex0 m c main_arg3 := by
  have h1 := (dat0 (Ent0 m) c).arrAt_in 1 rfl cfg0.N
  have h2 := A_eq0 (Ent0 m) c 1
  have h3 := V2_of m (outs m) c main_arg3 (by decide)
  exact h1.trans (h2.trans h3.symm)
theorem hF0_w2 (c : Dev nD) : (dat0 (Ent0 m) c).arrAt 2 cfg0.N = Ex0 m c main_arg4 := by
  have h1 := (dat0 (Ent0 m) c).arrAt_in 2 rfl cfg0.N
  have h2 := A_eq0 (Ent0 m) c 2
  have h3 := V2_of m (outs m) c main_arg4 (by decide)
  exact h1.trans (h2.trans h3.symm)
/-- At region 0's exit each of its arrays holds what the pipeline leaves: an input by the lemmas above, the output by
    `out0_eq`. -/
theorem hF0 (c : Dev nD) (w : Fin cfg0.W) : (dat0 (Ent0 m) c).arrAt w cfg0.N = Ex0 m c (Pipeline.arrRef spec0 w) :=
  match w with
  | ⟨0, _⟩ => hF0_w0 m c
  | ⟨1, _⟩ => hF0_w1 m c
  | ⟨2, _⟩ => hF0_w2 m c
  | ⟨3, _⟩ => (out0_eq m c).symm
/-- Every buffer that is none of region 0's arrays holds at its exit what it held at its entry. -/
theorem hrest0 (c : Dev nD) : ∀ b, b ∉ Finset.univ.image (Pipeline.arrRef spec0) → Ex0 m c b = Ent0 m c b :=
  fun b hb => V2_of m (outs m) c b fun h => hb (by
    rw [List.mem_singleton.mp h]; exact Finset.mem_image.mpr ⟨3, Finset.mem_univ _, rfl⟩)

-- a library lemma stated over the pinned configuration unifies with the printed one only when unification may unfold
-- plain definitions in a metavariable's type
set_option backward.isDefEq.respectTransparency.types false in
/-- REGION 0 between the thread states before and after it: its arrays split out of the unscoped buffers and put back at
    the exit contents; the generator register into the region's invariant and out; nothing owed; no semaphore of the
    kernel's own. -/
def reg0 : Pipeline.RegionSeg (pcfgs (F := F)) adm (pdats m) () defs₀ Variants.none noPairs noLevel 0 where
  win := launch0.win.to₀
  block_pos := launch0.block_pos
  stage_whole := launch0.stage_whole
  K := PEmpty
  osem k := k.elim
  ho := Pipeline.OwnSemFacts.none _
  hbody c := (body_obligation0 (Ent0 m) c).loose
  hwaits := Pipeline.hwaits_of_owed_zero _ _ _ _ noPairs noLevel 0 fun _ _ => rfl
  pre c := iprop(StableHlo.held (c : Thread nD τ) (Pipeline.ucRefs τ sig) (V1 m c) ∗ Rest c)
  post c := iprop(StableHlo.held (c : Thread nD τ) (Pipeline.ucRefs τ sig) (V2 m (outs m) c) ∗ Rest c)
  X c := iprop(∃ r, prngReg c r)
  Y c := iprop(∃ r, prngReg c r)
  Z c := Pipeline.unscopedRest (Ix := Unit) (Name := ℕ) (U := UR sig nD τ) (Lvl := ℕ) spec0 c (Ent0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ent0 m c) fun w => A_eq0 (Ent0 m) c w
    rw [Pipeline.unscopedBufs_held c (V1 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ent0 m c) (Ex0 m c) ((pdats m 0 c).arrAt · cfg0.N) (hF0 m c) (hrest0 m c)
    rw [Pipeline.unscopedBufs_held c (V2 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 1 -/

/-- The contents region 1 is left at, read at the TensorCore's references. -/
abbrev Ex1 : (c : Dev nD) → (b : Ref sig .tc) → Buf (Elt F) ((c : Thread nD τ).loc b) := fun c b => V4 m (outs m) c b

/-- An input window's array is never written back, and the valuation after region 1 differs from the one before it at
    the output's buffer only: at the region's exit the array holds what the region found in it. -/
theorem hF1_w0 (c : Dev nD) : (dat1 (Ent1 m) c).arrAt 0 cfg1.N = Ex1 m c main_v47 := by
  have h1 := (dat1 (Ent1 m) c).arrAt_in 0 rfl cfg1.N
  have h2 := A_eq1 (Ent1 m) c 0
  have h3 := V4_of m (outs m) c main_v47 (by decide)
  exact h1.trans (h2.trans h3.symm)
theorem hF1_w1 (c : Dev nD) : (dat1 (Ent1 m) c).arrAt 1 cfg1.N = Ex1 m c main_v34 := by
  have h1 := (dat1 (Ent1 m) c).arrAt_in 1 rfl cfg1.N
  have h2 := A_eq1 (Ent1 m) c 1
  have h3 := V4_of m (outs m) c main_v34 (by decide)
  exact h1.trans (h2.trans h3.symm)
theorem hF1_w2 (c : Dev nD) : (dat1 (Ent1 m) c).arrAt 2 cfg1.N = Ex1 m c main_v29 := by
  have h1 := (dat1 (Ent1 m) c).arrAt_in 2 rfl cfg1.N
  have h2 := A_eq1 (Ent1 m) c 2
  have h3 := V4_of m (outs m) c main_v29 (by decide)
  exact h1.trans (h2.trans h3.symm)
theorem hF1_w3 (c : Dev nD) : (dat1 (Ent1 m) c).arrAt 3 cfg1.N = Ex1 m c main_v30 := by
  have h1 := (dat1 (Ent1 m) c).arrAt_in 3 rfl cfg1.N
  have h2 := A_eq1 (Ent1 m) c 3
  have h3 := V4_of m (outs m) c main_v30 (by decide)
  exact h1.trans (h2.trans h3.symm)
/-- At region 1's exit each of its arrays holds what the pipeline leaves: an input by the lemmas above, the output by
    `out1_eq`. -/
theorem hF1 (c : Dev nD) (w : Fin cfg1.W) : (dat1 (Ent1 m) c).arrAt w cfg1.N = Ex1 m c (Pipeline.arrRef spec1 w) :=
  match w with
  | ⟨0, _⟩ => hF1_w0 m c
  | ⟨1, _⟩ => hF1_w1 m c
  | ⟨2, _⟩ => hF1_w2 m c
  | ⟨3, _⟩ => hF1_w3 m c
  | ⟨4, _⟩ => (out1_eq m c).symm
/-- Every buffer that is none of region 1's arrays holds at its exit what it held at its entry. -/
theorem hrest1 (c : Dev nD) : ∀ b, b ∉ Finset.univ.image (Pipeline.arrRef spec1) → Ex1 m c b = Ent1 m c b :=
  fun b hb => V4_of m (outs m) c b fun h => hb (by
    rw [List.mem_singleton.mp h]; exact Finset.mem_image.mpr ⟨4, Finset.mem_univ _, rfl⟩)

-- a library lemma stated over the pinned configuration unifies with the printed one only when unification may unfold
-- plain definitions in a metavariable's type
set_option backward.isDefEq.respectTransparency.types false in
/-- REGION 1 between the thread states before and after it: its arrays split out of the unscoped buffers and put back at
    the exit contents; the generator register into the region's invariant and out; nothing owed; no semaphore of the
    kernel's own. -/
def reg1 : Pipeline.RegionSeg (pcfgs (F := F)) adm (pdats m) () defs₀ Variants.none noPairs noLevel 1 where
  win := launch1.win.to₀
  block_pos := launch1.block_pos
  stage_whole := launch1.stage_whole
  K := PEmpty
  osem k := k.elim
  ho := Pipeline.OwnSemFacts.none _
  hbody c := (body_obligation1 (Ent1 m) c).loose
  hwaits := Pipeline.hwaits_of_owed_zero _ _ _ _ noPairs noLevel 1 fun _ _ => rfl
  pre c := iprop(StableHlo.held (c : Thread nD τ) (Pipeline.ucRefs τ sig) (V3 m (outs m) c) ∗ Rest c)
  post c := iprop(StableHlo.held (c : Thread nD τ) (Pipeline.ucRefs τ sig) (V4 m (outs m) c) ∗ Rest c)
  X c := iprop(∃ r, prngReg c r)
  Y c := iprop(∃ r, prngReg c r)
  Z c := Pipeline.unscopedRest (Ix := Unit) (Name := ℕ) (U := UR sig nD τ) (Lvl := ℕ) spec1 c (Ent1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Ent1 m c) fun w => A_eq1 (Ent1 m) c w
    rw [Pipeline.unscopedBufs_held c (V3 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ent1 m c) (Ex1 m c) ((pdats m 1 c).arrAt · cfg1.N) (hF1 m c) (hrest1 m c)
    rw [Pipeline.unscopedBufs_held c (V4 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 2 -/

/-- The contents region 2 is left at, read at the TensorCore's references. -/
abbrev Ex2 : (c : Dev nD) → (b : Ref sig .tc) → Buf (Elt F) ((c : Thread nD τ).loc b) := fun c b => V5 m (outs m) c b

/-- An input window's array is never written back, and the valuation after region 2 differs from the one before it at
    the output's buffer only: at the region's exit the array holds what the region found in it. -/
theorem hF2_w0 (c : Dev nD) : (dat2 (Ent2 m) c).arrAt 0 cfg2.N = Ex2 m c main_v48 := by
  have h1 := (dat2 (Ent2 m) c).arrAt_in 0 rfl cfg2.N
  have h2 := A_eq2 (Ent2 m) c 0
  have h3 := V5_of m (outs m) c main_v48 (by decide)
  exact h1.trans (h2.trans h3.symm)
theorem hF2_w1 (c : Dev nD) : (dat2 (Ent2 m) c).arrAt 1 cfg2.N = Ex2 m c main_arg6 := by
  have h1 := (dat2 (Ent2 m) c).arrAt_in 1 rfl cfg2.N
  have h2 := A_eq2 (Ent2 m) c 1
  have h3 := V5_of m (outs m) c main_arg6 (by decide)
  exact h1.trans (h2.trans h3.symm)
/-- At region 2's exit each of its arrays holds what the pipeline leaves: an input by the lemmas above, the output by
    `out2_eq`. -/
theorem hF2 (c : Dev nD) (w : Fin cfg2.W) : (dat2 (Ent2 m) c).arrAt w cfg2.N = Ex2 m c (Pipeline.arrRef spec2 w) :=
  match w with
  | ⟨0, _⟩ => hF2_w0 m c
  | ⟨1, _⟩ => hF2_w1 m c
  | ⟨2, _⟩ => (out2_eq m c).symm
/-- Every buffer that is none of region 2's arrays holds at its exit what it held at its entry. -/
theorem hrest2 (c : Dev nD) : ∀ b, b ∉ Finset.univ.image (Pipeline.arrRef spec2) → Ex2 m c b = Ent2 m c b :=
  fun b hb => V5_of m (outs m) c b fun h => hb (by
    rw [List.mem_singleton.mp h]; exact Finset.mem_image.mpr ⟨2, Finset.mem_univ _, rfl⟩)

-- a library lemma stated over the pinned configuration unifies with the printed one only when unification may unfold
-- plain definitions in a metavariable's type
set_option backward.isDefEq.respectTransparency.types false in
/-- REGION 2 between the thread states before and after it: its arrays split out of the unscoped buffers and put back at
    the exit contents; the generator register into the region's invariant and out; nothing owed; no semaphore of the
    kernel's own. -/
def reg2 : Pipeline.RegionSeg (pcfgs (F := F)) adm (pdats m) () defs₀ Variants.none noPairs noLevel 2 where
  win := launch2.win.to₀
  block_pos := launch2.block_pos
  stage_whole := launch2.stage_whole
  K := PEmpty
  osem k := k.elim
  ho := Pipeline.OwnSemFacts.none _
  hbody c := (body_obligation2 (Ent2 m) c).loose
  hwaits := Pipeline.hwaits_of_owed_zero _ _ _ _ noPairs noLevel 2 fun _ _ => rfl
  pre c := iprop(StableHlo.held (c : Thread nD τ) (Pipeline.ucRefs τ sig) (V4 m (outs m) c) ∗ Rest c)
  post c := iprop(StableHlo.held (c : Thread nD τ) (Pipeline.ucRefs τ sig) (V5 m (outs m) c) ∗ Rest c)
  X c := iprop(∃ r, prngReg c r)
  Y c := iprop(∃ r, prngReg c r)
  Z c := Pipeline.unscopedRest (Ix := Unit) (Name := ℕ) (U := UR sig nD τ) (Lvl := ℕ) spec2 c (Ent2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Ent2 m c) fun w => A_eq2 (Ent2 m) c w
    rw [Pipeline.unscopedBufs_held c (V4 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Ent2 m c) (Ex2 m c) ((pdats m 2 c).arrAt · cfg2.N) (hF2 m c) (hrest2 m c)
    rw [Pipeline.unscopedBufs_held c (V5 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 3 -/

/-- The contents region 3 is left at, read at the TensorCore's references. -/
abbrev Ex3 : (c : Dev nD) → (b : Ref sig .tc) → Buf (Elt F) ((c : Thread nD τ).loc b) := fun c b => V7 m (outs m) c b

/-- An input window's array is never written back, and the valuation after region 3 differs from the one before it at
    the output's buffer only: at the region's exit the array holds what the region found in it. -/
theorem hF3_w0 (c : Dev nD) : (dat3 (Ent3 m) c).arrAt 0 cfg3.N = Ex3 m c main_v62 := by
  have h1 := (dat3 (Ent3 m) c).arrAt_in 0 rfl cfg3.N
  have h2 := A_eq3 (Ent3 m) c 0
  have h3 := V7_of m (outs m) c main_v62 (by decide)
  exact h1.trans (h2.trans h3.symm)
theorem hF3_w1 (c : Dev nD) : (dat3 (Ent3 m) c).arrAt 1 cfg3.N = Ex3 m c main_v49 := by
  have h1 := (dat3 (Ent3 m) c).arrAt_in 1 rfl cfg3.N
  have h2 := A_eq3 (Ent3 m) c 1
  have h3 := V7_of m (outs m) c main_v49 (by decide)
  exact h1.trans (h2.trans h3.symm)
theorem hF3_w2 (c : Dev nD) : (dat3 (Ent3 m) c).arrAt 2 cfg3.N = Ex3 m c main_v29 := by
  have h1 := (dat3 (Ent3 m) c).arrAt_in 2 rfl cfg3.N
  have h2 := A_eq3 (Ent3 m) c 2
  have h3 := V7_of m (outs m) c main_v29 (by decide)
  exact h1.trans (h2.trans h3.symm)
theorem hF3_w3 (c : Dev nD) : (dat3 (Ent3 m) c).arrAt 3 cfg3.N = Ex3 m c main_v31 := by
  have h1 := (dat3 (Ent3 m) c).arrAt_in 3 rfl cfg3.N
  have h2 := A_eq3 (Ent3 m) c 3
  have h3 := V7_of m (outs m) c main_v31 (by decide)
  exact h1.trans (h2.trans h3.symm)
/-- At region 3's exit each of its arrays holds what the pipeline leaves: an input by the lemmas above, the output by
    `out3_eq`. -/
theorem hF3 (c : Dev nD) (w : Fin cfg3.W) : (dat3 (Ent3 m) c).arrAt w cfg3.N = Ex3 m c (Pipeline.arrRef spec3 w) :=
  match w with
  | ⟨0, _⟩ => hF3_w0 m c
  | ⟨1, _⟩ => hF3_w1 m c
  | ⟨2, _⟩ => hF3_w2 m c
  | ⟨3, _⟩ => hF3_w3 m c
  | ⟨4, _⟩ => (out3_eq m c).symm
/-- Every buffer that is none of region 3's arrays holds at its exit what it held at its entry. -/
theorem hrest3 (c : Dev nD) : ∀ b, b ∉ Finset.univ.image (Pipeline.arrRef spec3) → Ex3 m c b = Ent3 m c b :=
  fun b hb => V7_of m (outs m) c b fun h => hb (by
    rw [List.mem_singleton.mp h]; exact Finset.mem_image.mpr ⟨4, Finset.mem_univ _, rfl⟩)

-- a library lemma stated over the pinned configuration unifies with the printed one only when unification may unfold
-- plain definitions in a metavariable's type
set_option backward.isDefEq.respectTransparency.types false in
/-- REGION 3 between the thread states before and after it: its arrays split out of the unscoped buffers and put back at
    the exit contents; the generator register into the region's invariant and out; nothing owed; no semaphore of the
    kernel's own. -/
def reg3 : Pipeline.RegionSeg (pcfgs (F := F)) adm (pdats m) () defs₀ Variants.none noPairs noLevel 3 where
  win := launch3.win.to₀
  block_pos := launch3.block_pos
  stage_whole := launch3.stage_whole
  K := PEmpty
  osem k := k.elim
  ho := Pipeline.OwnSemFacts.none _
  hbody c := (body_obligation3 (Ent3 m) c).loose
  hwaits := Pipeline.hwaits_of_owed_zero _ _ _ _ noPairs noLevel 3 fun _ _ => rfl
  pre c := iprop(StableHlo.held (c : Thread nD τ) (Pipeline.ucRefs τ sig) (V6 m (outs m) c) ∗ Rest c)
  post c := iprop(StableHlo.held (c : Thread nD τ) (Pipeline.ucRefs τ sig) (V7 m (outs m) c) ∗ Rest c)
  X c := iprop(∃ r, prngReg c r)
  Y c := iprop(∃ r, prngReg c r)
  Z c := Pipeline.unscopedRest (Ix := Unit) (Name := ℕ) (U := UR sig nD τ) (Lvl := ℕ) spec3 c (Ent3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (Ent3 m c) fun w => A_eq3 (Ent3 m) c w
    rw [Pipeline.unscopedBufs_held c (V6 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (Ent3 m c) (Ex3 m c) ((pdats m 3 c).arrAt · cfg3.N) (hF3 m c) (hrest3 m c)
    rw [Pipeline.unscopedBufs_held c (V7 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 4 -/

/-- The contents region 4 is left at, read at the TensorCore's references. -/
abbrev Ex4 : (c : Dev nD) → (b : Ref sig .tc) → Buf (Elt F) ((c : Thread nD τ).loc b) := fun c b => V8 m (outs m) c b

/-- An input window's array is never written back, and the valuation after region 4 differs from the one before it at
    the output's buffer only: at the region's exit the array holds what the region found in it. -/
theorem hF4_w0 (c : Dev nD) : (dat4 (Ent4 m) c).arrAt 0 cfg4.N = Ex4 m c main_v63 := by
  have h1 := (dat4 (Ent4 m) c).arrAt_in 0 rfl cfg4.N
  have h2 := A_eq4 (Ent4 m) c 0
  have h3 := V8_of m (outs m) c main_v63 (by decide)
  exact h1.trans (h2.trans h3.symm)
theorem hF4_w1 (c : Dev nD) : (dat4 (Ent4 m) c).arrAt 1 cfg4.N = Ex4 m c main_arg8 := by
  have h1 := (dat4 (Ent4 m) c).arrAt_in 1 rfl cfg4.N
  have h2 := A_eq4 (Ent4 m) c 1
  have h3 := V8_of m (outs m) c main_arg8 (by decide)
  exact h1.trans (h2.trans h3.symm)
/-- At region 4's exit each of its arrays holds what the pipeline leaves: an input by the lemmas above, the output by
    `out4_eq`. -/
theorem hF4 (c : Dev nD) (w : Fin cfg4.W) : (dat4 (Ent4 m) c).arrAt w cfg4.N = Ex4 m c (Pipeline.arrRef spec4 w) :=
  match w with
  | ⟨0, _⟩ => hF4_w0 m c
  | ⟨1, _⟩ => hF4_w1 m c
  | ⟨2, _⟩ => (out4_eq m c).symm
/-- Every buffer that is none of region 4's arrays holds at its exit what it held at its entry. -/
theorem hrest4 (c : Dev nD) : ∀ b, b ∉ Finset.univ.image (Pipeline.arrRef spec4) → Ex4 m c b = Ent4 m c b :=
  fun b hb => V8_of m (outs m) c b fun h => hb (by
    rw [List.mem_singleton.mp h]; exact Finset.mem_image.mpr ⟨2, Finset.mem_univ _, rfl⟩)

-- a library lemma stated over the pinned configuration unifies with the printed one only when unification may unfold
-- plain definitions in a metavariable's type
set_option backward.isDefEq.respectTransparency.types false in
/-- REGION 4 between the thread states before and after it: its arrays split out of the unscoped buffers and put back at
    the exit contents; the generator register into the region's invariant and out; nothing owed; no semaphore of the
    kernel's own. -/
def reg4 : Pipeline.RegionSeg (pcfgs (F := F)) adm (pdats m) () defs₀ Variants.none noPairs noLevel 4 where
  win := launch4.win.to₀
  block_pos := launch4.block_pos
  stage_whole := launch4.stage_whole
  K := PEmpty
  osem k := k.elim
  ho := Pipeline.OwnSemFacts.none _
  hbody c := (body_obligation4 (Ent4 m) c).loose
  hwaits := Pipeline.hwaits_of_owed_zero _ _ _ _ noPairs noLevel 4 fun _ _ => rfl
  pre c := iprop(StableHlo.held (c : Thread nD τ) (Pipeline.ucRefs τ sig) (V7 m (outs m) c) ∗ Rest c)
  post c := iprop(StableHlo.held (c : Thread nD τ) (Pipeline.ucRefs τ sig) (V8 m (outs m) c) ∗ Rest c)
  X c := iprop(∃ r, prngReg c r)
  Y c := iprop(∃ r, prngReg c r)
  Z c := Pipeline.unscopedRest (Ix := Unit) (Name := ℕ) (U := UR sig nD τ) (Lvl := ℕ) spec4 c (Ent4 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (Ent4 m c) fun w => A_eq4 (Ent4 m) c w
    rw [Pipeline.unscopedBufs_held c (V7 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (Ent4 m c) (Ex4 m c) ((pdats m 4 c).arrAt · cfg4.N) (hF4 m c) (hrest4 m c)
    rw [Pipeline.unscopedBufs_held c (V8 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 5 -/

/-- The contents region 5 is left at, read at the TensorCore's references. -/
abbrev Ex5 : (c : Dev nD) → (b : Ref sig .tc) → Buf (Elt F) ((c : Thread nD τ).loc b) := fun c b => V10 m (outs m) c b

/-- An input window's array is never written back, and the valuation after region 5 differs from the one before it at
    the output's buffer only: at the region's exit the array holds what the region found in it. -/
theorem hF5_w0 (c : Dev nD) : (dat5 (Ent5 m) c).arrAt 0 cfg5.N = Ex5 m c main_v77 := by
  have h1 := (dat5 (Ent5 m) c).arrAt_in 0 rfl cfg5.N
  have h2 := A_eq5 (Ent5 m) c 0
  have h3 := V10_of m (outs m) c main_v77 (by decide)
  exact h1.trans (h2.trans h3.symm)
theorem hF5_w1 (c : Dev nD) : (dat5 (Ent5 m) c).arrAt 1 cfg5.N = Ex5 m c main_v64 := by
  have h1 := (dat5 (Ent5 m) c).arrAt_in 1 rfl cfg5.N
  have h2 := A_eq5 (Ent5 m) c 1
  have h3 := V10_of m (outs m) c main_v64 (by decide)
  exact h1.trans (h2.trans h3.symm)
theorem hF5_w2 (c : Dev nD) : (dat5 (Ent5 m) c).arrAt 2 cfg5.N = Ex5 m c main_v29 := by
  have h1 := (dat5 (Ent5 m) c).arrAt_in 2 rfl cfg5.N
  have h2 := A_eq5 (Ent5 m) c 2
  have h3 := V10_of m (outs m) c main_v29 (by decide)
  exact h1.trans (h2.trans h3.symm)
theorem hF5_w3 (c : Dev nD) : (dat5 (Ent5 m) c).arrAt 3 cfg5.N = Ex5 m c main_v32 := by
  have h1 := (dat5 (Ent5 m) c).arrAt_in 3 rfl cfg5.N
  have h2 := A_eq5 (Ent5 m) c 3
  have h3 := V10_of m (outs m) c main_v32 (by decide)
  exact h1.trans (h2.trans h3.symm)
/-- At region 5's exit each of its arrays holds what the pipeline leaves: an input by the lemmas above, the output by
    `out5_eq`. -/
theorem hF5 (c : Dev nD) (w : Fin cfg5.W) : (dat5 (Ent5 m) c).arrAt w cfg5.N = Ex5 m c (Pipeline.arrRef spec5 w) :=
  match w with
  | ⟨0, _⟩ => hF5_w0 m c
  | ⟨1, _⟩ => hF5_w1 m c
  | ⟨2, _⟩ => hF5_w2 m c
  | ⟨3, _⟩ => hF5_w3 m c
  | ⟨4, _⟩ => (out5_eq m c).symm
/-- Every buffer that is none of region 5's arrays holds at its exit what it held at its entry. -/
theorem hrest5 (c : Dev nD) : ∀ b, b ∉ Finset.univ.image (Pipeline.arrRef spec5) → Ex5 m c b = Ent5 m c b :=
  fun b hb => V10_of m (outs m) c b fun h => hb (by
    rw [List.mem_singleton.mp h]; exact Finset.mem_image.mpr ⟨4, Finset.mem_univ _, rfl⟩)

-- a library lemma stated over the pinned configuration unifies with the printed one only when unification may unfold
-- plain definitions in a metavariable's type
set_option backward.isDefEq.respectTransparency.types false in
/-- REGION 5 between the thread states before and after it: its arrays split out of the unscoped buffers and put back at
    the exit contents; the generator register into the region's invariant and out; nothing owed; no semaphore of the
    kernel's own. -/
def reg5 : Pipeline.RegionSeg (pcfgs (F := F)) adm (pdats m) () defs₀ Variants.none noPairs noLevel 5 where
  win := launch5.win.to₀
  block_pos := launch5.block_pos
  stage_whole := launch5.stage_whole
  K := PEmpty
  osem k := k.elim
  ho := Pipeline.OwnSemFacts.none _
  hbody c := (body_obligation5 (Ent5 m) c).loose
  hwaits := Pipeline.hwaits_of_owed_zero _ _ _ _ noPairs noLevel 5 fun _ _ => rfl
  pre c := iprop(StableHlo.held (c : Thread nD τ) (Pipeline.ucRefs τ sig) (V9 m (outs m) c) ∗ Rest c)
  post c := iprop(StableHlo.held (c : Thread nD τ) (Pipeline.ucRefs τ sig) (V10 m (outs m) c) ∗ Rest c)
  X c := iprop(∃ r, prngReg c r)
  Y c := iprop(∃ r, prngReg c r)
  Z c := Pipeline.unscopedRest (Ix := Unit) (Name := ℕ) (U := UR sig nD τ) (Lvl := ℕ) spec5 c (Ent5 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (Ent5 m c) fun w => A_eq5 (Ent5 m) c w
    rw [Pipeline.unscopedBufs_held c (V9 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (Ent5 m c) (Ex5 m c) ((pdats m 5 c).arrAt · cfg5.N) (hF5 m c) (hrest5 m c)
    rw [Pipeline.unscopedBufs_held c (V10 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 6 -/

/-- The contents region 6 is left at, read at the TensorCore's references. -/
abbrev Ex6 : (c : Dev nD) → (b : Ref sig .tc) → Buf (Elt F) ((c : Thread nD τ).loc b) := fun c b => V11 m (outs m) c b

/-- An input window's array is never written back, and the valuation after region 6 differs from the one before it at
    the output's buffer only: at the region's exit the array holds what the region found in it. -/
theorem hF6_w0 (c : Dev nD) : (dat6 (Ent6 m) c).arrAt 0 cfg6.N = Ex6 m c main_v1 := by
  have h1 := (dat6 (Ent6 m) c).arrAt_in 0 rfl cfg6.N
  have h2 := A_eq6 (Ent6 m) c 0
  have h3 := V11_of m (outs m) c main_v1 (by decide)
  exact h1.trans (h2.trans h3.symm)
theorem hF6_w1 (c : Dev nD) : (dat6 (Ent6 m) c).arrAt 1 cfg6.N = Ex6 m c main_v78 := by
  have h1 := (dat6 (Ent6 m) c).arrAt_in 1 rfl cfg6.N
  have h2 := A_eq6 (Ent6 m) c 1
  have h3 := V11_of m (outs m) c main_v78 (by decide)
  exact h1.trans (h2.trans h3.symm)
theorem hF6_w2 (c : Dev nD) : (dat6 (Ent6 m) c).arrAt 2 cfg6.N = Ex6 m c main_arg10 := by
  have h1 := (dat6 (Ent6 m) c).arrAt_in 2 rfl cfg6.N
  have h2 := A_eq6 (Ent6 m) c 2
  have h3 := V11_of m (outs m) c main_arg10 (by decide)
  exact h1.trans (h2.trans h3.symm)
theorem hF6_w3 (c : Dev nD) : (dat6 (Ent6 m) c).arrAt 3 cfg6.N = Ex6 m c main_v33 := by
  have h1 := (dat6 (Ent6 m) c).arrAt_in 3 rfl cfg6.N
  have h2 := A_eq6 (Ent6 m) c 3
  have h3 := V11_of m (outs m) c main_v33 (by decide)
  exact h1.trans (h2.trans h3.symm)
/-- At region 6's exit each of its arrays holds what the pipeline leaves: an input by the lemmas above, the output by
    `out6_eq`. -/
theorem hF6 (c : Dev nD) (w : Fin cfg6.W) : (dat6 (Ent6 m) c).arrAt w cfg6.N = Ex6 m c (Pipeline.arrRef spec6 w) :=
  match w with
  | ⟨0, _⟩ => hF6_w0 m c
  | ⟨1, _⟩ => hF6_w1 m c
  | ⟨2, _⟩ => hF6_w2 m c
  | ⟨3, _⟩ => hF6_w3 m c
  | ⟨4, _⟩ => (out6_eq m c).symm
/-- Every buffer that is none of region 6's arrays holds at its exit what it held at its entry. -/
theorem hrest6 (c : Dev nD) : ∀ b, b ∉ Finset.univ.image (Pipeline.arrRef spec6) → Ex6 m c b = Ent6 m c b :=
  fun b hb => V11_of m (outs m) c b fun h => hb (by
    rw [List.mem_singleton.mp h]; exact Finset.mem_image.mpr ⟨4, Finset.mem_univ _, rfl⟩)

-- a library lemma stated over the pinned configuration unifies with the printed one only when unification may unfold
-- plain definitions in a metavariable's type
set_option backward.isDefEq.respectTransparency.types false in
/-- REGION 6 between the thread states before and after it: its arrays split out of the unscoped buffers and put back at
    the exit contents; the generator register into the region's invariant and out; nothing owed; no semaphore of the
    kernel's own. -/
def reg6 : Pipeline.RegionSeg (pcfgs (F := F)) adm (pdats m) () defs₀ Variants.none noPairs noLevel 6 where
  win := launch6.win.to₀
  block_pos := launch6.block_pos
  stage_whole := launch6.stage_whole
  K := PEmpty
  osem k := k.elim
  ho := Pipeline.OwnSemFacts.none _
  hbody c := (body_obligation6 (Ent6 m) c).loose
  hwaits := Pipeline.hwaits_of_owed_zero _ _ _ _ noPairs noLevel 6 fun _ _ => rfl
  pre c := iprop(StableHlo.held (c : Thread nD τ) (Pipeline.ucRefs τ sig) (V10 m (outs m) c) ∗ Rest c)
  post c := iprop(StableHlo.held (c : Thread nD τ) (Pipeline.ucRefs τ sig) (V11 m (outs m) c) ∗ Rest c)
  X c := iprop(∃ r, prngReg c r)
  Y c := iprop(∃ r, prngReg c r)
  Z c := Pipeline.unscopedRest (Ix := Unit) (Name := ℕ) (U := UR sig nD τ) (Lvl := ℕ) spec6 c (Ent6 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (Ent6 m c) fun w => A_eq6 (Ent6 m) c w
    rw [Pipeline.unscopedBufs_held c (V10 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin6 (Ent6 m) c)
    unfold Pipeline.ΦA
    iintro ⟨Hp, -, Hr⟩
    isplitl [Hr]; · iexact Hr
    iexact Hp
  hout c := by
    rw [Pipeline.ownSems0_none]
    refine BIBase.Entails.trans (hout6 (Ent6 m) c) ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (Ent6 m c) (Ex6 m c) ((pdats m 6 c).arrAt · cfg6.N) (hF6 m c) (hrest6 m c)
    rw [Pipeline.unscopedBufs_held c (V11 m (outs m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

-- the launch theorem's implicit arguments are found by unifying its conclusion with this one, which takes unfolding plain
-- definitions in a metavariable's type
set_option backward.isDefEq.respectTransparency.types false in
/-- THE RUN WITH EVERY UNSCOPED BUFFER NAMED, given the regions' records: under the hypotheses of the conditional frame
    (any contents `o` the regions leave, any proof data, a segment record per region entered from the thread state before
    it and left at the one after it), every weakly fair execution of @main from memory `m` with zero counters terminates
    and every final memory holds each unscoped buffer of each core at the last valuation. The conditional frame's proof
    with the last thread state read whole (`pointsTo_read_all`) rather than at the arguments. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (o : Outs (F := F))
    (pd : (p : Fin 7) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 8 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE7 : ∀ c : Dev nD, E 7 c ⊢ (iprop(∃ W, owes (c : Thread nD τ) (0 : CellTallies nD τ sig Ix) W) : sProp (MT nD τ sig Ix (Elt F) ℕ U Lvl)))
    (R0 : RegionSeg (pcfgs (F := F)) adm pd ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m o c) ∗ E 1 c))
    (R1 : RegionSeg (pcfgs (F := F)) adm pd ι defs₀ 𝒱₀ L lv 1)
    (hpre1 : ∀ c : Dev nD, iprop(StableHlo.held (c : Thread nD τ) (Pipeline.ucRefs τ sig) (V3 m o c) ∗ E 1 c) ⊢ R1.pre c)
    (hpost1 : ∀ c : Dev nD, R1.post c ⊢ iprop(StableHlo.held (c : Thread nD τ) (Pipeline.ucRefs τ sig) (V4 m o c) ∗ E 2 c))
    (R2 : RegionSeg (pcfgs (F := F)) adm pd ι defs₀ 𝒱₀ L lv 2)
    (hpre2 : ∀ c : Dev nD, iprop(StableHlo.held (c : Thread nD τ) (Pipeline.ucRefs τ sig) (V4 m o c) ∗ E 2 c) ⊢ R2.pre c)
    (hpost2 : ∀ c : Dev nD, R2.post c ⊢ iprop(StableHlo.held (c : Thread nD τ) (Pipeline.ucRefs τ sig) (V5 m o c) ∗ E 3 c))
    (R3 : RegionSeg (pcfgs (F := F)) adm pd ι defs₀ 𝒱₀ L lv 3)
    (hpre3 : ∀ c : Dev nD, iprop(StableHlo.held (c : Thread nD τ) (Pipeline.ucRefs τ sig) (V6 m o c) ∗ E 3 c) ⊢ R3.pre c)
    (hpost3 : ∀ c : Dev nD, R3.post c ⊢ iprop(StableHlo.held (c : Thread nD τ) (Pipeline.ucRefs τ sig) (V7 m o c) ∗ E 4 c))
    (R4 : RegionSeg (pcfgs (F := F)) adm pd ι defs₀ 𝒱₀ L lv 4)
    (hpre4 : ∀ c : Dev nD, iprop(StableHlo.held (c : Thread nD τ) (Pipeline.ucRefs τ sig) (V7 m o c) ∗ E 4 c) ⊢ R4.pre c)
    (hpost4 : ∀ c : Dev nD, R4.post c ⊢ iprop(StableHlo.held (c : Thread nD τ) (Pipeline.ucRefs τ sig) (V8 m o c) ∗ E 5 c))
    (R5 : RegionSeg (pcfgs (F := F)) adm pd ι defs₀ 𝒱₀ L lv 5)
    (hpre5 : ∀ c : Dev nD, iprop(StableHlo.held (c : Thread nD τ) (Pipeline.ucRefs τ sig) (V9 m o c) ∗ E 5 c) ⊢ R5.pre c)
    (hpost5 : ∀ c : Dev nD, R5.post c ⊢ iprop(StableHlo.held (c : Thread nD τ) (Pipeline.ucRefs τ sig) (V10 m o c) ∗ E 6 c))
    (R6 : RegionSeg (pcfgs (F := F)) adm pd ι defs₀ 𝒱₀ L lv 6)
    (hpre6 : ∀ c : Dev nD, iprop(StableHlo.held (c : Thread nD τ) (Pipeline.ucRefs τ sig) (V10 m o c) ∗ E 6 c) ⊢ R6.pre c)
    (hpost6 : ∀ c : Dev nD, R6.post c ⊢ iprop(StableHlo.held (c : Thread nD τ) (Pipeline.ucRefs τ sig) (V11 m o c) ∗ E 7 c)) :
    θ_run defs (onTc (τ := τ) (main (F := F))) ⟨m, fun _ => 0, ρ⟩ (fun r => ∀ c : Dev nD,
      ∀ b ∈ Pipeline.ucRefs τ sig, r.2.mem ((c : Thread nD τ).1, b) = V11 m o c b) := by
  refine Pipeline.θ_run_regions_kit_dev (pcfgs (F := F)) adm pd ι cellOf_inj EP defs₀ 𝒱₀ L lv m ρ main
    (segs m o 𝒱₀ L lv E ι pd R0 R1 R2 R3 R4 R5 R6)
    (fun c Q => by
      rewrite [main_chain c, Seg.run_eq_chain,
        show (segs m o 𝒱₀ L lv E ι pd R0 R1 R2 R3 R4 R5 R6 c).map Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          Prog.lift (.customCall (Pipeline.entry 6) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V11 m o c))
    (hch := fun c => ⟨.rfl, hpre0 c, hpost0 c, hpre1 c, (hpost1 c).trans (hpre2 c), hpost2 c, hpre3 c, (hpost3 c).trans (hpre4 c), hpost4 c, hpre5 c, (hpost5 c).trans (hpre6 c), (hpost6 c).trans (sep_mono .rfl (hE7 c))⟩)
    (hinit := ?_)
    (QY := fun c s => ∀ b ∈ Pipeline.ucRefs τ sig, s.mem ((c : Thread nD τ).1, b) = V11 m o c b)
    (hfin := fun c s' => ?_) (hQ := fun _ h => h)
  · -- the launch: the unscoped buffers are held at the launch memory; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last thread state
    unfold StableHlo.held
    iintro ⟨Hh, HSI⟩
    imodintro
    iapply (pointsTo_read_all (Pipeline.ucRefs τ sig) (fun b => ((c : Thread nD τ).1, b)) (V11 m o c) s')
    isplitl [Hh] <;> iassumption

/-! ### The launch's resources -/

/-- The launch element is the pipeline library's, owned through the one-component embedding; no ghost resource besides. -/
theorem launch_own : (ownU (initOf (Pipeline.cells cfgs cellOf_inj) (Pipeline.launchToks cfgs cellOf_inj)) : sProp 𝕄)
    ⊢ |={Set.univ}=> iprop(BI.own ((emb₁ : Emb (UR sig nD τ) 𝕄) (initOf (Pipeline.cells cfgs cellOf_inj) (Pipeline.launchToks cfgs cellOf_inj)))
        ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own ((emb₁ : Emb (UR sig nD τ) 𝕄) (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals each core besides its buffers makes the rest state: the generator register at its launch
    state, the core owing nothing. -/
theorem launch_rest : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts noPairs noLevel)
      ⊢ (|={Set.univ}=> bigSep Finset.univ (fun c : Dev nD => Rest (F := F) c) : sProp 𝕄) := by
  refine Pipeline.initEach noPairs noLevel fun c => ?_
  iintro ⟨⟨-, HO, -, Hp, -⟩, -⟩
  imodintro
  isplitl [Hp]; · iexists _; iexact Hp
  iexists ∅; iexact HO

/-- The rest state ends owing nothing (the register dropped). -/
theorem rest_owes (c : Dev nD) : Rest (F := F) c ⊢ (iprop(∃ W, owes (c : Thread nD τ) (0 : CellTallies nD τ sig Unit) W) : sProp 𝕄) := by
  iintro ⟨-, HO⟩; iexact HO

/-! ### The two runs -/

/-- An unscoped TensorCore reference is among those the thread states hold. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- EVERY BUFFER AT THE END: from any memory `m` with zero counters every weakly fair execution of @main terminates, and
    every final memory holds each unscoped buffer of each core at the last valuation `V11` at `outs` — each region's
    output at the fold of its write-backs (`out0_eq` … `out6_eq`), the host stretches' results at `StableHlo.after`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = V11 m (outs m) c b) :=
  run_cond m ρ (emb₁ : Emb (UR sig nD τ) 𝕄) () Variants.none noPairs noLevel (fun _ _ => rfl) (outs m) (pdats m)
    (0 : Dev nD → CellTallies nD τ sig Unit) (fun _ => (BI.emp : sProp 𝕄))
    (initOf (Pipeline.cells cfgs cellOf_inj) (Pipeline.launchToks cfgs cellOf_inj)) launch_own
    (fun _ c => Rest c) (launch_rest ρ) rest_owes
    (reg0 m) (fun _ => .rfl) (fun _ => .rfl) (reg1 m) (fun _ => .rfl) (fun _ => .rfl)
    (reg2 m) (fun _ => .rfl) (fun _ => .rfl) (reg3 m) (fun _ => .rfl) (fun _ => .rfl)
    (reg4 m) (fun _ => .rfl) (fun _ => .rfl) (reg5 m) (fun _ => .rfl) (fun _ => .rfl)
    (reg6 m) (fun _ => .rfl) (fun _ => .rfl)

/-- THE FRAME at any `F`: from any memory `m` with zero counters every weakly fair execution of @main on the TensorCores
    terminates, nothing faulting, and every final memory has the argument arrays as launched — the conditional frame at
    the seven records above. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Gen.frame_cond m (emb₁ : Emb (UR sig nD τ) 𝕄) () Variants.none noPairs noLevel (fun _ _ => rfl) ρ (outs m) (pdats m)
    (0 : Dev nD → CellTallies nD τ sig Unit) (fun _ => (BI.emp : sProp 𝕄))
    (initOf (Pipeline.cells cfgs cellOf_inj) (Pipeline.launchToks cfgs cellOf_inj)) launch_own
    (fun _ c => Rest c) (launch_rest ρ) rest_owes
    (reg0 m) (fun _ => .rfl) (fun _ => .rfl) (reg1 m) (fun _ => .rfl) (fun _ => .rfl)
    (reg2 m) (fun _ => .rfl) (fun _ => .rfl) (reg3 m) (fun _ => .rfl) (fun _ => .rfl)
    (reg4 m) (fun _ => .rfl) (fun _ => .rfl) (reg5 m) (fun _ => .rfl) (fun _ => .rfl)
    (reg6 m) (fun _ => .rfl) (fun _ => .rfl)

end Cert.KernelIdeal.Hand

end
-- ==== Proof.Spec.lean ====
/-
  The mathematics of the graph network, index by index, over the extended reals: the four array functions the
  two programs' pieces are both shown equal to.
  * `embA`: a row's feature vector picked out of an 11-row table by the row's integer label, written as the sum
    over the table's rows of the indicator "label = row" times the row, then multiplied by a 128×128 matrix.
  * `mmA`: a 50000×128 array times a 128×128 matrix.
  * `postA`: the propagation step's pointwise tail, max (aggregate + transformed · self-weight + bias) 0.
  * `finA`: per-graph mean pooling written with indicators (sum of the rows whose graph label is g, divided by
    max (number of such rows) 1), then the 128×64 linear head and its bias.
-/
import Idealize.ShloMosaic.PureOps.Ideal
import Idealize.ShloMosaic.Lib.ValueIdx

noncomputable section

open scoped BigOperators

namespace Cert.Spec

open Idealize.ShloMosaic Idealize.ShloMosaic.ValueIdx

/-- The indicator of a decidable proposition as an extended real. -/
def ind (p : Prop) [Decidable p] : EReal := if p then 1 else 0

theorem ind_true {p : Prop} [Decidable p] (h : p) : ind p = 1 := if_pos h
theorem ind_false {p : Prop} [Decidable p] (h : ¬ p) : ind p = 0 := if_neg h

/-- Row `r` of the table lookup by labels, column `d`: the sum over the table's rows `k` of "label r = k" times entry (k, d). -/
def lookupA (x2d : (⟨2, ![50000, 1]⟩ : Shape).Idx → BitVec 32) (e : (⟨2, ![11, 128]⟩ : Shape).Idx → EReal) :
    (⟨2, ![50000, 128]⟩ : Shape).Idx → EReal :=
  fun i => ∑ k : Fin 11, ind (x2d (ix2 (i 0) (0 : Fin 1)) = BitVec.ofNat 32 k.val) * e (ix2 k (i 1))

/-- A 50000×128 array times a 128×128 matrix. -/
def mmA (h : (⟨2, ![50000, 128]⟩ : Shape).Idx → EReal) (w : (⟨2, ![128, 128]⟩ : Shape).Idx → EReal) :
    (⟨2, ![50000, 128]⟩ : Shape).Idx → EReal :=
  fun i => ∑ d : Fin 128, h (ix2 (i 0) d) * w (ix2 d (i 1))

/-- The looked-up features times the first layer's matrix. -/
def embA (x2d : (⟨2, ![50000, 1]⟩ : Shape).Idx → BitVec 32) (e : (⟨2, ![11, 128]⟩ : Shape).Idx → EReal)
    (w : (⟨2, ![128, 128]⟩ : Shape).Idx → EReal) : (⟨2, ![50000, 128]⟩ : Shape).Idx → EReal :=
  mmA (lookupA x2d e) w

/-- The propagation step's pointwise tail. -/
def postA (agg ht : (⟨2, ![50000, 128]⟩ : Shape).Idx → EReal) (sn : (⟨2, ![50000, 1]⟩ : Shape).Idx → EReal)
    (b : (⟨2, ![1, 128]⟩ : Shape).Idx → EReal) : (⟨2, ![50000, 128]⟩ : Shape).Idx → EReal :=
  fun i => max (agg i + ht i * sn (ix2 (i 0) (0 : Fin 1)) + b (ix2 (0 : Fin 1) (i 1))) 0

/-- Entry (g, d) of the pooled sums: the sum over the nodes `n` of "graph label n = g" times feature (n, d). -/
def poolA (b2d : (⟨2, ![50000, 1]⟩ : Shape).Idx → BitVec 32) (h : (⟨2, ![50000, 128]⟩ : Shape).Idx → EReal) :
    (⟨2, ![512, 128]⟩ : Shape).Idx → EReal :=
  fun j => ∑ n : Fin 50000, ind (b2d (ix2 n (0 : Fin 1)) = BitVec.ofNat 32 (j 0).val) * h (ix2 n (j 1))

/-- The number of nodes of graph `g`, as a sum of indicators. -/
def cntA (b2d : (⟨2, ![50000, 1]⟩ : Shape).Idx → BitVec 32) : (⟨2, ![512, 1]⟩ : Shape).Idx → EReal :=
  fun j => ∑ n : Fin 50000, ind (b2d (ix2 n (0 : Fin 1)) = BitVec.ofNat 32 (j 0).val)

/-- Mean pooling, the linear head and its bias. -/
def finA (b2d : (⟨2, ![50000, 1]⟩ : Shape).Idx → BitVec 32) (h : (⟨2, ![50000, 128]⟩ : Shape).Idx → EReal)
    (fcw : (⟨2, ![128, 64]⟩ : Shape).Idx → EReal) (fcb : (⟨2, ![1, 64]⟩ : Shape).Idx → EReal) :
    (⟨2, ![512, 64]⟩ : Shape).Idx → EReal :=
  fun i => (∑ d : Fin 128, Ideal.div (poolA b2d h (ix2 (i 0) d)) (max (cntA b2d (ix2 (i 0) (0 : Fin 1))) 1) * fcw (ix2 d (i 1)))
    + fcb (ix2 (0 : Fin 1) (i 1))

end Cert.Spec

end
-- ==== Proof.Val.V0.lean ====
/- Region 0's output array after the run, as one function of the region's three input arrays — the label column
   (50000×1 words), the table (11×128) and the weight matrix (128×128) — at the extended reals:
       out (R, col) = ∑ d, (∑ k, [label R = k] · table (k, d)) · weights (d, col).
   The road: (1) the body's stored value at an index of its block — the comparison with the iota is the indicator
   of "label = column", the format changes are the identity, and each product into a zero accumulator is the plain
   sum over its one contracted axis; (2) the blocks: at grid point t the label window and the output window are
   the band of rows 5000·t … 5000·t + 4999, the table and the weights are whole, so what point t writes back is band
   t of the function above; (3) the ten bands cover the 50000 rows. -/
import proofs.«428893_j18313740550827_1_alg».proof.Proof.KI.R0
import proofs.«428893_j18313740550827_1_alg».proof.Proof.Spec
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

set_option maxRecDepth 16384

noncomputable section

open scoped BigOperators

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

-- the auxiliary lemmas of this region live in their own namespace
namespace R0

/-! ## The payload at an index -/

/-- A comparison bit widened to 32 bits and read as a signed integer is the indicator of the equality. -/
theorem onehot_val (a b : BitVec 32) :
    (FloatOps.sitofp (F := Ideal) .f32 ((IntOp.cmpi .eq a b).setWidth 32) : EReal) = Cert.Spec.ind (a = b) := by
  unfold Cert.Spec.ind IntOp.cmpi
  by_cases h : a = b
  · rw [if_pos h]; subst h
    show (((((BitVec.ofBool (a == a)).setWidth 32).toInt : ℤ) : ℝ) : EReal) = 1
    rw [beq_self_eq_true, show ((BitVec.ofBool true).setWidth 32).toInt = 1 from by decide]
    norm_num
  · rw [if_neg h]
    show (((((BitVec.ofBool (a == b)).setWidth 32).toInt : ℤ) : ℝ) : EReal) = 0
    rw [beq_eq_false_iff_ne.mpr h, show ((BitVec.ofBool false).setWidth 32).toInt = 0 from by decide]
    norm_num

/-! ### The first product: the 0/1 matrix (5000×11) times the table (11×128) -/

/-- The operands' indices of the first product at output index `i` and contraction position `q`, coordinate by
    coordinate: the left operand is read at `(i 0, q)`, the right one at `(q, i 1)`. -/
theorem lhsT_0 (i : S5000x128.Idx) (q : dot_S5000x11_S11x128_S5000x128_1_0_0_1_n_n.contr.Idx) :
    (dot_S5000x11_S11x128_S5000x128_1_0_0_1_n_n.lhsIdx i q 0).val = (i 0).val := by
  unfold DotDims.lhsIdx
  rw [dif_neg (show ¬(0 : Fin S5000x11.rank) ∈ dot_S5000x11_S11x128_S5000x128_1_0_0_1_n_n.lhsBatch by decide), dif_pos (show (0 : Fin S5000x11.rank) ∈ dot_S5000x11_S11x128_S5000x128_1_0_0_1_n_n.lhsNonContracting by decide)]
  rfl
theorem lhsT_1 (i : S5000x128.Idx) (q : dot_S5000x11_S11x128_S5000x128_1_0_0_1_n_n.contr.Idx) :
    (dot_S5000x11_S11x128_S5000x128_1_0_0_1_n_n.lhsIdx i q 1).val = (q ⟨0, by decide⟩).val :=
  dot_S5000x11_S11x128_S5000x128_1_0_0_1_n_n.lhsIdx_val_of_single rfl i q
theorem rhsT_0 (i : S5000x128.Idx) (q : dot_S5000x11_S11x128_S5000x128_1_0_0_1_n_n.contr.Idx) :
    (dot_S5000x11_S11x128_S5000x128_1_0_0_1_n_n.rhsIdx i q 0).val = (q ⟨0, by decide⟩).val :=
  dot_S5000x11_S11x128_S5000x128_1_0_0_1_n_n.rhsIdx_val_of_single rfl i q
theorem rhsT_1 (i : S5000x128.Idx) (q : dot_S5000x11_S11x128_S5000x128_1_0_0_1_n_n.contr.Idx) :
    (dot_S5000x11_S11x128_S5000x128_1_0_0_1_n_n.rhsIdx i q 1).val = (i 1).val := by
  unfold DotDims.rhsIdx
  rw [dif_neg (show ¬(1 : Fin S11x128.rank) ∈ dot_S5000x11_S11x128_S5000x128_1_0_0_1_n_n.rhsBatch by decide), dif_pos (show (1 : Fin S11x128.rank) ∈ dot_S5000x11_S11x128_S5000x128_1_0_0_1_n_n.rhsNonContracting by decide)]
  rfl

/-- The product into a zero accumulator, at row `r` and column `d`: the sum over the table's 11 rows. -/
theorem mmT_apply (a : FVec Ideal S5000x11 .bf16) (b : FVec Ideal S11x128 .bf16) (r : Fin 5000) (d : Fin 128) :
    FloatOps.matmul dot_S5000x11_S11x128_S5000x128_1_0_0_1_n_n none a b (constant (F := Ideal) S5000x128 .f32 0x00000000#32) (ix2 r d)
      = ∑ k : Fin 11, a (ix2 r k) * b (ix2 k d) := by
  rw [Ideal.matmul_constant_zero_apply, ← Equiv.sum_comp (contrEquiv1 dot_S5000x11_S11x128_S5000x128_1_0_0_1_n_n 11 rfl rfl).symm]
  refine Finset.sum_congr rfl fun k _ => ?_
  have hk := contrEquiv1_symm_val dot_S5000x11_S11x128_S5000x128_1_0_0_1_n_n 11 rfl rfl k
  have el : dot_S5000x11_S11x128_S5000x128_1_0_0_1_n_n.lhsIdx (ix2 r d) ((contrEquiv1 dot_S5000x11_S11x128_S5000x128_1_0_0_1_n_n 11 rfl rfl).symm k) = ix2 r k := funext fun a => Fin.ext (by
    match a with
    | ⟨0, _⟩ => exact lhsT_0 _ _
    | ⟨1, _⟩ => exact (lhsT_1 _ _).trans hk)
  have er : dot_S5000x11_S11x128_S5000x128_1_0_0_1_n_n.rhsIdx (ix2 r d) ((contrEquiv1 dot_S5000x11_S11x128_S5000x128_1_0_0_1_n_n 11 rfl rfl).symm k) = ix2 k d := funext fun a => Fin.ext (by
    match a with
    | ⟨0, _⟩ => exact (rhsT_0 _ _).trans hk
    | ⟨1, _⟩ => exact rhsT_1 _ _)
  rw [el, er]

/-! ### The second product: the looked-up rows (5000×128) times the weights (128×128) -/

/-- The operands' indices of the second product, coordinate by coordinate: left `(i 0, q)`, right `(q, i 1)`. -/
theorem lhsW_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhsW_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhsW_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhsW_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into a zero accumulator, at row `r` and column `col`: the sum over the 128 features. -/
theorem mmW_apply (a : FVec Ideal S5000x128 .bf16) (b : FVec Ideal S128x128 .bf16) (r : Fin 5000) (col : Fin 128) :
    FloatOps.matmul dot_S5000x128_S128x128_S5000x128_1_0_0_1_n_n none a b (constant (F := Ideal) S5000x128 .f32 0x00000000#32) (ix2 r col)
      = ∑ d : Fin 128, a (ix2 r d) * b (ix2 d col) := by
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r col) ((contrEquiv1 dot_S5000x128_S128x128_S5000x128_1_0_0_1_n_n 128 rfl rfl).symm k) = ix2 r k := funext fun a => Fin.ext (by
    match a with
    | ⟨0, _⟩ => exact lhsW_0 _ _
    | ⟨1, _⟩ => exact (lhsW_1 _ _).trans hk)
  have er : dot_S5000x128_S128x128_S5000x128_1_0_0_1_n_n.rhsIdx (ix2 r col) ((contrEquiv1 dot_S5000x128_S128x128_S5000x128_1_0_0_1_n_n 128 rfl rfl).symm k) = ix2 k col := funext fun a => Fin.ext (by
    match a with
    | ⟨0, _⟩ => exact (rhsW_0 _ _).trans hk
    | ⟨1, _⟩ => exact rhsW_1 _ _)
  rw [el, er]

/-! ### The 0/1 matrix -/

/-- The label column broadcast along 11 columns reads, at row `r` and any column, the label of row `r`. -/
theorem labels_bcast (x : IVec S5000x1 32) (r : Fin 5000) (k : Fin 11) :
    broadcastTo S5000x11 (shapeCast S5000x1 x shapeCasts_S5000x1_S5000x1) broadcasts_S5000x1_S5000x11 (ix2 r k) = x (ix2 r (0 : Fin 1)) := by
  rw [shapeCast_self]
  exact broadcastTo_apply _ _ _ (ix2 r (0 : Fin 1)) (fun a => match a with
    | ⟨0, _⟩ => by show r.val = if (5000 : Nat) = 1 then 0 else r.val; rw [if_neg (by decide)]
    | ⟨1, _⟩ => by show (0 : Nat) = if (1 : Nat) = 1 then 0 else k.val; rw [if_pos rfl])

/-- The iota along the columns reads, at column `k`, the word `k`. -/
theorem iota_cols (r : Fin 5000) (k : Fin 11) :
    iota .tc S5000x11 32 [1] iota_S5000x11_d1_w32 (ix2 r k) = BitVec.ofNat 32 k.val :=
  iota_single_apply .tc S5000x11 32 1 iota_S5000x11_d1_w32 (ix2 r k)

/-! ### The payload -/

/-- The body's stored value at row `r`, column `col` of the block, from the block's labels `x`, the table `e` and
    the weights `w`: `∑ d, (∑ k, [x r = k] · e (k, d)) · w (d, col)`. -/
theorem pay0_apply (x : Vec Ideal S5000x1 .i32) (e : Vec Ideal S11x128 .f32) (w : Vec Ideal S128x128 .f32) (r : Fin 5000) (col : Fin 128) :
    k0_pay1 (F := Ideal) x e w (ix2 r col)
      = ∑ d : Fin 128, (∑ k : Fin 11, Cert.Spec.ind (x (ix2 r (0 : Fin 1)) = BitVec.ofNat 32 k.val) * e (ix2 k d)) * w (ix2 d col) := by
  unfold k0_pay1
  refine (mmW_apply _ _ r col).trans ?_
  refine Finset.sum_congr rfl fun d _ => ?_
  refine congrArg₂ (· * ·) ?_ rfl
  refine (mmT_apply _ _ r d).trans ?_
  refine Finset.sum_congr rfl fun k _ => ?_
  refine congrArg₂ (· * ·) ?_ rfl
  exact (onehot_val _ _).trans (congrArg₂ (fun a b : BitVec 32 => Cert.Spec.ind (a = b)) (labels_bcast x r k) (iota_cols r k))

/-! ## From blocks to the array -/

/-- The printed block-index maps over the 10 grid points: the label window and the output window move together down
    the rows, one block of 5000 rows per point; the table and the weights are one block each, at every point. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The origin, as the constant-zero offset function. -/
theorem hz0 : (![0, 0] : Fin 2 → Nat) = fun _ => 0 := funext fun a => by fin_cases a <;> rfl

section
variable (V : (c : Dev nD) → (b : Ref sig .tc) → Buf (Elt Ideal) ((c : Thread nD τ).loc b))

/-- The table window's block is the whole table, at every point. -/
theorem iblk1_whole (c : Dev nD) (t : Fin cfg0.N) : (Hand.iblk0 V c 1 t : Vec Ideal S11x128 .f32) = V c main_arg3 := by
  obtain ⟨-, -, e0, e1, -⟩ := idx_facts0 t
  funext j
  show V c main_arg3 (((cfg0.win 1).blk t).view.emb j) = V c main_arg3 j
  refine congrArg _ (funext fun a => Fin.ext ?_)
  match a with
  | ⟨0, _⟩ => show win0_1.index t (0 : Fin 2) * 11 + 1 * (j 0).val = (j 0).val; omega
  | ⟨1, _⟩ => show win0_1.index t (1 : Fin 2) * 128 + 1 * (j 1).val = (j 1).val; omega

/-- The weights window's block is the whole matrix, at every point. -/
theorem iblk2_whole (c : Dev nD) (t : Fin cfg0.N) : (Hand.iblk0 V c 2 t : Vec Ideal S128x128 .f32) = V c main_arg4 := by
  obtain ⟨-, -, -, -, e0, e1, -⟩ := idx_facts0 t
  funext j
  show V c main_arg4 (((cfg0.win 2).blk t).view.emb j) = V c main_arg4 j
  refine congrArg _ (funext fun a => Fin.ext ?_)
  match a with
  | ⟨0, _⟩ => show win0_2.index t (0 : Fin 2) * 128 + 1 * (j 0).val = (j 0).val; omega
  | ⟨1, _⟩ => show win0_2.index t (1 : Fin 2) * 128 + 1 * (j 1).val = (j 1).val; omega

/-- Row `r` of the label window's block at point `t` is row `5000·t + r` of the label column. -/
theorem iblk0_rows (c : Dev nD) (t : Fin cfg0.N) (r : Fin 5000) (R : Fin 50000) (hR : R.val = 5000 * t.val + r.val) :
    (Hand.iblk0 V c 0 t : Vec Ideal S5000x1 .i32) (ix2 r (0 : Fin 1)) = V c main_v0 (ix2 R (0 : Fin 1)) := by
  obtain ⟨e0, e1, -⟩ := idx_facts0 t
  show V c main_v0 (((cfg0.win 0).blk t).view.emb (ix2 r (0 : Fin 1))) = V c main_v0 (ix2 R (0 : Fin 1))
  refine congrArg _ (funext fun a => Fin.ext ?_)
  match a with
  | ⟨0, _⟩ => show win0_0.index t (0 : Fin 2) * 5000 + 1 * r.val = R.val; omega
  | ⟨1, _⟩ => show win0_0.index t (1 : Fin 2) * 1 + 1 * 0 = 0; omega

/-- The payload of a block whose labels are rows of the column `X`, at the table `E` and the weights `W`, is the
    specification's array at the corresponding row. -/
theorem block_val (X : Vec Ideal S50000x1 .i32) (E : Vec Ideal S11x128 .f32) (W : Vec Ideal S128x128 .f32)
    (x : Vec Ideal S5000x1 .i32) (r : Fin 5000) (col : Fin 128) (R : Fin 50000)
    (hx : x (ix2 r (0 : Fin 1)) = X (ix2 R (0 : Fin 1))) :
    k0_pay1 (F := Ideal) x E W (ix2 r col) = Cert.Spec.embA X E W (ix2 R col) := by
  rw [pay0_apply, hx]
  rfl

/-- What point `t` writes back is block `t` of the specification's array of the three input arrays. -/
theorem flushed0_eq (c : Dev nD) (t : Fin cfg0.N) :
    (Hand.dat0 V c).flushed 3 t
      = ((cfg0.win 3).blk t).view.read (Elt Ideal) (Cert.Spec.embA (V c main_v0) (V c main_arg3) (V c main_arg4)) := by
  show (cfg0.win 3).cut (grid0.coords t) ((Hand.dat0 V c).after 3 t) = _
  rw [Hand.after0_3]
  unfold Hand.out0_3
  rw [View.canon_unit_zero hz0]
  simp only [View.ld_unit_zero (S := S5000x1) hz0, View.ld_unit_zero (S := S11x128) hz0, View.ld_unit_zero (S := S128x128) hz0]
  rw [iblk1_whole, iblk2_whole]
  obtain ⟨-, -, -, -, -, -, e0, e1⟩ := idx_facts0 t
  have hN : cfg0.N = 10 := N_0
  funext j
  have hj0 : (j 0).val < 5000 := (j 0).isLt
  have hj1 : (j 1).val < 128 := (j 1).isLt
  have hI : ((cfg0.win 3).blk t).view.emb j = ix2 (⟨5000 * t.val + (j 0).val, by have := t.isLt; omega⟩ : Fin 50000) (⟨(j 1).val, hj1⟩ : Fin 128) := by
    funext a; apply Fin.ext
    match a with
    | ⟨0, _⟩ => show win0_3.index t (0 : Fin 2) * 5000 + 1 * (j 0).val = 5000 * t.val + (j 0).val; omega
    | ⟨1, _⟩ => show win0_3.index t (1 : Fin 2) * 128 + 1 * (j 1).val = (j 1).val; omega
  show k0_pay1 (F := Ideal) (Hand.iblk0 V c 0 t) (V c main_arg3) (V c main_arg4) j
    = Cert.Spec.embA (V c main_v0) (V c main_arg3) (V c main_arg4) (((cfg0.win 3).blk t).view.emb j)
  rw [hI]
  have hjj : j = ix2 (⟨(j 0).val, hj0⟩ : Fin 5000) (⟨(j 1).val, hj1⟩ : Fin 128) := by
    funext a; match a with | ⟨0, _⟩ => rfl | ⟨1, _⟩ => rfl
  refine (congrArg (k0_pay1 (F := Ideal) (Hand.iblk0 V c 0 t) (V c main_arg3) (V c main_arg4)) hjj).trans ?_
  exact block_val (V c main_v0) (V c main_arg3) (V c main_arg4) (Hand.iblk0 V c 0 t) ⟨(j 0).val, hj0⟩ ⟨(j 1).val, hj1⟩ _
    (iblk0_rows V c t _ _ rfl)

/-- An index of the output array is in point `t`'s block iff its row is in the block's band of 5000 rows. -/
theorem mem_blk0 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v34).slice (win0_3.rect t)).set ↔ _
  rw [View.set_slice_whole, Rect.mem_set_unit]
  exact Iff.rfl

/-- Every row of the output array lies in the band of the point `row / 5000`. -/
theorem cover0 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨-, -, -, -, -, -, e0, e1⟩ := idx_facts0 t
  have ht : t.val = (i 0).val / 5000 := rfl
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

end

end R0

/-- Region 0's output array after the run is the specification's array of the region's three input arrays as the
    region finds them: every point writes back its band of that function, and the bands cover the array. -/
theorem out0_val (V : (c : Dev nD) → (b : Ref sig .tc) → Buf (Elt Ideal) ((c : Thread nD τ).loc b)) (c : Dev nD) :
    (Hand.dat0 V c).arrAt 3 cfg0.N = Cert.Spec.embA (V c main_v0) (V c main_arg3) (V c main_arg4) :=
  (Hand.dat0 V c).arrAt_eq_of_cover 3 _ (fun t _ => R0.flushed0_eq V c t) R0.cover0

end Cert.KernelIdeal.Val
-- ==== Proof.Val.V1.lean ====
/- The value of the region of @main that runs `cc1__postprocess_kernel`, over the extended reals: the output array after
   the region's last grid point is, index by index, `max (aggregate + transformed · self-weight + bias) 0` of the four
   arrays the region's input windows stage, as the region finds them. Block `t` of the output (rows `5000 t … 5000 t + 4999`)
   is the body's payload of block `t` of the three row-banded inputs and of the whole bias row; the ten row bands tile the
   array. -/
import proofs.«428893_j18313740550827_1_alg».proof.Proof.KI.R1
import proofs.«428893_j18313740550827_1_alg».proof.Proof.Spec
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-buffer access. -/
theorem hz_r1 : (![0, 0] : Fin 2 → Nat) = fun _ => 0 := funext fun a => by fin_cases a <;> rfl

/-- The printed index maps over the grid: at point `t` the three row-banded inputs and the output sit at block row `t`,
    block column 0; the bias row at block (0, 0). -/
theorem idx_r1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- An `[a, 1]` column broadcast to `[a, b]` reads, at `(p, c)`, the column at `p`. -/
theorem bcol_r1 {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's payload at entry `(p, q)` of the block: `max (a + h · s + b) 0` with the self-weight read at row `p` of its
    column and the bias at column `q` of its row. -/
theorem pay_r1 (a h : FVec Ideal S5000x128 .f32) (s : FVec Ideal S5000x1 .f32) (b : FVec Ideal S1x128 .f32) (p : Fin 5000) (q : Fin 128) :
    k1_pay1 a h s b (ix2 p q) = max (a (ix2 p q) + h (ix2 p q) * s (ix2 p (0 : Fin 1)) + b (ix2 (0 : Fin 1) q)) 0 := by
  unfold k1_pay1
  simp only [shapeCast_self]
  rw [maximumf_apply, addf_apply, addf_apply, mulf_apply, broadcast_apply]
  rw [bcol_r1, broadcastTo_1b_ab_apply]
  show max _ (Ideal.ofBits .f32 0x00000000#32) = _
  rw [Ideal.ofBits_zero_f32]

/-- Entry `x` of window 0's block at point `t` is entry `(5000 t + x₀, x₁)` of the array it stages. -/
theorem blk_r1_0 (c : Dev nD) (t : Fin cfg1.N) (x : S5000x128.Idx) (k : S50000x128.Idx)
    (hk0 : (k 0).val = 5000 * t.val + (x 0).val) (hk1 : (k 1).val = (x 1).val) :
    (Hand.iblk1 V c 0 t : Vec Ideal S5000x128 .f32) x = (V c main_v47 : S50000x128.Idx → Elt Ideal .f32) k := by
  obtain ⟨e0, e1, -⟩ := idx_r1 t
  unfold Hand.iblk1
  rw [View.read_apply]
  show V c main_v47 _ = V c main_v47 _
  congr 1
  funext a
  apply Fin.ext
  match a with
  | ⟨0, _⟩ => show win1_0.index t 0 * 5000 + 1 * (x 0).val = (k 0).val; rw [e0, hk0]; omega
  | ⟨1, _⟩ => show win1_0.index t 1 * 128 + 1 * (x 1).val = (k 1).val; rw [e1, hk1]; omega

/-- Entry `x` of window 1's block at point `t` is entry `(5000 t + x₀, x₁)` of the array it stages. -/
theorem blk_r1_1 (c : Dev nD) (t : Fin cfg1.N) (x : S5000x128.Idx) (k : S50000x128.Idx)
    (hk0 : (k 0).val = 5000 * t.val + (x 0).val) (hk1 : (k 1).val = (x 1).val) :
    (Hand.iblk1 V c 1 t : Vec Ideal S5000x128 .f32) x = (V c main_v34 : S50000x128.Idx → Elt Ideal .f32) k := by
  obtain ⟨-, -, e0, e1, -⟩ := idx_r1 t
  unfold Hand.iblk1
  rw [View.read_apply]
  show V c main_v34 _ = V c main_v34 _
  congr 1
  funext a
  apply Fin.ext
  match a with
  | ⟨0, _⟩ => show win1_1.index t 0 * 5000 + 1 * (x 0).val = (k 0).val; rw [e0, hk0]; omega
  | ⟨1, _⟩ => show win1_1.index t 1 * 128 + 1 * (x 1).val = (k 1).val; rw [e1, hk1]; omega

/-- Entry `x` of window 2's block at point `t` is entry `(5000 t + x₀, 0)` of the self-weight column. -/
theorem blk_r1_2 (c : Dev nD) (t : Fin cfg1.N) (x : S5000x1.Idx) (k : S50000x1.Idx)
    (hk0 : (k 0).val = 5000 * t.val + (x 0).val) (hk1 : (k 1).val = (x 1).val) :
    (Hand.iblk1 V c 2 t : Vec Ideal S5000x1 .f32) x = (V c main_v29 : S50000x1.Idx → Elt Ideal .f32) k := by
  obtain ⟨-, -, -, -, e0, e1, -⟩ := idx_r1 t
  unfold Hand.iblk1
  rw [View.read_apply]
  show V c main_v29 _ = V c main_v29 _
  congr 1
  funext a
  apply Fin.ext
  match a with
  | ⟨0, _⟩ => show win1_2.index t 0 * 5000 + 1 * (x 0).val = (k 0).val; rw [e0, hk0]; omega
  | ⟨1, _⟩ => show win1_2.index t 1 * 1 + 1 * (x 1).val = (k 1).val; rw [e1, hk1]; omega

/-- Window 3's block at every point is the whole bias row. -/
theorem blk_r1_3 (c : Dev nD) (t : Fin cfg1.N) (x : S1x128.Idx) (k : S1x128.Idx)
    (hk0 : (k 0).val = (x 0).val) (hk1 : (k 1).val = (x 1).val) :
    (Hand.iblk1 V c 3 t : Vec Ideal S1x128 .f32) x = (V c main_v30 : S1x128.Idx → Elt Ideal .f32) k := by
  obtain ⟨-, -, -, -, -, -, e0, e1, -⟩ := idx_r1 t
  unfold Hand.iblk1
  rw [View.read_apply]
  show V c main_v30 _ = V c main_v30 _
  congr 1
  funext a
  apply Fin.ext
  match a with
  | ⟨0, _⟩ => show win1_3.index t 0 * 1 + 1 * (x 0).val = (k 0).val; rw [e0, hk0]; omega
  | ⟨1, _⟩ => show win1_3.index t 1 * 128 + 1 * (x 1).val = (k 1).val; rw [e1, hk1]; omega

/-- The payload of four blocks at `(p, q)` is the specification at array index `i`, when the blocks' entries the
    payload reads are the arrays' entries the specification reads at `i`. -/
theorem post_r1 (A H : S50000x128.Idx → EReal) (S : S50000x1.Idx → EReal) (B : S1x128.Idx → EReal)
    (b0 b1 : FVec Ideal S5000x128 .f32) (b2 : FVec Ideal S5000x1 .f32) (b3 : FVec Ideal S1x128 .f32)
    (p : Fin 5000) (q : Fin 128) (i : S50000x128.Idx)
    (h0 : b0 (ix2 p q) = A i) (h1 : b1 (ix2 p q) = H i)
    (h2 : b2 (ix2 p (0 : Fin 1)) = S (ix2 (i 0) (0 : Fin 1))) (h3 : b3 (ix2 (0 : Fin 1) q) = B (ix2 (0 : Fin 1) (i 1))) :
    k1_pay1 (F := Ideal) b0 b1 b2 b3 (ix2 p q) = Cert.Spec.postA A H S B i := by
  rw [pay_r1, h0, h1, h2, h3]
  rfl

/-- WHAT POINT `t` WRITES BACK is block `t` of the specification's array. -/
theorem flushed_r1 (c : Dev nD) (t : Fin cfg1.N) :
    (Hand.dat1 V c).flushed 4 t = ((cfg1.win 4).blk t).view.read (Elt Ideal)
      (Cert.Spec.postA (V c main_v47) (V c main_v34) (V c main_v29) (V c main_v30)) := by
  show (cfg1.win 4).cut (grid1.coords t) ((Hand.dat1 V c).after 4 t) = _
  rw [Hand.after1_4]
  unfold Hand.out1_4
  rw [View.canon_unit_zero hz_r1]
  simp only [View.ld_unit_zero (S := S5000x128) hz_r1, View.ld_unit_zero (S := S5000x1) hz_r1, View.ld_unit_zero (S := S1x128) hz_r1]
  obtain ⟨-, -, -, -, -, -, -, -, e0, e1⟩ := idx_r1 t
  funext j
  obtain ⟨p, q, rfl⟩ : ∃ (p : Fin 5000) (q : Fin 128), j = ix2 p q := ⟨j 0, j 1, eq_ix2 j⟩
  show k1_pay1 (F := Ideal) (Hand.iblk1 V c 0 t) (Hand.iblk1 V c 1 t) (Hand.iblk1 V c 2 t) (Hand.iblk1 V c 3 t) (ix2 p q)
    = Cert.Spec.postA (V c main_v47) (V c main_v34) (V c main_v29) (V c main_v30) (((cfg1.win 4).blk t).view.emb (ix2 p q))
  have hr : ((((cfg1.win 4).blk t).view.emb (ix2 p q) : S50000x128.Idx) 0).val = 5000 * t.val + p.val := by
    show win1_4.index t 0 * 5000 + 1 * p.val = _; rw [e0]; omega
  have hc : ((((cfg1.win 4).blk t).view.emb (ix2 p q) : S50000x128.Idx) 1).val = q.val := by
    show win1_4.index t 1 * 128 + 1 * q.val = _; rw [e1]; omega
  refine post_r1 _ _ _ _ (Hand.iblk1 V c 0 t) (Hand.iblk1 V c 1 t) (Hand.iblk1 V c 2 t) (Hand.iblk1 V c 3 t) p q _ ?_ ?_ ?_ ?_
  · exact blk_r1_0 V c t (ix2 p q) _ hr hc
  · exact blk_r1_1 V c t (ix2 p q) _ hr hc
  · exact blk_r1_2 V c t (ix2 p (0 : Fin 1)) _ hr rfl
  · exact blk_r1_3 V c t (ix2 (0 : Fin 1) q) _ rfl hc

/-- An index of the array is in point `t`'s block iff each coordinate is in the block's range on its axis. -/
theorem mem_blk_r1 (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v48).slice (win1_4.rect t)).set ↔ _
  rw [View.set_slice_whole, Rect.mem_set_unit]
  exact Iff.rfl

/-- The ten row bands tile the array: row `r` is in the block of point `r / 5000`, which is written back. -/
theorem cover_r1 (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, -, -, -, -, e0, e1⟩ := idx_r1 t
  refine ⟨t, flush1_4 t, ?_⟩
  rw [mem_blk_r1]
  intro a
  match a with
  | ⟨0, _⟩ => show win1_4.index t (0 : Fin 2) * 5000 ≤ (i 0).val ∧ (i 0).val < win1_4.index t (0 : Fin 2) * 5000 + 5000; rw [e0, ht]; omega
  | ⟨1, _⟩ => show win1_4.index t (1 : Fin 2) * 128 ≤ (i 1).val ∧ (i 1).val < win1_4.index t (1 : Fin 2) * 128 + 128; rw [e1]; omega

/-- The output array after the region: the propagation step's pointwise tail of the four staged arrays. -/
theorem out1_val (V : (c : Dev nD) → (b : Ref sig .tc) → Buf (Elt Ideal) ((c : Thread nD τ).loc b)) (c : Dev nD) :
    (Hand.dat1 V c).arrAt 4 cfg1.N = Cert.Spec.postA (V c main_v47) (V c main_v34) (V c main_v29) (V c main_v30) :=
  (Hand.dat1 V c).arrAt_eq_of_cover 4 _ (fun t _ => flushed_r1 V c t) cover_r1

end Cert.KernelIdeal.Val
-- ==== Proof.Val.V2.lean ====
/- Region 2 of @main read as a value, at the extended reals: after the run of pipeline 2 the product's array holds
   the plain matrix product of the left factor's array (as the region finds it) and the 128x128 right factor. The
   body's payload at an index is the sum over the contracted axis of the products (every format change is the
   identity there, and a matmul into the zero splat is the bare sum); point `t` writes back rows
   5000 t .. 5000 t + 4999 of that product; the ten row bands cover the 50000 rows. -/
import proofs.«428893_j18313740550827_1_alg».proof.Proof.KI.R2
import proofs.«428893_j18313740550827_1_alg».proof.Proof.Spec
import Idealize.ShloMosaic.Lib.Pipeline.Value
import Idealize.ShloMosaic.Lib.ValueIdx
import Idealize.ShloMosaic.PureOps.Ideal.Laws

noncomputable section

namespace Cert.KernelIdeal.Val

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

section Region2
variable (V : (c : Dev nD) → (b : Ref sig .tc) → Buf (Elt Ideal) ((c : Thread nD τ).loc b))

/-! ## The body's payload at an index -/

/-- Where the matmul's dimension numbers send an output index and a contraction index: the left operand's row is the
    output's row, -/
theorem lhs2_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- its column the contraction index, -/
theorem lhs2_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand's row the contraction index, -/
theorem rhs2_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- and its column the output's column. -/
theorem rhs2_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The payload at row `p`, column `q`: the sum over `d` of the left block at (p, d) times the right factor at (d, q). The
    shape cast is between equal shapes, the two narrowings are the identity, and the accumulator is the zero splat. -/
theorem pay2_apply (x0 : Vec Ideal S5000x128 .f32) (x1 : Vec Ideal S128x128 .f32) (p : Fin 5000) (q : Fin 128) :
    k2_pay1 x0 x1 (ix2 p q) = ∑ d : Fin 128, x0 (ix2 p d) * x1 (ix2 d q) := by
  unfold k2_pay1
  rw [shapeCast_self]
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs2_0 _ _
    | ⟨1, _⟩ => exact (lhs2_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs2_0 _ _).trans hk
    | ⟨1, _⟩ => exact rhs2_1 _ _)
  show x0 _ * x1 _ = _
  rw [el, er]

/-! ## From the row bands to the array -/

/-- The two factors' arrays as the region finds them, at their literal types. -/
abbrev harr2 (c : Dev nD) : S50000x128.Idx → EReal := V c main_v48
abbrev warr2 (c : Dev nD) : S128x128.Idx → EReal := V c main_arg6

theorem hz2 : (![0, 0] : Fin 2 → Nat) = fun _ => 0 := funext fun a => by fin_cases a <;> rfl

/-- The printed index maps over the ten grid points: the left factor's block moves with the product's, down the
    rows; the right factor's block stays at the origin; the product's block at point `t` is the `t`-th row band. -/
theorem idx_facts2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- A band of the product: if the left block's row `j 0` is row `i 0` of the left array and the right block's column
    `j 1` is column `i 1` of the right array, the payload at `j` is the matrix product at `i`. -/
theorem row_band2 (H : S50000x128.Idx → EReal) (W : S128x128.Idx → EReal)
    (x0 : Vec Ideal S5000x128 .f32) (x1 : Vec Ideal S128x128 .f32) (i : S50000x128.Idx) (j : S5000x128.Idx)
    (h0 : ∀ d : Fin 128, x0 (ix2 (j 0) d) = H (ix2 (i 0) d)) (h1 : ∀ d : Fin 128, x1 (ix2 d (j 1)) = W (ix2 d (i 1))) :
    k2_pay1 x0 x1 j = Cert.Spec.mmA H W i := by
  obtain ⟨p, q, rfl⟩ : ∃ (p : Fin 5000) (q : Fin 128), j = ix2 p q := ⟨j 0, j 1, eq_ix2 j⟩
  have h0' : ∀ d : Fin 128, x0 (ix2 p d) = H (ix2 (i 0) d) := h0
  have h1' : ∀ d : Fin 128, x1 (ix2 d q) = W (ix2 d (i 1)) := h1
  rw [pay2_apply]
  show _ = ∑ d : Fin 128, H (ix2 (i 0) d) * W (ix2 d (i 1))
  exact Finset.sum_congr rfl fun d _ => by rw [h0' d, h1' d]

/-- What grid point `t` writes back to the product's array is the `t`-th row band of the matrix product of the two
    arrays: the left block's rows are the band's rows of the left array, the right block is the whole right array. -/
theorem flushed2_eq (c : Dev nD) (t : Fin cfg2.N) :
    (Hand.dat2 V c).flushed 2 t = ((cfg2.win 2).blk t).view.read (Elt Ideal) (Cert.Spec.mmA (harr2 V c) (warr2 V c)) := by
  show (cfg2.win 2).cut (grid2.coords t) ((Hand.dat2 V c).after 2 t) = _
  rw [Hand.after2_2]
  unfold Hand.out2_2
  rw [View.canon_unit_zero hz2]
  simp only [View.ld_unit_zero (S := S5000x128) hz2, View.ld_unit_zero (S := S128x128) hz2]
  obtain ⟨e0, e1, e2, e3, e4, e5⟩ := idx_facts2 t
  funext j
  show k2_pay1 (Hand.iblk2 V c 0 t) (Hand.iblk2 V c 1 t) j = Cert.Spec.mmA (harr2 V c) (warr2 V c) (((cfg2.win 2).blk t).view.emb j)
  refine row_band2 (harr2 V c) (warr2 V c) (Hand.iblk2 V c 0 t) (Hand.iblk2 V c 1 t) (((cfg2.win 2).blk t).view.emb j) j ?_ ?_
  · intro d
    show harr2 V c (((cfg2.win 0).blk t).view.emb (ix2 (j 0) d)) = harr2 V c (ix2 ((((cfg2.win 2).blk t).view.emb j) 0) d)
    refine congrArg (harr2 V c) (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * d.val = d.val; omega
  · intro d
    show warr2 V c (((cfg2.win 1).blk t).view.emb (ix2 d (j 1))) = warr2 V c (ix2 d ((((cfg2.win 2).blk t).view.emb j) 1))
    refine congrArg (warr2 V c) (funext fun a => Fin.ext ?_)
    match a with
    | ⟨0, _⟩ => show win2_1.index t (0 : Fin 2) * 128 + 1 * d.val = d.val; omega
    | ⟨1, _⟩ => show win2_1.index t (1 : Fin 2) * 128 + 1 * (j 1).val = win2_2.index t (1 : Fin 2) * 128 + 1 * (j 1).val; omega

/-- An index of the array is in point `t`'s block iff each coordinate is in the block's range on its axis. -/
theorem mem_blk2 (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v49).slice (win2_2.rect t)).set ↔ _
  rw [View.set_slice_whole, Rect.mem_set_unit]
  exact Iff.rfl

/-- Every index of the array lies in the block of the point its row's band names: row `r` is in band `r / 5000`. -/
theorem cover2_val (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 10 := N_2
  let t : Fin cfg2.N := ⟨(i 0).val / 5000, by rw [hN]; omega⟩
  obtain ⟨e0, e1, e2, e3, e4, e5⟩ := idx_facts2 t
  have e4' : win2_2.index t (0 : Fin 2) = (i 0).val / 5000 := e4
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The product's array after the run is the matrix product of the two factors' arrays at entry. -/
theorem out2_val (c : Dev nD) :
    (Hand.dat2 V c).arrAt 2 cfg2.N = Cert.Spec.mmA (V c main_v48) (V c main_arg6) :=
  (Hand.dat2 V c).arrAt_eq_of_cover 2 (Cert.Spec.mmA (harr2 V c) (warr2 V c)) (fun t _ => flushed2_eq V c t) (cover2_val)

end Region2

end Cert.KernelIdeal.Val

end
-- ==== Proof.Val.V3.lean ====
/- The value of the region of @main that runs `cc3__postprocess_kernel`, over the extended reals: the output array after
   the region's last grid point is, index by index, `max (aggregate + transformed · self-weight + bias) 0` of the four
   arrays the region's input windows stage, as the region finds them. Block `t` of the output (rows `5000 t … 5000 t + 4999`)
   is the body's payload of block `t` of the three row-banded inputs and of the whole bias row; the ten row bands tile the
   array. -/
import proofs.«428893_j18313740550827_1_alg».proof.Proof.KI.R3
import proofs.«428893_j18313740550827_1_alg».proof.Proof.Spec
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-buffer access. -/
theorem hz_r3 : (![0, 0] : Fin 2 → Nat) = fun _ => 0 := funext fun a => by fin_cases a <;> rfl

/-- The printed index maps over the grid: at point `t` the three row-banded inputs and the output sit at block row `t`,
    block column 0; the bias row at block (0, 0). -/
theorem idx_r3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- An `[a, 1]` column broadcast to `[a, b]` reads, at `(p, c)`, the column at `p`. -/
theorem bcol_r3 {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's payload at entry `(p, q)` of the block: `max (a + h · s + b) 0` with the self-weight read at row `p` of its
    column and the bias at column `q` of its row. -/
theorem pay_r3 (a h : FVec Ideal S5000x128 .f32) (s : FVec Ideal S5000x1 .f32) (b : FVec Ideal S1x128 .f32) (p : Fin 5000) (q : Fin 128) :
    k3_pay1 a h s b (ix2 p q) = max (a (ix2 p q) + h (ix2 p q) * s (ix2 p (0 : Fin 1)) + b (ix2 (0 : Fin 1) q)) 0 := by
  unfold k3_pay1
  simp only [shapeCast_self]
  rw [maximumf_apply, addf_apply, addf_apply, mulf_apply, broadcast_apply]
  rw [bcol_r3, broadcastTo_1b_ab_apply]
  show max _ (Ideal.ofBits .f32 0x00000000#32) = _
  rw [Ideal.ofBits_zero_f32]

/-- Entry `x` of window 0's block at point `t` is entry `(5000 t + x₀, x₁)` of the array it stages. -/
theorem blk_r3_0 (c : Dev nD) (t : Fin cfg3.N) (x : S5000x128.Idx) (k : S50000x128.Idx)
    (hk0 : (k 0).val = 5000 * t.val + (x 0).val) (hk1 : (k 1).val = (x 1).val) :
    (Hand.iblk3 V c 0 t : Vec Ideal S5000x128 .f32) x = (V c main_v62 : S50000x128.Idx → Elt Ideal .f32) k := by
  obtain ⟨e0, e1, -⟩ := idx_r3 t
  unfold Hand.iblk3
  rw [View.read_apply]
  show V c main_v62 _ = V c main_v62 _
  congr 1
  funext a
  apply Fin.ext
  match a with
  | ⟨0, _⟩ => show win3_0.index t 0 * 5000 + 1 * (x 0).val = (k 0).val; rw [e0, hk0]; omega
  | ⟨1, _⟩ => show win3_0.index t 1 * 128 + 1 * (x 1).val = (k 1).val; rw [e1, hk1]; omega

/-- Entry `x` of window 1's block at point `t` is entry `(5000 t + x₀, x₁)` of the array it stages. -/
theorem blk_r3_1 (c : Dev nD) (t : Fin cfg3.N) (x : S5000x128.Idx) (k : S50000x128.Idx)
    (hk0 : (k 0).val = 5000 * t.val + (x 0).val) (hk1 : (k 1).val = (x 1).val) :
    (Hand.iblk3 V c 1 t : Vec Ideal S5000x128 .f32) x = (V c main_v49 : S50000x128.Idx → Elt Ideal .f32) k := by
  obtain ⟨-, -, e0, e1, -⟩ := idx_r3 t
  unfold Hand.iblk3
  rw [View.read_apply]
  show V c main_v49 _ = V c main_v49 _
  congr 1
  funext a
  apply Fin.ext
  match a with
  | ⟨0, _⟩ => show win3_1.index t 0 * 5000 + 1 * (x 0).val = (k 0).val; rw [e0, hk0]; omega
  | ⟨1, _⟩ => show win3_1.index t 1 * 128 + 1 * (x 1).val = (k 1).val; rw [e1, hk1]; omega

/-- Entry `x` of window 2's block at point `t` is entry `(5000 t + x₀, 0)` of the self-weight column. -/
theorem blk_r3_2 (c : Dev nD) (t : Fin cfg3.N) (x : S5000x1.Idx) (k : S50000x1.Idx)
    (hk0 : (k 0).val = 5000 * t.val + (x 0).val) (hk1 : (k 1).val = (x 1).val) :
    (Hand.iblk3 V c 2 t : Vec Ideal S5000x1 .f32) x = (V c main_v29 : S50000x1.Idx → Elt Ideal .f32) k := by
  obtain ⟨-, -, -, -, e0, e1, -⟩ := idx_r3 t
  unfold Hand.iblk3
  rw [View.read_apply]
  show V c main_v29 _ = V c main_v29 _
  congr 1
  funext a
  apply Fin.ext
  match a with
  | ⟨0, _⟩ => show win3_2.index t 0 * 5000 + 1 * (x 0).val = (k 0).val; rw [e0, hk0]; omega
  | ⟨1, _⟩ => show win3_2.index t 1 * 1 + 1 * (x 1).val = (k 1).val; rw [e1, hk1]; omega

/-- Window 3's block at every point is the whole bias row. -/
theorem blk_r3_3 (c : Dev nD) (t : Fin cfg3.N) (x : S1x128.Idx) (k : S1x128.Idx)
    (hk0 : (k 0).val = (x 0).val) (hk1 : (k 1).val = (x 1).val) :
    (Hand.iblk3 V c 3 t : Vec Ideal S1x128 .f32) x = (V c main_v31 : S1x128.Idx → Elt Ideal .f32) k := by
  obtain ⟨-, -, -, -, -, -, e0, e1, -⟩ := idx_r3 t
  unfold Hand.iblk3
  rw [View.read_apply]
  show V c main_v31 _ = V c main_v31 _
  congr 1
  funext a
  apply Fin.ext
  match a with
  | ⟨0, _⟩ => show win3_3.index t 0 * 1 + 1 * (x 0).val = (k 0).val; rw [e0, hk0]; omega
  | ⟨1, _⟩ => show win3_3.index t 1 * 128 + 1 * (x 1).val = (k 1).val; rw [e1, hk1]; omega

/-- The payload of four blocks at `(p, q)` is the specification at array index `i`, when the blocks' entries the
    payload reads are the arrays' entries the specification reads at `i`. -/
theorem post_r3 (A H : S50000x128.Idx → EReal) (S : S50000x1.Idx → EReal) (B : S1x128.Idx → EReal)
    (b0 b1 : FVec Ideal S5000x128 .f32) (b2 : FVec Ideal S5000x1 .f32) (b3 : FVec Ideal S1x128 .f32)
    (p : Fin 5000) (q : Fin 128) (i : S50000x128.Idx)
    (h0 : b0 (ix2 p q) = A i) (h1 : b1 (ix2 p q) = H i)
    (h2 : b2 (ix2 p (0 : Fin 1)) = S (ix2 (i 0) (0 : Fin 1))) (h3 : b3 (ix2 (0 : Fin 1) q) = B (ix2 (0 : Fin 1) (i 1))) :
    k3_pay1 (F := Ideal) b0 b1 b2 b3 (ix2 p q) = Cert.Spec.postA A H S B i := by
  rw [pay_r3, h0, h1, h2, h3]
  rfl

/-- WHAT POINT `t` WRITES BACK is block `t` of the specification's array. -/
theorem flushed_r3 (c : Dev nD) (t : Fin cfg3.N) :
    (Hand.dat3 V c).flushed 4 t = ((cfg3.win 4).blk t).view.read (Elt Ideal)
      (Cert.Spec.postA (V c main_v62) (V c main_v49) (V c main_v29) (V c main_v31)) := by
  show (cfg3.win 4).cut (grid3.coords t) ((Hand.dat3 V c).after 4 t) = _
  rw [Hand.after3_4]
  unfold Hand.out3_4
  rw [View.canon_unit_zero hz_r3]
  simp only [View.ld_unit_zero (S := S5000x128) hz_r3, View.ld_unit_zero (S := S5000x1) hz_r3, View.ld_unit_zero (S := S1x128) hz_r3]
  obtain ⟨-, -, -, -, -, -, -, -, e0, e1⟩ := idx_r3 t
  funext j
  obtain ⟨p, q, rfl⟩ : ∃ (p : Fin 5000) (q : Fin 128), j = ix2 p q := ⟨j 0, j 1, eq_ix2 j⟩
  show k3_pay1 (F := Ideal) (Hand.iblk3 V c 0 t) (Hand.iblk3 V c 1 t) (Hand.iblk3 V c 2 t) (Hand.iblk3 V c 3 t) (ix2 p q)
    = Cert.Spec.postA (V c main_v62) (V c main_v49) (V c main_v29) (V c main_v31) (((cfg3.win 4).blk t).view.emb (ix2 p q))
  have hr : ((((cfg3.win 4).blk t).view.emb (ix2 p q) : S50000x128.Idx) 0).val = 5000 * t.val + p.val := by
    show win3_4.index t 0 * 5000 + 1 * p.val = _; rw [e0]; omega
  have hc : ((((cfg3.win 4).blk t).view.emb (ix2 p q) : S50000x128.Idx) 1).val = q.val := by
    show win3_4.index t 1 * 128 + 1 * q.val = _; rw [e1]; omega
  refine post_r3 _ _ _ _ (Hand.iblk3 V c 0 t) (Hand.iblk3 V c 1 t) (Hand.iblk3 V c 2 t) (Hand.iblk3 V c 3 t) p q _ ?_ ?_ ?_ ?_
  · exact blk_r3_0 V c t (ix2 p q) _ hr hc
  · exact blk_r3_1 V c t (ix2 p q) _ hr hc
  · exact blk_r3_2 V c t (ix2 p (0 : Fin 1)) _ hr rfl
  · exact blk_r3_3 V c t (ix2 (0 : Fin 1) q) _ rfl hc

/-- An index of the array is in point `t`'s block iff each coordinate is in the block's range on its axis. -/
theorem mem_blk_r3 (t : Fin cfg3.N) (i : S50000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v63).slice (win3_4.rect t)).set ↔ _
  rw [View.set_slice_whole, Rect.mem_set_unit]
  exact Iff.rfl

/-- The ten row bands tile the array: row `r` is in the block of point `r / 5000`, which is written back. -/
theorem cover_r3 (i : S50000x128.Idx) :
    ∃ t : Fin cfg3.N, (cfg3.win 4).flush t = true ∧ i ∈ ((cfg3.win 4).blk t).view.set := by
  have hi0 : (i 0).val < 50000 := (i 0).isLt
  have hi1 : (i 1).val < 128 := (i 1).isLt
  have hN : cfg3.N = 10 := N_3
  obtain ⟨t, ht⟩ : ∃ t : Fin cfg3.N, t.val = (i 0).val / 5000 := ⟨⟨(i 0).val / 5000, by rw [hN]; omega⟩, rfl⟩
  obtain ⟨-, -, -, -, -, -, -, -, e0, e1⟩ := idx_r3 t
  refine ⟨t, flush3_4 t, ?_⟩
  rw [mem_blk_r3]
  intro a
  match a with
  | ⟨0, _⟩ => show win3_4.index t (0 : Fin 2) * 5000 ≤ (i 0).val ∧ (i 0).val < win3_4.index t (0 : Fin 2) * 5000 + 5000; rw [e0, ht]; omega
  | ⟨1, _⟩ => show win3_4.index t (1 : Fin 2) * 128 ≤ (i 1).val ∧ (i 1).val < win3_4.index t (1 : Fin 2) * 128 + 128; rw [e1]; omega

/-- The output array after the region: the propagation step's pointwise tail of the four staged arrays. -/
theorem out3_val (V : (c : Dev nD) → (b : Ref sig .tc) → Buf (Elt Ideal) ((c : Thread nD τ).loc b)) (c : Dev nD) :
    (Hand.dat3 V c).arrAt 4 cfg3.N = Cert.Spec.postA (V c main_v62) (V c main_v49) (V c main_v29) (V c main_v31) :=
  (Hand.dat3 V c).arrAt_eq_of_cover 4 _ (fun t _ => flushed_r3 V c t) cover_r3

end Cert.KernelIdeal.Val
-- ==== Proof.Val.V4.lean ====
/- Region 4 of @main read as a value, at the extended reals: after the run of pipeline 4 the product's array holds
   the plain matrix product of the left factor's array (as the region finds it) and the 128x128 right factor. The
   body's payload at an index is the sum over the contracted axis of the products (every format change is the
   identity there, and a matmul into the zero splat is the bare sum); point `t` writes back rows
   5000 t .. 5000 t + 4999 of that product; the ten row bands cover the 50000 rows. -/
import proofs.«428893_j18313740550827_1_alg».proof.Proof.KI.R4
import proofs.«428893_j18313740550827_1_alg».proof.Proof.Spec
import Idealize.ShloMosaic.Lib.Pipeline.Value
import Idealize.ShloMosaic.Lib.ValueIdx
import Idealize.ShloMosaic.PureOps.Ideal.Laws

noncomputable section

namespace Cert.KernelIdeal.Val

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

section Region4
variable (V : (c : Dev nD) → (b : Ref sig .tc) → Buf (Elt Ideal) ((c : Thread nD τ).loc b))

/-! ## The body's payload at an index -/

/-- Where the matmul's dimension numbers send an output index and a contraction index: the left operand's row is the
    output's row, -/
theorem lhs4_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- its column the contraction index, -/
theorem lhs4_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand's row the contraction index, -/
theorem rhs4_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- and its column the output's column. -/
theorem rhs4_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The payload at row `p`, column `q`: the sum over `d` of the left block at (p, d) times the right factor at (d, q). The
    shape cast is between equal shapes, the two narrowings are the identity, and the accumulator is the zero splat. -/
theorem pay4_apply (x0 : Vec Ideal S5000x128 .f32) (x1 : Vec Ideal S128x128 .f32) (p : Fin 5000) (q : Fin 128) :
    k4_pay1 x0 x1 (ix2 p q) = ∑ d : Fin 128, x0 (ix2 p d) * x1 (ix2 d q) := by
  unfold k4_pay1
  rw [shapeCast_self]
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs4_0 _ _
    | ⟨1, _⟩ => exact (lhs4_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs4_0 _ _).trans hk
    | ⟨1, _⟩ => exact rhs4_1 _ _)
  show x0 _ * x1 _ = _
  rw [el, er]

/-! ## From the row bands to the array -/

/-- The two factors' arrays as the region finds them, at their literal types. -/
abbrev harr4 (c : Dev nD) : S50000x128.Idx → EReal := V c main_v63
abbrev warr4 (c : Dev nD) : S128x128.Idx → EReal := V c main_arg8

theorem hz4 : (![0, 0] : Fin 2 → Nat) = fun _ => 0 := funext fun a => by fin_cases a <;> rfl

/-- The printed index maps over the ten grid points: the left factor's block moves with the product's, down the
    rows; the right factor's block stays at the origin; the product's block at point `t` is the `t`-th row band. -/
theorem idx_facts4 : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (0 : Fin 2) = t.val
    ∧ win4_2.index t (1 : Fin 2) = 0 :=
  (by decide +kernel : ∀ t : Fin grid4.N, _)

/-- A band of the product: if the left block's row `j 0` is row `i 0` of the left array and the right block's column
    `j 1` is column `i 1` of the right array, the payload at `j` is the matrix product at `i`. -/
theorem row_band4 (H : S50000x128.Idx → EReal) (W : S128x128.Idx → EReal)
    (x0 : Vec Ideal S5000x128 .f32) (x1 : Vec Ideal S128x128 .f32) (i : S50000x128.Idx) (j : S5000x128.Idx)
    (h0 : ∀ d : Fin 128, x0 (ix2 (j 0) d) = H (ix2 (i 0) d)) (h1 : ∀ d : Fin 128, x1 (ix2 d (j 1)) = W (ix2 d (i 1))) :
    k4_pay1 x0 x1 j = Cert.Spec.mmA H W i := by
  obtain ⟨p, q, rfl⟩ : ∃ (p : Fin 5000) (q : Fin 128), j = ix2 p q := ⟨j 0, j 1, eq_ix2 j⟩
  have h0' : ∀ d : Fin 128, x0 (ix2 p d) = H (ix2 (i 0) d) := h0
  have h1' : ∀ d : Fin 128, x1 (ix2 d q) = W (ix2 d (i 1)) := h1
  rw [pay4_apply]
  show _ = ∑ d : Fin 128, H (ix2 (i 0) d) * W (ix2 d (i 1))
  exact Finset.sum_congr rfl fun d _ => by rw [h0' d, h1' d]

/-- What grid point `t` writes back to the product's array is the `t`-th row band of the matrix product of the two
    arrays: the left block's rows are the band's rows of the left array, the right block is the whole right array. -/
theorem flushed4_eq (c : Dev nD) (t : Fin cfg4.N) :
    (Hand.dat4 V c).flushed 2 t = ((cfg4.win 2).blk t).view.read (Elt Ideal) (Cert.Spec.mmA (harr4 V c) (warr4 V c)) := by
  show (cfg4.win 2).cut (grid4.coords t) ((Hand.dat4 V c).after 2 t) = _
  rw [Hand.after4_2]
  unfold Hand.out4_2
  rw [View.canon_unit_zero hz4]
  simp only [View.ld_unit_zero (S := S5000x128) hz4, View.ld_unit_zero (S := S128x128) hz4]
  obtain ⟨e0, e1, e2, e3, e4, e5⟩ := idx_facts4 t
  funext j
  show k4_pay1 (Hand.iblk4 V c 0 t) (Hand.iblk4 V c 1 t) j = Cert.Spec.mmA (harr4 V c) (warr4 V c) (((cfg4.win 2).blk t).view.emb j)
  refine row_band4 (harr4 V c) (warr4 V c) (Hand.iblk4 V c 0 t) (Hand.iblk4 V c 1 t) (((cfg4.win 2).blk t).view.emb j) j ?_ ?_
  · intro d
    show harr4 V c (((cfg4.win 0).blk t).view.emb (ix2 (j 0) d)) = harr4 V c (ix2 ((((cfg4.win 2).blk t).view.emb j) 0) d)
    refine congrArg (harr4 V c) (funext fun a => Fin.ext ?_)
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 128 + 1 * d.val = d.val; omega
  · intro d
    show warr4 V c (((cfg4.win 1).blk t).view.emb (ix2 d (j 1))) = warr4 V c (ix2 d ((((cfg4.win 2).blk t).view.emb j) 1))
    refine congrArg (warr4 V c) (funext fun a => Fin.ext ?_)
    match a with
    | ⟨0, _⟩ => show win4_1.index t (0 : Fin 2) * 128 + 1 * d.val = d.val; omega
    | ⟨1, _⟩ => show win4_1.index t (1 : Fin 2) * 128 + 1 * (j 1).val = win4_2.index t (1 : Fin 2) * 128 + 1 * (j 1).val; omega

/-- An index of the array is in point `t`'s block iff each coordinate is in the block's range on its axis. -/
theorem mem_blk4 (t : Fin cfg4.N) (i : S50000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v64).slice (win4_2.rect t)).set ↔ _
  rw [View.set_slice_whole, Rect.mem_set_unit]
  exact Iff.rfl

/-- Every index of the array lies in the block of the point its row's band names: row `r` is in band `r / 5000`. -/
theorem cover4_val (i : S50000x128.Idx) :
    ∃ t : Fin cfg4.N, (cfg4.win 2).flush t = true ∧ i ∈ ((cfg4.win 2).blk t).view.set := by
  have hi0 : (i 0).val < 50000 := (i 0).isLt
  have hi1 : (i 1).val < 128 := (i 1).isLt
  have hN : cfg4.N = 10 := N_4
  let t : Fin cfg4.N := ⟨(i 0).val / 5000, by rw [hN]; omega⟩
  obtain ⟨e0, e1, e2, e3, e4, e5⟩ := idx_facts4 t
  have e4' : win4_2.index t (0 : Fin 2) = (i 0).val / 5000 := e4
  refine ⟨t, flush4_2 t, ?_⟩
  rw [mem_blk4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- The product's array after the run is the matrix product of the two factors' arrays at entry. -/
theorem out4_val (c : Dev nD) :
    (Hand.dat4 V c).arrAt 2 cfg4.N = Cert.Spec.mmA (V c main_v63) (V c main_arg8) :=
  (Hand.dat4 V c).arrAt_eq_of_cover 2 (Cert.Spec.mmA (harr4 V c) (warr4 V c)) (fun t _ => flushed4_eq V c t) (cover4_val)

end Region4

end Cert.KernelIdeal.Val

end
-- ==== Proof.Val.V5.lean ====
/- The value of the region of @main that runs `cc5__postprocess_kernel`, over the extended reals: the output array after
   the region's last grid point is, index by index, `max (aggregate + transformed · self-weight + bias) 0` of the four
   arrays the region's input windows stage, as the region finds them. Block `t` of the output (rows `5000 t … 5000 t + 4999`)
   is the body's payload of block `t` of the three row-banded inputs and of the whole bias row; the ten row bands tile the
   array. -/
import proofs.«428893_j18313740550827_1_alg».proof.Proof.KI.R5
import proofs.«428893_j18313740550827_1_alg».proof.Proof.Spec
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-buffer access. -/
theorem hz_r5 : (![0, 0] : Fin 2 → Nat) = fun _ => 0 := funext fun a => by fin_cases a <;> rfl

/-- The printed index maps over the grid: at point `t` the three row-banded inputs and the output sit at block row `t`,
    block column 0; the bias row at block (0, 0). -/
theorem idx_r5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- An `[a, 1]` column broadcast to `[a, b]` reads, at `(p, c)`, the column at `p`. -/
theorem bcol_r5 {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's payload at entry `(p, q)` of the block: `max (a + h · s + b) 0` with the self-weight read at row `p` of its
    column and the bias at column `q` of its row. -/
theorem pay_r5 (a h : FVec Ideal S5000x128 .f32) (s : FVec Ideal S5000x1 .f32) (b : FVec Ideal S1x128 .f32) (p : Fin 5000) (q : Fin 128) :
    k5_pay1 a h s b (ix2 p q) = max (a (ix2 p q) + h (ix2 p q) * s (ix2 p (0 : Fin 1)) + b (ix2 (0 : Fin 1) q)) 0 := by
  unfold k5_pay1
  simp only [shapeCast_self]
  rw [maximumf_apply, addf_apply, addf_apply, mulf_apply, broadcast_apply]
  rw [bcol_r5, broadcastTo_1b_ab_apply]
  show max _ (Ideal.ofBits .f32 0x00000000#32) = _
  rw [Ideal.ofBits_zero_f32]

/-- Entry `x` of window 0's block at point `t` is entry `(5000 t + x₀, x₁)` of the array it stages. -/
theorem blk_r5_0 (c : Dev nD) (t : Fin cfg5.N) (x : S5000x128.Idx) (k : S50000x128.Idx)
    (hk0 : (k 0).val = 5000 * t.val + (x 0).val) (hk1 : (k 1).val = (x 1).val) :
    (Hand.iblk5 V c 0 t : Vec Ideal S5000x128 .f32) x = (V c main_v77 : S50000x128.Idx → Elt Ideal .f32) k := by
  obtain ⟨e0, e1, -⟩ := idx_r5 t
  unfold Hand.iblk5
  rw [View.read_apply]
  show V c main_v77 _ = V c main_v77 _
  congr 1
  funext a
  apply Fin.ext
  match a with
  | ⟨0, _⟩ => show win5_0.index t 0 * 5000 + 1 * (x 0).val = (k 0).val; rw [e0, hk0]; omega
  | ⟨1, _⟩ => show win5_0.index t 1 * 128 + 1 * (x 1).val = (k 1).val; rw [e1, hk1]; omega

/-- Entry `x` of window 1's block at point `t` is entry `(5000 t + x₀, x₁)` of the array it stages. -/
theorem blk_r5_1 (c : Dev nD) (t : Fin cfg5.N) (x : S5000x128.Idx) (k : S50000x128.Idx)
    (hk0 : (k 0).val = 5000 * t.val + (x 0).val) (hk1 : (k 1).val = (x 1).val) :
    (Hand.iblk5 V c 1 t : Vec Ideal S5000x128 .f32) x = (V c main_v64 : S50000x128.Idx → Elt Ideal .f32) k := by
  obtain ⟨-, -, e0, e1, -⟩ := idx_r5 t
  unfold Hand.iblk5
  rw [View.read_apply]
  show V c main_v64 _ = V c main_v64 _
  congr 1
  funext a
  apply Fin.ext
  match a with
  | ⟨0, _⟩ => show win5_1.index t 0 * 5000 + 1 * (x 0).val = (k 0).val; rw [e0, hk0]; omega
  | ⟨1, _⟩ => show win5_1.index t 1 * 128 + 1 * (x 1).val = (k 1).val; rw [e1, hk1]; omega

/-- Entry `x` of window 2's block at point `t` is entry `(5000 t + x₀, 0)` of the self-weight column. -/
theorem blk_r5_2 (c : Dev nD) (t : Fin cfg5.N) (x : S5000x1.Idx) (k : S50000x1.Idx)
    (hk0 : (k 0).val = 5000 * t.val + (x 0).val) (hk1 : (k 1).val = (x 1).val) :
    (Hand.iblk5 V c 2 t : Vec Ideal S5000x1 .f32) x = (V c main_v29 : S50000x1.Idx → Elt Ideal .f32) k := by
  obtain ⟨-, -, -, -, e0, e1, -⟩ := idx_r5 t
  unfold Hand.iblk5
  rw [View.read_apply]
  show V c main_v29 _ = V c main_v29 _
  congr 1
  funext a
  apply Fin.ext
  match a with
  | ⟨0, _⟩ => show win5_2.index t 0 * 5000 + 1 * (x 0).val = (k 0).val; rw [e0, hk0]; omega
  | ⟨1, _⟩ => show win5_2.index t 1 * 1 + 1 * (x 1).val = (k 1).val; rw [e1, hk1]; omega

/-- Window 3's block at every point is the whole bias row. -/
theorem blk_r5_3 (c : Dev nD) (t : Fin cfg5.N) (x : S1x128.Idx) (k : S1x128.Idx)
    (hk0 : (k 0).val = (x 0).val) (hk1 : (k 1).val = (x 1).val) :
    (Hand.iblk5 V c 3 t : Vec Ideal S1x128 .f32) x = (V c main_v32 : S1x128.Idx → Elt Ideal .f32) k := by
  obtain ⟨-, -, -, -, -, -, e0, e1, -⟩ := idx_r5 t
  unfold Hand.iblk5
  rw [View.read_apply]
  show V c main_v32 _ = V c main_v32 _
  congr 1
  funext a
  apply Fin.ext
  match a with
  | ⟨0, _⟩ => show win5_3.index t 0 * 1 + 1 * (x 0).val = (k 0).val; rw [e0, hk0]; omega
  | ⟨1, _⟩ => show win5_3.index t 1 * 128 + 1 * (x 1).val = (k 1).val; rw [e1, hk1]; omega

/-- The payload of four blocks at `(p, q)` is the specification at array index `i`, when the blocks' entries the
    payload reads are the arrays' entries the specification reads at `i`. -/
theorem post_r5 (A H : S50000x128.Idx → EReal) (S : S50000x1.Idx → EReal) (B : S1x128.Idx → EReal)
    (b0 b1 : FVec Ideal S5000x128 .f32) (b2 : FVec Ideal S5000x1 .f32) (b3 : FVec Ideal S1x128 .f32)
    (p : Fin 5000) (q : Fin 128) (i : S50000x128.Idx)
    (h0 : b0 (ix2 p q) = A i) (h1 : b1 (ix2 p q) = H i)
    (h2 : b2 (ix2 p (0 : Fin 1)) = S (ix2 (i 0) (0 : Fin 1))) (h3 : b3 (ix2 (0 : Fin 1) q) = B (ix2 (0 : Fin 1) (i 1))) :
    k5_pay1 (F := Ideal) b0 b1 b2 b3 (ix2 p q) = Cert.Spec.postA A H S B i := by
  rw [pay_r5, h0, h1, h2, h3]
  rfl

/-- WHAT POINT `t` WRITES BACK is block `t` of the specification's array. -/
theorem flushed_r5 (c : Dev nD) (t : Fin cfg5.N) :
    (Hand.dat5 V c).flushed 4 t = ((cfg5.win 4).blk t).view.read (Elt Ideal)
      (Cert.Spec.postA (V c main_v77) (V c main_v64) (V c main_v29) (V c main_v32)) := by
  show (cfg5.win 4).cut (grid5.coords t) ((Hand.dat5 V c).after 4 t) = _
  rw [Hand.after5_4]
  unfold Hand.out5_4
  rw [View.canon_unit_zero hz_r5]
  simp only [View.ld_unit_zero (S := S5000x128) hz_r5, View.ld_unit_zero (S := S5000x1) hz_r5, View.ld_unit_zero (S := S1x128) hz_r5]
  obtain ⟨-, -, -, -, -, -, -, -, e0, e1⟩ := idx_r5 t
  funext j
  obtain ⟨p, q, rfl⟩ : ∃ (p : Fin 5000) (q : Fin 128), j = ix2 p q := ⟨j 0, j 1, eq_ix2 j⟩
  show k5_pay1 (F := Ideal) (Hand.iblk5 V c 0 t) (Hand.iblk5 V c 1 t) (Hand.iblk5 V c 2 t) (Hand.iblk5 V c 3 t) (ix2 p q)
    = Cert.Spec.postA (V c main_v77) (V c main_v64) (V c main_v29) (V c main_v32) (((cfg5.win 4).blk t).view.emb (ix2 p q))
  have hr : ((((cfg5.win 4).blk t).view.emb (ix2 p q) : S50000x128.Idx) 0).val = 5000 * t.val + p.val := by
    show win5_4.index t 0 * 5000 + 1 * p.val = _; rw [e0]; omega
  have hc : ((((cfg5.win 4).blk t).view.emb (ix2 p q) : S50000x128.Idx) 1).val = q.val := by
    show win5_4.index t 1 * 128 + 1 * q.val = _; rw [e1]; omega
  refine post_r5 _ _ _ _ (Hand.iblk5 V c 0 t) (Hand.iblk5 V c 1 t) (Hand.iblk5 V c 2 t) (Hand.iblk5 V c 3 t) p q _ ?_ ?_ ?_ ?_
  · exact blk_r5_0 V c t (ix2 p q) _ hr hc
  · exact blk_r5_1 V c t (ix2 p q) _ hr hc
  · exact blk_r5_2 V c t (ix2 p (0 : Fin 1)) _ hr rfl
  · exact blk_r5_3 V c t (ix2 (0 : Fin 1) q) _ rfl hc

/-- An index of the array is in point `t`'s block iff each coordinate is in the block's range on its axis. -/
theorem mem_blk_r5 (t : Fin cfg5.N) (i : S50000x128.Idx) :
    i ∈ ((cfg5.win 4).blk t).view.set ↔ ∀ a : Fin 2, win5_4.index t a * S5000x128.size a ≤ (i a).val ∧ (i a).val < win5_4.index t a * S5000x128.size a + S5000x128.size a := by
  show i ∈ ((View.whole main_v78).slice (win5_4.rect t)).set ↔ _
  rw [View.set_slice_whole, Rect.mem_set_unit]
  exact Iff.rfl

/-- The ten row bands tile the array: row `r` is in the block of point `r / 5000`, which is written back. -/
theorem cover_r5 (i : S50000x128.Idx) :
    ∃ t : Fin cfg5.N, (cfg5.win 4).flush t = true ∧ i ∈ ((cfg5.win 4).blk t).view.set := by
  have hi0 : (i 0).val < 50000 := (i 0).isLt
  have hi1 : (i 1).val < 128 := (i 1).isLt
  have hN : cfg5.N = 10 := N_5
  obtain ⟨t, ht⟩ : ∃ t : Fin cfg5.N, t.val = (i 0).val / 5000 := ⟨⟨(i 0).val / 5000, by rw [hN]; omega⟩, rfl⟩
  obtain ⟨-, -, -, -, -, -, -, -, e0, e1⟩ := idx_r5 t
  refine ⟨t, flush5_4 t, ?_⟩
  rw [mem_blk_r5]
  intro a
  match a with
  | ⟨0, _⟩ => show win5_4.index t (0 : Fin 2) * 5000 ≤ (i 0).val ∧ (i 0).val < win5_4.index t (0 : Fin 2) * 5000 + 5000; rw [e0, ht]; omega
  | ⟨1, _⟩ => show win5_4.index t (1 : Fin 2) * 128 ≤ (i 1).val ∧ (i 1).val < win5_4.index t (1 : Fin 2) * 128 + 128; rw [e1]; omega

/-- The output array after the region: the propagation step's pointwise tail of the four staged arrays. -/
theorem out5_val (V : (c : Dev nD) → (b : Ref sig .tc) → Buf (Elt Ideal) ((c : Thread nD τ).loc b)) (c : Dev nD) :
    (Hand.dat5 V c).arrAt 4 cfg5.N = Cert.Spec.postA (V c main_v77) (V c main_v64) (V c main_v29) (V c main_v32) :=
  (Hand.dat5 V c).arrAt_eq_of_cover 4 _ (fun t _ => flushed_r5 V c t) cover_r5

end Cert.KernelIdeal.Val
-- ==== Proof.Val.V6.lean ====
/- The last region of @main read as a value, at the extended reals: after the run of the finalize pipeline the
   output array holds, for every graph g and output column o, the mean over the graph's nodes of the node features
   (the sum of the rows whose graph label is g, divided by the number of such rows, at least one), times the
   128x64 matrix, plus the bias row. The two accumulators carried over the ten row blocks are partial sums of
   indicator-weighted rows; after the last block they are the full sums, and the last point alone writes the
   output back. -/
import proofs.«428893_j18313740550827_1_alg».proof.Proof.KI.R6
import proofs.«428893_j18313740550827_1_alg».proof.Proof.Spec
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

set_option maxRecDepth 16384

noncomputable section

open scoped BigOperators

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)
open Cert.Spec (ind)

namespace V6

/-! ## Words and literals -/

/-- The bf16 word 0x3F80 is one. -/
theorem one_bf16 : Ideal.ofBits .bf16 0x3F80#16 = 1 := by
  simp [Ideal.ofBits, Ideal.ieee]
  exact_mod_cast (by norm_num : (128 : ℝ) * ((2 : ℝ) ^ 7)⁻¹ = 1)

/-- The f32 word 0x3F800000 is one. -/
theorem one_f32 : Ideal.ofBits .f32 0x3F800000#32 = 1 := by
  simp [Ideal.ofBits, Ideal.ieee]
  exact_mod_cast (by norm_num : (8388608 : ℝ) * ((2 : ℝ) ^ 23)⁻¹ = 1)

/-- The bit of an equality of two words, widened and read as a signed integer, is the indicator of the equality. -/
theorem onehot_word (x y : BitVec 32) :
    (((BitVec.setWidth 32 (IntOp.cmpi .eq x y)).toInt : ℝ) : EReal) = ind (x = y) := by
  by_cases h : x = y
  · rw [Cert.Spec.ind_true h]; subst h
    have e : IntOp.cmpi .eq x x = 1#1 := by simp [IntOp.cmpi]
    rw [e]
    have e2 : (BitVec.setWidth 32 1#1).toInt = 1 := by decide
    rw [e2]; norm_num
  · rw [Cert.Spec.ind_false h]
    have e : IntOp.cmpi .eq x y = 0#1 := by
      unfold IntOp.cmpi; rw [beq_eq_false_iff_ne.mpr h]; rfl
    rw [e]
    have e2 : (BitVec.setWidth 32 0#1).toInt = 0 := by decide
    rw [e2]; norm_num

/-! ## Layout -/

/-- An `[a, 1]` column broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The one-hot matrix -/

/-- Entry (r, g) of the one-hot matrix of a block of graph labels: the indicator that row r's label is g. -/
theorem onehot_apply (b : Vec Ideal S5000x1 .i32) (r : Fin 5000) (g : Fin 512) :
    k6_pay3 (F := Ideal) b (ix2 r g) = ind (b (ix2 r (0 : Fin 1)) = BitVec.ofNat 32 g.val) := by
  unfold k6_pay3
  show (((BitVec.setWidth 32 (IntOp.cmpi .eq
      (broadcastTo S5000x512 (shapeCast S5000x1 b shapeCasts_S5000x1_S5000x1) broadcasts_S5000x1_S5000x512 (ix2 r g))
      (iota .tc S5000x512 32 [1] iota_S5000x512_d1_w32 (ix2 r g)))).toInt : ℝ) : EReal) = _
  rw [onehot_word, broadcastTo_a1_ab_apply, shapeCast_self, iota_single_apply]

/-! ## The three products' operand indices

Each product contracts one axis; re-indexed by that axis's coordinate, the operands are read at plain
(row, column) pairs. -/

/-- The row-sum product: one-hot [5000, 512] against features [5000, 128], both contracted along the 5000 rows. -/
abbrev DP := dot_S5000x512_S5000x128_S512x128_0_0_1_1_n_n
/-- The row-count product: one-hot [5000, 512] against a column of ones [5000, 1], contracted along the rows. -/
abbrev DC := dot_S5000x512_S5000x1_S512x1_0_0_1_1_n_n
/-- The head: means [512, 128] against weights [128, 64], contracted along the 128 features. -/
abbrev DH := dot_S512x128_S128x64_S512x64_1_0_0_1_n_n

theorem DP_lhs_0 (j : S512x128.Idx) (k : DP.contr.Idx) : (DP.lhsIdx j k 0).val = (k ⟨0, by decide⟩).val :=
  DotDims.lhsIdx_val_of_single (d := DP) rfl j k
theorem DP_rhs_0 (j : S512x128.Idx) (k : DP.contr.Idx) : (DP.rhsIdx j k 0).val = (k ⟨0, by decide⟩).val :=
  DotDims.rhsIdx_val_of_single (d := DP) rfl j k
theorem DP_lhs_1 (j : S512x128.Idx) (k : DP.contr.Idx) : (DP.lhsIdx j k 1).val = (j 0).val := by
  unfold DotDims.lhsIdx
  rw [dif_neg (show ¬(1 : Fin S5000x512.rank) ∈ DP.lhsBatch by decide), dif_pos (show (1 : Fin S5000x512.rank) ∈ DP.lhsNonContracting by decide)]
  rfl
theorem DP_rhs_1 (j : S512x128.Idx) (k : DP.contr.Idx) : (DP.rhsIdx j k 1).val = (j 1).val := by
  unfold DotDims.rhsIdx
  rw [dif_neg (show ¬(1 : Fin S5000x128.rank) ∈ DP.rhsBatch by decide), dif_pos (show (1 : Fin S5000x128.rank) ∈ DP.rhsNonContracting by decide)]
  rfl

/-- The row-sum product at (g, d): the sum over the block's rows of the left operand at (r, g) times the right at (r, d). -/
theorem DP_sum (L : FVec Ideal S5000x512 .bf16) (R : FVec Ideal S5000x128 .bf16) (g : Fin 512) (d : Fin 128) :
    (∑ k : DP.contr.Idx, L (DP.lhsIdx (ix2 g d) k) * R (DP.rhsIdx (ix2 g d) k)) = ∑ r : Fin 5000, L (ix2 r g) * R (ix2 r d) := by
  rw [← Equiv.sum_comp (contrEquiv1 DP 5000 rfl rfl).symm]
  refine Finset.sum_congr rfl fun r _ => ?_
  have hl : DP.lhsIdx (ix2 g d) ((contrEquiv1 DP 5000 rfl rfl).symm r) = ix2 r g := funext fun a => Fin.ext (by
    match a with
    | ⟨0, _⟩ => exact (DP_lhs_0 _ _).trans (contrEquiv1_symm_val DP 5000 rfl rfl r)
    | ⟨1, _⟩ => exact DP_lhs_1 _ _)
  have hr : DP.rhsIdx (ix2 g d) ((contrEquiv1 DP 5000 rfl rfl).symm r) = ix2 r d := funext fun a => Fin.ext (by
    match a with
    | ⟨0, _⟩ => exact (DP_rhs_0 _ _).trans (contrEquiv1_symm_val DP 5000 rfl rfl r)
    | ⟨1, _⟩ => exact DP_rhs_1 _ _)
  rw [hl, hr]

theorem DC_lhs_0 (j : S512x1.Idx) (k : DC.contr.Idx) : (DC.lhsIdx j k 0).val = (k ⟨0, by decide⟩).val :=
  DotDims.lhsIdx_val_of_single (d := DC) rfl j k
theorem DC_rhs_0 (j : S512x1.Idx) (k : DC.contr.Idx) : (DC.rhsIdx j k 0).val = (k ⟨0, by decide⟩).val :=
  DotDims.rhsIdx_val_of_single (d := DC) rfl j k
theorem DC_lhs_1 (j : S512x1.Idx) (k : DC.contr.Idx) : (DC.lhsIdx j k 1).val = (j 0).val := by
  unfold DotDims.lhsIdx
  rw [dif_neg (show ¬(1 : Fin S5000x512.rank) ∈ DC.lhsBatch by decide), dif_pos (show (1 : Fin S5000x512.rank) ∈ DC.lhsNonContracting by decide)]
  rfl
theorem DC_rhs_1 (j : S512x1.Idx) (k : DC.contr.Idx) : (DC.rhsIdx j k 1).val = (j 1).val := by
  unfold DotDims.rhsIdx
  rw [dif_neg (show ¬(1 : Fin S5000x1.rank) ∈ DC.rhsBatch by decide), dif_pos (show (1 : Fin S5000x1.rank) ∈ DC.rhsNonContracting by decide)]
  rfl

/-- The row-count product at (g, 0): the sum over the block's rows of the left operand at (r, g) times the right at (r, 0). -/
theorem DC_sum (L : FVec Ideal S5000x512 .bf16) (R : FVec Ideal S5000x1 .bf16) (g : Fin 512) :
    (∑ k : DC.contr.Idx, L (DC.lhsIdx (ix2 g (0 : Fin 1)) k) * R (DC.rhsIdx (ix2 g (0 : Fin 1)) k)) = ∑ r : Fin 5000, L (ix2 r g) * R (ix2 r (0 : Fin 1)) := by
  rw [← Equiv.sum_comp (contrEquiv1 DC 5000 rfl rfl).symm]
  refine Finset.sum_congr rfl fun r _ => ?_
  have hl : DC.lhsIdx (ix2 g (0 : Fin 1)) ((contrEquiv1 DC 5000 rfl rfl).symm r) = ix2 r g := funext fun a => Fin.ext (by
    match a with
    | ⟨0, _⟩ => exact (DC_lhs_0 _ _).trans (contrEquiv1_symm_val DC 5000 rfl rfl r)
    | ⟨1, _⟩ => exact DC_lhs_1 _ _)
  have hr : DC.rhsIdx (ix2 g (0 : Fin 1)) ((contrEquiv1 DC 5000 rfl rfl).symm r) = ix2 r (0 : Fin 1) := funext fun a => Fin.ext (by
    match a with
    | ⟨0, _⟩ => exact (DC_rhs_0 _ _).trans (contrEquiv1_symm_val DC 5000 rfl rfl r)
    | ⟨1, _⟩ => exact DC_rhs_1 _ _)
  rw [hl, hr]

theorem DH_lhs_1 (j : S512x64.Idx) (k : DH.contr.Idx) : (DH.lhsIdx j k 1).val = (k ⟨0, by decide⟩).val :=
  DotDims.lhsIdx_val_of_single (d := DH) rfl j k
theorem DH_rhs_0 (j : S512x64.Idx) (k : DH.contr.Idx) : (DH.rhsIdx j k 0).val = (k ⟨0, by decide⟩).val :=
  DotDims.rhsIdx_val_of_single (d := DH) rfl j k
theorem DH_lhs_0 (j : S512x64.Idx) (k : DH.contr.Idx) : (DH.lhsIdx j k 0).val = (j 0).val := by
  unfold DotDims.lhsIdx
  rw [dif_neg (show ¬(0 : Fin S512x128.rank) ∈ DH.lhsBatch by decide), dif_pos (show (0 : Fin S512x128.rank) ∈ DH.lhsNonContracting by decide)]
  rfl
theorem DH_rhs_1 (j : S512x64.Idx) (k : DH.contr.Idx) : (DH.rhsIdx j k 1).val = (j 1).val := by
  unfold DotDims.rhsIdx
  rw [dif_neg (show ¬(1 : Fin S128x64.rank) ∈ DH.rhsBatch by decide), dif_pos (show (1 : Fin S128x64.rank) ∈ DH.rhsNonContracting by decide)]
  rfl

/-- The head's product at (g, o): the sum over the features of the left operand at (g, d) times the right at (d, o). -/
theorem DH_sum (L : FVec Ideal S512x128 .bf16) (R : FVec Ideal S128x64 .bf16) (g : Fin 512) (o : Fin 64) :
    (∑ k : DH.contr.Idx, L (DH.lhsIdx (ix2 g o) k) * R (DH.rhsIdx (ix2 g o) k)) = ∑ d : Fin 128, L (ix2 g d) * R (ix2 d o) := by
  rw [← Equiv.sum_comp (contrEquiv1 DH 128 rfl rfl).symm]
  refine Finset.sum_congr rfl fun d _ => ?_
  have hl : DH.lhsIdx (ix2 g o) ((contrEquiv1 DH 128 rfl rfl).symm d) = ix2 g d := funext fun a => Fin.ext (by
    match a with
    | ⟨0, _⟩ => exact DH_lhs_0 _ _
    | ⟨1, _⟩ => exact (DH_lhs_1 _ _).trans (contrEquiv1_symm_val DH 128 rfl rfl d))
  have hr : DH.rhsIdx (ix2 g o) ((contrEquiv1 DH 128 rfl rfl).symm d) = ix2 d o := funext fun a => Fin.ext (by
    match a with
    | ⟨0, _⟩ => exact (DH_rhs_0 _ _).trans (contrEquiv1_symm_val DH 128 rfl rfl d)
    | ⟨1, _⟩ => exact DH_rhs_1 _ _)
  rw [hl, hr]

/-! ## The payloads at an index -/

/-- The accumulators' reset values are zero. -/
theorem pay1_apply (j : S512x128.Idx) : k6_pay1 (F := Ideal) j = 0 := by
  unfold k6_pay1
  show shapeCast S512x128 (broadcast S512x128 (Scalar.ofBits (F := Ideal) .f32 0x00000000#32)) shapeCasts_S512x128_S512x128 j = 0
  rw [shapeCast_self]
  exact Ideal.ofBits_zero_f32
theorem pay2_apply (j : S512x1.Idx) : k6_pay2 (F := Ideal) j = 0 := by
  unfold k6_pay2
  show shapeCast S512x1 (broadcast S512x1 (Scalar.ofBits (F := Ideal) .f32 0x00000000#32)) shapeCasts_S512x1_S512x1 j = 0
  rw [shapeCast_self]
  exact Ideal.ofBits_zero_f32

/-- The row sums' update at (g, d): what was there plus, over the block's rows, the indicator "row r's label is g"
    times feature (r, d). -/
theorem pay4_apply (b : Vec Ideal S5000x1 .i32) (h : Vec Ideal S5000x128 .f32) (prev : Vec Ideal S512x128 .f32) (g : Fin 512) (d : Fin 128) :
    k6_pay4 (F := Ideal) b h prev (ix2 g d)
      = prev (ix2 g d) + ∑ r : Fin 5000, ind (b (ix2 r (0 : Fin 1)) = BitVec.ofNat 32 g.val) * h (ix2 r d) := by
  unfold k6_pay4
  show shapeCast S512x128 (addf prev (matmul DP none (k6_pay3 b)
      (truncf .bf16 (shapeCast S5000x128 h shapeCasts_S5000x128_S5000x128) bitsLt_bf16_f32) (constant S512x128 .f32 0x00000000#32)))
      shapeCasts_S512x128_S512x128 (ix2 g d) = _
  rw [shapeCast_self, shapeCast_self]
  show prev (ix2 g d) + FloatOps.matmul DP none (k6_pay3 b) (truncf .bf16 h bitsLt_bf16_f32) (constant S512x128 .f32 0x00000000#32) (ix2 g d) = _
  rw [Ideal.matmul_constant_zero_apply, DP_sum]
  refine congrArg (prev (ix2 g d) + ·) (Finset.sum_congr rfl fun r _ => ?_)
  rw [onehot_apply]; rfl

/-- The row counts' update at (g, 0): what was there plus the number of the block's rows whose label is g. -/
theorem pay5_apply (b : Vec Ideal S5000x1 .i32) (prev : Vec Ideal S512x1 .f32) (g : Fin 512) :
    k6_pay5 (F := Ideal) b prev (ix2 g (0 : Fin 1))
      = prev (ix2 g (0 : Fin 1)) + ∑ r : Fin 5000, ind (b (ix2 r (0 : Fin 1)) = BitVec.ofNat 32 g.val) := by
  unfold k6_pay5
  show shapeCast S512x1 (addf prev (matmul DC none (k6_pay3 b)
      (broadcast S5000x1 (Scalar.ofBits (F := Ideal) .bf16 0x3F80#16)) (constant S512x1 .f32 0x00000000#32)))
      shapeCasts_S512x1_S512x1 (ix2 g (0 : Fin 1)) = _
  rw [shapeCast_self]
  show prev (ix2 g (0 : Fin 1)) + FloatOps.matmul DC none (k6_pay3 b) (broadcast S5000x1 (Scalar.ofBits (F := Ideal) .bf16 0x3F80#16)) (constant S512x1 .f32 0x00000000#32) (ix2 g (0 : Fin 1)) = _
  rw [Ideal.matmul_constant_zero_apply, DC_sum]
  refine congrArg (prev (ix2 g (0 : Fin 1)) + ·) (Finset.sum_congr rfl fun r _ => ?_)
  rw [onehot_apply]
  show _ * Ideal.ofBits .bf16 0x3F80#16 = _
  rw [one_bf16, mul_one]

/-- The head at (g, o): the sum over the features of (row sum / max count 1) times the weight, plus the bias. -/
theorem pay6_apply (a : Vec Ideal S512x128 .f32) (n : Vec Ideal S512x1 .f32) (w : Vec Ideal S128x64 .f32) (bias : Vec Ideal S1x64 .f32)
    (g : Fin 512) (o : Fin 64) :
    k6_pay6 (F := Ideal) a n w bias (ix2 g o)
      = (∑ d : Fin 128, Ideal.div (a (ix2 g d)) (max (n (ix2 g (0 : Fin 1))) 1) * w (ix2 d o)) + bias (ix2 (0 : Fin 1) o) := by
  unfold k6_pay6
  show FloatOps.matmul DH none
        (truncf .bf16 (divf a (broadcastTo S512x128 (maximumf n (broadcast S512x1 (Scalar.ofBits (F := Ideal) .f32 0x3F800000#32))) broadcasts_S512x1_S512x128)) bitsLt_bf16_f32)
        (truncf .bf16 w bitsLt_bf16_f32) (constant S512x64 .f32 0x00000000#32) (ix2 g o)
      + broadcastTo S512x64 (shapeCast S1x64 bias shapeCasts_S1x64_S1x64) broadcasts_S1x64_S512x64 (ix2 g o) = _
  rw [Ideal.matmul_constant_zero_apply, DH_sum, broadcastTo_1b_ab_apply, shapeCast_self]
  refine congrArg (· + bias (ix2 (0 : Fin 1) o)) (Finset.sum_congr rfl fun d _ => ?_)
  show Ideal.div (a (ix2 g d)) (broadcastTo S512x128 (maximumf n (broadcast S512x1 (Scalar.ofBits (F := Ideal) .f32 0x3F800000#32))) broadcasts_S512x1_S512x128 (ix2 g d)) * w (ix2 d o) = _
  rw [broadcastTo_a1_ab_apply]
  show Ideal.div (a (ix2 g d)) (max (n (ix2 g (0 : Fin 1))) (Ideal.ofBits .f32 0x3F800000#32)) * w (ix2 d o) = _
  rw [one_f32]

/-! ## The arrays and their blocks, by name and literal type -/

section Region
variable (V : (c : Dev nD) → (b : Ref sig .tc) → Buf (Elt Ideal) ((c : Thread nD τ).loc b))

/-- The graph labels, one per node. -/
abbrev bArr (c : Dev nD) : (⟨2, ![50000, 1]⟩ : Shape).Idx → BitVec 32 := V c main_v1
/-- The node features. -/
abbrev hArr (c : Dev nD) : (⟨2, ![50000, 128]⟩ : Shape).Idx → EReal := V c main_v78
/-- The head's weights and bias row. -/
abbrev wArr (c : Dev nD) : (⟨2, ![128, 64]⟩ : Shape).Idx → EReal := V c main_arg10
abbrev biasArr (c : Dev nD) : (⟨2, ![1, 64]⟩ : Shape).Idx → EReal := V c main_v33
/-- Their blocks at point `t`: rows 5000 t … 5000 t + 4999 of the labels and of the features; the weights and the bias whole. -/
abbrev bBlk (c : Dev nD) (t : Fin cfg6.N) : Vec Ideal S5000x1 .i32 := Hand.iblk6 V c 0 t
abbrev hBlk (c : Dev nD) (t : Fin cfg6.N) : Vec Ideal S5000x128 .f32 := Hand.iblk6 V c 1 t
abbrev wBlk (c : Dev nD) (t : Fin cfg6.N) : Vec Ideal S128x64 .f32 := Hand.iblk6 V c 2 t
abbrev biasBlk (c : Dev nD) (t : Fin cfg6.N) : Vec Ideal S1x64 .f32 := Hand.iblk6 V c 3 t

/-- The index maps, decided over the grid: the two row-banded inputs move with the point, the others stay at block 0. -/
theorem idx_facts6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0 :=
  (by decide +kernel : ∀ t : Fin grid6.N, _)

/-- Row r of block t of the labels is row 5000 t + r of the array. -/
theorem bBlk_apply (c : Dev nD) (t : Fin cfg6.N) (r : Fin 5000) (n : Fin 50000) (hn : n.val = 5000 * t.val + r.val) :
    bBlk V c t (ix2 r (0 : Fin 1)) = bArr V c (ix2 n (0 : Fin 1)) := by
  obtain ⟨e0, e1, -⟩ := idx_facts6 t
  show V c main_v1 (((cfg6.win 0).blk t).view.emb (ix2 r (0 : Fin 1))) = V c main_v1 (ix2 n (0 : Fin 1))
  refine congrArg (V c main_v1) (funext fun a => Fin.ext ?_)
  match a with
  | ⟨0, _⟩ => show win6_0.index t (0 : Fin 2) * 5000 + 1 * r.val = n.val; omega
  | ⟨1, _⟩ => show win6_0.index t (1 : Fin 2) * 1 + 1 * 0 = 0; omega

/-- Entry (r, d) of block t of the features is entry (5000 t + r, d) of the array. -/
theorem hBlk_apply (c : Dev nD) (t : Fin cfg6.N) (r : Fin 5000) (d : Fin 128) (n : Fin 50000) (hn : n.val = 5000 * t.val + r.val) :
    hBlk V c t (ix2 r d) = hArr V c (ix2 n d) := by
  obtain ⟨-, -, e0, e1, -⟩ := idx_facts6 t
  show V c main_v78 (((cfg6.win 1).blk t).view.emb (ix2 r d)) = V c main_v78 (ix2 n d)
  refine congrArg (V c main_v78) (funext fun a => Fin.ext ?_)
  match a with
  | ⟨0, _⟩ => show win6_1.index t (0 : Fin 2) * 5000 + 1 * r.val = n.val; omega
  | ⟨1, _⟩ => show win6_1.index t (1 : Fin 2) * 128 + 1 * d.val = d.val; omega

/-- The weights' one block is the array. -/
theorem wBlk_eq (c : Dev nD) (t : Fin cfg6.N) : wBlk V c t = wArr V c := by
  obtain ⟨-, -, -, -, e0, e1, -⟩ := idx_facts6 t
  funext j
  show V c main_arg10 (((cfg6.win 2).blk t).view.emb j) = V c main_arg10 j
  refine congrArg (V c main_arg10) (funext fun a => Fin.ext ?_)
  match a with
  | ⟨0, _⟩ => show win6_2.index t (0 : Fin 2) * 128 + 1 * (j 0).val = (j 0).val; omega
  | ⟨1, _⟩ => show win6_2.index t (1 : Fin 2) * 64 + 1 * (j 1).val = (j 1).val; omega

/-- The bias row's one block is the array. -/
theorem biasBlk_eq (c : Dev nD) (t : Fin cfg6.N) : biasBlk V c t = biasArr V c := by
  obtain ⟨-, -, -, -, -, -, e0, e1, -⟩ := idx_facts6 t
  funext j
  show V c main_v33 (((cfg6.win 3).blk t).view.emb j) = V c main_v33 j
  refine congrArg (V c main_v33) (funext fun a => Fin.ext ?_)
  match a with
  | ⟨0, _⟩ => show win6_3.index t (0 : Fin 2) * 1 + 1 * (j 0).val = (j 0).val; omega
  | ⟨1, _⟩ => show win6_3.index t (1 : Fin 2) * 64 + 1 * (j 1).val = (j 1).val; omega

/-! ## The accumulators are partial sums over the nodes -/

/-- Node n's label and features as total functions of a natural number (junk past the last node, never read). -/
def labelAt (c : Dev nD) (n : ℕ) : BitVec 32 := if h : n < 50000 then bArr V c (ix2 ⟨n, h⟩ (0 : Fin 1)) else 0
def featAt (c : Dev nD) (n : ℕ) (d : Fin 128) : EReal := if h : n < 50000 then hArr V c (ix2 ⟨n, h⟩ d) else 0

/-- Block t's contribution to the row sums, as a sum over the node numbers 5000 t … 5000 t + 4999. -/
theorem blockSum (c : Dev nD) (t : Fin cfg6.N) (g : Fin 512) (d : Fin 128) :
    (∑ r : Fin 5000, ind (bBlk V c t (ix2 r (0 : Fin 1)) = BitVec.ofNat 32 g.val) * hBlk V c t (ix2 r d))
      = ∑ x ∈ Finset.range 5000, ind (labelAt V c (5000 * t.val + x) = BitVec.ofNat 32 g.val) * featAt V c (5000 * t.val + x) d := by
  have hN : t.val < 10 := lt_of_lt_of_eq t.isLt (show cfg6.N = 10 from N_6)
  rw [Finset.sum_range]
  refine Finset.sum_congr rfl fun r _ => ?_
  have hlt : 5000 * t.val + r.val < 50000 := by have := r.isLt; omega
  rw [bBlk_apply V c t r ⟨_, hlt⟩ rfl, hBlk_apply V c t r d ⟨_, hlt⟩ rfl]
  unfold labelAt featAt
  rw [dif_pos hlt, dif_pos hlt]

/-- Block t's contribution to the row counts. -/
theorem blockCount (c : Dev nD) (t : Fin cfg6.N) (g : Fin 512) :
    (∑ r : Fin 5000, ind (bBlk V c t (ix2 r (0 : Fin 1)) = BitVec.ofNat 32 g.val))
      = ∑ x ∈ Finset.range 5000, ind (labelAt V c (5000 * t.val + x) = BitVec.ofNat 32 g.val) := by
  have hN : t.val < 10 := lt_of_lt_of_eq t.isLt (show cfg6.N = 10 from N_6)
  rw [Finset.sum_range]
  refine Finset.sum_congr rfl fun r _ => ?_
  have hlt : 5000 * t.val + r.val < 50000 := by have := r.isLt; omega
  rw [bBlk_apply V c t r ⟨_, hlt⟩ rfl]
  unfold labelAt
  rw [dif_pos hlt]

/-- After point n the accumulators hold the sums over the first 5000 (n + 1) nodes: of the indicator-weighted features,
    and of the indicators. -/
theorem acc_sum (c : Dev nD) (g : Fin 512) : ∀ (n : ℕ) (h : n < cfg6.N),
    (∀ d : Fin 128, (Hand.acc6 V c n h).1 (ix2 g d)
        = ∑ m ∈ Finset.range (5000 * (n + 1)), ind (labelAt V c m = BitVec.ofNat 32 g.val) * featAt V c m d)
    ∧ (Hand.acc6 V c n h).2 (ix2 g (0 : Fin 1))
        = ∑ m ∈ Finset.range (5000 * (n + 1)), ind (labelAt V c m = BitVec.ofNat 32 g.val)
  | 0, h => by
    rw [Hand.acc6_zero]
    dsimp only
    refine ⟨fun d => ?_, ?_⟩
    · refine (pay4_apply (bBlk V c ⟨0, h⟩) (hBlk V c ⟨0, h⟩) (k6_pay1 (F := Ideal)) g d).trans ?_
      rw [pay1_apply, zero_add, blockSum V c ⟨0, h⟩ g d]
      refine Finset.sum_congr rfl fun x _ => ?_
      rw [show 5000 * (⟨0, h⟩ : Fin cfg6.N).val + x = x from by show 5000 * 0 + x = x; omega]
    · refine (pay5_apply (bBlk V c ⟨0, h⟩) (k6_pay2 (F := Ideal)) g).trans ?_
      rw [pay2_apply, zero_add, blockCount V c ⟨0, h⟩ g]
      refine Finset.sum_congr rfl fun x _ => ?_
      rw [show 5000 * (⟨0, h⟩ : Fin cfg6.N).val + x = x from by show 5000 * 0 + x = x; omega]
  | n + 1, h => by
    obtain ⟨ih1, ih2⟩ := acc_sum c g n (Nat.lt_of_succ_lt h)
    rw [Hand.acc6_succ]
    dsimp only
    refine ⟨fun d => ?_, ?_⟩
    · refine (pay4_apply (bBlk V c ⟨n + 1, h⟩) (hBlk V c ⟨n + 1, h⟩) (Hand.acc6 V c n (Nat.lt_of_succ_lt h)).1 g d).trans ?_
      rw [ih1 d, blockSum V c ⟨n + 1, h⟩ g d, show 5000 * (n + 1 + 1) = 5000 * (n + 1) + 5000 from by ring, Finset.sum_range_add]
    · refine (pay5_apply (bBlk V c ⟨n + 1, h⟩) (Hand.acc6 V c n (Nat.lt_of_succ_lt h)).2 g).trans ?_
      rw [ih2, blockCount V c ⟨n + 1, h⟩ g, show 5000 * (n + 1 + 1) = 5000 * (n + 1) + 5000 from by ring, Finset.sum_range_add]

/-! ## After the last point: the pooled sums and counts, and the head -/

/-- The row sums after the last point are the pooled sums over all the nodes. -/
theorem pool_eq (c : Dev nD) (g : Fin 512) (d : Fin 128) :
    (Hand.acc6 V c 9 (by decide)).1 (ix2 g d) = Cert.Spec.poolA (bArr V c) (hArr V c) (ix2 g d) := by
  rw [(acc_sum V c g 9 (by decide)).1 d]
  unfold Cert.Spec.poolA
  rw [show 5000 * (9 + 1) = 50000 from rfl, Finset.sum_range]
  refine Finset.sum_congr rfl fun n _ => ?_
  unfold labelAt featAt
  rw [dif_pos n.isLt, dif_pos n.isLt]

/-- The row counts after the last point are the numbers of nodes per graph. -/
theorem cnt_eq (c : Dev nD) (g : Fin 512) :
    (Hand.acc6 V c 9 (by decide)).2 (ix2 g (0 : Fin 1)) = Cert.Spec.cntA (bArr V c) (ix2 g (0 : Fin 1)) := by
  rw [(acc_sum V c g 9 (by decide)).2]
  unfold Cert.Spec.cntA
  rw [show 5000 * (9 + 1) = 50000 from rfl, Finset.sum_range]
  refine Finset.sum_congr rfl fun n _ => ?_
  unfold labelAt
  rw [dif_pos n.isLt]

/-- What the last point stores into the output's buffer, at (g, o): the specification's entry. -/
theorem out_apply (c : Dev nD) (g : Fin 512) (o : Fin 64) :
    k6_pay6 (F := Ideal) (Hand.acc6 V c 9 (by decide)).1 (Hand.acc6 V c 9 (by decide)).2 (wBlk V c ⟨9, by decide⟩) (biasBlk V c ⟨9, by decide⟩) (ix2 g o)
      = Cert.Spec.finA (bArr V c) (hArr V c) (wArr V c) (biasArr V c) (ix2 g o) := by
  refine (pay6_apply (Hand.acc6 V c 9 (by decide)).1 (Hand.acc6 V c 9 (by decide)).2 (wBlk V c ⟨9, by decide⟩) (biasBlk V c ⟨9, by decide⟩) g o).trans ?_
  rw [wBlk_eq, biasBlk_eq]
  unfold Cert.Spec.finA
  refine congrArg₂ (· + ·) (Finset.sum_congr rfl fun d _ => ?_) rfl
  rw [pool_eq, cnt_eq]

/-! ## The output array after the run -/

/-- The last point. -/
abbrev tLast : Fin cfg6.N := ⟨9, by decide⟩

/-- The one write-back, at the last point, writes the specification's array: the output's one block is the array. -/
theorem flushed_eq (c : Dev nD) (t : Fin cfg6.N) (hf : (cfg6.win 4).flush t = true) :
    (Hand.dat6 V c).flushed 4 t = ((cfg6.win 4).blk t).view.read (Elt Ideal)
      (Cert.Spec.finA (V c main_v1) (V c main_v78) (V c main_arg10) (V c main_v33)) := by
  have hN : cfg6.N = 10 := N_6
  have h9 : t.val = 9 := by have := (flush6_4 t).mp hf; have := t.isLt; omega
  obtain rfl : t = tLast := Fin.ext h9
  show (cfg6.win 4).cut (grid6.coords tLast) ((Hand.dat6 V c).after 4 tLast) = _
  rw [Hand.after6_4_last]
  obtain ⟨-, -, -, -, -, -, -, -, e0, e1⟩ := idx_facts6 tLast
  funext y
  obtain ⟨g, o, rfl⟩ : ∃ (g : Fin 512) (o : Fin 64), y = ix2 g o := ⟨y 0, y 1, eq_ix2 y⟩
  refine (out_apply V c g o).trans ?_
  show Cert.Spec.finA (V c main_v1) (V c main_v78) (V c main_arg10) (V c main_v33) (ix2 g o)
    = Cert.Spec.finA (V c main_v1) (V c main_v78) (V c main_arg10) (V c main_v33) (((cfg6.win 4).blk tLast).view.emb (ix2 g o))
  refine congrArg (Cert.Spec.finA (V c main_v1) (V c main_v78) (V c main_arg10) (V c main_v33)) (funext fun a => Fin.ext ?_)
  match a with
  | ⟨0, _⟩ => show g.val = win6_4.index tLast (0 : Fin 2) * 512 + 1 * g.val; omega
  | ⟨1, _⟩ => show o.val = win6_4.index tLast (1 : Fin 2) * 64 + 1 * o.val; omega

end Region

end V6

/-- The output array after the region: mean pooling by graph, the linear head and its bias, of the four staged arrays. -/
theorem out6_val (V : (c : Dev nD) → (b : Ref sig .tc) → Buf (Elt Ideal) ((c : Thread nD τ).loc b)) (c : Dev nD) :
    (Hand.dat6 V c).arrAt 4 cfg6.N = Cert.Spec.finA (V c main_v1) (V c main_v78) (V c main_arg10) (V c main_v33) :=
  (Hand.dat6 V c).arrAt_eq_of_cover 4 _ (V6.flushed_eq V c) fun i =>
    ⟨t6_9, (flush6_4 t6_9).mpr rfl, by
      show i ∈ ((View.whole main_v79).slice (win6_4.rect t6_9)).set
      rw [View.set_slice_whole, Rect.mem_set_unit]
      intro a
      have h0 : (i 0 : Nat) < 512 := (i 0).isLt
      have h1 : (i 1 : Nat) < 64 := (i 1).isLt
      match a with
      | ⟨0, _⟩ =>
        show win6_4.index t6_9 0 * win6_4.size 0 ≤ (i 0 : Nat) ∧ (i 0 : Nat) < win6_4.index t6_9 0 * win6_4.size 0 + win6_4.xsize (grid6.coords t6_9) 0
        rw [show win6_4.index t6_9 0 * win6_4.size 0 = 0 from by decide +kernel, show win6_4.xsize (grid6.coords t6_9) 0 = 512 from by decide +kernel]; omega
      | ⟨1, _⟩ =>
        show win6_4.index t6_9 1 * win6_4.size 1 ≤ (i 1 : Nat) ∧ (i 1 : Nat) < win6_4.index t6_9 1 * win6_4.size 1 + win6_4.xsize (grid6.coords t6_9) 1
        rw [show win6_4.index t6_9 1 * win6_4.size 1 = 0 from by decide +kernel, show win6_4.xsize (grid6.coords t6_9) 1 = 64 from by decide +kernel]; omega⟩

end Cert.KernelIdeal.Val

end
-- ==== Proof.HostF.lean ====
/-
  The graph network as one function of its twelve inputs, at the extended reals.
  The edge-indexed pieces (degree by counting incoming edges, its inverse square root, the per-edge and per-node
  normalisations, and the neighbourhood aggregation: gather the source rows, scale by the edge norm, add into the
  destination rows) are written with the host's gather and accumulate operations on whole arrays; the dense
  pieces are the index-by-index functions of Spec.lean. Three propagation layers, then mean pooling and the head.
-/
import proofs.«428893_j18313740550827_1_alg».proof.KernelIdeal
import proofs.«428893_j18313740550827_1_alg».proof.Proof.Gen.KernelIdeal
import proofs.«428893_j18313740550827_1_alg».proof.Proof.Spec

noncomputable section

namespace Cert.KernelIdeal.HostF

open Idealize.ShloMosaic Cert.KernelIdeal
open Facts₀ Facts

/-- A vector of node labels as a one-column array. -/
def colI (x : IVec S50000 32) : IVec S50000x1 32 := shapeCast S50000x1 x shapeCasts_S50000_S50000x1
/-- A per-node vector as a one-column array. -/
def colF (v : FVec Ideal S50000 .f32) : FVec Ideal S50000x1 .f32 := shapeCast S50000x1 v shapeCasts_S50000_S50000x1
/-- A 128-vector as a one-row array. -/
def rowF (b : FVec Ideal S128 .f32) : FVec Ideal S1x128 .f32 := shapeCast S1x128 b shapeCasts_S128_S1x128
/-- A 64-vector as a one-row array. -/
def row64F (b : FVec Ideal S64 .f32) : FVec Ideal S1x64 .f32 := shapeCast S1x64 b shapeCasts_S64_S1x64

/-- The edges' source nodes: row 0 of the edge list. -/
def srcF (ei : IVec S2x500000 32) : IVec S500000 32 :=
  shapeCast S500000 (extractStridedSlice S1x500000 ![0, 0] ei slices_S2x500000_S1x500000_0_0) shapeCasts_S1x500000_S500000
/-- The edges' destination nodes: row 1 of the edge list. -/
def dstF (ei : IVec S2x500000 32) : IVec S500000 32 :=
  shapeCast S500000 (extractStridedSlice S1x500000 ![1, 0] ei slices_S2x500000_S1x500000_1_0) shapeCasts_S1x500000_S500000

/-- Node degrees: one per incoming edge, plus one for the self-loop. -/
def degF (ei : IVec S2x500000 32) : FVec Ideal S50000 .f32 :=
  addf (Host.scatterAdd scatter_S50000_S500000x1_S500000_n_0_0_1
      (broadcastInDim S50000 ![] bcast_S_S50000 (constant S_ .f32 0x00000000#32))
      (broadcastInDim S500000x1 ![0] bcast_S500000_S500000x1_0 (dstF ei))
      (broadcastInDim S500000 ![] bcast_S_S500000 (constant S_ .f32 0x3F800000#32)))
    (broadcastInDim S50000 ![] bcast_S_S50000 (constant S_ .f32 0x3F800000#32))

/-- The inverse square root of the degrees. -/
def dinvF (ei : IVec S2x500000 32) : FVec Ideal S50000 .f32 := Host.rsqrt (degF ei)

/-- Node numbers as start indices of a gather: a negative number counts from the end. -/
def idxF (v : IVec S500000 32) : IVec S500000x1 32 :=
  broadcastInDim S500000x1 ![0] bcast_S500000_S500000x1_0
    (select (cmpi .slt v (broadcastInDim S500000 ![] bcast_S_S500000 (constantI S_ 32 0#32)))
      (addi v (broadcastInDim S500000 ![] bcast_S_S500000 (constantI S_ 32 50000#32))) v)

/-- The per-edge normalisation: the product of the two endpoints' inverse square root degrees. -/
def enormF (ei : IVec S2x500000 32) : FVec Ideal S500000 .f32 :=
  mulf (Host.gather gather_S50000_S500000x1_S500000_n_0_n_n_0_1_1 (dinvF ei) (idxF (srcF ei)))
    (Host.gather gather_S50000_S500000x1_S500000_n_0_n_n_0_1_1 (dinvF ei) (idxF (dstF ei)))

/-- The self-loop normalisation: the squared inverse square root degree. -/
def snF (ei : IVec S2x500000 32) : FVec Ideal S50000 .f32 := mulf (dinvF ei) (dinvF ei)

/-- Neighbourhood aggregation of node features: each edge carries its source's row, scaled by the edge norm,
    into its destination's row. -/
def aggF (ei : IVec S2x500000 32) (ht : FVec Ideal S50000x128 .f32) : FVec Ideal S50000x128 .f32 :=
  Host.scatterAdd scatter_S50000x128_S500000x1_S500000x128_1_0_0_1
    (broadcastInDim S50000x128 ![] bcast_S_S50000x128 (constant S_ .f32 0x00000000#32))
    (broadcastInDim S500000x1 ![0] bcast_S500000_S500000x1_0 (dstF ei))
    (mulf (Host.gather gather_S50000x128_S500000x1_S500000x128_1_0_n_n_0_1_1128 ht (idxF (srcF ei)))
      (broadcastInDim S500000x128 ![0, 1] bcast_S500000x1_S500000x128_0_1
        (broadcastInDim S500000x1 ![0] bcast_S500000_S500000x1_0 (enormF ei))))

/-- One propagation layer after the dense transform: aggregate, add the self-loop term and the bias, clip at 0. -/
def layerF (ei : IVec S2x500000 32) (ht : FVec Ideal S50000x128 .f32) (b : FVec Ideal S128 .f32) :
    FVec Ideal S50000x128 .f32 :=
  Cert.Spec.postA (aggF ei ht) ht (colF (snF ei)) (rowF b)

/-- The whole network. -/
def net (x : IVec S50000 32) (ei : IVec S2x500000 32) (batch : IVec S50000 32) (embed : FVec Ideal S11x128 .f32)
    (W0 : FVec Ideal S128x128 .f32) (b0 : FVec Ideal S128 .f32) (W1 : FVec Ideal S128x128 .f32) (b1 : FVec Ideal S128 .f32)
    (W2 : FVec Ideal S128x128 .f32) (b2 : FVec Ideal S128 .f32) (fcw : FVec Ideal S128x64 .f32) (fcb : FVec Ideal S64 .f32) :
    FVec Ideal S512x64 .f32 :=
  Cert.Spec.finA (colI batch)
    (layerF ei (Cert.Spec.mmA (layerF ei (Cert.Spec.mmA (layerF ei (Cert.Spec.embA (colI x) embed W0) b0) W1) b1) W2) b2)
    fcw (row64F fcb)

end Cert.KernelIdeal.HostF

end
-- ==== Proof.HostRead.lean ====
/-
  What the host operations between the kernels leave in the buffers, as functions of the launch contents:
  the labels and graph ids as columns, the edge list's two rows, the edge and self-loop normalisations, the
  biases as rows, and — after each dense transform — the neighbourhood aggregation of the transformed features.
  Each is the run of a literal list of operations read at one buffer, which is the corresponding whole-array
  function by definition.
-/
import proofs.«428893_j18313740550827_1_alg».proof.Proof.Gen.KernelIdeal.Regions
import proofs.«428893_j18313740550827_1_alg».proof.Proof.HostF
import Idealize.ShloMosaic.Lib.StableHlo.Run

set_option maxRecDepth 16384

noncomputable section

namespace Cert.KernelIdeal.Val

open Idealize.ShloMosaic Idealize.ShloMosaic.TcCoe
open Idealize.ShloMosaic.StableHlo
open Cert.KernelIdeal Cert.KernelIdeal.Gen
open Facts₀ Facts

variable (m : (ℓ : Loc nD τ sig) → Buf (Elt Ideal) ℓ)

/-! ## The first stretch: everything computed from the inputs alone -/

/-- The node labels as a column. -/
theorem h0_v0 (c : Dev nD) : V1 m c main_v0 = HostF.colI (m ((c.tc : Thread nD τ).loc main_arg0)) := by
  show StableHlo.after hostOps0 (V0 m c) (Proc.devRef .tc main_v0) = _
  after_results_simp
  rfl

/-- The graph ids as a column. -/
theorem h0_v1 (c : Dev nD) : V1 m c main_v1 = HostF.colI (m ((c.tc : Thread nD τ).loc main_arg2)) := by
  show StableHlo.after hostOps0 (V0 m c) (Proc.devRef .tc main_v1) = _
  after_results_simp
  rfl

/-- The edges' source nodes. -/
theorem h0_v3 (c : Dev nD) : V1 m c main_v3 = HostF.srcF (m ((c.tc : Thread nD τ).loc main_arg1)) := by
  show StableHlo.after hostOps0 (V0 m c) (Proc.devRef .tc main_v3) = _
  after_results_simp
  rfl

/-- The edges' destination nodes. -/
theorem h0_v5 (c : Dev nD) : V1 m c main_v5 = HostF.dstF (m ((c.tc : Thread nD τ).loc main_arg1)) := by
  show StableHlo.after hostOps0 (V0 m c) (Proc.devRef .tc main_v5) = _
  after_results_simp
  rfl

/-- The per-edge normalisation. -/
theorem h0_v27 (c : Dev nD) : V1 m c main_v27 = HostF.enormF (m ((c.tc : Thread nD τ).loc main_arg1)) := by
  show StableHlo.after hostOps0 (V0 m c) (Proc.devRef .tc main_v27) = _
  after_results_simp
  rfl

/-- The self-loop normalisation as a column. -/
theorem h0_v29 (c : Dev nD) : V1 m c main_v29 = HostF.colF (HostF.snF (m ((c.tc : Thread nD τ).loc main_arg1))) := by
  show StableHlo.after hostOps0 (V0 m c) (Proc.devRef .tc main_v29) = _
  after_results_simp
  rfl

/-- The three layers' biases and the head's bias as rows. -/
theorem h0_v30 (c : Dev nD) : V1 m c main_v30 = HostF.rowF (m ((c.tc : Thread nD τ).loc main_arg5)) := by
  show StableHlo.after hostOps0 (V0 m c) (Proc.devRef .tc main_v30) = _
  after_results_simp
  rfl
theorem h0_v31 (c : Dev nD) : V1 m c main_v31 = HostF.rowF (m ((c.tc : Thread nD τ).loc main_arg7)) := by
  show StableHlo.after hostOps0 (V0 m c) (Proc.devRef .tc main_v31) = _
  after_results_simp
  rfl
theorem h0_v32 (c : Dev nD) : V1 m c main_v32 = HostF.rowF (m ((c.tc : Thread nD τ).loc main_arg9)) := by
  show StableHlo.after hostOps0 (V0 m c) (Proc.devRef .tc main_v32) = _
  after_results_simp
  rfl
theorem h0_v33 (c : Dev nD) : V1 m c main_v33 = HostF.row64F (m ((c.tc : Thread nD τ).loc main_arg11)) := by
  show StableHlo.after hostOps0 (V0 m c) (Proc.devRef .tc main_v33) = _
  after_results_simp
  rfl

/-! ## The aggregations: one stretch after each dense transform -/

variable (outs : Outs (F := Ideal))

/-- After the embedding transform: the aggregation of its result. -/
theorem h1_v47 (c : Dev nD) :
    V3 m outs c main_v47 = HostF.aggF (m ((c.tc : Thread nD τ).loc main_arg1)) (V2 m outs c main_v34) := by
  have e3 : V2 m outs c main_v3 = HostF.srcF (m ((c.tc : Thread nD τ).loc main_arg1)) :=
    ((V2_of m outs c main_v3 (by decide)).trans (h0_v3 m c))
  have e5 : V2 m outs c main_v5 = HostF.dstF (m ((c.tc : Thread nD τ).loc main_arg1)) :=
    ((V2_of m outs c main_v5 (by decide)).trans (h0_v5 m c))
  have e27 : V2 m outs c main_v27 = HostF.enormF (m ((c.tc : Thread nD τ).loc main_arg1)) :=
    ((V2_of m outs c main_v27 (by decide)).trans (h0_v27 m c))
  show StableHlo.after hostOps1 (V2 m outs c) (Proc.devRef .tc main_v47) = _
  after_results_simp
  rw [e3, e5, e27]
  rfl

/-- After the second dense transform. -/
theorem h3_v62 (c : Dev nD) :
    V6 m outs c main_v62 = HostF.aggF (m ((c.tc : Thread nD τ).loc main_arg1)) (V5 m outs c main_v49) := by
  have e3 : V5 m outs c main_v3 = HostF.srcF (m ((c.tc : Thread nD τ).loc main_arg1)) :=
    ((V5_of m outs c main_v3 (by decide)).trans <| (V4_of m outs c main_v3 (by decide)).trans <| (V3_of m outs c main_v3 (by decide)).trans <| (V2_of m outs c main_v3 (by decide)).trans (h0_v3 m c))
  have e5 : V5 m outs c main_v5 = HostF.dstF (m ((c.tc : Thread nD τ).loc main_arg1)) :=
    ((V5_of m outs c main_v5 (by decide)).trans <| (V4_of m outs c main_v5 (by decide)).trans <| (V3_of m outs c main_v5 (by decide)).trans <| (V2_of m outs c main_v5 (by decide)).trans (h0_v5 m c))
  have e27 : V5 m outs c main_v27 = HostF.enormF (m ((c.tc : Thread nD τ).loc main_arg1)) :=
    ((V5_of m outs c main_v27 (by decide)).trans <| (V4_of m outs c main_v27 (by decide)).trans <| (V3_of m outs c main_v27 (by decide)).trans <| (V2_of m outs c main_v27 (by decide)).trans (h0_v27 m c))
  show StableHlo.after hostOps3 (V5 m outs c) (Proc.devRef .tc main_v62) = _
  after_results_simp
  rw [e3, e5, e27]
  rfl

/-- After the third dense transform. -/
theorem h5_v77 (c : Dev nD) :
    V9 m outs c main_v77 = HostF.aggF (m ((c.tc : Thread nD τ).loc main_arg1)) (V8 m outs c main_v64) := by
  have e3 : V8 m outs c main_v3 = HostF.srcF (m ((c.tc : Thread nD τ).loc main_arg1)) :=
    ((V8_of m outs c main_v3 (by decide)).trans <| (V7_of m outs c main_v3 (by decide)).trans <| (V6_of m outs c main_v3 (by decide)).trans <| (V5_of m outs c main_v3 (by decide)).trans <| (V4_of m outs c main_v3 (by decide)).trans <| (V3_of m outs c main_v3 (by decide)).trans <| (V2_of m outs c main_v3 (by decide)).trans (h0_v3 m c))
  have e5 : V8 m outs c main_v5 = HostF.dstF (m ((c.tc : Thread nD τ).loc main_arg1)) :=
    ((V8_of m outs c main_v5 (by decide)).trans <| (V7_of m outs c main_v5 (by decide)).trans <| (V6_of m outs c main_v5 (by decide)).trans <| (V5_of m outs c main_v5 (by decide)).trans <| (V4_of m outs c main_v5 (by decide)).trans <| (V3_of m outs c main_v5 (by decide)).trans <| (V2_of m outs c main_v5 (by decide)).trans (h0_v5 m c))
  have e27 : V8 m outs c main_v27 = HostF.enormF (m ((c.tc : Thread nD τ).loc main_arg1)) :=
    ((V8_of m outs c main_v27 (by decide)).trans <| (V7_of m outs c main_v27 (by decide)).trans <| (V6_of m outs c main_v27 (by decide)).trans <| (V5_of m outs c main_v27 (by decide)).trans <| (V4_of m outs c main_v27 (by decide)).trans <| (V3_of m outs c main_v27 (by decide)).trans <| (V2_of m outs c main_v27 (by decide)).trans (h0_v27 m c))
  show StableHlo.after hostOps5 (V8 m outs c) (Proc.devRef .tc main_v77) = _
  after_results_simp
  rw [e3, e5, e27]
  rfl

end Cert.KernelIdeal.Val

end
-- ==== Proof.KNet.lean ====
/-
  The kernel program's result as one function of its twelve inputs. Each kernel region's output array is the
  index-by-index function of the arrays it was entered from; each host stretch between two regions writes the
  neighbourhood aggregation of the array just produced; the inputs and the arrays computed from the inputs alone
  are carried unchanged from stage to stage. In program order: the embedding transform, then three times
  (aggregate, propagate, transform), ending with the pooling head. Composed, this is the network function.
-/
import proofs.«428893_j18313740550827_1_alg».proof.Proof.KI.Run
import proofs.«428893_j18313740550827_1_alg».proof.Proof.Val.V0
import proofs.«428893_j18313740550827_1_alg».proof.Proof.Val.V1
import proofs.«428893_j18313740550827_1_alg».proof.Proof.Val.V2
import proofs.«428893_j18313740550827_1_alg».proof.Proof.Val.V3
import proofs.«428893_j18313740550827_1_alg».proof.Proof.Val.V4
import proofs.«428893_j18313740550827_1_alg».proof.Proof.Val.V5
import proofs.«428893_j18313740550827_1_alg».proof.Proof.Val.V6
import proofs.«428893_j18313740550827_1_alg».proof.Proof.HostRead
import proofs.«428893_j18313740550827_1_alg».proof.Proof.HostF
import proofs.«428893_j18313740550827_1_alg».proof.Proof.Spec

set_option maxRecDepth 16384

noncomputable section

namespace Cert.KernelIdeal.Val

open Idealize.ShloMosaic Idealize.ShloMosaic.TcCoe Idealize.SL.Sem
open Cert.KernelIdeal Cert.KernelIdeal.Gen
open Facts₀ Facts

variable (m : (ℓ : Loc nD τ sig) → Buf (Elt Ideal) ℓ)

/-! ## The stages' arrays as functions of the inputs -/

namespace Net

/-- The embedding transform: the looked-up label features times the first matrix. -/
def ht0 (c : Dev nD) : FVec Ideal S50000x128 .f32 :=
  Cert.Spec.embA (HostF.colI (m ((c.tc : Thread nD τ).loc main_arg0))) (m ((c.tc : Thread nD τ).loc main_arg3)) (m ((c.tc : Thread nD τ).loc main_arg4))
/-- The first propagation layer. -/
def h1 (c : Dev nD) : FVec Ideal S50000x128 .f32 := HostF.layerF (m ((c.tc : Thread nD τ).loc main_arg1)) (ht0 m c) (m ((c.tc : Thread nD τ).loc main_arg5))
/-- The second dense transform. -/
def ht1 (c : Dev nD) : FVec Ideal S50000x128 .f32 := Cert.Spec.mmA (h1 m c) (m ((c.tc : Thread nD τ).loc main_arg6))
/-- The second propagation layer. -/
def h2 (c : Dev nD) : FVec Ideal S50000x128 .f32 := HostF.layerF (m ((c.tc : Thread nD τ).loc main_arg1)) (ht1 m c) (m ((c.tc : Thread nD τ).loc main_arg7))
/-- The third dense transform. -/
def ht2 (c : Dev nD) : FVec Ideal S50000x128 .f32 := Cert.Spec.mmA (h2 m c) (m ((c.tc : Thread nD τ).loc main_arg8))
/-- The third propagation layer. -/
def h3 (c : Dev nD) : FVec Ideal S50000x128 .f32 := HostF.layerF (m ((c.tc : Thread nD τ).loc main_arg1)) (ht2 m c) (m ((c.tc : Thread nD τ).loc main_arg9))

end Net

/-! ## The stages, in program order -/

/-- The first region leaves the embedding transform of the labels. -/
theorem v34_eq (c : Dev nD) : V2 m (Hand.outs m) c main_v34 = Net.ht0 m c := by
  have e_main_v0 : V1 m c main_v0 = HostF.colI (m ((c.tc : Thread nD τ).loc main_arg0)) := h0_v0 m c
  have e_main_arg3 : V1 m c main_arg3 = m ((c.tc : Thread nD τ).loc main_arg3) :=
    (V1_of m c main_arg3 (by decide)).trans rfl
  have e_main_arg4 : V1 m c main_arg4 = m ((c.tc : Thread nD τ).loc main_arg4) :=
    (V1_of m c main_arg4 (by decide)).trans rfl
  have h : V2 m (Hand.outs m) c main_v34 = Cert.Spec.embA (V1 m c main_v0) (V1 m c main_arg3) (V1 m c main_arg4) :=
    (Hand.out0_eq m c).trans (out0_val (Hand.Ent0 m) c)
  rw [h, e_main_v0, e_main_arg3, e_main_arg4]
  rfl

/-- The second region leaves the first propagation layer: the aggregation the host wrote, the self-loop term, the bias, clipped at 0. -/
theorem v48_eq (c : Dev nD) : V4 m (Hand.outs m) c main_v48 = Net.h1 m c := by
  have e_agg : V3 m (Hand.outs m) c main_v47 = HostF.aggF (m ((c.tc : Thread nD τ).loc main_arg1)) (Net.ht0 m c) := by
    rw [h1_v47 m (Hand.outs m) c, v34_eq m c]
  have e_ht : V3 m (Hand.outs m) c main_v34 = Net.ht0 m c :=
    (V3_of m (Hand.outs m) c main_v34 (by decide)).trans (v34_eq m c)
  have e_main_v29 : V3 m (Hand.outs m) c main_v29 = HostF.colF (HostF.snF (m ((c.tc : Thread nD τ).loc main_arg1))) :=
    (V3_of m (Hand.outs m) c main_v29 (by decide)).trans <| (V2_of m (Hand.outs m) c main_v29 (by decide)).trans (h0_v29 m c)
  have e_main_v30 : V3 m (Hand.outs m) c main_v30 = HostF.rowF (m ((c.tc : Thread nD τ).loc main_arg5)) :=
    (V3_of m (Hand.outs m) c main_v30 (by decide)).trans <| (V2_of m (Hand.outs m) c main_v30 (by decide)).trans (h0_v30 m c)
  have h : V4 m (Hand.outs m) c main_v48 = Cert.Spec.postA (V3 m (Hand.outs m) c main_v47) (V3 m (Hand.outs m) c main_v34) (V3 m (Hand.outs m) c main_v29) (V3 m (Hand.outs m) c main_v30) :=
    (Hand.out1_eq m c).trans (out1_val (Hand.Ent1 m) c)
  rw [h, e_agg, e_ht, e_main_v29, e_main_v30]
  rfl

/-- The third region leaves the second dense transform. -/
theorem v49_eq (c : Dev nD) : V5 m (Hand.outs m) c main_v49 = Net.ht1 m c := by
  have e_h : V4 m (Hand.outs m) c main_v48 = Net.h1 m c := v48_eq m c
  have e_main_arg6 : V4 m (Hand.outs m) c main_arg6 = m ((c.tc : Thread nD τ).loc main_arg6) :=
    (V4_of m (Hand.outs m) c main_arg6 (by decide)).trans <| (V3_of m (Hand.outs m) c main_arg6 (by decide)).trans <| (V2_of m (Hand.outs m) c main_arg6 (by decide)).trans <| (V1_of m c main_arg6 (by decide)).trans rfl
  have h : V5 m (Hand.outs m) c main_v49 = Cert.Spec.mmA (V4 m (Hand.outs m) c main_v48) (V4 m (Hand.outs m) c main_arg6) :=
    (Hand.out2_eq m c).trans (out2_val (Hand.Ent2 m) c)
  rw [h, e_h, e_main_arg6]
  rfl

/-- The fourth region leaves the second propagation layer. -/
theorem v63_eq (c : Dev nD) : V7 m (Hand.outs m) c main_v63 = Net.h2 m c := by
  have e_agg : V6 m (Hand.outs m) c main_v62 = HostF.aggF (m ((c.tc : Thread nD τ).loc main_arg1)) (Net.ht1 m c) := by
    rw [h3_v62 m (Hand.outs m) c, v49_eq m c]
  have e_ht : V6 m (Hand.outs m) c main_v49 = Net.ht1 m c :=
    (V6_of m (Hand.outs m) c main_v49 (by decide)).trans (v49_eq m c)
  have e_main_v29 : V6 m (Hand.outs m) c main_v29 = HostF.colF (HostF.snF (m ((c.tc : Thread nD τ).loc main_arg1))) :=
    (V6_of m (Hand.outs m) c main_v29 (by decide)).trans <| (V5_of m (Hand.outs m) c main_v29 (by decide)).trans <| (V4_of m (Hand.outs m) c main_v29 (by decide)).trans <| (V3_of m (Hand.outs m) c main_v29 (by decide)).trans <| (V2_of m (Hand.outs m) c main_v29 (by decide)).trans (h0_v29 m c)
  have e_main_v31 : V6 m (Hand.outs m) c main_v31 = HostF.rowF (m ((c.tc : Thread nD τ).loc main_arg7)) :=
    (V6_of m (Hand.outs m) c main_v31 (by decide)).trans <| (V5_of m (Hand.outs m) c main_v31 (by decide)).trans <| (V4_of m (Hand.outs m) c main_v31 (by decide)).trans <| (V3_of m (Hand.outs m) c main_v31 (by decide)).trans <| (V2_of m (Hand.outs m) c main_v31 (by decide)).trans (h0_v31 m c)
  have h : V7 m (Hand.outs m) c main_v63 = Cert.Spec.postA (V6 m (Hand.outs m) c main_v62) (V6 m (Hand.outs m) c main_v49) (V6 m (Hand.outs m) c main_v29) (V6 m (Hand.outs m) c main_v31) :=
    (Hand.out3_eq m c).trans (out3_val (Hand.Ent3 m) c)
  rw [h, e_agg, e_ht, e_main_v29, e_main_v31]
  rfl

/-- The fifth region leaves the third dense transform. -/
theorem v64_eq (c : Dev nD) : V8 m (Hand.outs m) c main_v64 = Net.ht2 m c := by
  have e_h : V7 m (Hand.outs m) c main_v63 = Net.h2 m c := v63_eq m c
  have e_main_arg8 : V7 m (Hand.outs m) c main_arg8 = m ((c.tc : Thread nD τ).loc main_arg8) :=
    (V7_of m (Hand.outs m) c main_arg8 (by decide)).trans <| (V6_of m (Hand.outs m) c main_arg8 (by decide)).trans <| (V5_of m (Hand.outs m) c main_arg8 (by decide)).trans <| (V4_of m (Hand.outs m) c main_arg8 (by decide)).trans <| (V3_of m (Hand.outs m) c main_arg8 (by decide)).trans <| (V2_of m (Hand.outs m) c main_arg8 (by decide)).trans <| (V1_of m c main_arg8 (by decide)).trans rfl
  have h : V8 m (Hand.outs m) c main_v64 = Cert.Spec.mmA (V7 m (Hand.outs m) c main_v63) (V7 m (Hand.outs m) c main_arg8) :=
    (Hand.out4_eq m c).trans (out4_val (Hand.Ent4 m) c)
  rw [h, e_h, e_main_arg8]
  rfl

/-- The sixth region leaves the third propagation layer. -/
theorem v78_eq (c : Dev nD) : V10 m (Hand.outs m) c main_v78 = Net.h3 m c := by
  have e_agg : V9 m (Hand.outs m) c main_v77 = HostF.aggF (m ((c.tc : Thread nD τ).loc main_arg1)) (Net.ht2 m c) := by
    rw [h5_v77 m (Hand.outs m) c, v64_eq m c]
  have e_ht : V9 m (Hand.outs m) c main_v64 = Net.ht2 m c :=
    (V9_of m (Hand.outs m) c main_v64 (by decide)).trans (v64_eq m c)
  have e_main_v29 : V9 m (Hand.outs m) c main_v29 = HostF.colF (HostF.snF (m ((c.tc : Thread nD τ).loc main_arg1))) :=
    (V9_of m (Hand.outs m) c main_v29 (by decide)).trans <| (V8_of m (Hand.outs m) c main_v29 (by decide)).trans <| (V7_of m (Hand.outs m) c main_v29 (by decide)).trans <| (V6_of m (Hand.outs m) c main_v29 (by decide)).trans <| (V5_of m (Hand.outs m) c main_v29 (by decide)).trans <| (V4_of m (Hand.outs m) c main_v29 (by decide)).trans <| (V3_of m (Hand.outs m) c main_v29 (by decide)).trans <| (V2_of m (Hand.outs m) c main_v29 (by decide)).trans (h0_v29 m c)
  have e_main_v32 : V9 m (Hand.outs m) c main_v32 = HostF.rowF (m ((c.tc : Thread nD τ).loc main_arg9)) :=
    (V9_of m (Hand.outs m) c main_v32 (by decide)).trans <| (V8_of m (Hand.outs m) c main_v32 (by decide)).trans <| (V7_of m (Hand.outs m) c main_v32 (by decide)).trans <| (V6_of m (Hand.outs m) c main_v32 (by decide)).trans <| (V5_of m (Hand.outs m) c main_v32 (by decide)).trans <| (V4_of m (Hand.outs m) c main_v32 (by decide)).trans <| (V3_of m (Hand.outs m) c main_v32 (by decide)).trans <| (V2_of m (Hand.outs m) c main_v32 (by decide)).trans (h0_v32 m c)
  have h : V10 m (Hand.outs m) c main_v78 = Cert.Spec.postA (V9 m (Hand.outs m) c main_v77) (V9 m (Hand.outs m) c main_v64) (V9 m (Hand.outs m) c main_v29) (V9 m (Hand.outs m) c main_v32) :=
    (Hand.out5_eq m c).trans (out5_val (Hand.Ent5 m) c)
  rw [h, e_agg, e_ht, e_main_v29, e_main_v32]
  rfl

/-- The last region leaves the pooled head of the third layer. -/
theorem v79_eq (c : Dev nD) : V11 m (Hand.outs m) c main_v79 =
    Cert.Spec.finA (HostF.colI (m ((c.tc : Thread nD τ).loc main_arg2))) (Net.h3 m c) (m ((c.tc : Thread nD τ).loc main_arg10)) (HostF.row64F (m ((c.tc : Thread nD τ).loc main_arg11))) := by
  have e_main_v1 : V10 m (Hand.outs m) c main_v1 = HostF.colI (m ((c.tc : Thread nD τ).loc main_arg2)) :=
    (V10_of m (Hand.outs m) c main_v1 (by decide)).trans <| (V9_of m (Hand.outs m) c main_v1 (by decide)).trans <| (V8_of m (Hand.outs m) c main_v1 (by decide)).trans <| (V7_of m (Hand.outs m) c main_v1 (by decide)).trans <| (V6_of m (Hand.outs m) c main_v1 (by decide)).trans <| (V5_of m (Hand.outs m) c main_v1 (by decide)).trans <| (V4_of m (Hand.outs m) c main_v1 (by decide)).trans <| (V3_of m (Hand.outs m) c main_v1 (by decide)).trans <| (V2_of m (Hand.outs m) c main_v1 (by decide)).trans (h0_v1 m c)
  have e_h : V10 m (Hand.outs m) c main_v78 = Net.h3 m c := v78_eq m c
  have e_main_arg10 : V10 m (Hand.outs m) c main_arg10 = m ((c.tc : Thread nD τ).loc main_arg10) :=
    (V10_of m (Hand.outs m) c main_arg10 (by decide)).trans <| (V9_of m (Hand.outs m) c main_arg10 (by decide)).trans <| (V8_of m (Hand.outs m) c main_arg10 (by decide)).trans <| (V7_of m (Hand.outs m) c main_arg10 (by decide)).trans <| (V6_of m (Hand.outs m) c main_arg10 (by decide)).trans <| (V5_of m (Hand.outs m) c main_arg10 (by decide)).trans <| (V4_of m (Hand.outs m) c main_arg10 (by decide)).trans <| (V3_of m (Hand.outs m) c main_arg10 (by decide)).trans <| (V2_of m (Hand.outs m) c main_arg10 (by decide)).trans <| (V1_of m c main_arg10 (by decide)).trans rfl
  have e_main_v33 : V10 m (Hand.outs m) c main_v33 = HostF.row64F (m ((c.tc : Thread nD τ).loc main_arg11)) :=
    (V10_of m (Hand.outs m) c main_v33 (by decide)).trans <| (V9_of m (Hand.outs m) c main_v33 (by decide)).trans <| (V8_of m (Hand.outs m) c main_v33 (by decide)).trans <| (V7_of m (Hand.outs m) c main_v33 (by decide)).trans <| (V6_of m (Hand.outs m) c main_v33 (by decide)).trans <| (V5_of m (Hand.outs m) c main_v33 (by decide)).trans <| (V4_of m (Hand.outs m) c main_v33 (by decide)).trans <| (V3_of m (Hand.outs m) c main_v33 (by decide)).trans <| (V2_of m (Hand.outs m) c main_v33 (by decide)).trans (h0_v33 m c)
  have h : V11 m (Hand.outs m) c main_v79 = Cert.Spec.finA (V10 m (Hand.outs m) c main_v1) (V10 m (Hand.outs m) c main_v78) (V10 m (Hand.outs m) c main_arg10) (V10 m (Hand.outs m) c main_v33) :=
    (Hand.out6_eq m c).trans (out6_val (Hand.Ent6 m) c)
  rw [h, e_main_v1, e_h, e_main_arg10, e_main_v33]

/-! ## The result -/

/-- The kernel program's result array is the network function of the twelve inputs. -/
theorem k_net (c : Dev nD) : V11 m (Hand.outs m) c main_v79 =
    HostF.net (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10)) (m ((c.tc : Thread nD τ).loc main_arg11)) :=
  (v79_eq m c).trans rfl

/-- The run: the result buffer ends at the network function of the inputs, every input buffer as launched. -/
theorem k_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v79) =
          HostF.net (m ((c.tc : Thread nD τ).loc main_arg0)) (m ((c.tc : Thread nD τ).loc main_arg1)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6)) (m ((c.tc : Thread nD τ).loc main_arg7))
            (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run (defs (F := Ideal)) _ _).mono
    (fun r h c =>
      ⟨(h c (Proc.devRef .tc main_v79) (Hand.mem_uc main_v79 (by decide))).trans (k_net m c),
        (h c (Proc.devRef .tc main_arg0) (Hand.mem_uc main_arg0 (by decide))).trans (V11_main_arg0 m (Hand.outs m) c),
        (h c (Proc.devRef .tc main_arg1) (Hand.mem_uc main_arg1 (by decide))).trans (V11_main_arg1 m (Hand.outs m) c),
        (h c (Proc.devRef .tc main_arg2) (Hand.mem_uc main_arg2 (by decide))).trans (V11_main_arg2 m (Hand.outs m) c),
        (h c (Proc.devRef .tc main_arg3) (Hand.mem_uc main_arg3 (by decide))).trans (V11_main_arg3 m (Hand.outs m) c),
        (h c (Proc.devRef .tc main_arg4) (Hand.mem_uc main_arg4 (by decide))).trans (V11_main_arg4 m (Hand.outs m) c),
        (h c (Proc.devRef .tc main_arg5) (Hand.mem_uc main_arg5 (by decide))).trans (V11_main_arg5 m (Hand.outs m) c),
        (h c (Proc.devRef .tc main_arg6) (Hand.mem_uc main_arg6 (by decide))).trans (V11_main_arg6 m (Hand.outs m) c),
        (h c (Proc.devRef .tc main_arg7) (Hand.mem_uc main_arg7 (by decide))).trans (V11_main_arg7 m (Hand.outs m) c),
        (h c (Proc.devRef .tc main_arg8) (Hand.mem_uc main_arg8 (by decide))).trans (V11_main_arg8 m (Hand.outs m) c),
        (h c (Proc.devRef .tc main_arg9) (Hand.mem_uc main_arg9 (by decide))).trans (V11_main_arg9 m (Hand.outs m) c),
        (h c (Proc.devRef .tc main_arg10) (Hand.mem_uc main_arg10 (by decide))).trans (V11_main_arg10 m (Hand.outs m) c),
        (h c (Proc.devRef .tc main_arg11) (Hand.mem_uc main_arg11 (by decide))).trans (V11_main_arg11 m (Hand.outs m) c)⟩)
    (Hand.run_all m ρ)

end Cert.KernelIdeal.Val

end
-- ==== Proof.RefNet.lean ====
/-
  The reference program's result is the network function `net` of its twelve inputs.
  The reference and `net` apply the same host operations on the edge-indexed pieces (degrees, their inverse
  square roots, the edge and self normalisations, and per layer the gather of source rows, the scaling and the
  accumulation into destination rows); they differ in four dense pieces, each read index by index:
  the table lookup, the 128×128 products, the layer's pointwise tail, and mean pooling with the linear head.
-/
import proofs.«428893_j18313740550827_1_alg».proof.Proof.Gen.ReferenceIdeal.Run
import proofs.«428893_j18313740550827_1_alg».proof.Proof.Gen.ReferenceIdeal.Read
import proofs.«428893_j18313740550827_1_alg».proof.Proof.HostF
import proofs.«428893_j18313740550827_1_alg».proof.Proof.Spec

noncomputable section

open scoped BigOperators

namespace Cert.ReferenceIdeal.RefValue

open Cert.ReferenceIdeal Cert.ReferenceIdeal.Gen Idealize.ShloMosaic Idealize.ShloMosaic.ValueIdx

/-- The pointwise tail of a propagation layer as the reference spells it. -/
def refPost (agg ht : FVec Ideal S50000x128 .f32) (sn : FVec Ideal S50000 .f32) (b : FVec Ideal S128 .f32) :
    FVec Ideal S50000x128 .f32 :=
  maximumf
    (addf
      (addf agg
        (mulf ht (broadcastInDim S50000x128 ![0, 1] bcast_S50000x1_S50000x128_0_1
          (broadcastInDim S50000x1 ![0] bcast_S50000_S50000x1_0 sn))))
      (broadcastInDim S50000x128 ![0, 1] bcast_S1x128_S50000x128_0_1 (broadcastInDim S1x128 ![1] bcast_S128_S1x128_1 b)))
    (broadcastInDim S50000x128 ![] bcast_S_S50000x128 (constant (F := Ideal) S_ .f32 0x00000000#32))

/-- Mean pooling by graph label, the linear head and its bias, as the reference spells them. -/
def refTail (x2 : IVec S50000 32) (h : FVec Ideal S50000x128 .f32) (x10 : FVec Ideal S128x64 .f32)
    (x11 : FVec Ideal S64 .f32) : FVec Ideal S512x64 .f32 :=
  addf
    (Host.dotGeneral (F := Ideal) dot_S512x128_S128x64_S512x64_1_0_0_1_n_n none
      (Host.divf (F := Ideal)
        (Host.scatterAdd (F := Ideal) scatter_S512x128_S50000x1_S50000x128_1_0_0_1
          (broadcastInDim S512x128 ![] bcast_S_S512x128 (constant (F := Ideal) S_ .f32 0x00000000#32))
          (broadcastInDim S50000x1 ![0] bcast_S50000_S50000x1_0 x2) h)
        (broadcastInDim S512x128 ![0, 1] bcast_S512x1_S512x128_0_1
          (broadcastInDim S512x1 ![0] bcast_S512_S512x1_0
            (maximumf
              (Host.scatterAdd (F := Ideal) scatter_S512_S50000x1_S50000_n_0_0_1
                (broadcastInDim S512 ![] bcast_S_S512 (constant (F := Ideal) S_ .f32 0x00000000#32))
                (broadcastInDim S50000x1 ![0] bcast_S50000_S50000x1_0 x2)
                (broadcastInDim S50000 ![] bcast_S_S50000 (constant (F := Ideal) S_ .f32 0x3F800000#32)))
              (broadcastInDim S512 ![] bcast_S_S512 (constant (F := Ideal) S_ .f32 0x3F800000#32))))))
      x10)
    (broadcastInDim S512x64 ![0, 1] bcast_S1x64_S512x64_0_1 (broadcastInDim S1x64 ![1] bcast_S64_S1x64_1 x11))

/-- (2) The host's 50000×128 by 128×128 product, index by index. -/
theorem mm_eq (h : FVec Ideal S50000x128 .f32) (w : FVec Ideal S128x128 .f32) :
    Host.dotGeneral (F := Ideal) dot_S50000x128_S128x128_S50000x128_1_0_0_1_n_n none h w = Cert.Spec.mmA h w := by
  funext i
  simp only [Host.dotGeneral]
  rw [Ideal.dotGeneral_apply,
    ← Equiv.sum_comp (ValueIdx.contrEquiv1 dot_S50000x128_S128x128_S50000x128_1_0_0_1_n_n 128 rfl rfl).symm]
  unfold Cert.Spec.mmA
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx i
      ((ValueIdx.contrEquiv1 dot_S50000x128_S128x128_S50000x128_1_0_0_1_n_n 128 rfl rfl).symm k) = ix2 (i 0) k :=
    funext fun a => Fin.ext (by
      match a with
      | ⟨0, _⟩ => exact Read.lhs_main_v34_0 _ _
      | ⟨1, _⟩ => exact (Read.lhs_main_v34_1 _ _).trans hk)
  have er : dot_S50000x128_S128x128_S50000x128_1_0_0_1_n_n.rhsIdx i
      ((ValueIdx.contrEquiv1 dot_S50000x128_S128x128_S50000x128_1_0_0_1_n_n 128 rfl rfl).symm k) = ix2 k (i 1) :=
    funext fun a => Fin.ext (by
      match a with
      | ⟨0, _⟩ => exact (Read.rhs_main_v34_0 _ _).trans hk
      | ⟨1, _⟩ => exact Read.rhs_main_v34_1 _ _)
  rw [el, er]
  rfl

/-- A one-column array read along a row: [50000,1] → [50000,128]. -/
theorem bc_col_apply (y : FVec Ideal S50000x1 .f32) (p : Fin 50000) (q : Fin 128) :
    broadcastInDim S50000x128 ![0, 1] bcast_S50000x1_S50000x128_0_1 y (ix2 p q) = y (ix2 p (0 : Fin 1)) :=
  broadcastInDim_apply _ bcast_S50000x1_S50000x128_0_1 y (ix2 p q) (ix2 p (0 : Fin 1)) (fun a => match a with
    | ⟨0, _⟩ => by show p.val = if (50000 : Nat) = 1 then 0 else p.val; rw [if_neg (by decide)]
    | ⟨1, _⟩ => by show 0 = if (1 : Nat) = 1 then 0 else q.val; rw [if_pos rfl])

/-- A vector as a one-column array: [50000] → [50000,1], for any element type. -/
theorem bc_vec_col_apply {α : Type} (y : S50000.Idx → α) (r : Fin 50000) :
    broadcastInDim S50000x1 ![0] bcast_S50000_S50000x1_0 y (ix2 r (0 : Fin 1)) = y (ix1 r) :=
  broadcastInDim_apply _ bcast_S50000_S50000x1_0 y (ix2 r (0 : Fin 1)) (ix1 r) (fun a => match a with
    | ⟨0, _⟩ => by show r.val = if (50000 : Nat) = 1 then 0 else r.val; rw [if_neg (by decide)])

/-- A one-row array read down a column: [1,128] → [50000,128]. -/
theorem bc_row_apply (y : FVec Ideal S1x128 .f32) (p : Fin 50000) (q : Fin 128) :
    broadcastInDim S50000x128 ![0, 1] bcast_S1x128_S50000x128_0_1 y (ix2 p q) = y (ix2 (0 : Fin 1) q) :=
  broadcastInDim_apply _ bcast_S1x128_S50000x128_0_1 y (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])

/-- A vector as a one-row array: [128] → [1,128]. -/
theorem bc_vec_row_apply (y : FVec Ideal S128 .f32) (c : Fin 128) :
    broadcastInDim S1x128 ![1] bcast_S128_S1x128_1 y (ix2 (0 : Fin 1) c) = y (ix1 c) :=
  broadcastInDim_apply _ bcast_S128_S1x128_1 y (ix2 (0 : Fin 1) c) (ix1 c) (fun a => match a with
    | ⟨0, _⟩ => by show c.val = if (128 : Nat) = 1 then 0 else c.val; rw [if_neg (by decide)])

/-- The zero word spread over a 50000×128 array is zero everywhere. -/
theorem bc_zero_apply (i : S50000x128.Idx) :
    broadcastInDim S50000x128 ![] bcast_S_S50000x128 (constant (F := Ideal) S_ .f32 0x00000000#32) i = 0 := by
  rw [broadcastInDim_apply _ bcast_S_S50000x128 _ i ix0 (fun a => a.elim0), constant_apply]
  exact Ideal.ofBits_zero_f32

/-- The column form of a per-node vector read at a row. -/
theorem colF_apply (v : FVec Ideal S50000 .f32) (r : Fin 50000) :
    Cert.KernelIdeal.HostF.colF v (ix2 r (0 : Fin 1)) = v (ix1 r) := by
  unfold Cert.KernelIdeal.HostF.colF
  exact shapeCast_apply v _ (ix2 r (0 : Fin 1)) (ix1 r)
    (by rewrite [Shape.rowMajor_val_two, Shape.rowMajor_val_one]; show r.val = r.val * 1 + 0; omega)

/-- The row form of a 128-vector read at a column. -/
theorem rowF_apply (v : FVec Ideal S128 .f32) (c : Fin 128) :
    Cert.KernelIdeal.HostF.rowF v (ix2 (0 : Fin 1) c) = v (ix1 c) := by
  unfold Cert.KernelIdeal.HostF.rowF
  exact shapeCast_apply v _ (ix2 (0 : Fin 1) c) (ix1 c)
    (by rewrite [Shape.rowMajor_val_two, Shape.rowMajor_val_one]; show c.val = 0 * 128 + c.val; omega)

/-- (3) The layer's pointwise tail, index by index. -/
theorem post_eq (agg ht : FVec Ideal S50000x128 .f32) (sn : FVec Ideal S50000 .f32) (b : FVec Ideal S128 .f32) :
    refPost agg ht sn b = Cert.Spec.postA agg ht (Cert.KernelIdeal.HostF.colF sn) (Cert.KernelIdeal.HostF.rowF b) := by
  funext i
  obtain ⟨p, q, rfl⟩ : ∃ (p : Fin 50000) (q : Fin 128), i = ix2 p q := ⟨i 0, i 1, eq_ix2 i⟩
  show max (agg (ix2 p q) + ht (ix2 p q) *
          broadcastInDim S50000x128 ![0, 1] bcast_S50000x1_S50000x128_0_1
            (broadcastInDim S50000x1 ![0] bcast_S50000_S50000x1_0 sn) (ix2 p q)
        + broadcastInDim S50000x128 ![0, 1] bcast_S1x128_S50000x128_0_1
            (broadcastInDim S1x128 ![1] bcast_S128_S1x128_1 b) (ix2 p q))
      (broadcastInDim S50000x128 ![] bcast_S_S50000x128 (constant (F := Ideal) S_ .f32 0x00000000#32) (ix2 p q))
    = max (agg (ix2 p q) + ht (ix2 p q) * Cert.KernelIdeal.HostF.colF sn (ix2 p (0 : Fin 1))
        + Cert.KernelIdeal.HostF.rowF b (ix2 (0 : Fin 1) q)) 0
  rw [bc_col_apply, bc_row_apply, bc_vec_col_apply, bc_vec_row_apply, colF_apply, rowF_apply, bc_zero_apply]

/-- A label that is not negative is not below zero as a signed word. -/
theorem slt_zero_of_nonneg (a : BitVec 32) (h : (0 : Int) ≤ a.toInt) : IntOp.cmpi .slt a 0#32 = 0#1 := by
  have hs : a.slt 0#32 = false := by
    simp only [BitVec.slt, BitVec.toInt_zero, decide_eq_false_iff_not, not_lt]
    exact h
  show BitVec.ofBool (a.slt 0#32) = 0#1
  rw [hs]; rfl

/-- A word whose signed reading lies in [0, 11) is the word of a table row. -/
theorem label_row (a : BitVec 32) (h0 : (0 : Int) ≤ a.toInt) (h1 : a.toInt < 11) :
    ∃ k : Fin 11, a = BitVec.ofNat 32 k.val ∧ a.toInt.toNat = k.val := by
  have hc := BitVec.toInt_eq_toNat_cond a
  have hlt := a.isLt
  have hn : a.toInt = (a.toNat : Int) := by
    rw [hc]; split
    · rfl
    · rename_i hge; rw [hc, if_neg hge] at h0; omega
  have hk : a.toNat < 11 := by omega
  refine ⟨⟨a.toNat, hk⟩, ?_, ?_⟩
  · apply BitVec.eq_of_toNat_eq
    show a.toNat = (BitVec.ofNat 32 a.toNat).toNat
    rw [BitVec.toNat_ofNat]; omega
  · show a.toInt.toNat = a.toNat
    rw [hn]; exact Int.toNat_natCast _

/-- The table gather's operand index on the row axis: the start index read signed and clamped into the table. -/
theorem lookup_idx_0 (idx : IVec S50000x1 32) (p : Fin 50000) (q : Fin 128) :
    (gather_S11x128_S50000x1_S50000x128_1_0_n_n_0_1_1128.operandIdx (ix2 p q) idx 0).val
      = min (idx (ix2 p (0 : Fin 1))).toInt.toNat 10 := by
  show gather_S11x128_S50000x1_S50000x128_1_0_n_n_0_1_1128.start (ix2 p q) idx 0
      + gather_S11x128_S50000x1_S50000x128_1_0_n_n_0_1_1128.batchCoord (ix2 p q) 0
      + gather_S11x128_S50000x1_S50000x128_1_0_n_n_0_1_1128.offCoord (ix2 p q) 0 = _
  rw [GatherDims.batchCoord_eq_zero _ _ _ (by decide), GatherDims.offCoord_eq_zero _ _ _ (by decide)]
  simp only [Nat.add_zero]
  unfold GatherDims.start
  rw [dif_pos (show (0 : Fin S11x128.rank) ∈ gather_S11x128_S50000x1_S50000x128_1_0_n_n_0_1_1128.startIndexMap by decide)]
  have hsi : gather_S11x128_S50000x1_S50000x128_1_0_n_n_0_1_1128.siIdx (ix2 p q)
      ⟨List.idxOf (0 : Fin S11x128.rank) gather_S11x128_S50000x1_S50000x128_1_0_n_n_0_1_1128.startIndexMap,
        List.idxOf_lt_length_iff.2 (by decide)⟩ = ix2 p (0 : Fin 1) := by
    funext b; refine Fin.ext ?_
    match b with
    | ⟨0, _⟩ => rfl
    | ⟨1, _⟩ => rfl
  rw [hsi]
  rfl

/-- The table gather's operand index on the column axis: the result's column. -/
theorem lookup_idx_1 (idx : IVec S50000x1 32) (p : Fin 50000) (q : Fin 128) :
    (gather_S11x128_S50000x1_S50000x128_1_0_n_n_0_1_1128.operandIdx (ix2 p q) idx 1).val = q.val := by
  show gather_S11x128_S50000x1_S50000x128_1_0_n_n_0_1_1128.start (ix2 p q) idx 1
      + gather_S11x128_S50000x1_S50000x128_1_0_n_n_0_1_1128.batchCoord (ix2 p q) 1
      + gather_S11x128_S50000x1_S50000x128_1_0_n_n_0_1_1128.offCoord (ix2 p q) 1 = _
  rw [GatherDims.batchCoord_eq_zero _ _ _ (by decide)]
  unfold GatherDims.start
  rw [dif_neg (show ¬ (1 : Fin S11x128.rank) ∈ gather_S11x128_S50000x1_S50000x128_1_0_n_n_0_1_1128.startIndexMap by decide)]
  simp only [Nat.add_zero, Nat.zero_add]
  unfold GatherDims.offCoord
  rw [dif_pos (show (1 : Fin S11x128.rank) ∈ gather_S11x128_S50000x1_S50000x128_1_0_n_n_0_1_1128.sKept by decide)]
  rfl

/-- The table gather at (p, q): the table's row at the clamped start index, column q. -/
theorem lookup_gather_apply (x3 : FVec Ideal S11x128 .f32) (idx : IVec S50000x1 32) (p : Fin 50000) (q : Fin 128) :
    Host.gather gather_S11x128_S50000x1_S50000x128_1_0_n_n_0_1_1128 x3 idx (ix2 p q)
      = x3 (ix2 (⟨min (idx (ix2 p (0 : Fin 1))).toInt.toNat 10, by omega⟩ : Fin 11) q) := by
  unfold Host.gather
  exact congrArg x3 (funext fun a => Fin.ext (by
    match a with
    | ⟨0, _⟩ => exact lookup_idx_0 idx p q
    | ⟨1, _⟩ => exact lookup_idx_1 idx p q))

/-- The start index the reference hands the table gather at row p is the label itself when it is not negative. -/
theorem lookup_start (x0 : IVec S50000 32) (p : Fin 50000) (h0 : (0 : Int) ≤ (x0 (ix1 p)).toInt) :
    Read.val_main_v32 (F := Ideal) x0 (ix2 p (0 : Fin 1)) = x0 (ix1 p) := by
  have e : Read.idx_main_v32 (ix2 p (0 : Fin 1)) = ix1 p := funext fun a => Fin.ext (by
    match a with
    | ⟨0, _⟩ => rfl)
  rw [Read.val_main_v32_apply, e, Read.val_main_v31_apply, Read.val_main_v28_apply, Read.val_main_v27_apply,
    Read.val_main_c_5_apply, slt_zero_of_nonneg _ h0, select_zero]

/-- The column form of the labels read at a row. -/
theorem colI_apply (v : IVec S50000 32) (r : Fin 50000) :
    Cert.KernelIdeal.HostF.colI v (ix2 r (0 : Fin 1)) = v (ix1 r) := by
  unfold Cert.KernelIdeal.HostF.colI
  exact shapeCast_apply v _ (ix2 r (0 : Fin 1)) (ix1 r)
    (by rewrite [Shape.rowMajor_val_two, Shape.rowMajor_val_one]; show r.val = r.val * 1 + 0; omega)

/-- Two table rows with the same 32-bit word are the same row. -/
theorem row_word_inj {k k' : Fin 11} (h : BitVec.ofNat 32 k.val = BitVec.ofNat 32 k'.val) : k = k' := by
  have := congrArg BitVec.toNat h
  simp only [BitVec.toNat_ofNat] at this
  exact Fin.ext (by omega)

/-- (1) The gather of table rows by in-range labels is the indicator sum. -/
theorem lookup_eq (x0 : IVec S50000 32) (x3 : FVec Ideal S11x128 .f32)
    (hx : ∀ i : S50000.Idx, (0 : Int) ≤ (x0 i).toInt ∧ (x0 i).toInt < 11) :
    Read.val_main_v33 (F := Ideal) x0 x3 = Cert.Spec.lookupA (Cert.KernelIdeal.HostF.colI x0) x3 := by
  funext i
  obtain ⟨p, q, rfl⟩ : ∃ (p : Fin 50000) (q : Fin 128), i = ix2 p q := ⟨i 0, i 1, eq_ix2 i⟩
  obtain ⟨k, hk, hkn⟩ := label_row (x0 (ix1 p)) (hx (ix1 p)).1 (hx (ix1 p)).2
  have hL : Read.val_main_v33 (F := Ideal) x0 x3 (ix2 p q) = x3 (ix2 k q) := by
    unfold Read.val_main_v33
    rw [lookup_gather_apply]
    refine congrArg x3 (congrArg (fun r : Fin 11 => ix2 r q) (Fin.ext ?_))
    show min (Read.val_main_v32 (F := Ideal) x0 (ix2 p (0 : Fin 1))).toInt.toNat 10 = k.val
    rw [lookup_start x0 p (hx (ix1 p)).1, hkn]
    have := k.isLt; omega
  have hR : Cert.Spec.lookupA (Cert.KernelIdeal.HostF.colI x0) x3 (ix2 p q) = x3 (ix2 k q) := by
    show ∑ k' : Fin 11, Cert.Spec.ind (Cert.KernelIdeal.HostF.colI x0 (ix2 p (0 : Fin 1)) = BitVec.ofNat 32 k'.val)
        * x3 (ix2 k' q) = _
    rw [colI_apply, hk, Finset.sum_eq_single k]
    · rw [Cert.Spec.ind_true rfl, one_mul]
    · intro k' _ hne
      rw [Cert.Spec.ind_false (fun h => hne (row_word_inj h).symm), zero_mul]
    · intro h; exact absurd (Finset.mem_univ k) h
  rw [hL, hR]

/-- The word 0x3F800000 is the extended real one. -/
theorem ofBits_one_f32 : Ideal.ofBits .f32 0x3F800000#32 = 1 := by
  have e1 : ((0x3F800000#32 : BitVec 32).extractLsb' (8 + 23) 1 == 1#1) = false := by decide
  have e2 : ((0x3F800000#32 : BitVec 32).extractLsb' 23 8).toNat = 127 := by decide
  have e3 : ((0x3F800000#32 : BitVec 32).extractLsb' 0 23).toNat = 0 := by decide
  show Ideal.ieee 8 23 (0x3F800000#32 : BitVec 32) = 1
  unfold Ideal.ieee
  simp only [e1, e2, e3]
  norm_num

/-- A constant word spread over any shape reads as that word's value everywhere. -/
theorem bc_const_apply {t : Shape} (hb : S_.BroadcastsInDim t (![] : Fin 0 → Fin t.rank)) (b : BitVec 32) (i : t.Idx) :
    broadcastInDim t ![] hb (constant (F := Ideal) S_ .f32 b) i = Ideal.ofBits .f32 b := by
  rw [broadcastInDim_apply _ hb _ i ix0 (fun a => a.elim0), constant_apply]

/-- A rank-1 index set is its coordinate's range, so a sum over it is the sum over the coordinate. -/
def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- An update lands on an operand element exactly when, on every axis, its start plus its window coordinate is
    that element's coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = (((i a).val : Nat) : Int) := by
  unfold ScatterDims.resultIdx?
  constructor
  · intro h a
    split at h
    · rename_i hh
      have hf := congrFun (Option.some.inj h) a
      have hv : ((d.start j idx a + (d.window j a : Int)).toNat : Nat) = (i a).val := congrArg Fin.val hf
      have := hh a
      omega
    · exact absurd h (by simp)
  · intro h
    have hh : ∀ a, 0 ≤ d.start j idx a + (d.window j a : Int) ∧ d.start j idx a + (d.window j a : Int) < s.size a :=
      fun a => by
        have := h a
        have := (i a).isLt
        constructor <;> omega
    rw [dif_pos hh]
    refine congrArg some (funext fun a => Fin.ext ?_)
    show (d.start j idx a + (d.window j a : Int)).toNat = (i a).val
    have := h a
    omega

/-- A word reads signed as the number of a graph exactly when it is that number's word. -/
theorem toInt_eq_iff_word (w : BitVec 32) (p : Fin 512) : w.toInt = (p.val : Int) ↔ w = BitVec.ofNat 32 p.val := by
  have hp := p.isLt
  constructor
  · intro h
    have hc := BitVec.toInt_eq_toNat_cond w
    have hlt := w.isLt
    apply BitVec.eq_of_toNat_eq
    rw [BitVec.toNat_ofNat]
    rw [hc] at h
    split at h <;> omega
  · rintro rfl
    rw [BitVec.toInt_eq_toNat_cond, BitVec.toNat_ofNat]
    have hm : p.val % 2 ^ 32 = p.val := Nat.mod_eq_of_lt (by omega)
    rw [hm, if_pos (by omega)]

/-! ### The accumulation of rows by graph label -/

theorem pool_start_0 (idx : IVec S50000x1 32) (n : Fin 50000) (c : Fin 128) :
    scatter_S512x128_S50000x1_S50000x128_1_0_0_1.start (ix2 n c) idx 0 = (idx (ix2 n (0 : Fin 1))).toInt := by
  unfold ScatterDims.start
  rw [dif_pos (show (0 : Fin S512x128.rank) ∈ scatter_S512x128_S50000x1_S50000x128_1_0_0_1.scatterDimsToOperandDims by decide)]
  have hsi : scatter_S512x128_S50000x1_S50000x128_1_0_0_1.siIdx (ix2 n c)
      ⟨List.idxOf (0 : Fin S512x128.rank) scatter_S512x128_S50000x1_S50000x128_1_0_0_1.scatterDimsToOperandDims,
        List.idxOf_lt_length_iff.2 (by decide)⟩ = ix2 n (0 : Fin 1) := by
    funext b; refine Fin.ext ?_
    match b with
    | ⟨0, _⟩ => rfl
    | ⟨1, _⟩ => rfl
  rw [hsi]

theorem pool_start_1 (idx : IVec S50000x1 32) (n : Fin 50000) (c : Fin 128) :
    scatter_S512x128_S50000x1_S50000x128_1_0_0_1.start (ix2 n c) idx 1 = 0 := by
  unfold ScatterDims.start
  rw [dif_neg (show ¬ (1 : Fin S512x128.rank) ∈ scatter_S512x128_S50000x1_S50000x128_1_0_0_1.scatterDimsToOperandDims by decide)]

theorem pool_window_0 (n : Fin 50000) (c : Fin 128) : scatter_S512x128_S50000x1_S50000x128_1_0_0_1.window (ix2 n c) 0 = 0 := by
  unfold ScatterDims.window
  rw [dif_neg (show ¬ (0 : Fin S512x128.rank) ∈ scatter_S512x128_S50000x1_S50000x128_1_0_0_1.sKept by decide)]

theorem pool_window_1 (n : Fin 50000) (c : Fin 128) : scatter_S512x128_S50000x1_S50000x128_1_0_0_1.window (ix2 n c) 1 = c.val := by
  unfold ScatterDims.window
  rw [dif_pos (show (1 : Fin S512x128.rank) ∈ scatter_S512x128_S50000x1_S50000x128_1_0_0_1.sKept by decide)]
  rfl

/-- Row n, column c of the updates lands on (p, e) exactly when row n's label reads p and c = e. -/
theorem pool_lands_iff (idx : IVec S50000x1 32) (n : Fin 50000) (c e : Fin 128) (p : Fin 512) :
    scatter_S512x128_S50000x1_S50000x128_1_0_0_1.resultIdx? (ix2 n c) idx = some (ix2 p e)
      ↔ (idx (ix2 n (0 : Fin 1))).toInt = (p.val : Int) ∧ c = e := by
  rw [resultIdx?_eq_some_iff]
  constructor
  · intro h
    have h0 : scatter_S512x128_S50000x1_S50000x128_1_0_0_1.start (ix2 n c) idx 0 + (scatter_S512x128_S50000x1_S50000x128_1_0_0_1.window (ix2 n c) 0 : Int) = ((p.val : Nat) : Int) := h 0
    have h1 : scatter_S512x128_S50000x1_S50000x128_1_0_0_1.start (ix2 n c) idx 1 + (scatter_S512x128_S50000x1_S50000x128_1_0_0_1.window (ix2 n c) 1 : Int) = ((e.val : Nat) : Int) := h 1
    rw [pool_start_0, pool_window_0] at h0
    rw [pool_start_1, pool_window_1] at h1
    exact ⟨by omega, Fin.ext (by omega)⟩
  · rintro ⟨h0, rfl⟩ a
    match a with
    | ⟨0, _⟩ =>
      show scatter_S512x128_S50000x1_S50000x128_1_0_0_1.start (ix2 n c) idx 0 + (scatter_S512x128_S50000x1_S50000x128_1_0_0_1.window (ix2 n c) 0 : Int) = ((p.val : Nat) : Int)
      rw [pool_start_0, pool_window_0]; omega
    | ⟨1, _⟩ =>
      show scatter_S512x128_S50000x1_S50000x128_1_0_0_1.start (ix2 n c) idx 1 + (scatter_S512x128_S50000x1_S50000x128_1_0_0_1.window (ix2 n c) 1 : Int) = ((c.val : Nat) : Int)
      rw [pool_start_1, pool_window_1]; omega

/-- The rows accumulated by graph label, at (p, e): the indicator sum over the nodes. -/
theorem pool_eq (x2 : IVec S50000 32) (h : FVec Ideal S50000x128 .f32) (p : Fin 512) (e : Fin 128) :
    Host.scatterAdd (F := Ideal) scatter_S512x128_S50000x1_S50000x128_1_0_0_1
        (broadcastInDim S512x128 ![] bcast_S_S512x128 (constant (F := Ideal) S_ .f32 0x00000000#32))
        (broadcastInDim S50000x1 ![0] bcast_S50000_S50000x1_0 x2) h (ix2 p e)
      = Cert.Spec.poolA (Cert.KernelIdeal.HostF.colI x2) h (ix2 p e) := by
  refine Eq.trans ?_ (show ∑ n : Fin 50000, Cert.Spec.ind (Cert.KernelIdeal.HostF.colI x2 (ix2 n (0 : Fin 1)) = BitVec.ofNat 32 p.val)
      * h (ix2 n e) = Cert.Spec.poolA (Cert.KernelIdeal.HostF.colI x2) h (ix2 p e) from rfl)
  unfold Host.scatterAdd
  rw [Ideal.hostScatterAdd_def]
  unfold Ideal.hostScatterAdd
  rw [bc_const_apply, Ideal.ofBits_zero_f32, zero_add, Finset.sum_filter, sum_idx2]
  refine Finset.sum_congr rfl fun n _ => ?_
  rw [Finset.sum_eq_single e
    (fun c _ hc => if_neg (fun hh => hc ((pool_lands_iff _ n c e p).mp hh).2))
    (fun hne => absurd (Finset.mem_univ e) hne)]
  have hidx : (broadcastInDim S50000x1 ![0] bcast_S50000_S50000x1_0 x2) (ix2 n (0 : Fin 1)) = x2 (ix1 n) :=
    bc_vec_col_apply x2 n
  rw [colI_apply]
  by_cases hl : x2 (ix1 n) = BitVec.ofNat 32 p.val
  · rw [if_pos ((pool_lands_iff _ n e e p).mpr ⟨by rw [hidx]; exact (toInt_eq_iff_word _ p).mpr hl, rfl⟩),
      Cert.Spec.ind_true hl, one_mul]
  · rw [if_neg (fun hh => hl ((toInt_eq_iff_word _ p).mp (by rw [← hidx]; exact ((pool_lands_iff _ n e e p).mp hh).1))),
      Cert.Spec.ind_false hl, zero_mul]

/-! ### The count of nodes per graph -/

theorem cnt_start_0 (idx : IVec S50000x1 32) (n : Fin 50000) :
    scatter_S512_S50000x1_S50000_n_0_0_1.start (ix1 n) idx 0 = (idx (ix2 n (0 : Fin 1))).toInt := by
  unfold ScatterDims.start
  rw [dif_pos (show (0 : Fin S512.rank) ∈ scatter_S512_S50000x1_S50000_n_0_0_1.scatterDimsToOperandDims by decide)]
  have hsi : scatter_S512_S50000x1_S50000_n_0_0_1.siIdx (ix1 n)
      ⟨List.idxOf (0 : Fin S512.rank) scatter_S512_S50000x1_S50000_n_0_0_1.scatterDimsToOperandDims,
        List.idxOf_lt_length_iff.2 (by decide)⟩ = ix2 n (0 : Fin 1) := by
    funext b; refine Fin.ext ?_
    match b with
    | ⟨0, _⟩ => rfl
    | ⟨1, _⟩ => rfl
  rw [hsi]

theorem cnt_window_0 (n : Fin 50000) : scatter_S512_S50000x1_S50000_n_0_0_1.window (ix1 n) 0 = 0 := by
  unfold ScatterDims.window
  rw [dif_neg (show ¬ (0 : Fin S512.rank) ∈ scatter_S512_S50000x1_S50000_n_0_0_1.sKept by decide)]

/-- Node n's unit lands on graph p exactly when its label reads p. -/
theorem cnt_lands_iff (idx : IVec S50000x1 32) (n : Fin 50000) (p : Fin 512) :
    scatter_S512_S50000x1_S50000_n_0_0_1.resultIdx? (ix1 n) idx = some (ix1 p) ↔ (idx (ix2 n (0 : Fin 1))).toInt = (p.val : Int) := by
  rw [resultIdx?_eq_some_iff]
  constructor
  · intro h
    have h0 : scatter_S512_S50000x1_S50000_n_0_0_1.start (ix1 n) idx 0 + (scatter_S512_S50000x1_S50000_n_0_0_1.window (ix1 n) 0 : Int) = ((p.val : Nat) : Int) := h 0
    rw [cnt_start_0, cnt_window_0] at h0
    omega
  · intro h0 a
    match a with
    | ⟨0, _⟩ =>
      show scatter_S512_S50000x1_S50000_n_0_0_1.start (ix1 n) idx 0 + (scatter_S512_S50000x1_S50000_n_0_0_1.window (ix1 n) 0 : Int) = ((p.val : Nat) : Int)
      rw [cnt_start_0, cnt_window_0]; omega

/-- The number of nodes of graph p: the indicator sum over the nodes. -/
theorem cnt_eq (x2 : IVec S50000 32) (p : Fin 512) :
    Host.scatterAdd (F := Ideal) scatter_S512_S50000x1_S50000_n_0_0_1
        (broadcastInDim S512 ![] bcast_S_S512 (constant (F := Ideal) S_ .f32 0x00000000#32))
        (broadcastInDim S50000x1 ![0] bcast_S50000_S50000x1_0 x2)
        (broadcastInDim S50000 ![] bcast_S_S50000 (constant (F := Ideal) S_ .f32 0x3F800000#32)) (ix1 p)
      = Cert.Spec.cntA (Cert.KernelIdeal.HostF.colI x2) (ix2 p (0 : Fin 1)) := by
  refine Eq.trans ?_ (show ∑ n : Fin 50000, Cert.Spec.ind (Cert.KernelIdeal.HostF.colI x2 (ix2 n (0 : Fin 1)) = BitVec.ofNat 32 p.val)
      = Cert.Spec.cntA (Cert.KernelIdeal.HostF.colI x2) (ix2 p (0 : Fin 1)) from rfl)
  unfold Host.scatterAdd
  rw [Ideal.hostScatterAdd_def]
  unfold Ideal.hostScatterAdd
  rw [bc_const_apply, Ideal.ofBits_zero_f32, zero_add, Finset.sum_filter, sum_idx1]
  refine Finset.sum_congr rfl fun n _ => ?_
  have hidx : (broadcastInDim S50000x1 ![0] bcast_S50000_S50000x1_0 x2) (ix2 n (0 : Fin 1)) = x2 (ix1 n) :=
    bc_vec_col_apply x2 n
  rw [colI_apply, bc_const_apply, ofBits_one_f32]
  by_cases hl : x2 (ix1 n) = BitVec.ofNat 32 p.val
  · rw [if_pos ((cnt_lands_iff _ n p).mpr (by rw [hidx]; exact (toInt_eq_iff_word _ p).mpr hl)), Cert.Spec.ind_true hl]
  · rw [if_neg (fun hh => hl ((toInt_eq_iff_word _ p).mp (by rw [← hidx]; exact (cnt_lands_iff _ n p).mp hh))),
      Cert.Spec.ind_false hl]

/-! ### The head -/

/-- The host's 512×128 by 128×64 product at (p, q). -/
theorem head_mm_apply (m : FVec Ideal S512x128 .f32) (w : FVec Ideal S128x64 .f32) (p : Fin 512) (q : Fin 64) :
    Host.dotGeneral (F := Ideal) dot_S512x128_S128x64_S512x64_1_0_0_1_n_n none m w (ix2 p q) = ∑ d : Fin 128, m (ix2 p d) * w (ix2 d q) := by
  simp only [Host.dotGeneral]
  rw [Ideal.dotGeneral_apply, ← Equiv.sum_comp (ValueIdx.contrEquiv1 dot_S512x128_S128x64_S512x64_1_0_0_1_n_n 128 rfl rfl).symm]
  refine Finset.sum_congr rfl fun k _ => ?_
  have hk := ValueIdx.contrEquiv1_symm_val dot_S512x128_S128x64_S512x64_1_0_0_1_n_n 128 rfl rfl k
  have el : dot_S512x128_S128x64_S512x64_1_0_0_1_n_n.lhsIdx (ix2 p q) ((ValueIdx.contrEquiv1 dot_S512x128_S128x64_S512x64_1_0_0_1_n_n 128 rfl rfl).symm k) = ix2 p k :=
    funext fun a => Fin.ext (by
      match a with
      | ⟨0, _⟩ => exact Read.lhs_main_v112_0 _ _
      | ⟨1, _⟩ => exact (Read.lhs_main_v112_1 _ _).trans hk)
  have er : dot_S512x128_S128x64_S512x64_1_0_0_1_n_n.rhsIdx (ix2 p q) ((ValueIdx.contrEquiv1 dot_S512x128_S128x64_S512x64_1_0_0_1_n_n 128 rfl rfl).symm k) = ix2 k q :=
    funext fun a => Fin.ext (by
      match a with
      | ⟨0, _⟩ => exact (Read.rhs_main_v112_0 _ _).trans hk
      | ⟨1, _⟩ => exact Read.rhs_main_v112_1 _ _)
  rw [el, er]

/-- A one-column array read along a row: [512,1] → [512,128]. -/
theorem bc_col512_apply (y : FVec Ideal S512x1 .f32) (p : Fin 512) (d : Fin 128) :
    broadcastInDim S512x128 ![0, 1] bcast_S512x1_S512x128_0_1 y (ix2 p d) = y (ix2 p (0 : Fin 1)) :=
  broadcastInDim_apply _ bcast_S512x1_S512x128_0_1 y (ix2 p d) (ix2 p (0 : Fin 1)) (fun a => match a with
    | ⟨0, _⟩ => by show p.val = if (512 : Nat) = 1 then 0 else p.val; rw [if_neg (by decide)]
    | ⟨1, _⟩ => by show 0 = if (1 : Nat) = 1 then 0 else d.val; rw [if_pos rfl])

/-- A vector as a one-column array: [512] → [512,1]. -/
theorem bc_vec_col512_apply (y : FVec Ideal S512 .f32) (p : Fin 512) :
    broadcastInDim S512x1 ![0] bcast_S512_S512x1_0 y (ix2 p (0 : Fin 1)) = y (ix1 p) :=
  broadcastInDim_apply _ bcast_S512_S512x1_0 y (ix2 p (0 : Fin 1)) (ix1 p) (fun a => match a with
    | ⟨0, _⟩ => by show p.val = if (512 : Nat) = 1 then 0 else p.val; rw [if_neg (by decide)])

/-- A one-row array read down a column: [1,64] → [512,64]. -/
theorem bc_row64_apply (y : FVec Ideal S1x64 .f32) (p : Fin 512) (q : Fin 64) :
    broadcastInDim S512x64 ![0, 1] bcast_S1x64_S512x64_0_1 y (ix2 p q) = y (ix2 (0 : Fin 1) q) :=
  broadcastInDim_apply _ bcast_S1x64_S512x64_0_1 y (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])

/-- A vector as a one-row array: [64] → [1,64]. -/
theorem bc_vec_row64_apply (y : FVec Ideal S64 .f32) (q : Fin 64) :
    broadcastInDim S1x64 ![1] bcast_S64_S1x64_1 y (ix2 (0 : Fin 1) q) = y (ix1 q) :=
  broadcastInDim_apply _ bcast_S64_S1x64_1 y (ix2 (0 : Fin 1) q) (ix1 q) (fun a => match a with
    | ⟨0, _⟩ => by show q.val = if (64 : Nat) = 1 then 0 else q.val; rw [if_neg (by decide)])

/-- The row form of a 64-vector read at a column. -/
theorem row64F_apply (v : FVec Ideal S64 .f32) (q : Fin 64) :
    Cert.KernelIdeal.HostF.row64F v (ix2 (0 : Fin 1) q) = v (ix1 q) := by
  unfold Cert.KernelIdeal.HostF.row64F
  exact shapeCast_apply v _ (ix2 (0 : Fin 1) q) (ix1 q)
    (by rewrite [Shape.rowMajor_val_two, Shape.rowMajor_val_one]; show q.val = 0 * 64 + q.val; omega)

/-- (4) Mean pooling and the head, index by index. -/
theorem tail_eq (x2 : IVec S50000 32) (h : FVec Ideal S50000x128 .f32) (x10 : FVec Ideal S128x64 .f32)
    (x11 : FVec Ideal S64 .f32) :
    refTail x2 h x10 x11
      = Cert.Spec.finA (Cert.KernelIdeal.HostF.colI x2) h x10 (Cert.KernelIdeal.HostF.row64F x11) := by
  funext i
  obtain ⟨p, q, rfl⟩ : ∃ (p : Fin 512) (q : Fin 64), i = ix2 p q := ⟨i 0, i 1, eq_ix2 i⟩
  refine Eq.trans ?_ (show (∑ d : Fin 128,
        Ideal.div (Cert.Spec.poolA (Cert.KernelIdeal.HostF.colI x2) h (ix2 p d))
          (max (Cert.Spec.cntA (Cert.KernelIdeal.HostF.colI x2) (ix2 p (0 : Fin 1))) 1) * x10 (ix2 d q))
        + Cert.KernelIdeal.HostF.row64F x11 (ix2 (0 : Fin 1) q)
      = Cert.Spec.finA (Cert.KernelIdeal.HostF.colI x2) h x10 (Cert.KernelIdeal.HostF.row64F x11) (ix2 p q) from rfl)
  unfold refTail
  rw [addf_apply, head_mm_apply, bc_row64_apply, bc_vec_row64_apply, row64F_apply]
  refine congrArg (· + x11 (ix1 q)) (Finset.sum_congr rfl fun d _ => ?_)
  refine congrArg (· * x10 (ix2 d q)) ?_
  unfold Host.divf
  rw [Ideal.hostDivf_def, pool_eq, bc_col512_apply, bc_vec_col512_apply, maximumf_apply, cnt_eq, bc_const_apply, ofBits_one_f32]

/-! ### The shared edge-indexed stages, and the assembly -/

/-- The neighbourhood aggregation as the reference spells it, over any transformed features. -/
def refAgg (x1 : IVec S2x500000 32) (ht : FVec Ideal S50000x128 .f32) : FVec Ideal S50000x128 .f32 :=
  Host.scatterAdd (F := Ideal) scatter_S50000x128_S500000x1_S500000x128_1_0_0_1
    (Read.val_main_v45 (F := Ideal)) (Read.val_main_v46 (F := Ideal) x1)
    (mulf (Host.gather gather_S50000x128_S500000x1_S500000x128_1_0_n_n_0_1_1128 ht (Read.val_main_v40 (F := Ideal) x1))
      (Read.val_main_v43 (F := Ideal) x1))

/-- One propagation layer after the dense transform, as the reference spells it. -/
def refLayer (x1 : IVec S2x500000 32) (ht : FVec Ideal S50000x128 .f32) (b : FVec Ideal S128 .f32) :
    FVec Ideal S50000x128 .f32 :=
  refPost (refAgg x1 ht) ht (Read.val_main_v26 (F := Ideal) x1) b

/-- The source and destination node lists are the same operations on both sides. -/
theorem src_shared (x1 : IVec S2x500000 32) : Read.val_main_v1 (F := Ideal) x1 = Cert.KernelIdeal.HostF.srcF x1 := rfl
theorem dst_shared (x1 : IVec S2x500000 32) : Read.val_main_v3 (F := Ideal) x1 = Cert.KernelIdeal.HostF.dstF x1 := rfl
/-- So are the inverse square root degrees, … -/
theorem dinv_shared (x1 : IVec S2x500000 32) : Read.val_main_v10 (F := Ideal) x1 = Cert.KernelIdeal.HostF.dinvF x1 := rfl
/-- … the edge normalisation, … -/
theorem enorm_shared (x1 : IVec S2x500000 32) : Read.val_main_v25 (F := Ideal) x1 = Cert.KernelIdeal.HostF.enormF x1 := rfl
/-- … the self-loop normalisation, … -/
theorem sn_shared (x1 : IVec S2x500000 32) : Read.val_main_v26 (F := Ideal) x1 = Cert.KernelIdeal.HostF.snF x1 := rfl
/-- … and the aggregation of any transformed features. -/
theorem agg_shared (x1 : IVec S2x500000 32) (ht : FVec Ideal S50000x128 .f32) : refAgg x1 ht = Cert.KernelIdeal.HostF.aggF x1 ht := rfl

/-- A layer of the reference is a layer of the network function. -/
theorem layer_eq (x1 : IVec S2x500000 32) (ht : FVec Ideal S50000x128 .f32) (b : FVec Ideal S128 .f32) :
    refLayer x1 ht b = Cert.KernelIdeal.HostF.layerF x1 ht b := by
  unfold refLayer Cert.KernelIdeal.HostF.layerF
  rw [post_eq, agg_shared, sn_shared]

theorem ref_net (x0 : IVec S50000 32) (x1 : IVec S2x500000 32) (x2 : IVec S50000 32) (x3 : FVec Ideal S11x128 .f32)
    (x4 : FVec Ideal S128x128 .f32) (x5 : FVec Ideal S128 .f32) (x6 : FVec Ideal S128x128 .f32) (x7 : FVec Ideal S128 .f32)
    (x8 : FVec Ideal S128x128 .f32) (x9 : FVec Ideal S128 .f32) (x10 : FVec Ideal S128x64 .f32) (x11 : FVec Ideal S64 .f32)
    (hx : ∀ i : S50000.Idx, (0 : Int) ≤ (x0 i).toInt ∧ (x0 i).toInt < 11) :
    Cert.ReferenceIdeal.Read.val_main_v115 (F := Ideal) x0 x1 x2 x3 x4 x5 x6 x7 x8 x9 x10 x11
      = Cert.KernelIdeal.HostF.net x0 x1 x2 x3 x4 x5 x6 x7 x8 x9 x10 x11 := by
  -- the looked-up features times the first matrix
  have e34 : Read.val_main_v34 (F := Ideal) x0 x3 x4 = Cert.Spec.embA (Cert.KernelIdeal.HostF.colI x0) x3 x4 := by
    unfold Read.val_main_v34
    rw [lookup_eq x0 x3 hx, mm_eq]
    rfl
  -- the first layer
  have l1 : Read.val_main_v55 (F := Ideal) x0 x1 x3 x4 x5 = refLayer x1 (Read.val_main_v34 (F := Ideal) x0 x3 x4) x5 := rfl
  have e55 : Read.val_main_v55 (F := Ideal) x0 x1 x3 x4 x5 = Cert.KernelIdeal.HostF.layerF x1 (Cert.Spec.embA (Cert.KernelIdeal.HostF.colI x0) x3 x4) x5 := by
    rw [l1, e34, layer_eq]
  -- the second layer
  have e56 : Read.val_main_v56 (F := Ideal) x0 x1 x3 x4 x5 x6
      = Cert.Spec.mmA (Cert.KernelIdeal.HostF.layerF x1 (Cert.Spec.embA (Cert.KernelIdeal.HostF.colI x0) x3 x4) x5) x6 := by
    unfold Read.val_main_v56
    rw [e55, mm_eq]
  have l2 : Read.val_main_v77 (F := Ideal) x0 x1 x3 x4 x5 x6 x7
      = refLayer x1 (Read.val_main_v56 (F := Ideal) x0 x1 x3 x4 x5 x6) x7 := rfl
  have e77 : Read.val_main_v77 (F := Ideal) x0 x1 x3 x4 x5 x6 x7
      = Cert.KernelIdeal.HostF.layerF x1 (Cert.Spec.mmA (Cert.KernelIdeal.HostF.layerF x1 (Cert.Spec.embA (Cert.KernelIdeal.HostF.colI x0) x3 x4) x5) x6) x7 := by
    rw [l2, e56, layer_eq]
  -- the third layer
  have e78 : Read.val_main_v78 (F := Ideal) x0 x1 x3 x4 x5 x6 x7 x8
      = Cert.Spec.mmA (Cert.KernelIdeal.HostF.layerF x1 (Cert.Spec.mmA (Cert.KernelIdeal.HostF.layerF x1 (Cert.Spec.embA (Cert.KernelIdeal.HostF.colI x0) x3 x4) x5) x6) x7) x8 := by
    unfold Read.val_main_v78
    rw [e77, mm_eq]
  have l3 : Read.val_main_v99 (F := Ideal) x0 x1 x3 x4 x5 x6 x7 x8 x9
      = refLayer x1 (Read.val_main_v78 (F := Ideal) x0 x1 x3 x4 x5 x6 x7 x8) x9 := rfl
  have e99 : Read.val_main_v99 (F := Ideal) x0 x1 x3 x4 x5 x6 x7 x8 x9
      = Cert.KernelIdeal.HostF.layerF x1 (Cert.Spec.mmA (Cert.KernelIdeal.HostF.layerF x1 (Cert.Spec.mmA (Cert.KernelIdeal.HostF.layerF x1
          (Cert.Spec.embA (Cert.KernelIdeal.HostF.colI x0) x3 x4) x5) x6) x7) x8) x9 := by
    rw [l3, e78, layer_eq]
  -- pooling and the head
  have lt : Read.val_main_v115 (F := Ideal) x0 x1 x2 x3 x4 x5 x6 x7 x8 x9 x10 x11
      = refTail x2 (Read.val_main_v99 (F := Ideal) x0 x1 x3 x4 x5 x6 x7 x8 x9) x10 x11 := rfl
  rw [lt, e99, tail_eq]
  rfl

end Cert.ReferenceIdeal.RefValue

end
-- ==== Proof.PreX.lean ====
/-
  The certificate's precondition, decoded at the node labels. The printed predicate is a conjunction of
  one-bit words: nine tests that every entry of a float table is finite, and last the test that every
  node label x, read as a signed 32-bit integer, satisfies 0 ≤ x and x < 11 (a `reduce` by `and` of the
  pointwise conjunction of the two signed compares against the constants 0 and 11 broadcast). The whole
  conjunction is 1, so its last conjunct is 1; a reduce by `and` that is 1 had a 1 at every index; and a
  signed compare that is 1 is the inequality of the two signed values.
-/
import proofs.«428893_j18313740550827_1_alg».proof.Defs
import proofs.«428893_j18313740550827_1_alg».proof.Proof.Gen.Pre_finite_inputs
import Idealize.ShloMosaic.Lib.ReduceAll
import Idealize.ShloMosaic.Lib.StableHlo.Predicate

set_option maxRecDepth 16384

noncomputable section

namespace Cert.Proof.PreX

open Idealize.ShloMosaic Idealize.SL.Sem
open Cert.Pre_finite_inputs

/-- The one index of a rank-0 array. -/
def j0 : S_.Idx := fun a => a.elim0

instance : Subsingleton S_.Idx := ⟨fun a b => funext fun d => d.elim0⟩

/-- A signed `≥` against the word 0 that came out 1: the signed value is non-negative. -/
theorem sge_zero {w : BitVec 32} (h : IntOp.cmpi .sge w (0#32) = 1#1) : (0 : Int) ≤ w.toInt := by
  unfold IntOp.cmpi at h
  rw [StableHlo.Predicate.ofBool_eq_one_iff] at h
  simp only [BitVec.sle, decide_eq_true_eq] at h
  simpa using h

/-- A signed `<` against the word 11 that came out 1: the signed value is below 11. -/
theorem slt_eleven {w : BitVec 32} (h : IntOp.cmpi .slt w (11#32) = 1#1) : w.toInt < 11 := by
  unfold IntOp.cmpi at h
  rw [StableHlo.Predicate.ofBool_eq_one_iff] at h
  simp only [BitVec.slt, decide_eq_true_eq] at h
  have e : (11#32 : BitVec 32).toInt = 11 := by decide
  rwa [e] at h

/-- The predicate all ones: every label is in [0, 11), signed. Generic in the float reading. -/
theorem range_of_fn {F : FTy → Type} [FloatOps F]
    (x0 : IVec S50000 32) (x1 : IVec S2x500000 32) (x2 : IVec S50000 32) (x3 : FVec F S11x128 .f32)
    (x4 : FVec F S128x128 .f32) (x5 : FVec F S128 .f32) (x6 : FVec F S128x128 .f32) (x7 : FVec F S128 .f32)
    (x8 : FVec F S128x128 .f32) (x9 : FVec F S128 .f32) (x10 : FVec F S128x64 .f32) (x11 : FVec F S64 .f32)
    (h : fn (F := F) x0 x1 x2 x3 x4 x5 x6 x7 x8 x9 x10 x11 = fun _ => 1#1) (i : S50000.Idx) :
    (0 : Int) ≤ (x0 i).toInt ∧ (x0 i).toInt < 11 := by
  have e := congrFun h j0
  dsimp only [fn, fn_part1, fn_part2] at e
  have e49 := (IntOp.andi_eq_one.1 e).2
  have ei := Host.reduce_andi_all _ _ _ _ _ e49 i
  obtain ⟨h0, h11⟩ := IntOp.andi_eq_one.1 ei
  exact ⟨sge_zero h0, slt_eleven h11⟩

/-- The node labels of a launch memory of which the precondition holds are in [0, 11), signed. -/
theorem x_range (m : (ℓ : Loc Cert.KernelIdeal.nD Cert.KernelIdeal.τ Cert.KernelIdeal.sig) → Buf (Elt Ideal) ℓ) (h : Cert.Pre_KernelIdeal m) (c : Dev Cert.KernelIdeal.nD) (i : Cert.KernelIdeal.S50000.Idx) :
    (0 : Int) ≤ (m ((c.tc : Thread Cert.KernelIdeal.nD Cert.KernelIdeal.τ).loc Cert.KernelIdeal.main_arg0) i).toInt ∧ (m ((c.tc : Thread Cert.KernelIdeal.nD Cert.KernelIdeal.τ).loc Cert.KernelIdeal.main_arg0) i).toInt < 11 :=
  range_of_fn _ _ _ _ _ _ _ _ _ _ _ _ (h c) i

end Cert.Proof.PreX

end
-- ==== Proof.lean ====
/-
  A three-layer graph convolution network with mean pooling and a linear head, as a Pallas program of seven
  kernel launches among host operations, against its plain array reference.
  At the extended reals both programs compute one function `net` of the twelve inputs (Proof/HostF.lean):
  the feature table looked up by node label and multiplied by the first matrix; three times: the
  degree-normalised neighbourhood aggregation (the same host gather / accumulate operations in both
  programs), plus the self-loop term and the bias, clipped at zero, then the next matrix; the per-graph mean
  of the node features; the head. The kernel looks labels up by a one-hot matrix product, which agrees with
  the reference's clamped gather exactly when every label is in 0..10: the precondition's last conjunct.
  The kernel's pooling is also a one-hot product, accumulated over ten bands of nodes; a graph id outside
  0..511 contributes nothing on either side, so no condition on the graph ids is needed.
  The frames of the two kernel programs are one proof, generic in the float instance (Proof/KI, and its
  namespace-substituted copy Proof/K): per launch the body's run on whole staging buffers, the pipeline's
  proof data, and the launch of the seven regions among the host stretches.
-/
import proofs.«428893_j18313740550827_1_alg».proof.Defs
import proofs.«428893_j18313740550827_1_alg».proof.Proof.Gen.Kernel
import proofs.«428893_j18313740550827_1_alg».proof.Proof.Gen.KernelIdeal
import proofs.«428893_j18313740550827_1_alg».proof.Proof.Gen.ReferenceIdeal
import proofs.«428893_j18313740550827_1_alg».proof.Proof.Gen.ReferenceIdeal.Run
import proofs.«428893_j18313740550827_1_alg».proof.Proof.Gen.ReferenceIdeal.Read
import proofs.«428893_j18313740550827_1_alg».proof.Proof.Gen.Pre_finite_inputs
import proofs.«428893_j18313740550827_1_alg».proof.Proof.K.Run
import proofs.«428893_j18313740550827_1_alg».proof.Proof.KI.Run
import proofs.«428893_j18313740550827_1_alg».proof.Proof.KNet
import proofs.«428893_j18313740550827_1_alg».proof.Proof.RefNet
import proofs.«428893_j18313740550827_1_alg».proof.Proof.PreX
import Idealize.ShloMosaic.Adequacy
import Idealize.ShloMosaic.Init

noncomputable section

namespace Cert.Proof

open Idealize.ShloMosaic Idealize.SL.Sem

/-- The word-level program runs to the end and leaves its inputs as they were. -/
theorem frame_k : Cert.frame_Kernel := fun m ρ _ => Cert.Kernel.Hand.frame (F := Bits) m ρ

/-- So does the idealized program. -/
theorem frame_ki : Cert.frame_KernelIdeal := fun m ρ _ => Cert.KernelIdeal.Hand.frame (F := Ideal) m ρ

/-- The reference is host operations only: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with `net` of the inputs: the kernel's seven launches and host stretches compose to
    it unconditionally; the reference's operations do when every node label is in 0..10, which the precondition says. -/
theorem algebraic : Cert.algebraic_KernelIdeal_ReferenceIdeal := by
  intro m ρ m' ρ' hpre hagree
  refine ⟨fun c => Cert.KernelIdeal.HostF.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    Cert.KernelIdeal.Val.k_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v115_eq]
  obtain ⟨e0, e1, e2, e3, e4, e5, e6, e7, e8, e9, e10, e11⟩ := hagree c
  rw [e0, e1, e2, e3, e4, e5, e6, e7, e8, e9, e10, e11]
  exact Cert.ReferenceIdeal.RefValue.ref_net _ _ _ _ _ _ _ _ _ _ _ _ (fun i => Cert.Proof.PreX.x_range m hpre c i)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
